-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v185) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x16 : Shape := ⟨2, ![64, 16]⟩
abbrev S16 : Shape := ⟨1, ![16]⟩
abbrev S16x16 : Shape := ⟨2, ![16, 16]⟩
abbrev S32 : Shape := ⟨1, ![32]⟩
abbrev S32x16 : Shape := ⟨2, ![32, 16]⟩
abbrev S16x1 : Shape := ⟨2, ![16, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg23 : FVec F S16x1 .f32) (main_arg24 : FVec F S1 .f32) (main_v98 : IVec S_ 1) (main_v101 : IVec S16 1) (main_c_39 : IVec S_ 1) : IVec S_ 1 :=
  let main_v102 : IVec S_ 1 := (fun x v => Host.reduce IntOp.andi x v reducesTo_S16_S_d0 h_S_) main_v101 main_c_39
  let main_v103 : IVec S_ 1 := andi main_v98 main_v102
  let main_v104 : FVec F S16x1 .f32 := Host.absf main_arg23
  let main_cst_40 : FVec F S_ .f32 := constant S_ .f32 0x7F800000#32
  let main_v105 : FVec F S16x1 .f32 := broadcastInDim S16x1 ![] bcast_S_S16x1 main_cst_40
  let main_v106 : IVec S16x1 1 := cmpf .olt main_v104 main_v105
  let main_c_41 : IVec S_ 1 := constantI S_ 1 1#1
  let main_v107 : IVec S_ 1 := (fun x v => Host.reduce IntOp.andi x v reducesTo_S16x1_S_d0_1 h_S_) main_v106 main_c_41
  let main_v108 : IVec S_ 1 := andi main_v103 main_v107
  let main_v109 : FVec F S1 .f32 := Host.absf main_arg24
  let main_cst_42 : FVec F S_ .f32 := constant S_ .f32 0x7F800000#32
  let main_v110 : FVec F S1 .f32 := broadcastInDim S1 ![] bcast_S_S1 main_cst_42
  let main_v111 : IVec S1 1 := cmpf .olt main_v109 main_v110
  let main_c_43 : IVec S_ 1 := constantI S_ 1 1#1
  let main_v112 : IVec S_ 1 := (fun x v => Host.reduce IntOp.andi x v reducesTo_S1_S_d0 h_S_) main_v111 main_c_43
  let main_v113 : IVec S_ 1 := andi main_v108 main_v112
  main_v113

def fn_part5 {F : FTy → Type} [FloatOps F] (main_arg20 : FVec F S32 .f32) (main_arg21 : FVec F S32x16 .f32) (main_arg22 : FVec F S16 .f32) (main_arg23 : FVec F S16x1 .f32) (main_arg24 : FVec F S1 .f32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S32 .f32 := Host.absf main_arg20
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S32x16 .f32 := Host.absf main_arg21
  let main_cst_36 : FVec F S_ .f32 := constant S_ .f32 0x7F800000#32
  let main_v95 : FVec F S32x16 .f32 := broadcastInDim S32x16 ![] bcast_S_S32x16 main_cst_36
  let main_v96 : IVec S32x16 1 := cmpf .olt main_v94 main_v95
  let main_c_37 : IVec S_ 1 := constantI S_ 1 1#1
  let main_v97 : IVec S_ 1 := (fun x v => Host.reduce IntOp.andi x v reducesTo_S32x16_S_d0_1 h_S_) main_v96 main_c_37
  let main_v98 : IVec S_ 1 := andi main_v93 main_v97
  let main_v99 : FVec F S16 .f32 := Host.absf main_arg22
  let main_cst_38 : FVec F S_ .f32 := constant S_ .f32 0x7F800000#32
  let main_v100 : FVec F S16 .f32 := broadcastInDim S16 ![] bcast_S_S16 main_cst_38
  let main_v101 : IVec S16 1 := cmpf .olt main_v99 main_v100
  let main_c_39 : IVec S_ 1 := constantI S_ 1 1#1
  fn_part6 (F := F) main_arg23 main_arg24 main_v98 main_v101 main_c_39

def fn_part4 {F : FTy → Type} [FloatOps F] (main_arg16 : FVec F S32 .f32) (main_arg17 : FVec F S32x16 .f32) (main_arg18 : FVec F S16 .f32) (main_arg19 : FVec F S32 .f32) (main_arg20 : FVec F S32 .f32) (main_arg21 : FVec F S32x16 .f32) (main_arg22 : FVec F S16 .f32) (main_arg23 : FVec F S16x1 .f32) (main_arg24 : FVec F S1 .f32) (main_v63 : IVec S_ 1) (main_v67 : IVec S_ 1) : IVec S_ 1 :=
  let main_v68 : IVec S_ 1 := andi main_v63 main_v67
  let main_v69 : FVec F S32 .f32 := Host.absf main_arg16
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32x16 .f32 := Host.absf main_arg17
  let main_cst_28 : FVec F S_ .f32 := constant S_ .f32 0x7F800000#32
  let main_v75 : FVec F S32x16 .f32 := broadcastInDim S32x16 ![] bcast_S_S32x16 main_cst_28
  let main_v76 : IVec S32x16 1 := cmpf .olt main_v74 main_v75
  let main_c_29 : IVec S_ 1 := constantI S_ 1 1#1
  let main_v77 : IVec S_ 1 := (fun x v => Host.reduce IntOp.andi x v reducesTo_S32x16_S_d0_1 h_S_) main_v76 main_c_29
  let main_v78 : IVec S_ 1 := andi main_v73 main_v77
  let main_v79 : FVec F S16 .f32 := Host.absf main_arg18
  let main_cst_30 : FVec F S_ .f32 := constant S_ .f32 0x7F800000#32
  let main_v80 : FVec F S16 .f32 := broadcastInDim S16 ![] bcast_S_S16 main_cst_30
  let main_v81 : IVec S16 1 := cmpf .olt main_v79 main_v80
  let main_c_31 : IVec S_ 1 := constantI S_ 1 1#1
  let main_v82 : IVec S_ 1 := (fun x v => Host.reduce IntOp.andi x v reducesTo_S16_S_d0 h_S_) main_v81 main_c_31
  let main_v83 : IVec S_ 1 := andi main_v78 main_v82
  let main_v84 : FVec F S32 .f32 := Host.absf main_arg19
  let main_cst_32 : FVec F S_ .f32 := constant S_ .f32 0x7F800000#32
  fn_part5 (F := F) main_arg20 main_arg21 main_arg22 main_arg23 main_arg24 main_v83 main_v84 main_cst_32

def fn_part3 {F : FTy → Type} [FloatOps F] (main_arg13 : FVec F S16x16 .f32) (main_arg14 : FVec F S16 .f32) (main_arg15 : FVec F S32 .f32) (main_arg16 : FVec F S32 .f32) (main_arg17 : FVec F S32x16 .f32) (main_arg18 : FVec F S16 .f32) (main_arg19 : FVec F S32 .f32) (main_arg20 : FVec F S32 .f32) (main_arg21 : FVec F S32x16 .f32) (main_arg22 : FVec F S16 .f32) (main_arg23 : FVec F S16x1 .f32) (main_arg24 : FVec F S1 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S16x16 .f32 := Host.absf main_arg13
  let main_cst_20 : FVec F S_ .f32 := constant S_ .f32 0x7F800000#32
  let main_v55 : FVec F S16x16 .f32 := broadcastInDim S16x16 ![] bcast_S_S16x16 main_cst_20
  let main_v56 : IVec S16x16 1 := cmpf .olt main_v54 main_v55
  let main_c_21 : IVec S_ 1 := constantI S_ 1 1#1
  let main_v57 : IVec S_ 1 := (fun x v => Host.reduce IntOp.andi x v reducesTo_S16x16_S_d0_1 h_S_) main_v56 main_c_21
  let main_v58 : IVec S_ 1 := andi main_v53 main_v57
  let main_v59 : FVec F S16 .f32 := Host.absf main_arg14
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  let main_v64 : FVec F S32 .f32 := Host.absf main_arg15
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg16 main_arg17 main_arg18 main_arg19 main_arg20 main_arg21 main_arg22 main_arg23 main_arg24 main_v63 main_v67

def fn_part2 {F : FTy → Type} [FloatOps F] (main_arg9 : FVec F S16 .f32) (main_arg10 : FVec F S16x16 .f32) (main_arg11 : FVec F S16 .f32) (main_arg12 : FVec F S16 .f32) (main_arg13 : FVec F S16x16 .f32) (main_arg14 : FVec F S16 .f32) (main_arg15 : FVec F S32 .f32) (main_arg16 : FVec F S32 .f32) (main_arg17 : FVec F S32x16 .f32) (main_arg18 : FVec F S16 .f32) (main_arg19 : FVec F S32 .f32) (main_arg20 : FVec F S32 .f32) (main_arg21 : FVec F S32x16 .f32) (main_arg22 : FVec F S16 .f32) (main_arg23 : FVec F S16x1 .f32) (main_arg24 : FVec F S1 .f32) (main_v33 : IVec S_ 1) : IVec S_ 1 :=
  let main_v34 : FVec F S16 .f32 := Host.absf main_arg9
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16x16 .f32 := Host.absf main_arg10
  let main_cst_14 : FVec F S_ .f32 := constant S_ .f32 0x7F800000#32
  let main_v40 : FVec F S16x16 .f32 := broadcastInDim S16x16 ![] bcast_S_S16x16 main_cst_14
  let main_v41 : IVec S16x16 1 := cmpf .olt main_v39 main_v40
  let main_c_15 : IVec S_ 1 := constantI S_ 1 1#1
  let main_v42 : IVec S_ 1 := (fun x v => Host.reduce IntOp.andi x v reducesTo_S16x16_S_d0_1 h_S_) main_v41 main_c_15
  let main_v43 : IVec S_ 1 := andi main_v38 main_v42
  let main_v44 : FVec F S16 .f32 := Host.absf main_arg11
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S16 .f32 := Host.absf main_arg12
  let main_cst_18 : FVec F S_ .f32 := constant S_ .f32 0x7F800000#32
  let main_v50 : FVec F S16 .f32 := broadcastInDim S16 ![] bcast_S_S16 main_cst_18
  fn_part3 (F := F) main_arg13 main_arg14 main_arg15 main_arg16 main_arg17 main_arg18 main_arg19 main_arg20 main_arg21 main_arg22 main_arg23 main_arg24 main_v48 main_v49 main_v50

def fn_part1 {F : FTy → Type} [FloatOps F] (main_arg6 : FVec F S16 .f32) (main_arg7 : FVec F S16 .f32) (main_arg8 : FVec F S16x16 .f32) (main_arg9 : FVec F S16 .f32) (main_arg10 : FVec F S16x16 .f32) (main_arg11 : FVec F S16 .f32) (main_arg12 : FVec F S16 .f32) (main_arg13 : FVec F S16x16 .f32) (main_arg14 : FVec F S16 .f32) (main_arg15 : FVec F S32 .f32) (main_arg16 : FVec F S32 .f32) (main_arg17 : FVec F S32x16 .f32) (main_arg18 : FVec F S16 .f32) (main_arg19 : FVec F S32 .f32) (main_arg20 : FVec F S32 .f32) (main_arg21 : FVec F S32x16 .f32) (main_arg22 : FVec F S16 .f32) (main_arg23 : FVec F S16x1 .f32) (main_arg24 : FVec F S1 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16 .f32 := Host.absf main_arg7
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x16 .f32 := Host.absf main_arg8
  let main_cst_10 : FVec F S_ .f32 := constant S_ .f32 0x7F800000#32
  let main_v30 : FVec F S16x16 .f32 := broadcastInDim S16x16 ![] bcast_S_S16x16 main_cst_10
  let main_v31 : IVec S16x16 1 := cmpf .olt main_v29 main_v30
  let main_c_11 : IVec S_ 1 := constantI S_ 1 1#1
  let main_v32 : IVec S_ 1 := (fun x v => Host.reduce IntOp.andi x v reducesTo_S16x16_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S100000x64 .f32) (main_arg1 : IVec S2x1600000 32) (main_arg2 : IVec S100000 32) (main_arg3 : FVec F S64x16 .f32) (main_arg4 : FVec F S16 .f32) (main_arg5 : FVec F S64x16 .f32) (main_arg6 : FVec F S16 .f32) (main_arg7 : FVec F S16 .f32) (main_arg8 : FVec F S16x16 .f32) (main_arg9 : FVec F S16 .f32) (main_arg10 : FVec F S16x16 .f32) (main_arg11 : FVec F S16 .f32) (main_arg12 : FVec F S16 .f32) (main_arg13 : FVec F S16x16 .f32) (main_arg14 : FVec F S16 .f32) (main_arg15 : FVec F S32 .f32) (main_arg16 : FVec F S32 .f32) (main_arg17 : FVec F S32x16 .f32) (main_arg18 : FVec F S16 .f32) (main_arg19 : FVec F S32 .f32) (main_arg20 : FVec F S32 .f32) (main_arg21 : FVec F S32x16 .f32) (main_arg22 : FVec F S16 .f32) (main_arg23 : FVec F S16x1 .f32) (main_arg24 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x16 .f32 := Host.absf main_arg3
  let main_cst_0 : FVec F S_ .f32 := constant S_ .f32 0x7F800000#32
  let main_v5 : FVec F S64x16 .f32 := broadcastInDim S64x16 ![] bcast_S_S64x16 main_cst_0
  let main_v6 : IVec S64x16 1 := cmpf .olt main_v4 main_v5
  let main_c_1 : IVec S_ 1 := constantI S_ 1 1#1
  let main_v7 : IVec S_ 1 := (fun x v => Host.reduce IntOp.andi x v reducesTo_S64x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S64x16 .f32 := Host.absf main_arg5
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x16 : Shape := ⟨2, ![64, 16]⟩
abbrev S16 : Shape := ⟨1, ![16]⟩
abbrev S16x16 : Shape := ⟨2, ![16, 16]⟩
abbrev S32 : Shape := ⟨1, ![32]⟩
abbrev S32x16 : Shape := ⟨2, ![32, 16]⟩
abbrev S16x1 : Shape := ⟨2, ![16, 1]⟩
abbrev S1 : Shape := ⟨1, ![1]⟩
abbrev S1x1600000 : Shape := ⟨2, ![1, 1600000]⟩
abbrev S1600000 : Shape := ⟨1, ![1600000]⟩
abbrev S100000x1 : Shape := ⟨2, ![100000, 1]⟩
abbrev S_ : Shape := ⟨0, ![]⟩
abbrev S1600000x1 : Shape := ⟨2, ![1600000, 1]⟩
abbrev S1x16 : Shape := ⟨2, ![1, 16]⟩
abbrev S100000x16 : Shape := ⟨2, ![100000, 16]⟩
abbrev S5000x64 : Shape := ⟨2, ![5000, 64]⟩
abbrev S5000x16 : Shape := ⟨2, ![5000, 16]⟩
abbrev S1600000x16 : Shape := ⟨2, ![1600000, 16]⟩
abbrev S20x1x16 : Shape := ⟨3, ![20, 1, 16]⟩
abbrev S1x1x16 : Shape := ⟨3, ![1, 1, 16]⟩
abbrev S12500x128 : Shape := ⟨2, ![12500, 128]⟩
abbrev S1x1x1x16 : Shape := ⟨4, ![1, 1, 1, 16]⟩
abbrev S1x1x8x16 : Shape := ⟨4, ![1, 1, 8, 16]⟩
abbrev S1x128 : Shape := ⟨2, ![1, 128]⟩
abbrev S20x256x16 : Shape := ⟨3, ![20, 256, 16]⟩
abbrev S20x256x1 : Shape := ⟨3, ![20, 256, 1]⟩
abbrev S5000x1 : Shape := ⟨2, ![5000, 1]⟩
abbrev S1x256x16 : Shape := ⟨3, ![1, 256, 16]⟩
abbrev S1x256x1 : Shape := ⟨3, ![1, 256, 1]⟩
abbrev S1x256 : Shape := ⟨2, ![1, 256]⟩
abbrev S5000x256 : Shape := ⟨2, ![5000, 256]⟩
abbrev S256x16 : Shape := ⟨2, ![256, 16]⟩
abbrev S256x1 : Shape := ⟨2, ![256, 1]⟩
abbrev S1x32 : Shape := ⟨2, ![1, 32]⟩
abbrev S1x1 : Shape := ⟨2, ![1, 1]⟩
abbrev S256x32 : Shape := ⟨2, ![256, 32]⟩

abbrev nBuf : Space → Nat
  | .hbm => 132
  | .vmem => 60
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x16, .f32⟩
  | 4 => ⟨S16, .f32⟩
  | 5 => ⟨S64x16, .f32⟩
  | 6 => ⟨S16, .f32⟩
  | 7 => ⟨S16, .f32⟩
  | 8 => ⟨S16x16, .f32⟩
  | 9 => ⟨S16, .f32⟩
  | 10 => ⟨S16x16, .f32⟩
  | 11 => ⟨S16, .f32⟩
  | 12 => ⟨S16, .f32⟩
  | 13 => ⟨S16x16, .f32⟩
  | 14 => ⟨S16, .f32⟩
  | 15 => ⟨S32, .f32⟩
  | 16 => ⟨S32, .f32⟩
  | 17 => ⟨S32x16, .f32⟩
  | 18 => ⟨S16, .f32⟩
  | 19 => ⟨S32, .f32⟩
  | 20 => ⟨S32, .f32⟩
  | 21 => ⟨S32x16, .f32⟩
  | 22 => ⟨S16, .f32⟩
  | 23 => ⟨S16x1, .f32⟩
  | 24 => ⟨S1, .f32⟩
  | 25 => ⟨S1x1600000, .i32⟩
  | 26 => ⟨S1600000, .i32⟩
  | 27 => ⟨S1x1600000, .i32⟩
  | 28 => ⟨S1600000, .i32⟩
  | 29 => ⟨S100000x1, .i32⟩
  | 30 => ⟨S_, .f32⟩
  | 31 => ⟨S1600000x1, .f32⟩
  | 32 => ⟨S_, .f32⟩
  | 33 => ⟨S100000x1, .f32⟩
  | 34 => ⟨S1600000x1, .i32⟩
  | 35 => ⟨S100000x1, .f32⟩
  | 36 => ⟨S_, .f32⟩
  | 37 => ⟨S100000x1, .f32⟩
  | 38 => ⟨S100000x1, .f32⟩
  | 39 => ⟨S1x16, .f32⟩
  | 40 => ⟨S100000x16, .f32⟩
  | 41 => ⟨S100000x16, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x16, .f32⟩
  | 51 => ⟨S_, .f32⟩
  | 52 => ⟨S100000x16, .f32⟩
  | 53 => ⟨S1600000x1, .i32⟩
  | 54 => ⟨S100000x16, .f32⟩
  | 55 => ⟨S100000x16, .f32⟩
  | 56 => ⟨S100000x16, .f32⟩
  | 57 => ⟨S100000x16, .f32⟩
  | 58 => ⟨S20x1x16, .f32⟩
  | 59 => ⟨S20x1x16, .f32⟩
  | 60 => ⟨S_, .f32⟩
  | 61 => ⟨S1x16, .f32⟩
  | 62 => ⟨S_, .f32⟩
  | 63 => ⟨S1x16, .f32⟩
  | 64 => ⟨S_, .f32⟩
  | 65 => ⟨S1x16, .f32⟩
  | 66 => ⟨S1x16, .f32⟩
  | 67 => ⟨S_, .f32⟩
  | 68 => ⟨S1x16, .f32⟩
  | 69 => ⟨S1x16, .f32⟩
  | 70 => ⟨S1x16, .f32⟩
  | 71 => ⟨S1x16, .f32⟩
  | 72 => ⟨S_, .f32⟩
  | 73 => ⟨S1x16, .f32⟩
  | 74 => ⟨S1x16, .f32⟩
  | 75 => ⟨S1x16, .f32⟩
  | 76 => ⟨S1x16, .f32⟩
  | 77 => ⟨S12500x128, .f32⟩
  | 78 => ⟨S1x1x1x16, .f32⟩
  | 79 => ⟨S1x1x8x16, .f32⟩
  | 80 => ⟨S1x128, .f32⟩
  | 81 => ⟨S1x1x1x16, .f32⟩
  | 82 => ⟨S1x1x8x16, .f32⟩
  | 83 => ⟨S1x128, .f32⟩
  | 84 => ⟨S1x1x1x16, .f32⟩
  | 85 => ⟨S1x1x8x16, .f32⟩
  | 86 => ⟨S1x128, .f32⟩
  | 87 => ⟨S1x1x1x16, .f32⟩
  | 88 => ⟨S1x1x8x16, .f32⟩
  | 89 => ⟨S1x128, .f32⟩
  | 90 => ⟨S12500x128, .f32⟩
  | 91 => ⟨S100000x16, .f32⟩
  | 92 => ⟨S1x16, .f32⟩
  | 93 => ⟨S100000x16, .f32⟩
  | 94 => ⟨S100000x16, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x16, .f32⟩
  | 104 => ⟨S_, .f32⟩
  | 105 => ⟨S100000x16, .f32⟩
  | 106 => ⟨S1600000x1, .i32⟩
  | 107 => ⟨S100000x16, .f32⟩
  | 108 => ⟨S100000x16, .f32⟩
  | 109 => ⟨S100000x16, .f32⟩
  | 110 => ⟨S20x256x16, .f32⟩
  | 111 => ⟨S20x256x1, .f32⟩
  | 112 => ⟨S_, .f32⟩
  | 113 => ⟨S256x16, .f32⟩
  | 114 => ⟨S_, .f32⟩
  | 115 => ⟨S256x1, .f32⟩
  | 116 => ⟨S_, .f32⟩
  | 117 => ⟨S256x1, .f32⟩
  | 118 => ⟨S256x1, .f32⟩
  | 119 => ⟨S256x16, .f32⟩
  | 120 => ⟨S256x16, .f32⟩
  | 121 => ⟨S1x16, .f32⟩
  | 122 => ⟨S1x16, .f32⟩
  | 123 => ⟨S1x32, .f32⟩
  | 124 => ⟨S1x32, .f32⟩
  | 125 => ⟨S1x32, .f32⟩
  | 126 => ⟨S1x32, .f32⟩
  | 127 => ⟨S1x16, .f32⟩
  | _ => ⟨S100000x64, .f32⟩

abbrev hbmTy0_1 (i : Nat) : BufTy := match i % 128 with
  | 0 => ⟨S1x16, .f32⟩
  | 1 => ⟨S1x16, .f32⟩
  | 2 => ⟨S1x1, .f32⟩
  | 3 => ⟨S256x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x16, .f32⟩
  | .local _ .vmem, ⟨3, _⟩ => ⟨S64x16, .f32⟩
  | .local _ .vmem, ⟨4, _⟩ => ⟨S1x16, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S5000x16, .f32⟩
  | .local _ .vmem, ⟨13, _⟩ => ⟨S5000x16, .f32⟩
  | .local _ .vmem, ⟨14, _⟩ => ⟨S5000x16, .f32⟩
  | .local _ .vmem, ⟨15, _⟩ => ⟨S1x1x16, .f32⟩
  | .local _ .vmem, ⟨16, _⟩ => ⟨S1x1x16, .f32⟩
  | .local _ .vmem, ⟨17, _⟩ => ⟨S1x1x16, .f32⟩
  | .local _ .vmem, ⟨18, _⟩ => ⟨S1x1x16, .f32⟩
  | .local _ .vmem, ⟨19, _⟩ => ⟨S12500x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S12500x128, .f32⟩
  | .local _ .vmem, ⟨25, _⟩ => ⟨S5000x16, .f32⟩
  | .local _ .vmem, ⟨26, _⟩ => ⟨S5000x16, .f32⟩
  | .local _ .vmem, ⟨27, _⟩ => ⟨S16x16, .f32⟩
  | .local _ .vmem, ⟨28, _⟩ => ⟨S16x16, .f32⟩
  | .local _ .vmem, ⟨29, _⟩ => ⟨S1x16, .f32⟩
  | .local _ .vmem, ⟨30, _⟩ => ⟨S5000x16, .f32⟩
  | .local _ .vmem, ⟨31, _⟩ => ⟨S5000x16, .f32⟩
  | .local _ .vmem, ⟨32, _⟩ => ⟨S5000x16, .f32⟩
  | .local _ .vmem, ⟨33, _⟩ => ⟨S5000x16, .f32⟩
  | .local _ .vmem, ⟨34, _⟩ => ⟨S5000x16, .f32⟩
  | .local _ .vmem, ⟨35, _⟩ => ⟨S5000x16, .f32⟩
  | .local _ .vmem, ⟨36, _⟩ => ⟨S5000x16, .f32⟩
  | .local _ .vmem, ⟨37, _⟩ => ⟨S5000x16, .f32⟩
  | .local _ .vmem, ⟨38, _⟩ => ⟨S5000x1, .i32⟩
  | .local _ .vmem, ⟨39, _⟩ => ⟨S5000x1, .i32⟩
  | .local _ .vmem, ⟨40, _⟩ => ⟨S1x256x16, .f32⟩
  | .local _ .vmem, ⟨41, _⟩ => ⟨S1x256x16, .f32⟩
  | .local _ .vmem, ⟨42, _⟩ => ⟨S1x256x1, .f32⟩
  | .local _ .vmem, ⟨43, _⟩ => ⟨S1x256x1, .f32⟩
  | .local _ .vmem, ⟨44, _⟩ => ⟨S256x16, .f32⟩
  | .local _ .vmem, ⟨45, _⟩ => ⟨S1x16, .f32⟩
  | .local _ .vmem, ⟨46, _⟩ => ⟨S1x16, .f32⟩
  | .local _ .vmem, ⟨47, _⟩ => ⟨S16x16, .f32⟩
  | .local _ .vmem, ⟨48, _⟩ => ⟨S1x16, .f32⟩
  | .local _ .vmem, ⟨49, _⟩ => ⟨S1x32, .f32⟩
  | .local _ .vmem, ⟨50, _⟩ => ⟨S1x32, .f32⟩
  | .local _ .vmem, ⟨51, _⟩ => ⟨S32x16, .f32⟩
  | .local _ .vmem, ⟨52, _⟩ => ⟨S1x16, .f32⟩
  | .local _ .vmem, ⟨53, _⟩ => ⟨S1x32, .f32⟩
  | .local _ .vmem, ⟨54, _⟩ => ⟨S1x32, .f32⟩
  | .local _ .vmem, ⟨55, _⟩ => ⟨S32x16, .f32⟩
  | .local _ .vmem, ⟨56, _⟩ => ⟨S1x16, .f32⟩
  | .local _ .vmem, ⟨57, _⟩ => ⟨S16x1, .f32⟩
  | .local _ .vmem, ⟨58, _⟩ => ⟨S1x1, .f32⟩
  | .local _ .vmem, ⟨59, _⟩ => ⟨S256x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_cst : Ref sig .tc := ⟨.hbm, 30, rfl⟩
abbrev main_v5 : Ref sig .tc := ⟨.hbm, 31, rfl⟩
abbrev main_cst_0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_cst_1 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12_0 : Ref sig .tc := ⟨.hbm, 40, rfl⟩
abbrev main_v12_1 : Ref sig .tc := ⟨.hbm, 41, rfl⟩
abbrev main_c : Ref sig .tc := ⟨.hbm, 42, rfl⟩
abbrev main_v13 : Ref sig .tc := ⟨.hbm, 43, rfl⟩
abbrev main_v14 : Ref sig .tc := ⟨.hbm, 44, rfl⟩
abbrev main_c_2 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst_3 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25_0 : Ref sig .tc := ⟨.hbm, 57, rfl⟩
abbrev main_v25_1 : Ref sig .tc := ⟨.hbm, 58, rfl⟩
abbrev main_v25_2 : Ref sig .tc := ⟨.hbm, 59, rfl⟩
abbrev main_cst_4 : Ref sig .tc := ⟨.hbm, 60, rfl⟩
abbrev main_v26 : Ref sig .tc := ⟨.hbm, 61, rfl⟩
abbrev main_cst_5 : Ref sig .tc := ⟨.hbm, 62, rfl⟩
abbrev main_v27 : Ref sig .tc := ⟨.hbm, 63, rfl⟩
abbrev main_cst_6 : Ref sig .tc := ⟨.hbm, 64, rfl⟩
abbrev main_v28 : Ref sig .tc := ⟨.hbm, 65, rfl⟩
abbrev main_v29 : Ref sig .tc := ⟨.hbm, 66, rfl⟩
abbrev main_cst_7 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_cst_8 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54_0 : Ref sig .tc := ⟨.hbm, 93, rfl⟩
abbrev main_v54_1 : Ref sig .tc := ⟨.hbm, 94, rfl⟩
abbrev main_c_9 : Ref sig .tc := ⟨.hbm, 95, rfl⟩
abbrev main_v55 : Ref sig .tc := ⟨.hbm, 96, rfl⟩
abbrev main_v56 : Ref sig .tc := ⟨.hbm, 97, rfl⟩
abbrev main_c_10 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_cst_11 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67_0 : Ref sig .tc := ⟨.hbm, 110, rfl⟩
abbrev main_v67_1 : Ref sig .tc := ⟨.hbm, 111, rfl⟩
abbrev main_cst_12 : Ref sig .tc := ⟨.hbm, 112, rfl⟩
abbrev main_v68 : Ref sig .tc := ⟨.hbm, 113, rfl⟩
abbrev main_cst_13 : Ref sig .tc := ⟨.hbm, 114, rfl⟩
abbrev main_v69 : Ref sig .tc := ⟨.hbm, 115, rfl⟩
abbrev main_cst_14 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc2_stg0_0 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc3_stg5_0 : Ref sig .tc := ⟨.vmem, 32, rfl⟩
abbrev cc3_stg5_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc4_stg3_0 : Ref sig .tc := ⟨.vmem, 40, rfl⟩
abbrev cc4_stg3_1 : Ref sig .tc := ⟨.vmem, 41, rfl⟩
abbrev cc4_stg4_0 : Ref sig .tc := ⟨.vmem, 42, rfl⟩
abbrev cc4_stg4_1 : Ref sig .tc := ⟨.vmem, 43, rfl⟩
abbrev cc5_stg0_0 : Ref sig .tc := ⟨.vmem, 44, rfl⟩
abbrev cc5_stg1_0 : Ref sig .tc := ⟨.vmem, 45, rfl⟩
abbrev cc5_stg2_0 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg5_0 : Ref sig .tc := ⟨.vmem, 49, rfl⟩
abbrev cc5_stg6_0 : Ref sig .tc := ⟨.vmem, 50, rfl⟩
abbrev cc5_stg7_0 : Ref sig .tc := ⟨.vmem, 51, rfl⟩
abbrev cc5_stg8_0 : Ref sig .tc := ⟨.vmem, 52, rfl⟩
abbrev cc5_stg9_0 : Ref sig .tc := ⟨.vmem, 53, rfl⟩
abbrev cc5_stg10_0 : Ref sig .tc := ⟨.vmem, 54, rfl⟩
abbrev cc5_stg11_0 : Ref sig .tc := ⟨.vmem, 55, rfl⟩
abbrev cc5_stg12_0 : Ref sig .tc := ⟨.vmem, 56, rfl⟩
abbrev cc5_stg13_0 : Ref sig .tc := ⟨.vmem, 57, rfl⟩
abbrev cc5_stg14_0 : Ref sig .tc := ⟨.vmem, 58, rfl⟩
abbrev cc5_stg15_0 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc2_sem0_0 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem3_0 : DmaSem sig := 29
abbrev cc3_sem4_0 : DmaSem sig := 30
abbrev cc3_sem4_1 : DmaSem sig := 31
abbrev cc3_sem5_0 : DmaSem sig := 32
abbrev cc3_sem5_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem2_1 : DmaSem sig := 39
abbrev cc4_sem3_0 : DmaSem sig := 40
abbrev cc4_sem3_1 : DmaSem sig := 41
abbrev cc4_sem4_0 : DmaSem sig := 42
abbrev cc4_sem4_1 : DmaSem sig := 43
abbrev cc5_sem0_0 : DmaSem sig := 44
abbrev cc5_sem1_0 : DmaSem sig := 45
abbrev cc5_sem2_0 : DmaSem sig := 46
abbrev cc5_sem3_0 : DmaSem sig := 47
abbrev cc5_sem4_0 : DmaSem sig := 48
abbrev cc5_sem5_0 : DmaSem sig := 49
abbrev cc5_sem6_0 : DmaSem sig := 50
abbrev cc5_sem7_0 : DmaSem sig := 51
abbrev cc5_sem8_0 : DmaSem sig := 52
abbrev cc5_sem9_0 : DmaSem sig := 53
abbrev cc5_sem10_0 : DmaSem sig := 54
abbrev cc5_sem11_0 : DmaSem sig := 55
abbrev cc5_sem12_0 : DmaSem sig := 56
abbrev cc5_sem13_0 : DmaSem sig := 57
abbrev cc5_sem14_0 : DmaSem sig := 58
abbrev cc5_sem15_0 : DmaSem sig := 59

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S12500x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S12500x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S16x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x16 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S5000x16 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_4 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S5000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x16 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .i32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1x256x16 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S1x256x1 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_11 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_12 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_13 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_14 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_15 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S256x16 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S1x16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x16 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S16x16 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x16 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x32 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x32 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S32x16 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x16 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S1x32 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S1x32 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 1 → Memref sig .tc .vmem S32x16 .f32 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))
abbrev reads5_11 : Fin grid5.rank → Bool := ![false]

abbrev stage5_12 : Fin 1 → Memref sig .tc .vmem S1x16 .f32 := fun | 0 => Memref.whole cc5_stg12_0 | ⟨_ + 1, h⟩ => absurd h (Nat.not_lt.2 (Nat.le_add_left _ _))
abbrev sem5_12 : Fin 1 → DmaSem sig := fun | 0 => cc5_sem12_0 | ⟨_ + 1, h⟩ => absurd h (Nat.not_lt.2 (Nat.le_add_left _ _))
abbrev reads5_12 : Fin grid5.rank → Bool := ![false]

abbrev stage5_13 : Fin 1 → Memref sig .tc .vmem S16x1 .f32 := fun | 0 => Memref.whole cc5_stg13_0 | ⟨_ + 1, h⟩ => absurd h (Nat.not_lt.2 (Nat.le_add_left _ _))
abbrev sem5_13 : Fin 1 → DmaSem sig := fun | 0 => cc5_sem13_0 | ⟨_ + 1, h⟩ => absurd h (Nat.not_lt.2 (Nat.le_add_left _ _))
abbrev reads5_13 : Fin grid5.rank → Bool := ![false]

abbrev stage5_14 : Fin 1 → Memref sig .tc .vmem S1x1 .f32 := fun | 0 => Memref.whole cc5_stg14_0 | ⟨_ + 1, h⟩ => absurd h (Nat.not_lt.2 (Nat.le_add_left _ _))
abbrev sem5_14 : Fin 1 → DmaSem sig := fun | 0 => cc5_sem14_0 | ⟨_ + 1, h⟩ => absurd h (Nat.not_lt.2 (Nat.le_add_left _ _))
abbrev reads5_14 : Fin grid5.rank → Bool := ![false]

abbrev stage5_15 : Fin 1 → Memref sig .tc .vmem S256x1 .f32 := fun | 0 => Memref.whole cc5_stg15_0 | ⟨_ + 1, h⟩ => absurd h (Nat.not_lt.2 (Nat.le_add_left _ _))
abbrev sem5_15 : Fin 1 → DmaSem sig := fun | 0 => cc5_sem15_0 | ⟨_ + 1, h⟩ => absurd h (Nat.not_lt.2 (Nat.le_add_left _ _))
abbrev reads5_15 : Fin grid5.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S100000_S100000x1 : S100000.ShapeCasts S100000x1
  bcast_S_S1600000x1 : S_.BroadcastsInDim S1600000x1 (![] : Fin 0 → Fin S1600000x1.rank)
  bcast_S_S100000x1 : S_.BroadcastsInDim S100000x1 (![] : Fin 0 → Fin S100000x1.rank)
  bcast_S1600000_S1600000x1_0 : S1600000.BroadcastsInDim S1600000x1 (![0] : Fin 1 → Fin S1600000x1.rank)
  shapeCasts_S16_S1x16 : S16.ShapeCasts S1x16
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x16_S64x16_0_0 : ∀ a, (![0, 0] : Fin 2 → Nat) a + S64x16.size a ≤ S64x16.size a
  h_S64x16 : 0 < S64x16.numel
  inb_S5000x16_S5000x16_0_0 : ∀ a, (![0, 0] : Fin 2 → Nat) a + S5000x16.size a ≤ S5000x16.size a
  h_S5000x16 : 0 < S5000x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  bcast_S_S1600000 : S_.BroadcastsInDim S1600000 (![] : Fin 0 → Fin S1600000.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  shapeCasts_S5000x16_S5000x16 : S5000x16.ShapeCasts S5000x16
  reduces_S5000x16_S16 : S5000x16.Reduces [0] S16
  shapeCasts_S1x16_S1x1x16 : S1x16.ShapeCasts S1x1x16
  inb_S1x1x16_S1x1x16_0_0_0 : ∀ a, (![0, 0, 0] : Fin 3 → Nat) a + S1x1x16.size a ≤ S1x1x16.size a
  h_S1x1x16 : 0 < S1x1x16.numel
  reducesTo_S20x1x16_S1x16_d0 : S20x1x16.ReducesTo [0] S1x16
  h_S_ : 0 < S_.numel
  bcast_S_S1x16 : S_.BroadcastsInDim S1x16 (![] : Fin 0 → Fin S1x16.rank)
  shapeCasts_S100000x16_S12500x128 : S100000x16.ShapeCasts S12500x128
  shapeCasts_S1x16_S1x1x1x16 : S1x16.ShapeCasts S1x1x1x16
  bcast_S1x1x1x16_S1x1x8x16_0_1_2_3 : S1x1x1x16.BroadcastsInDim S1x1x8x16 (![0, 1, 2, 3] : Fin 4 → Fin S1x1x8x16.rank)
  shapeCasts_S1x1x8x16_S1x128 : S1x1x8x16.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S12500x128_S12500x128_0_0 : ∀ a, (![0, 0] : Fin 2 → Nat) a + S12500x128.size a ≤ S12500x128.size a
  h_S12500x128 : 0 < S12500x128.numel
  shapeCasts_S12500x128_S12500x128 : S12500x128.ShapeCasts S12500x128
  broadcasts_S1x128_S12500x128 : S1x128.Broadcasts S12500x128
  shapeCasts_S12500x128_S100000x16 : S12500x128.ShapeCasts S100000x16
  inb_S16x16_S16x16_0_0 : ∀ a, (![0, 0] : Fin 2 → Nat) a + S16x16.size a ≤ S16x16.size a
  h_S16x16 : 0 < S16x16.numel
  iota_S1x256_d1_w32 : S1x256.Iotas .tc 32 [1]
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  broadcasts_S1x256_S5000x256 : S1x256.Broadcasts S5000x256
  natLt_1_32 : 1 < 32
  shapeCasts_S256x16_S1x256x16 : S256x16.ShapeCasts S1x256x16
  inb_S1x256x16_S1x256x16_0_0_0 : ∀ a, (![0, 0, 0] : Fin 3 → Nat) a + S1x256x16.size a ≤ S1x256x16.size a
  h_S1x256x16 : 0 < S1x256x16.numel
  shapeCasts_S256x1_S1x256x1 : S256x1.ShapeCasts S1x256x1
  inb_S1x256x1_S1x256x1_0_0_0 : ∀ a, (![0, 0, 0] : Fin 3 → Nat) a + S1x256x1.size a ≤ S1x256x1.size a
  h_S1x256x1 : 0 < S1x256x1.numel
  reducesTo_S20x256x16_S256x16_d0 : S20x256x16.ReducesTo [0] S256x16
  reducesTo_S20x256x1_S256x1_d0 : S20x256x1.ReducesTo [0] S256x1
  bcast_S_S256x1 : S_.BroadcastsInDim S256x1 (![] : Fin 0 → Fin S256x1.rank)
  bcast_S256x1_S256x16_0_1 : S256x1.BroadcastsInDim S256x16 (![0, 1] : Fin 2 → Fin S256x16.rank)
  shapeCasts_S32_S1x32 : S32.ShapeCasts S1x32
  shapeCasts_S1_S1x1 : S1.ShapeCasts S1x1
  inb_S256x16_S256x16_0_0 : ∀ a, (![0, 0] : Fin 2 → Nat) a + S256x16.size a ≤ S256x16.size a
  h_S256x16 : 0 < S256x16.numel
  shapeCasts_S256x16_S256x16 : S256x16.ShapeCasts S256x16
  reduces_S256x16_S16 : S256x16.Reduces [0] S16
  broadcasts_S1x16_S256x16 : S1x16.Broadcasts S256x16
  concatenates_S256x16_S256x16_S256x32_d1 : Shape.Concatenates [S256x16, S256x16] S256x32 1
  inb_S1x32_S1x32_0_0 : ∀ a, (![0, 0] : Fin 2 → Nat) a + S1x32.size a ≤ S1x32.size a
  h_S1x32 : 0 < S1x32.numel
  shapeCasts_S1x32_S1x32 : S1x32.ShapeCasts S1x32
  reduces_S256x32_S32 : S256x32.Reduces [0] S32
  broadcasts_S1x32_S256x32 : S1x32.Broadcasts S256x32
  inb_S32x16_S32x16_0_0 : ∀ a, (![0, 0] : Fin 2 → Nat) a + S32x16.size a ≤ S32x16.size a
  h_S32x16 : 0 < S32x16.numel
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  scatter_S100000x1_S1600000x1_S1600000x1_1_0_0_1_wf : ScatterDims.WF S100000x1 S1600000x1 S1600000x1 [1] [0] [0] 1
  dot_S5000x64_S64x16_S5000x16_1_0_0_1_n_n_wf : DotDims.WF S5000x64 S64x16 S5000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S5000x16_S16x16_S5000x16_1_0_0_1_n_n_wf : DotDims.WF S5000x16 S16x16 S5000x16 [1] [0] [0] [1] [] []
  dot_S5000x256_S5000x16_S256x16_0_0_1_1_n_n_wf : DotDims.WF S5000x256 S5000x16 S256x16 [0] [0] [1] [1] [] []
  dot_S5000x256_S5000x1_S256x1_0_0_1_1_n_n_wf : DotDims.WF S5000x256 S5000x1 S256x1 [0] [0] [1] [1] [] []
  dot_S256x16_S16x16_S256x16_1_0_0_1_n_n_wf : DotDims.WF S256x16 S16x16 S256x16 [1] [0] [0] [1] [] []
  dot_S256x32_S32x16_S256x16_1_0_0_1_n_n_wf : DotDims.WF S256x32 S32x16 S256x16 [1] [0] [0] [1] [] []
  dot_S256x16_S16x1_S256x1_1_0_0_1_n_n_wf : DotDims.WF S256x16 S16x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x16.size a ≤ S64x16.size a
  hwx0_1 : ∀ i : grid0.Coords, EltTy.bits .f32 = 32 ∨ (Rect.block (s := S64x16) S64x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x16.size a ≤ S64x16.size a
  hwx0_2 : ∀ i : grid0.Coords, EltTy.bits .f32 = 32 ∨ (Rect.block (s := S64x16) S64x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x16.size a ≤ S100000x16.size a
  hwx0_4 : ∀ i : grid0.Coords, EltTy.bits .f32 = 32 ∨ (Rect.block (s := S100000x16) S5000x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x16.size a ≤ S100000x16.size a
  hwx0_5 : ∀ i : grid0.Coords, EltTy.bits .f32 = 32 ∨ (Rect.block (s := S100000x16) S5000x16.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S100000x16.size a
  hwx1_1 : ∀ i : grid1.Coords, EltTy.bits .f32 = 32 ∨ (Rect.block (s := S100000x16) S5000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S100000x16.size a
  hwx1_2 : ∀ i : grid1.Coords, EltTy.bits .f32 = 32 ∨ (Rect.block (s := S100000x16) S5000x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x16.size a ≤ S20x1x16.size a
  hwx1_3 : ∀ i : grid1.Coords, EltTy.bits .f32 = 32 ∨ (Rect.block (s := S20x1x16) S1x1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x16.size a ≤ S20x1x16.size a
  hwx1_4 : ∀ i : grid1.Coords, EltTy.bits .f32 = 32 ∨ (Rect.block (s := S20x1x16) S1x1x16.size (cc1_transform_4 i) (hinb1_4 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S12500x128.size a ≤ S12500x128.size a
  hwx2_0 : ∀ i : grid2.Coords, EltTy.bits .f32 = 32 ∨ (Rect.block (s := S12500x128) S12500x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S12500x128.size a ≤ S12500x128.size a
  hwx2_5 : ∀ i : grid2.Coords, EltTy.bits .f32 = 32 ∨ (Rect.block (s := S12500x128) S12500x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S100000x16.size a
  hwx3_0 : ∀ i : grid3.Coords, EltTy.bits .f32 = 32 ∨ (Rect.block (s := S100000x16) S5000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x16.size a ≤ S16x16.size a
  hwx3_1 : ∀ i : grid3.Coords, EltTy.bits .f32 = 32 ∨ (Rect.block (s := S16x16) S16x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S16x16.size a ≤ S16x16.size a
  hwx3_2 : ∀ i : grid3.Coords, EltTy.bits .f32 = 32 ∨ (Rect.block (s := S16x16) S16x16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x16.size a ≤ S1x16.size a
  hwx3_3 : ∀ i : grid3.Coords, EltTy.bits .f32 = 32 ∨ (Rect.block (s := S1x16) S1x16.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x16.size a ≤ S100000x16.size a
  hwx3_4 : ∀ i : grid3.Coords, EltTy.bits .f32 = 32 ∨ (Rect.block (s := S100000x16) S5000x16.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x16.size a ≤ S100000x16.size a
  hwx3_5 : ∀ i : grid3.Coords, EltTy.bits .f32 = 32 ∨ (Rect.block (s := S100000x16) S5000x16.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x16.size a ≤ S100000x16.size a
  hwx4_0 : ∀ i : grid4.Coords, EltTy.bits .f32 = 32 ∨ (Rect.block (s := S100000x16) S5000x16.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x16.size a ≤ S100000x16.size a
  hwx4_1 : ∀ i : grid4.Coords, EltTy.bits .f32 = 32 ∨ (Rect.block (s := S100000x16) S5000x16.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .i32 = 32 ∨ (Rect.block (s := S100000x1) S5000x1.size (cc4_transform_2 i) (hinb4_2 i)).WholeWords (EltTy.packing .i32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x256x16.size a ≤ S20x256x16.size a
  hwx4_3 : ∀ i : grid4.Coords, EltTy.bits .f32 = 32 ∨ (Rect.block (s := S20x256x16) S1x256x16.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1x256x1.size a ≤ S20x256x1.size a
  hwx4_4 : ∀ i : grid4.Coords, EltTy.bits .f32 = 32 ∨ (Rect.block (s := S20x256x1) S1x256x1.size (cc4_transform_4 i) (hinb4_4 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S256x16.size a ≤ S256x16.size a
  hwx5_0 : ∀ i : grid5.Coords, EltTy.bits .f32 = 32 ∨ (Rect.block (s := S256x16) S256x16.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x16.size a ≤ S1x16.size a
  hwx5_1 : ∀ i : grid5.Coords, EltTy.bits .f32 = 32 ∨ (Rect.block (s := S1x16) S1x16.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x16.size a ≤ S1x16.size a
  hwx5_2 : ∀ i : grid5.Coords, EltTy.bits .f32 = 32 ∨ (Rect.block (s := S1x16) S1x16.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S16x16.size a ≤ S16x16.size a
  hwx5_3 : ∀ i : grid5.Coords, EltTy.bits .f32 = 32 ∨ (Rect.block (s := S16x16) S16x16.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x16.size a ≤ S1x16.size a
  hwx5_4 : ∀ i : grid5.Coords, EltTy.bits .f32 = 32 ∨ (Rect.block (s := S1x16) S1x16.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x32.size a ≤ S1x32.size a
  hwx5_5 : ∀ i : grid5.Coords, EltTy.bits .f32 = 32 ∨ (Rect.block (s := S1x32) S1x32.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x32.size a ≤ S1x32.size a
  hwx5_6 : ∀ i : grid5.Coords, EltTy.bits .f32 = 32 ∨ (Rect.block (s := S1x32) S1x32.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S32x16.size a ≤ S32x16.size a
  hwx5_7 : ∀ i : grid5.Coords, EltTy.bits .f32 = 32 ∨ (Rect.block (s := S32x16) S32x16.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x16.size a ≤ S1x16.size a
  hwx5_8 : ∀ i : grid5.Coords, EltTy.bits .f32 = 32 ∨ (Rect.block (s := S1x16) S1x16.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S1x32.size a ≤ S1x32.size a
  hwx5_9 : ∀ i : grid5.Coords, EltTy.bits .f32 = 32 ∨ (Rect.block (s := S1x32) S1x32.size (cc5_transform_9 i) (hinb5_9 i)).WholeWords (EltTy.packing .f32)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S1x32.size a ≤ S1x32.size a
  hwx5_10 : ∀ i : grid5.Coords, EltTy.bits .f32 = 32 ∨ (Rect.block (s := S1x32) S1x32.size (cc5_transform_10 i) (hinb5_10 i)).WholeWords (EltTy.packing .f32)
  hstage5_11 : ∀ j, (stage5_11 j).IsWhole
  nbuf5_11 : grid5.bufCount reads5_11 true = 1
  hreads5_11 : ∀ i i' : grid5.Coords, (∀ a, reads5_11 a = true → i a = i' a) → cc5_transform_11 i = cc5_transform_11 i'
  hinb5_11 : ∀ (i : grid5.Coords) a, (cc5_transform_11 i a + 1) * S32x16.size a ≤ S32x16.size a
  hwx5_11 : ∀ i : grid5.Coords, EltTy.bits .f32 = 32 ∨ (Rect.block (s := S32x16) S32x16.size (cc5_transform_11 i) (hinb5_11 i)).WholeWords (EltTy.packing .f32)
  hstage5_12 : ∀ j, (stage5_12 j).IsWhole
  nbuf5_12 : grid5.bufCount reads5_12 true = 1
  hreads5_12 : ∀ i i' : grid5.Coords, (∀ a, reads5_12 a = true → i a = i' a) → cc5_transform_12 i = cc5_transform_12 i'
  hinb5_12 : ∀ (i : grid5.Coords) a, (cc5_transform_12 i a + 1) * S1x16.size a ≤ S1x16.size a
  hwx5_12 : ∀ i : grid5.Coords, EltTy.bits .f32 = 32 ∨ (Rect.block (s := S1x16) S1x16.size (cc5_transform_12 i) (hinb5_12 i)).WholeWords (EltTy.packing .f32)
  hstage5_13 : ∀ j, (stage5_13 j).IsWhole
  nbuf5_13 : grid5.bufCount reads5_13 true = 1
  hreads5_13 : ∀ i i' : grid5.Coords, (∀ a, reads5_13 a = true → i a = i' a) → cc5_transform_13 i = cc5_transform_13 i'
  hinb5_13 : ∀ (i : grid5.Coords) a, (cc5_transform_13 i a + 1) * S16x1.size a ≤ S16x1.size a
  hwx5_13 : ∀ i : grid5.Coords, EltTy.bits .f32 = 32 ∨ (Rect.block (s := S16x1) S16x1.size (cc5_transform_13 i) (hinb5_13 i)).WholeWords (EltTy.packing .f32)
  hstage5_14 : ∀ j, (stage5_14 j).IsWhole
  nbuf5_14 : grid5.bufCount reads5_14 true = 1
  hreads5_14 : ∀ i i' : grid5.Coords, (∀ a, reads5_14 a = true → i a = i' a) → cc5_transform_14 i = cc5_transform_14 i'
  hinb5_14 : ∀ (i : grid5.Coords) a, (cc5_transform_14 i a + 1) * S1x1.size a ≤ S1x1.size a
  hwx5_14 : ∀ i : grid5.Coords, EltTy.bits .f32 = 32 ∨ (Rect.block (s := S1x1) S1x1.size (cc5_transform_14 i) (hinb5_14 i)).WholeWords (EltTy.packing .f32)
  hstage5_15 : ∀ j, (stage5_15 j).IsWhole
  nbuf5_15 : grid5.bufCount reads5_15 true = 1
  hreads5_15 : ∀ i i' : grid5.Coords, (∀ a, reads5_15 a = true → i a = i' a) → cc5_transform_15 i = cc5_transform_15 i'
  hinb5_15 : ∀ (i : grid5.Coords) a, (cc5_transform_15 i a + 1) * S256x1.size a ≤ S256x1.size a
  hwx5_15 : ∀ i : grid5.Coords, EltTy.bits .f32 = 32 ∨ (Rect.block (s := S256x1) S256x1.size (cc5_transform_15 i) (hinb5_15 i)).WholeWords (EltTy.packing .f32)

variable [Facts₀]

def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S5000x16_S16x16_S5000x16_1_0_0_1_n_n : DotDims S5000x16 S16x16 S5000x16 where
  lhsContracting := [1]
  rhsContracting := [0]
  lhsNonContracting := [0]
  rhsNonContracting := [1]
  lhsBatch := []
  rhsBatch := []
  wf := dot_S5000x16_S16x16_S5000x16_1_0_0_1_n_n_wf
def dot_S5000x256_S5000x16_S256x16_0_0_1_1_n_n : DotDims S5000x256 S5000x16 S256x16 where
  lhsContracting := [0]
  rhsContracting := [0]
  lhsNonContracting := [1]
  rhsNonContracting := [1]
  lhsBatch := []
  rhsBatch := []
  wf := dot_S5000x256_S5000x16_S256x16_0_0_1_1_n_n_wf
def dot_S5000x256_S5000x1_S256x1_0_0_1_1_n_n : DotDims S5000x256 S5000x1 S256x1 where
  lhsContracting := [0]
  rhsContracting := [0]
  lhsNonContracting := [1]
  rhsNonContracting := [1]
  lhsBatch := []
  rhsBatch := []
  wf := dot_S5000x256_S5000x1_S256x1_0_0_1_1_n_n_wf
def dot_S256x16_S16x16_S256x16_1_0_0_1_n_n : DotDims S256x16 S16x16 S256x16 where
  lhsContracting := [1]
  rhsContracting := [0]
  lhsNonContracting := [0]
  rhsNonContracting := [1]
  lhsBatch := []
  rhsBatch := []
  wf := dot_S256x16_S16x16_S256x16_1_0_0_1_n_n_wf
def dot_S256x32_S32x16_S256x16_1_0_0_1_n_n : DotDims S256x32 S32x16 S256x16 where
  lhsContracting := [1]
  rhsContracting := [0]
  lhsNonContracting := [0]
  rhsNonContracting := [1]
  lhsBatch := []
  rhsBatch := []
  wf := dot_S256x32_S32x16_S256x16_1_0_0_1_n_n_wf
def dot_S256x16_S16x1_S256x1_1_0_0_1_n_n : DotDims S256x16 S16x1 S256x1 where
  lhsContracting := [1]
  rhsContracting := [0]
  lhsNonContracting := [0]
  rhsNonContracting := [1]
  lhsBatch := []
  rhsBatch := []
  wf := dot_S256x16_S16x1_S256x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12_0) S5000x16.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12_1) S5000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v24) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12_1) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25_0) S5000x16.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25_1) S1x1x16.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v25_2) S1x1x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S12500x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v41) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v50) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S12500x128.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v52) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S16x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S16x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v53) S1x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v54_0) S5000x16.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v54_1) S5000x16.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v66) S5000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v54_1) S5000x16.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v4) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v67_0) S1x256x16.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v67_1) S1x256x1.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v73) S256x16.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_v74) S1x16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v75) S1x16.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg13) S16x16.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v80) S1x16.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v76) S1x32.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v77) S1x32.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_arg17) S32x16.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v81) S1x16.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v78) S1x32.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v79) S1x32.size cc5_transform_10 reads5_10 false true 1 stage5_10 sem5_10
    hrank5 hreads5_10 hinb5_10 nbuf5_10 (Memref.isWhole_whole _) hwx5_10 hstage5_10

abbrev win5_11 : Pipeline.Window sig grid5 :=
  Pipeline.Window.ofSpec (Memref.whole main_arg21) S32x16.size cc5_transform_11 reads5_11 false true 1 stage5_11 sem5_11
    hrank5 hreads5_11 hinb5_11 nbuf5_11 (Memref.isWhole_whole _) hwx5_11 hstage5_11

abbrev win5_12 : Pipeline.Window sig grid5 :=
  Pipeline.Window.ofSpec (Memref.whole main_v82) S1x16.size cc5_transform_12 reads5_12 false true 1 stage5_12 sem5_12
    hrank5 hreads5_12 hinb5_12 nbuf5_12 (Memref.isWhole_whole _) hwx5_12 hstage5_12

abbrev win5_13 : Pipeline.Window sig grid5 :=
  Pipeline.Window.ofSpec (Memref.whole main_arg23) S16x1.size cc5_transform_13 reads5_13 false true 1 stage5_13 sem5_13
    hrank5 hreads5_13 hinb5_13 nbuf5_13 (Memref.isWhole_whole _) hwx5_13 hstage5_13

abbrev win5_14 : Pipeline.Window sig grid5 :=
  Pipeline.Window.ofSpec (Memref.whole main_v83) S1x1.size cc5_transform_14 reads5_14 false true 1 stage5_14 sem5_14
    hrank5 hreads5_14 hinb5_14 nbuf5_14 (Memref.isWhole_whole _) hwx5_14 hstage5_14

abbrev win5_15 : Pipeline.Window sig grid5 :=
  Pipeline.Window.ofSpec (Memref.whole main_v84) S256x1.size cc5_transform_15 reads5_15 true true 1 stage5_15 sem5_15
    hrank5 hreads5_15 hinb5_15 nbuf5_15 (Memref.isWhole_whole _) hwx5_15 hstage5_15

abbrev win5 : Fin 16 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | 12 => win5_12 | 13 => win5_13 | 14 => win5_14 | 15 => win5_15 | ⟨_ + 16, h⟩ => absurd h (Nat.not_lt.2 (Nat.le_add_left _ _))
abbrev spec5 : Fin 16 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x16 : Shape := ⟨2, ![64, 16]⟩
abbrev S16 : Shape := ⟨1, ![16]⟩
abbrev S16x16 : Shape := ⟨2, ![16, 16]⟩
abbrev S32 : Shape := ⟨1, ![32]⟩
abbrev S32x16 : Shape := ⟨2, ![32, 16]⟩
abbrev S16x1 : Shape := ⟨2, ![16, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S100000x16 : Shape := ⟨2, ![100000, 16]⟩
abbrev S1x16 : Shape := ⟨2, ![1, 16]⟩
abbrev S1600000x16 : Shape := ⟨2, ![1600000, 16]⟩
abbrev S256x16 : Shape := ⟨2, ![256, 16]⟩
abbrev S256x1 : Shape := ⟨2, ![256, 1]⟩
abbrev S256x32 : Shape := ⟨2, ![256, 32]⟩
abbrev S1x32 : Shape := ⟨2, ![1, 32]⟩
abbrev S1x1 : Shape := ⟨2, ![1, 1]⟩

abbrev nBuf : Space → Nat
  | .hbm => 257
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x16, .f32⟩
  | 4 => ⟨S16, .f32⟩
  | 5 => ⟨S64x16, .f32⟩
  | 6 => ⟨S16, .f32⟩
  | 7 => ⟨S16, .f32⟩
  | 8 => ⟨S16x16, .f32⟩
  | 9 => ⟨S16, .f32⟩
  | 10 => ⟨S16x16, .f32⟩
  | 11 => ⟨S16, .f32⟩
  | 12 => ⟨S16, .f32⟩
  | 13 => ⟨S16x16, .f32⟩
  | 14 => ⟨S16, .f32⟩
  | 15 => ⟨S32, .f32⟩
  | 16 => ⟨S32, .f32⟩
  | 17 => ⟨S32x16, .f32⟩
  | 18 => ⟨S16, .f32⟩
  | 19 => ⟨S32, .f32⟩
  | 20 => ⟨S32, .f32⟩
  | 21 => ⟨S32x16, .f32⟩
  | 22 => ⟨S16, .f32⟩
  | 23 => ⟨S16x1, .f32⟩
  | 24 => ⟨S1, .f32⟩
  | 25 => ⟨S1x1600000, .i32⟩
  | 26 => ⟨S1600000, .i32⟩
  | 27 => ⟨S1x1600000, .i32⟩
  | 28 => ⟨S1600000, .i32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x64, .f32⟩
  | 38 => ⟨S_, .f32⟩
  | 39 => ⟨S100000x64, .f32⟩
  | 40 => ⟨S1600000x1, .i32⟩
  | 41 => ⟨S100000x64, .f32⟩
  | 42 => ⟨S_, .f32⟩
  | 43 => ⟨S1600000x1, .f32⟩
  | 44 => ⟨S_, .f32⟩
  | 45 => ⟨S100000x1, .f32⟩
  | 46 => ⟨S1600000x1, .i32⟩
  | 47 => ⟨S100000x1, .f32⟩
  | 48 => ⟨S_, .f32⟩
  | 49 => ⟨S100000x1, .f32⟩
  | 50 => ⟨S100000x1, .f32⟩
  | 51 => ⟨S100000x64, .f32⟩
  | 52 => ⟨S100000x64, .f32⟩
  | 53 => ⟨S100000x16, .f32⟩
  | 54 => ⟨S1x16, .f32⟩
  | 55 => ⟨S100000x16, .f32⟩
  | 56 => ⟨S100000x16, .f32⟩
  | 57 => ⟨S100000x16, .f32⟩
  | 58 => ⟨S100000x16, .f32⟩
  | 59 => ⟨S_, .f32⟩
  | 60 => ⟨S100000x16, .f32⟩
  | 61 => ⟨S100000x16, .f32⟩
  | 62 => ⟨S_, .f32⟩
  | 63 => ⟨S16, .f32⟩
  | 64 => ⟨S_, .f32⟩
  | 65 => ⟨S16, .f32⟩
  | 66 => ⟨S16, .f32⟩
  | 67 => ⟨S1x16, .f32⟩
  | 68 => ⟨S100000x16, .f32⟩
  | 69 => ⟨S100000x16, .f32⟩
  | 70 => ⟨S100000x16, .f32⟩
  | 71 => ⟨S_, .f32⟩
  | 72 => ⟨S16, .f32⟩
  | 73 => ⟨S_, .f32⟩
  | 74 => ⟨S16, .f32⟩
  | 75 => ⟨S16, .f32⟩
  | 76 => ⟨S1x16, .f32⟩
  | 77 => ⟨S100000x16, .f32⟩
  | 78 => ⟨S100000x16, .f32⟩
  | 79 => ⟨S1x16, .f32⟩
  | 80 => ⟨S100000x16, .f32⟩
  | 81 => ⟨S100000x16, .f32⟩
  | 82 => ⟨S_, .f32⟩
  | 83 => ⟨S16, .f32⟩
  | 84 => ⟨S16, .f32⟩
  | 85 => ⟨S16, .f32⟩
  | 86 => ⟨S1x16, .f32⟩
  | 87 => ⟨S100000x16, .f32⟩
  | 88 => ⟨S100000x16, .f32⟩
  | 89 => ⟨S1x16, .f32⟩
  | 90 => ⟨S100000x16, .f32⟩
  | 91 => ⟨S100000x16, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000x16, .f32⟩
  | 101 => ⟨S_, .f32⟩
  | 102 => ⟨S100000x16, .f32⟩
  | 103 => ⟨S1600000x1, .i32⟩
  | 104 => ⟨S100000x16, .f32⟩
  | 105 => ⟨S_, .f32⟩
  | 106 => ⟨S1600000x1, .f32⟩
  | 107 => ⟨S_, .f32⟩
  | 108 => ⟨S100000x1, .f32⟩
  | 109 => ⟨S1600000x1, .i32⟩
  | 110 => ⟨S100000x1, .f32⟩
  | 111 => ⟨S_, .f32⟩
  | 112 => ⟨S100000x1, .f32⟩
  | 113 => ⟨S100000x1, .f32⟩
  | 114 => ⟨S100000x16, .f32⟩
  | 115 => ⟨S100000x16, .f32⟩
  | 116 => ⟨S100000x16, .f32⟩
  | 117 => ⟨S1x16, .f32⟩
  | 118 => ⟨S100000x16, .f32⟩
  | 119 => ⟨S100000x16, .f32⟩
  | 120 => ⟨S100000x16, .f32⟩
  | 121 => ⟨S100000x16, .f32⟩
  | 122 => ⟨S_, .f32⟩
  | 123 => ⟨S100000x16, .f32⟩
  | 124 => ⟨S100000x16, .f32⟩
  | 125 => ⟨S_, .f32⟩
  | 126 => ⟨S256x16, .f32⟩
  | 127 => ⟨S100000x1, .i32⟩
  | _ => ⟨S100000x64, .f32⟩

abbrev hbmTy0_1 (i : Nat) : BufTy := match i % 128 with
  | 0 => ⟨S256x16, .f32⟩
  | 1 => ⟨S_, .f32⟩
  | 2 => ⟨S100000x1, .f32⟩
  | 3 => ⟨S_, .f32⟩
  | 4 => ⟨S256x1, .f32⟩
  | 5 => ⟨S100000x1, .i32⟩
  | 6 => ⟨S256x1, .f32⟩
  | 7 => ⟨S_, .f32⟩
  | 8 => ⟨S256x1, .f32⟩
  | 9 => ⟨S256x1, .f32⟩
  | 10 => ⟨S256x16, .f32⟩
  | 11 => ⟨S256x16, .f32⟩
  | 12 => ⟨S_, .f32⟩
  | 13 => ⟨S16, .f32⟩
  | 14 => ⟨S_, .f32⟩
  | 15 => ⟨S16, .f32⟩
  | 16 => ⟨S16, .f32⟩
  | 17 => ⟨S1x16, .f32⟩
  | 18 => ⟨S256x16, .f32⟩
  | 19 => ⟨S256x16, .f32⟩
  | 20 => ⟨S256x16, .f32⟩
  | 21 => ⟨S_, .f32⟩
  | 22 => ⟨S16, .f32⟩
  | 23 => ⟨S_, .f32⟩
  | 24 => ⟨S16, .f32⟩
  | 25 => ⟨S16, .f32⟩
  | 26 => ⟨S1x16, .f32⟩
  | 27 => ⟨S256x16, .f32⟩
  | 28 => ⟨S256x16, .f32⟩
  | 29 => ⟨S1x16, .f32⟩
  | 30 => ⟨S256x16, .f32⟩
  | 31 => ⟨S256x16, .f32⟩
  | 32 => ⟨S_, .f32⟩
  | 33 => ⟨S16, .f32⟩
  | 34 => ⟨S16, .f32⟩
  | 35 => ⟨S16, .f32⟩
  | 36 => ⟨S1x16, .f32⟩
  | 37 => ⟨S256x16, .f32⟩
  | 38 => ⟨S256x16, .f32⟩
  | 39 => ⟨S1x16, .f32⟩
  | 40 => ⟨S256x16, .f32⟩
  | 41 => ⟨S256x16, .f32⟩
  | 42 => ⟨S256x16, .f32⟩
  | 43 => ⟨S1x16, .f32⟩
  | 44 => ⟨S256x16, .f32⟩
  | 45 => ⟨S256x16, .f32⟩
  | 46 => ⟨S_, .f32⟩
  | 47 => ⟨S256x16, .f32⟩
  | 48 => ⟨S256x16, .f32⟩
  | 49 => ⟨S256x32, .f32⟩
  | 50 => ⟨S_, .f32⟩
  | 51 => ⟨S32, .f32⟩
  | 52 => ⟨S_, .f32⟩
  | 53 => ⟨S32, .f32⟩
  | 54 => ⟨S32, .f32⟩
  | 55 => ⟨S1x32, .f32⟩
  | 56 => ⟨S256x32, .f32⟩
  | 57 => ⟨S256x32, .f32⟩
  | 58 => ⟨S256x32, .f32⟩
  | 59 => ⟨S_, .f32⟩
  | 60 => ⟨S32, .f32⟩
  | 61 => ⟨S_, .f32⟩
  | 62 => ⟨S32, .f32⟩
  | 63 => ⟨S32, .f32⟩
  | 64 => ⟨S1x32, .f32⟩
  | 65 => ⟨S256x32, .f32⟩
  | 66 => ⟨S256x32, .f32⟩
  | 67 => ⟨S1x32, .f32⟩
  | 68 => ⟨S256x32, .f32⟩
  | 69 => ⟨S256x32, .f32⟩
  | 70 => ⟨S_, .f32⟩
  | 71 => ⟨S32, .f32⟩
  | 72 => ⟨S32, .f32⟩
  | 73 => ⟨S32, .f32⟩
  | 74 => ⟨S1x32, .f32⟩
  | 75 => ⟨S256x32, .f32⟩
  | 76 => ⟨S256x32, .f32⟩
  | 77 => ⟨S1x32, .f32⟩
  | 78 => ⟨S256x32, .f32⟩
  | 79 => ⟨S256x32, .f32⟩
  | 80 => ⟨S256x16, .f32⟩
  | 81 => ⟨S1x16, .f32⟩
  | 82 => ⟨S256x16, .f32⟩
  | 83 => ⟨S256x16, .f32⟩
  | 84 => ⟨S_, .f32⟩
  | 85 => ⟨S256x16, .f32⟩
  | 86 => ⟨S256x16, .f32⟩
  | 87 => ⟨S256x32, .f32⟩
  | 88 => ⟨S_, .f32⟩
  | 89 => ⟨S32, .f32⟩
  | 90 => ⟨S_, .f32⟩
  | 91 => ⟨S32, .f32⟩
  | 92 => ⟨S32, .f32⟩
  | 93 => ⟨S1x32, .f32⟩
  | 94 => ⟨S256x32, .f32⟩
  | 95 => ⟨S256x32, .f32⟩
  | 96 => ⟨S256x32, .f32⟩
  | 97 => ⟨S_, .f32⟩
  | 98 => ⟨S32, .f32⟩
  | 99 => ⟨S_, .f32⟩
  | 100 => ⟨S32, .f32⟩
  | 101 => ⟨S32, .f32⟩
  | 102 => ⟨S1x32, .f32⟩
  | 103 => ⟨S256x32, .f32⟩
  | 104 => ⟨S256x32, .f32⟩
  | 105 => ⟨S1x32, .f32⟩
  | 106 => ⟨S256x32, .f32⟩
  | 107 => ⟨S256x32, .f32⟩
  | 108 => ⟨S_, .f32⟩
  | 109 => ⟨S32, .f32⟩
  | 110 => ⟨S32, .f32⟩
  | 111 => ⟨S32, .f32⟩
  | 112 => ⟨S1x32, .f32⟩
  | 113 => ⟨S256x32, .f32⟩
  | 114 => ⟨S256x32, .f32⟩
  | 115 => ⟨S1x32, .f32⟩
  | 116 => ⟨S256x32, .f32⟩
  | 117 => ⟨S256x32, .f32⟩
  | 118 => ⟨S256x16, .f32⟩
  | 119 => ⟨S1x16, .f32⟩
  | 120 => ⟨S256x16, .f32⟩
  | 121 => ⟨S256x16, .f32⟩
  | 122 => ⟨S_, .f32⟩
  | 123 => ⟨S256x16, .f32⟩
  | 124 => ⟨S256x16, .f32⟩
  | 125 => ⟨S256x1, .f32⟩
  | 126 => ⟨S1x1, .f32⟩
  | 127 => ⟨S256x1, .f32⟩
  | _ => ⟨S100000x64, .f32⟩

abbrev hbmTy0_2 (i : Nat) : BufTy := match i % 128 with
  | 0 => ⟨S256x1, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_c : Ref sig .tc := ⟨.hbm, 29, rfl⟩
abbrev main_v4 : Ref sig .tc := ⟨.hbm, 30, rfl⟩
abbrev main_v5 : Ref sig .tc := ⟨.hbm, 31, rfl⟩
abbrev main_c_0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_1 : Ref sig .tc := ⟨.hbm, 42, rfl⟩
abbrev main_v14 : Ref sig .tc := ⟨.hbm, 43, rfl⟩
abbrev main_cst_2 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_call0_cst : Ref sig .tc := ⟨.hbm, 59, rfl⟩
abbrev main_call0_v0 : Ref sig .tc := ⟨.hbm, 60, rfl⟩
abbrev main_v28 : Ref sig .tc := ⟨.hbm, 61, rfl⟩
abbrev main_cst_4 : Ref sig .tc := ⟨.hbm, 62, rfl⟩
abbrev main_v29 : Ref sig .tc := ⟨.hbm, 63, rfl⟩
abbrev main_cst_5 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_cst_6 : Ref sig .tc := ⟨.hbm, 71, rfl⟩
abbrev main_v36 : Ref sig .tc := ⟨.hbm, 72, rfl⟩
abbrev main_cst_7 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_cst_8 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_c_9 : Ref sig .tc := ⟨.hbm, 92, rfl⟩
abbrev main_v54 : Ref sig .tc := ⟨.hbm, 93, rfl⟩
abbrev main_v55 : Ref sig .tc := ⟨.hbm, 94, rfl⟩
abbrev main_c_10 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst_11 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_12 : Ref sig .tc := ⟨.hbm, 105, rfl⟩
abbrev main_v64 : Ref sig .tc := ⟨.hbm, 106, rfl⟩
abbrev main_cst_13 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_cst_14 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_call1_cst : Ref sig .tc := ⟨.hbm, 122, rfl⟩
abbrev main_call1_v0 : Ref sig .tc := ⟨.hbm, 123, rfl⟩
abbrev main_v78 : Ref sig .tc := ⟨.hbm, 124, rfl⟩
abbrev main_cst_15 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_cst_16 : Ref sig .tc := ⟨.hbm, 129, rfl⟩
abbrev main_v82 : Ref sig .tc := ⟨.hbm, 130, rfl⟩
abbrev main_cst_17 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_cst_18 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_cst_19 : Ref sig .tc := ⟨.hbm, 140, rfl⟩
abbrev main_v90 : Ref sig .tc := ⟨.hbm, 141, rfl⟩
abbrev main_cst_20 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_cst_21 : Ref sig .tc := ⟨.hbm, 149, rfl⟩
abbrev main_v97 : Ref sig .tc := ⟨.hbm, 150, rfl⟩
abbrev main_cst_22 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_cst_23 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_call2_cst : Ref sig .tc := ⟨.hbm, 174, rfl⟩
abbrev main_call2_v0 : Ref sig .tc := ⟨.hbm, 175, rfl⟩
abbrev main_v119 : Ref sig .tc := ⟨.hbm, 176, rfl⟩
abbrev main_v120 : Ref sig .tc := ⟨.hbm, 177, rfl⟩
abbrev main_cst_24 : Ref sig .tc := ⟨.hbm, 178, rfl⟩
abbrev main_v121 : Ref sig .tc := ⟨.hbm, 179, rfl⟩
abbrev main_cst_25 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_cst_26 : Ref sig .tc := ⟨.hbm, 187, rfl⟩
abbrev main_v128 : Ref sig .tc := ⟨.hbm, 188, rfl⟩
abbrev main_cst_27 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_cst_28 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_call3_cst : Ref sig .tc := ⟨.hbm, 212, rfl⟩
abbrev main_call3_v0 : Ref sig .tc := ⟨.hbm, 213, rfl⟩
abbrev main_v150 : Ref sig .tc := ⟨.hbm, 214, rfl⟩
abbrev main_v151 : Ref sig .tc := ⟨.hbm, 215, rfl⟩
abbrev main_cst_29 : Ref sig .tc := ⟨.hbm, 216, rfl⟩
abbrev main_v152 : Ref sig .tc := ⟨.hbm, 217, rfl⟩
abbrev main_cst_30 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_cst_31 : Ref sig .tc := ⟨.hbm, 225, rfl⟩
abbrev main_v159 : Ref sig .tc := ⟨.hbm, 226, rfl⟩
abbrev main_cst_32 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_v166 : Ref sig .tc := ⟨.hbm, 234, rfl⟩
abbrev main_v167 : Ref sig .tc := ⟨.hbm, 235, rfl⟩
abbrev main_cst_33 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_v173 : Ref sig .tc := ⟨.hbm, 242, rfl⟩
abbrev main_v174 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_call4_cst : Ref sig .tc := ⟨.hbm, 250, rfl⟩
abbrev main_call4_v0 : Ref sig .tc := ⟨.hbm, 251, rfl⟩
abbrev main_v181 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  reducesTo_S100000x16_S16_d0 : S100000x16.ReducesTo [0] S16
  h_S_ : 0 < S_.numel
  bcast_S_S16 : S_.BroadcastsInDim S16 (![] : Fin 0 → Fin S16.rank)
  bcast_S100000x1_S100000x16_0_1 : S100000x1.BroadcastsInDim S100000x16 (![0, 1] : Fin 2 → Fin S100000x16.rank)
  bcast_S_S256x16 : S_.BroadcastsInDim S256x16 (![] : Fin 0 → Fin S256x16.rank)
  bcast_S100000_S100000x1_0 : S100000.BroadcastsInDim S100000x1 (![0] : Fin 1 → Fin S100000x1.rank)
  bcast_S_S256x1 : S_.BroadcastsInDim S256x1 (![] : Fin 0 → Fin S256x1.rank)
  bcast_S256x1_S256x16_0_1 : S256x1.BroadcastsInDim S256x16 (![0, 1] : Fin 2 → Fin S256x16.rank)
  reducesTo_S256x16_S16_d0 : S256x16.ReducesTo [0] S16
  bcast_S1x16_S256x16_0_1 : S1x16.BroadcastsInDim S256x16 (![0, 1] : Fin 2 → Fin S256x16.rank)
  concatenates_S256x16_S256x16_S256x32_d1 : Shape.Concatenates [S256x16, S256x16] S256x32 1
  reducesTo_S256x32_S32_d0 : S256x32.ReducesTo [0] S32
  bcast_S_S32 : S_.BroadcastsInDim S32 (![] : Fin 0 → Fin S32.rank)
  bcast_S32_S1x32_1 : S32.BroadcastsInDim S1x32 (![1] : Fin 1 → Fin S1x32.rank)
  bcast_S1x32_S256x32_0_1 : S1x32.BroadcastsInDim S256x32 (![0, 1] : Fin 2 → Fin S256x32.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000x1_S1600000x1_S1600000x1_1_0_0_1_wf : ScatterDims.WF S100000x1 S1600000x1 S1600000x1 [1] [0] [0] 1
  dot_S100000x64_S64x16_S100000x16_1_0_0_1_n_n_wf : DotDims.WF S100000x64 S64x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S100000x16_S16x16_S100000x16_1_0_0_1_n_n_wf : DotDims.WF S100000x16 S16x16 S100000x16 [1] [0] [0] [1] [] []
  scatter_S256x16_S100000x1_S100000x16_1_0_0_1_wf : ScatterDims.WF S256x16 S100000x1 S100000x16 [1] [0] [0] 1
  scatter_S256x1_S100000x1_S100000x1_1_0_0_1_wf : ScatterDims.WF S256x1 S100000x1 S100000x1 [1] [0] [0] 1
  dot_S256x16_S16x16_S256x16_1_0_0_1_n_n_wf : DotDims.WF S256x16 S16x16 S256x16 [1] [0] [0] [1] [] []
  dot_S256x32_S32x16_S256x16_1_0_0_1_n_n_wf : DotDims.WF S256x32 S32x16 S256x16 [1] [0] [0] [1] [] []
  dot_S256x16_S16x1_S256x1_1_0_0_1_n_n_wf : DotDims.WF S256x16 S16x1 S256x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def scatter_S256x16_S100000x1_S100000x16_1_0_0_1 : ScatterDims S256x16 S100000x1 S100000x16 where
  updateWindowDims := [1]
  insertedWindowDims := [0]
  scatterDimsToOperandDims := [0]
  indexVectorDim := 1
  wf := scatter_S256x16_S100000x1_S100000x16_1_0_0_1_wf
def scatter_S256x1_S100000x1_S100000x1_1_0_0_1 : ScatterDims S256x1 S100000x1 S100000x1 where
  updateWindowDims := [1]
  insertedWindowDims := [0]
  scatterDimsToOperandDims := [0]
  indexVectorDim := 1
  wf := scatter_S256x1_S100000x1_S100000x1_1_0_0_1_wf
def dot_S256x16_S16x16_S256x16_1_0_0_1_n_n : DotDims S256x16 S16x16 S256x16 where
  lhsContracting := [1]
  rhsContracting := [0]
  lhsNonContracting := [0]
  rhsNonContracting := [1]
  lhsBatch := []
  rhsBatch := []
  wf := dot_S256x16_S16x16_S256x16_1_0_0_1_n_n_wf
def dot_S256x32_S32x16_S256x16_1_0_0_1_n_n : DotDims S256x32 S32x16 S256x16 where
  lhsContracting := [1]
  rhsContracting := [0]
  lhsNonContracting := [0]
  rhsNonContracting := [1]
  lhsBatch := []
  rhsBatch := []
  wf := dot_S256x32_S32x16_S256x16_1_0_0_1_n_n_wf
def dot_S256x16_S16x1_S256x1_1_0_0_1_n_n : DotDims S256x16 S16x1 S256x1 where
  lhsContracting := [1]
  rhsContracting := [0]
  lhsNonContracting := [0]
  rhsNonContracting := [1]
  lhsBatch := []
  rhsBatch := []
  wf := dot_S256x16_S16x1_S256x1_1_0_0_1_n_n_wf

class Facts : Prop extends Facts₀ where

variable [Facts]
-- ==== Proof.Spec.lean ====
/-
  The mathematics of the two programs, index by index, over the extended reals.

  A graph network: two rounds of neighbourhood averaging with a linear map (mm), a batch
  normalisation between them, a mean over graph segments, and a small dense network (mlp) on the
  256 segment means.  The kernel-side functions (suffix K) apply the linear map BEFORE the
  neighbourhood sum, take the batch statistics from per-tile partial sums with the one-pass
  variance E[h^2] - E[h]^2 clamped at zero, and sum the segments tile by tile through a 0/1 matrix;
  the reference-side functions (suffix R) apply the linear map AFTER the neighbourhood average,
  use the two-pass variance E[(h - E h)^2], and sum each segment in one go.  Both end in the same
  mlp, so the two results agree as soon as the segment means xencK and xencR do.

  Arrays are functions of Fin coordinates; A1, A2, A3 read a buffer's contents that way.
-/
import Idealize.ShloMosaic.PureOps.Ideal
import Idealize.ShloMosaic.Lib.ValueIdx

noncomputable section

namespace Cert.Spec

open Idealize.ShloMosaic Idealize.ShloMosaic.ValueIdx

/-- A rank-1 buffer as a function of its coordinate. -/
def A1 {α : Type} {n : Nat} (v : (⟨1, ![n]⟩ : Shape).Idx → α) : Fin n → α := fun i => v (ix1 i)
/-- A rank-2 buffer as a function of its two coordinates. -/
def A2 {α : Type} {a b : Nat} (v : (⟨2, ![a, b]⟩ : Shape).Idx → α) : Fin a → Fin b → α := fun i j => v (ix2 i j)
/-- A rank-3 buffer as a function of its three coordinates. -/
def A3 {α : Type} {a b c : Nat} (v : (⟨3, ![a, b, c]⟩ : Shape).Idx → α) : Fin a → Fin b → Fin c → α :=
  fun i j k => v (ix3 i j k)

/-- The word of 1e-5 that both programs add to a variance before the reciprocal square root. -/
abbrev eps : EReal := Ideal.ofBits .f32 0x3727C5AC#32
/-- The word of 256.0, the number of segments, by which the small network's statistics are divided. -/
abbrev cG : EReal := Ideal.ofBits .f32 0x43800000#32
/-- The number of nodes, the divisor of the node statistics. -/
abbrev cN : EReal := ((100000 : ℝ) : EReal)

/-- A matrix product: the products summed along the shared axis. -/
def mm {a k b : Nat} (l : Fin a → Fin k → EReal) (r : Fin k → Fin b → EReal) (i : Fin a) (j : Fin b) : EReal :=
  ∑ q : Fin k, l i q * r q j

/-! ## The edge list

srow e is the node whose row edge e reads, hit e i says that edge e delivers to node i,
cnt i is the clamped in-degree of node i. -/

/-- The source word of edge e, a negative one moved up by the number of nodes. -/
def srcWord (ei : Fin 2 → Fin 1600000 → BitVec 32) (e : Fin 1600000) : BitVec 32 :=
  if (ei 0 e).toInt < 0 then ei 0 e + 100000#32 else ei 0 e

/-- The row edge e reads: its source word, read signed, clamped into the table. -/
def srow (ei : Fin 2 → Fin 1600000 → BitVec 32) (e : Fin 1600000) : Fin 100000 :=
  ⟨min (srcWord ei e).toInt.toNat 99999, by omega⟩

/-- Edge e delivers to node i: its target word, read signed, is i (an edge whose target is
    outside the table delivers nowhere). -/
def hit (ei : Fin 2 → Fin 1600000 → BitVec 32) (e : Fin 1600000) (i : Fin 100000) : Prop :=
  (ei 1 e).toInt = (i.val : Int)

instance (ei : Fin 2 → Fin 1600000 → BitVec 32) (e : Fin 1600000) (i : Fin 100000) : Decidable (hit ei e i) := by
  unfold hit; infer_instance

/-- The clamped in-degree of node i. -/
def cnt (ei : Fin 2 → Fin 1600000 → BitVec 32) (i : Fin 100000) : EReal :=
  max (∑ e : Fin 1600000, if hit ei e i then (1 : EReal) else 0) 1

/-- The sum over the edges into node i of the rows of y they read. -/
def aggsum {k : Nat} (ei : Fin 2 → Fin 1600000 → BitVec 32) (y : Fin 100000 → Fin k → EReal)
    (i : Fin 100000) (j : Fin k) : EReal :=
  ∑ e : Fin 1600000, if hit ei e i then y (srow ei e) j else 0

/-- The neighbourhood average: that sum over the clamped in-degree. -/
def agg {k : Nat} (ei : Fin 2 → Fin 1600000 → BitVec 32) (y : Fin 100000 → Fin k → EReal)
    (i : Fin 100000) (j : Fin k) : EReal :=
  Ideal.div (aggsum ei y i j) (cnt ei i)

/-- Batch normalisation of h with the statistics mean, var. -/
def bn {n k : Nat} (g b : Fin k → EReal) (h : Fin n → Fin k → EReal) (mean var : Fin k → EReal)
    (i : Fin n) (j : Fin k) : EReal :=
  g j * (h i j - mean j) * Ideal.rsqrt (var j + eps) + b j

/-- Node r of tile t: the node tiles are 20 runs of 5000 consecutive nodes. -/
def node (t : Fin 20) (r : Fin 5000) : Fin 100000 := ⟨5000 * t.val + r.val, by omega⟩

/-- Node n belongs to segment g: its segment word, read signed, is g. -/
def segHit (bt : Fin 100000 → BitVec 32) (n : Fin 100000) (g : Fin 256) : Prop := (bt n).toInt = (g.val : Int)

instance (bt : Fin 100000 → BitVec 32) (n : Fin 100000) (g : Fin 256) : Decidable (segHit bt n g) := by
  unfold segHit; infer_instance

/-- A layer's output: the rectified sum of the neighbourhood average of y and the node's own branch. -/
def hrelu {k : Nat} (ei : Fin 2 → Fin 1600000 → BitVec 32) (y xr : Fin 100000 → Fin k → EReal)
    (i : Fin 100000) (j : Fin k) : EReal := max (agg ei y i j + xr i j) 0

/-- Column means from per-tile column sums. -/
def meanOf {k : Nat} (ps : Fin 20 → Fin k → EReal) (j : Fin k) : EReal := Ideal.div (∑ t : Fin 20, ps t j) cN
/-- One-pass column variances from per-tile sums and sums of squares, clamped at zero. -/
def varOf {k : Nat} (ps pq : Fin 20 → Fin k → EReal) (j : Fin k) : EReal :=
  max (Ideal.div (∑ t : Fin 20, pq t j) cN - meanOf ps j * meanOf ps j) 0
/-- Tile t's column sums of h. -/
def tileSum {k : Nat} (h : Fin 100000 → Fin k → EReal) (t : Fin 20) (j : Fin k) : EReal :=
  ∑ r : Fin 5000, h (node t r) j
/-- Tile t's column sums of the squares of h. -/
def tileSq {k : Nat} (h : Fin 100000 → Fin k → EReal) (t : Fin 20) (j : Fin k) : EReal :=
  ∑ r : Fin 5000, h (node t r) j * h (node t r) j
/-- Tile t's segment sums of h: the 0/1 membership matrix times h. -/
def segPart {k : Nat} (bt : Fin 100000 → BitVec 32) (h : Fin 100000 → Fin k → EReal) (t : Fin 20) (g : Fin 256)
    (f : Fin k) : EReal :=
  ∑ r : Fin 5000, (if segHit bt (node t r) g then (1 : EReal) else 0) * h (node t r) f
/-- Tile t's segment sizes. -/
def segCnt (bt : Fin 100000 → BitVec 32) (t : Fin 20) (g : Fin 256) : EReal :=
  ∑ r : Fin 5000, (if segHit bt (node t r) g then (1 : EReal) else 0)
/-- Segment means from per-tile segment sums and sizes. -/
def segMean {k : Nat} (sp : Fin 20 → Fin 256 → Fin k → EReal) (cp : Fin 20 → Fin 256 → EReal) (g : Fin 256)
    (f : Fin k) : EReal := Ideal.div (∑ t : Fin 20, sp t g f) (max (∑ t : Fin 20, cp t g) 1)
/-- The 128-column layout of a 16-column array: row q0 holds eight consecutive nodes' rows side by side. -/
def unpack (q0 : Fin 12500) (q1 : Fin 128) : Fin 100000 × Fin 16 :=
  (⟨8 * q0.val + q1.val / 16, by omega⟩, ⟨q1.val % 16, Nat.mod_lt _ (by decide)⟩)

/-- Column means of an array, the column sums over the divisor d. -/
def colMean {n k : Nat} (h : Fin n → Fin k → EReal) (d : EReal) (j : Fin k) : EReal := Ideal.div (∑ i : Fin n, h i j) d
/-- Two-pass column variances of an array: the column sums of the squared deviations over the divisor d. -/
def colVar {n k : Nat} (h : Fin n → Fin k → EReal) (d : EReal) (j : Fin k) : EReal :=
  Ideal.div (∑ i : Fin n, (h i j - colMean h d j) * (h i j - colMean h d j)) d
/-- A layer on the reference's side: the map applied to the neighbourhood average, the bias, the node's
    own branch, the rectifier. -/
def layerR {k : Nat} (ei : Fin 2 → Fin 1600000 → BitVec 32) (h : Fin 100000 → Fin k → EReal)
    (wl : Fin k → Fin 16 → EReal) (bl : Fin 16 → EReal) (wr : Fin k → Fin 16 → EReal)
    (i : Fin 100000) (j : Fin 16) : EReal := max (mm (agg ei h) wl i j + bl j + mm h wr i j) 0
/-- Segment means in one go: each segment's sum over its clamped size. -/
def segMeanR {k : Nat} (bt : Fin 100000 → BitVec 32) (h : Fin 100000 → Fin k → EReal) (g : Fin 256) (f : Fin k) : EReal :=
  Ideal.div (∑ n : Fin 100000, if segHit bt n g then h n f else 0)
    (max (∑ n : Fin 100000, if segHit bt n g then (1 : EReal) else 0) 1)

section Layers

variable (x : Fin 100000 → Fin 64 → EReal) (ei : Fin 2 → Fin 1600000 → BitVec 32) (bt : Fin 100000 → BitVec 32)
  (w1l w1r : Fin 64 → Fin 16 → EReal) (b1l g1 be1 : Fin 16 → EReal)
  (w2l w2r : Fin 16 → Fin 16 → EReal) (b2l : Fin 16 → EReal)

/-! ## The kernel's side -/

/-- Layer 1, the map applied before the neighbourhood sum. -/
def y1K : Fin 100000 → Fin 16 → EReal := mm x w1l
/-- Layer 1, the node's own branch with the bias. -/
def xr1K (i : Fin 100000) (j : Fin 16) : EReal := mm x w1r i j + b1l j
/-- Layer 1 after the rectifier. -/
def h1K : Fin 100000 → Fin 16 → EReal := hrelu ei (y1K x w1l) (xr1K x w1r b1l)
/-- Tile t's column sums of layer 1. -/
def psumK : Fin 20 → Fin 16 → EReal := tileSum (h1K x ei w1l w1r b1l)
/-- Tile t's column sums of the squares of layer 1. -/
def psqK : Fin 20 → Fin 16 → EReal := tileSq (h1K x ei w1l w1r b1l)
/-- The column means from the tiles' sums. -/
def meanK : Fin 16 → EReal := meanOf (psumK x ei w1l w1r b1l)
/-- The one-pass column variances, clamped at zero. -/
def varK : Fin 16 → EReal := varOf (psumK x ei w1l w1r b1l) (psqK x ei w1l w1r b1l)
/-- Layer 1 normalised. -/
def h1bnK : Fin 100000 → Fin 16 → EReal :=
  bn g1 be1 (h1K x ei w1l w1r b1l) (meanK x ei w1l w1r b1l) (varK x ei w1l w1r b1l)
/-- Layer 2, the map applied before the neighbourhood sum. -/
def y2K : Fin 100000 → Fin 16 → EReal := mm (h1bnK x ei w1l w1r b1l g1 be1) w2l
/-- Layer 2, the node's own branch with the bias. -/
def xr2K (i : Fin 100000) (j : Fin 16) : EReal := mm (h1bnK x ei w1l w1r b1l g1 be1) w2r i j + b2l j
/-- Layer 2 after the rectifier. -/
def h2K : Fin 100000 → Fin 16 → EReal :=
  hrelu ei (y2K x ei w1l w1r b1l g1 be1 w2l) (xr2K x ei w1l w1r b1l g1 be1 w2r b2l)
/-- Tile t's segment sums: the 0/1 membership matrix times layer 2. -/
def sumPartK : Fin 20 → Fin 256 → Fin 16 → EReal := segPart bt (h2K x ei w1l w1r b1l g1 be1 w2l w2r b2l)
/-- Tile t's segment sizes. -/
def cntPartK : Fin 20 → Fin 256 → EReal := segCnt bt
/-- The segment means from the tiles' sums. -/
def xencK : Fin 256 → Fin 16 → EReal :=
  segMean (sumPartK x ei bt w1l w1r b1l g1 be1 w2l w2r b2l) (cntPartK bt)

/-! ## The reference's side -/

/-- Layer 1 after the rectifier: the map applied to the neighbourhood average. -/
def h1R : Fin 100000 → Fin 16 → EReal := layerR ei x w1l b1l w1r
/-- The column means. -/
def meanR : Fin 16 → EReal := colMean (h1R x ei w1l w1r b1l) cN
/-- The two-pass column variances. -/
def varR : Fin 16 → EReal := colVar (h1R x ei w1l w1r b1l) cN
/-- Layer 1 normalised. -/
def h1bnR : Fin 100000 → Fin 16 → EReal :=
  bn g1 be1 (h1R x ei w1l w1r b1l) (meanR x ei w1l w1r b1l) (varR x ei w1l w1r b1l)
/-- Layer 2 after the rectifier. -/
def h2R : Fin 100000 → Fin 16 → EReal := layerR ei (h1bnR x ei w1l w1r b1l g1 be1) w2l b2l w2r
/-- The segment means. -/
def xencR : Fin 256 → Fin 16 → EReal := segMeanR bt (h2R x ei w1l w1r b1l g1 be1 w2l w2r b2l)

end Layers

/-! ## The small dense network on the segment means -/

/-- Column means over the 256 segments. -/
def mu {k : Nat} (z : Fin 256 → Fin k → EReal) : Fin k → EReal := colMean z cG
/-- Column variances over the 256 segments (two passes). -/
def va {k : Nat} (z : Fin 256 → Fin k → EReal) : Fin k → EReal := colVar z cG
/-- Batch normalisation over the 256 segments. -/
def bnS {k : Nat} (g b : Fin k → EReal) (z : Fin 256 → Fin k → EReal) : Fin 256 → Fin k → EReal :=
  bn g b z (mu z) (va z)
/-- Two 16-column arrays side by side. -/
def cat (a b : Fin 256 → Fin 16 → EReal) (r : Fin 256) (j : Fin 32) : EReal :=
  if h : j.val < 16 then a r ⟨j.val, h⟩ else b r ⟨j.val - 16, by omega⟩
/-- A dense layer with bias and rectifier. -/
def lin {k : Nat} (z : Fin 256 → Fin k → EReal) (W : Fin k → Fin 16 → EReal) (bias : Fin 16 → EReal)
    (r : Fin 256) (j : Fin 16) : EReal := max (mm z W r j + bias j) 0

/-- The network: three normalised dense layers, the last two fed the segment means again, and a
    final map to one column. -/
def mlp (gl1 bl1 : Fin 16 → EReal) (W1 : Fin 16 → Fin 16 → EReal) (bW1 : Fin 16 → EReal)
    (gl2 bl2 : Fin 32 → EReal) (W2 : Fin 32 → Fin 16 → EReal) (bW2 : Fin 16 → EReal)
    (gl3 bl3 : Fin 32 → EReal) (W3 : Fin 32 → Fin 16 → EReal) (bW3 : Fin 16 → EReal)
    (Wf : Fin 16 → Fin 1 → EReal) (bWf : Fin 1 → EReal)
    (xenc : Fin 256 → Fin 16 → EReal) (r : Fin 256) (j : Fin 1) : EReal :=
  mm (lin (bnS gl3 bl3 (cat (lin (bnS gl2 bl2 (cat (lin (bnS gl1 bl1 xenc) W1 bW1) xenc)) W2 bW2) xenc)) W3 bW3) Wf r j
    + bWf j

end Cert.Spec

end
-- ==== Proof.Consts.lean ====
/-
  The float words the two programs spell, as the extended reals they denote, and what it means for an
  extended real to be a real number.
-/
import Idealize.ShloMosaic.PureOps.Ideal

noncomputable section

namespace Cert.Spec

open Idealize.ShloMosaic

/-- An extended real that is a real number: neither infinity. -/
def IsFin (v : EReal) : Prop := ∃ r : ℝ, v = (r : EReal)

/-- The word of +0.0 denotes zero. -/
theorem ofBits_zero : Ideal.ofBits .f32 0x00000000#32 = 0 := by
  simp [Ideal.ofBits, Ideal.ieee]

/-- The word of 1.0 denotes one. -/
theorem ofBits_one : Ideal.ofBits .f32 0x3F800000#32 = 1 := by
  simp [Ideal.ofBits, Ideal.ieee, -EReal.coe_mul]; norm_num

/-- The 16-bit word of 1.0 denotes one. -/
theorem ofBits_one_bf16 : Ideal.ofBits .bf16 0x3F80#16 = 1 := by
  simp [Ideal.ofBits, Ideal.ieee, -EReal.coe_mul]; norm_num

/-- The word of 100000.0 denotes the number of nodes. -/
theorem ofBits_nodes : Ideal.ofBits .f32 0x47C35000#32 = ((100000 : ℝ) : EReal) := by
  simp [Ideal.ofBits, Ideal.ieee, -EReal.coe_mul]; norm_num

/-- The word added to a variance denotes a positive real. -/
theorem ofBits_eps_pos : ∃ r : ℝ, 0 < r ∧ Ideal.ofBits .f32 0x3727C5AC#32 = (r : EReal) := by
  refine ⟨_, ?_, by simp [Ideal.ofBits, Ideal.ieee, -EReal.coe_mul]; rfl⟩
  norm_num

end Cert.Spec

end
-- ==== Proof.LibScatter.lean ====
/-
  Gathering rows of a table and adding rows into a table, read one element at a time.

  For a two-axis table and a column of row numbers: a gather of whole rows reads, at (e, j), the
  table at the row the e-th number names (read signed, clamped into the table) and column j; an
  accumulating scatter of whole rows leaves at (r, j) the prior contents plus the sum over the
  updates e whose row number (read signed, not clamped) is r of the update's column j.
-/
import Idealize.ShloMosaic.PureOps.Ideal
import Idealize.ShloMosaic.Lib.ValueIdx

noncomputable section

namespace Cert.LibScatter

open Idealize.ShloMosaic Idealize.ShloMosaic.ValueIdx

/-- The dimension numbers of an accumulating scatter of whole rows. -/
private abbrev rowsS (R E k : Nat)
    (wf : ScatterDims.WF (⟨2, ![R, k]⟩ : Shape) (⟨2, ![E, 1]⟩ : Shape) (⟨2, ![E, k]⟩ : Shape) [1] [0] [0] 1) :
    ScatterDims (⟨2, ![R, k]⟩ : Shape) (⟨2, ![E, 1]⟩ : Shape) (⟨2, ![E, k]⟩ : Shape) :=
  ⟨[1], [0], [0], 1, wf⟩

/-- An axis of a two-axis shape is the first or the second. -/
private theorem axis2 {S : Shape} (hS : S.rank = 2) (a : Fin S.rank) :
    a = ⟨0, by omega⟩ ∨ a = ⟨1, by omega⟩ := by
  obtain ⟨v, hv⟩ := a
  have : v = 0 ∨ v = 1 := by omega
  rcases this with rfl | rfl
  · exact Or.inl rfl
  · exact Or.inr rfl

section Scatter
variable {R E k w : Nat}
  (wf : ScatterDims.WF (⟨2, ![R, k]⟩ : Shape) (⟨2, ![E, 1]⟩ : Shape) (⟨2, ![E, k]⟩ : Shape) [1] [0] [0] 1)
  (idx : IVec (⟨2, ![E, 1]⟩ : Shape) w) (e : Fin E) (c : Fin k)

/-- On the row axis the window starts at the e-th row number, read signed. -/
private theorem rowsS_start0 : (rowsS R E k wf).start (ix2 e c) idx 0 = (idx (ix2 e 0)).toInt := by
  unfold ScatterDims.start
  rw [dif_pos (List.mem_singleton.mpr rfl)]
  congr 2
  funext b; refine Fin.ext ?_
  match b with
  | ⟨0, _⟩ => rfl
  | ⟨1, _⟩ => rfl

/-- On the column axis the window starts at zero. -/
private theorem rowsS_start1 : (rowsS R E k wf).start (ix2 e c) idx 1 = 0 := by
  unfold ScatterDims.start
  rw [dif_neg (show ¬ (1 : Fin 2) ∈ ([0] : List (Fin 2)) by decide)]

/-- The row axis is inserted: no window coordinate. -/
private theorem rowsS_window0 : (rowsS R E k wf).window (ix2 e c) 0 = 0 := by
  have h0 : ¬ (0 : Fin 2) ∈ (List.finRange 2).filter (· ∉ ([0] : List (Fin 2))) := by decide
  unfold ScatterDims.window
  split
  · rename_i ha; exact absurd ha h0
  · rfl

/-- The column axis carries the update's column. -/
private theorem rowsS_window1 : (rowsS R E k wf).window (ix2 e c) 1 = c.val := by
  have h1 : (1 : Fin 2) ∈ (List.finRange 2).filter (· ∉ ([0] : List (Fin 2))) := by decide
  unfold ScatterDims.window
  split
  · rfl
  · rename_i ha; exact absurd h1 ha

/-- The update (e, c) lands at (r, j) exactly when its row number is r and its column is j. -/
private theorem rowsS_resultIdx (r : Fin R) (j : Fin k) :
    ((rowsS R E k wf).resultIdx? (ix2 e c) idx = some (ix2 r j))
      ↔ ((idx (ix2 e 0)).toInt = (r.val : Int) ∧ c = j) := by
  have hs0 := rowsS_start0 wf idx e c
  have hs1 := rowsS_start1 wf idx e c
  have hw0 := rowsS_window0 wf e c
  have hw1 := rowsS_window1 wf e c
  have hr := r.isLt
  have hc := c.isLt
  unfold ScatterDims.resultIdx?
  constructor
  · intro h
    split at h
    · have h' := Option.some.inj h
      have e0 : ((rowsS R E k wf).start (ix2 e c) idx 0 + ((rowsS R E k wf).window (ix2 e c) 0 : Nat)).toNat = r.val :=
        congrArg (fun f => (f 0).val) h'
      have e1 : ((rowsS R E k wf).start (ix2 e c) idx 1 + ((rowsS R E k wf).window (ix2 e c) 1 : Nat)).toNat = j.val :=
        congrArg (fun f => (f 1).val) h'
      rename_i hall
      have b0 := (hall 0).1
      rw [hs0, hw0] at e0 b0
      rw [hs1, hw1] at e1
      refine ⟨by omega, Fin.ext (by omega)⟩
    · exact absurd h (by simp)
  · rintro ⟨hI, rfl⟩
    have hall : ∀ a, 0 ≤ (rowsS R E k wf).start (ix2 e c) idx a + ((rowsS R E k wf).window (ix2 e c) a : Nat) ∧
        (rowsS R E k wf).start (ix2 e c) idx a + ((rowsS R E k wf).window (ix2 e c) a : Nat)
          < ((⟨2, ![R, k]⟩ : Shape).size a : Nat) := by
      intro a
      rcases axis2 (S := (⟨2, ![R, k]⟩ : Shape)) rfl a with rfl | rfl
      · change 0 ≤ (rowsS R E k wf).start (ix2 e c) idx 0 + ((rowsS R E k wf).window (ix2 e c) 0 : Nat) ∧
          (rowsS R E k wf).start (ix2 e c) idx 0 + ((rowsS R E k wf).window (ix2 e c) 0 : Nat) < (R : Int)
        rw [hs0, hw0, hI]; omega
      · change 0 ≤ (rowsS R E k wf).start (ix2 e c) idx 1 + ((rowsS R E k wf).window (ix2 e c) 1 : Nat) ∧
          (rowsS R E k wf).start (ix2 e c) idx 1 + ((rowsS R E k wf).window (ix2 e c) 1 : Nat) < (k : Int)
        rw [hs1, hw1]; omega
    rw [dif_pos hall]
    congr 1
    funext a; refine Fin.ext ?_
    rcases axis2 (S := (⟨2, ![R, k]⟩ : Shape)) rfl a with rfl | rfl
    · change ((rowsS R E k wf).start (ix2 e c) idx 0 + ((rowsS R E k wf).window (ix2 e c) 0 : Nat)).toNat = r.val
      rw [hs0, hw0, hI]; omega
    · change ((rowsS R E k wf).start (ix2 e c) idx 1 + ((rowsS R E k wf).window (ix2 e c) 1 : Nat)).toNat = c.val
      rw [hs1, hw1]; omega

end Scatter

/-- An accumulating scatter of whole rows, at one element: the prior contents plus the updates whose
    row number is this row. -/
theorem hostScatterAdd_rows {R E k w : Nat}
    (d : ScatterDims (⟨2, ![R, k]⟩ : Shape) (⟨2, ![E, 1]⟩ : Shape) (⟨2, ![E, k]⟩ : Shape))
    (h1 : d.updateWindowDims = [1]) (h2 : d.insertedWindowDims = [0])
    (h3 : d.scatterDimsToOperandDims = [0]) (h4 : d.indexVectorDim = 1)
    (x : (⟨2, ![R, k]⟩ : Shape).Idx → EReal) (idx : IVec (⟨2, ![E, 1]⟩ : Shape) w)
    (upd : (⟨2, ![E, k]⟩ : Shape).Idx → EReal) (r : Fin R) (j : Fin k) :
    Ideal.hostScatterAdd d x idx upd (ix2 r j)
      = x (ix2 r j) + ∑ e : Fin E, if (idx (ix2 e 0)).toInt = (r.val : Int) then upd (ix2 e j) else 0 := by
  obtain ⟨uw, iw, sd, iv, wf⟩ := d
  simp only at h1 h2 h3 h4
  subst h1 h2 h3 h4
  change x (ix2 r j) + ∑ u ∈ Finset.univ.filter (fun u => (rowsS R E k wf).resultIdx? u idx = some (ix2 r j)), upd u = _
  congr 1
  rw [Finset.sum_filter, sum_idx2]
  refine Finset.sum_congr rfl (fun e _ => ?_)
  simp only [rowsS_resultIdx wf idx e _ r j]
  by_cases hI : (idx (ix2 e 0)).toInt = (r.val : Int)
  · simp [hI]
  · simp [hI]

/-- The dimension numbers of a gather of whole rows. -/
private abbrev rowsG (R E k : Nat)
    (wf : GatherDims.WF (⟨2, ![R, k]⟩ : Shape) (⟨2, ![E, 1]⟩ : Shape) (⟨2, ![E, k]⟩ : Shape) [1] [0] [] [0] [] 1 ![1, k]) :
    GatherDims (⟨2, ![R, k]⟩ : Shape) (⟨2, ![E, 1]⟩ : Shape) (⟨2, ![E, k]⟩ : Shape) :=
  ⟨[1], [0], [], [], [0], 1, ![1, k], wf⟩

section Gather
variable {R E k w : Nat}
  (wf : GatherDims.WF (⟨2, ![R, k]⟩ : Shape) (⟨2, ![E, 1]⟩ : Shape) (⟨2, ![E, k]⟩ : Shape) [1] [0] [] [0] [] 1 ![1, k])
  (idx : IVec (⟨2, ![E, 1]⟩ : Shape) w) (e : Fin E) (c : Fin k)

/-- On the row axis the slice starts at the e-th row number, read signed and clamped into the table. -/
private theorem rowsG_start0 :
    (rowsG R E k wf).start (ix2 e c) idx 0 = min (idx (ix2 e 0)).toInt.toNat (R - 1) := by
  unfold GatherDims.start
  rw [dif_pos (List.mem_singleton.mpr rfl)]
  have hsi : (rowsG R E k wf).siIdx (ix2 e c) ⟨List.idxOf (0 : Fin 2) (rowsG R E k wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- On the column axis the slice starts at zero. -/
private theorem rowsG_start1 : (rowsG R E k wf).start (ix2 e c) idx 1 = 0 := by
  unfold GatherDims.start
  rw [dif_neg (show ¬ (1 : Fin 2) ∈ ([0] : List (Fin 2)) by decide)]

/-- The row axis is collapsed: no offset coordinate. -/
private theorem rowsG_off0 : (rowsG R E k wf).offCoord (ix2 e c) 0 = 0 := by
  have h0 : ¬ (0 : Fin 2) ∈ (List.finRange 2).filter (· ∉ ([0] ++ [] : List (Fin 2))) := by decide
  unfold GatherDims.offCoord
  split
  · rename_i ha; exact absurd ha h0
  · rfl

/-- The column axis carries the result's column. -/
private theorem rowsG_off1 : (rowsG R E k wf).offCoord (ix2 e c) 1 = c.val := by
  have h1 : (1 : Fin 2) ∈ (List.finRange 2).filter (· ∉ ([0] ++ [] : List (Fin 2))) := by decide
  unfold GatherDims.offCoord
  split
  · rfl
  · rename_i ha; exact absurd h1 ha

end Gather

/-- A gather of whole rows, at one element: the table at the named row, clamped into the table. -/
theorem gather_rows {α : Type} {R E k w : Nat}
    (g : GatherDims (⟨2, ![R, k]⟩ : Shape) (⟨2, ![E, 1]⟩ : Shape) (⟨2, ![E, k]⟩ : Shape))
    (hoff : g.offsetDims = [1]) (hcol : g.collapsedSliceDims = [0]) (hob : g.operandBatchingDims = [])
    (hsb : g.startIndicesBatchingDims = []) (hsim : g.startIndexMap = [0]) (hiv : g.indexVectorDim = 1)
    (hss : g.sliceSizes = ![1, k]) (hR : 0 < R)
    (x : (⟨2, ![R, k]⟩ : Shape).Idx → α) (idx : IVec (⟨2, ![E, 1]⟩ : Shape) w) (e : Fin E) (j : Fin k) :
    Host.gather g x idx (ix2 e j)
      = x (ix2 ⟨min (idx (ix2 e 0)).toInt.toNat (R - 1), by omega⟩ j) := by
  obtain ⟨od, cd, ob, sb, sm, iv, ss, wf⟩ := g
  simp only at hoff hcol hob hsb hsim hiv hss
  subst hoff hcol hob hsb hsim hiv hss
  unfold Host.gather
  congr 1
  funext a
  refine Fin.ext ?_
  rcases axis2 (S := (⟨2, ![R, k]⟩ : Shape)) rfl a with rfl | rfl
  · change (rowsG R E k wf).start (ix2 e j) idx 0 + (rowsG R E k wf).batchCoord (ix2 e j) 0
        + (rowsG R E k wf).offCoord (ix2 e j) 0 = min (idx (ix2 e 0)).toInt.toNat (R - 1)
    rw [rowsG_start0, GatherDims.batchCoord_eq_zero _ _ _ List.not_mem_nil, rowsG_off0]
    omega
  · change (rowsG R E k wf).start (ix2 e j) idx 1 + (rowsG R E k wf).batchCoord (ix2 e j) 1
        + (rowsG R E k wf).offCoord (ix2 e j) 1 = j.val
    rw [rowsG_start1, GatherDims.batchCoord_eq_zero _ _ _ List.not_mem_nil, rowsG_off1]
    omega

end Cert.LibScatter

end
-- ==== Proof.KSeg0.lean ====
import proofs.«407675_j64304250356442_3_alg».proof.Proof.Gen.KernelIdeal.Frame
import proofs.«407675_j64304250356442_3_alg».proof.Proof.Spec
import proofs.«407675_j64304250356442_3_alg».proof.Proof.Consts
import proofs.«407675_j64304250356442_3_alg».proof.Proof.LibScatter
import Idealize.ShloMosaic.Lib.Pipeline.Value
import Idealize.ShloMosaic.Lib.ValueLayout
import Idealize.ShloMosaic.PureOps.Ideal.Laws

set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (ρ : Dev nD → PrngReg) (c : Dev nD)

/-! # The first host stretch and the first kernel call

The host stretch splits the edge list into its source and target words, counts the in-degrees and
clamps them at one; the kernel call multiplies the node features by the two 64x16 matrices, 5000 rows
at a time. -/

namespace Seg0

/-! ## The host stretch, one element at a time -/

/-- A scalar spread over a shape reads the scalar everywhere. -/
theorem bcast_scalar_apply {t : Shape} (h : S_.BroadcastsInDim t ![]) (x : S_.Idx → EReal) (j : t.Idx) :
    broadcastInDim t ![] h x j = x ix0 :=
  broadcastInDim_apply _ h x j ix0 (fun a => a.elim0)

/-- Row 1 of the edge list, laid out as a vector, at edge e. -/
theorem v3_apply (X : S2x1600000.Idx → BitVec 32) (e : Fin 1600000) :
    shapeCast S1600000 (extractStridedSlice S1x1600000 ![1, 0] X slices_S2x1600000_S1x1600000_1_0)
      shapeCasts_S1x1600000_S1600000 (ix1 e) = X (ix2 1 e) := by
  refine (shapeCast_apply _ _ (ix1 e) (ix2 0 e) ?_).trans ?_
  · rw [Shape.rowMajor_val_two, Shape.rowMajor_val_one]
    show 0 * 1600000 + e.val = e.val
    omega
  · refine extractStridedSlice_apply _ _ _ (ix2 0 e) (ix2 1 e) fun a => ?_
    match a with
    | ⟨0, _⟩ => rfl
    | ⟨1, _⟩ => show e.val = 0 + e.val; omega

/-- A vector of words as a column, at row e. -/
theorem idx_apply (Y : S1600000.Idx → BitVec 32) (e : Fin 1600000) (z : Fin 1) :
    broadcastInDim S1600000x1 ![0] bcast_S1600000_S1600000x1_0 Y (ix2 e z) = Y (ix1 e) := by
  refine broadcastInDim_apply _ _ _ (ix2 e z) (ix1 e) fun a => ?_
  match a with
  | ⟨0, _⟩ => exact (if_neg (show ¬ (1600000 : Nat) = 1 by omega)).symm

/-- The in-degree count, as the scatter of ones into zeros clamped below by one, at one node; Y is the
    column of target words. -/
theorem cnt_eq (X : S2x1600000.Idx → BitVec 32) (Y : S1600000.Idx → BitVec 32)
    (hY : ∀ e : Fin 1600000, Y (ix1 e) = X (ix2 1 e)) (i : Fin 100000) (z : Fin 1) :
    max (Ideal.hostScatterAdd scatter_S100000x1_S1600000x1_S1600000x1_1_0_0_1
      (broadcastInDim S100000x1 ![] bcast_S_S100000x1 (constant (F := Ideal) S_ .f32 0x00000000#32))
      (broadcastInDim S1600000x1 ![0] bcast_S1600000_S1600000x1_0 Y)
      (broadcastInDim S1600000x1 ![] bcast_S_S1600000x1 (constant (F := Ideal) S_ .f32 0x3F800000#32)) (ix2 i z))
      (broadcastInDim S100000x1 ![] bcast_S_S100000x1 (constant (F := Ideal) S_ .f32 0x3F800000#32) (ix2 i z))
    = cnt (A2 X) i := by
  rw [Cert.LibScatter.hostScatterAdd_rows _ rfl rfl rfl rfl, bcast_scalar_apply, bcast_scalar_apply,
    constant_apply, constant_apply, ofBits_zero, ofBits_one, zero_add]
  unfold cnt
  refine congrArg (fun s : EReal => max s 1) ?_
  refine Finset.sum_congr rfl fun e _ => ?_
  rw [bcast_scalar_apply, constant_apply, ofBits_one, idx_apply, hY]
  by_cases h : (X (ix2 1 e)).toInt = (i.val : Int)
  · rw [if_pos h, if_pos (show hit (A2 X) e i from h)]
  · rw [if_neg h, if_neg (show ¬ hit (A2 X) e i from h)]

/-- At the ideal instance the host's accumulating scatter is the exact one. -/
theorem scatterAdd_ideal (x : FVec Ideal S100000x1 .f32) (idx : IVec S1600000x1 32) (upd : FVec Ideal S1600000x1 .f32) :
    Host.scatterAdd scatter_S100000x1_S1600000x1_S1600000x1_1_0_0_1 x idx upd
      = Ideal.hostScatterAdd scatter_S100000x1_S1600000x1_S1600000x1_1_0_0_1 x idx upd := rfl

theorem hz : (![0, 0] : Fin 2 → Nat) = fun _ => 0 := funext fun a => by fin_cases a <;> rfl

/-! ## The matrix product of a block, at one element -/

theorem lhs0_0 (i : S5000x16.Idx) (q : dot_S5000x64_S64x16_S5000x16_1_0_0_1_n_n.contr.Idx) :
    (dot_S5000x64_S64x16_S5000x16_1_0_0_1_n_n.lhsIdx i q 0).val = (i 0).val := by
  unfold DotDims.lhsIdx
  rw [dif_neg (show ¬(0 : Fin S5000x64.rank) ∈ dot_S5000x64_S64x16_S5000x16_1_0_0_1_n_n.lhsBatch by decide), dif_pos (show (0 : Fin S5000x64.rank) ∈ dot_S5000x64_S64x16_S5000x16_1_0_0_1_n_n.lhsNonContracting by decide)]
  rfl
theorem lhs0_1 (i : S5000x16.Idx) (q : dot_S5000x64_S64x16_S5000x16_1_0_0_1_n_n.contr.Idx) :
    (dot_S5000x64_S64x16_S5000x16_1_0_0_1_n_n.lhsIdx i q 1).val = (q ⟨0, by decide⟩).val :=
  dot_S5000x64_S64x16_S5000x16_1_0_0_1_n_n.lhsIdx_val_of_single rfl i q
theorem rhs0_0 (i : S5000x16.Idx) (q : dot_S5000x64_S64x16_S5000x16_1_0_0_1_n_n.contr.Idx) :
    (dot_S5000x64_S64x16_S5000x16_1_0_0_1_n_n.rhsIdx i q 0).val = (q ⟨0, by decide⟩).val :=
  dot_S5000x64_S64x16_S5000x16_1_0_0_1_n_n.rhsIdx_val_of_single rfl i q
theorem rhs0_1 (i : S5000x16.Idx) (q : dot_S5000x64_S64x16_S5000x16_1_0_0_1_n_n.contr.Idx) :
    (dot_S5000x64_S64x16_S5000x16_1_0_0_1_n_n.rhsIdx i q 1).val = (i 1).val := by
  unfold DotDims.rhsIdx
  rw [dif_neg (show ¬(1 : Fin S64x16.rank) ∈ dot_S5000x64_S64x16_S5000x16_1_0_0_1_n_n.rhsBatch by decide), dif_pos (show (1 : Fin S64x16.rank) ∈ dot_S5000x64_S64x16_S5000x16_1_0_0_1_n_n.rhsNonContracting by decide)]
  rfl

/-- The product of a 5000x64 block and a 64x16 matrix into a zero accumulator, at (p, q): the sum over the
    shared axis. -/
theorem mm0_apply (l : FVec Ideal S5000x64 .bf16) (r : FVec Ideal S64x16 .bf16) (p : Fin 5000) (q : Fin 16) :
    matmul dot_S5000x64_S64x16_S5000x16_1_0_0_1_n_n none l r (constant (F := Ideal) S5000x16 .f32 0x00000000#32) (ix2 p q)
      = ∑ k : Fin 64, l (ix2 p k) * r (ix2 k q) := by
  refine (Ideal.matmul_constant_zero_apply dot_S5000x64_S64x16_S5000x16_1_0_0_1_n_n none l r (ix2 p q)).trans ?_
  rw [← Equiv.sum_comp (contrEquiv1 dot_S5000x64_S64x16_S5000x16_1_0_0_1_n_n 64 rfl rfl).symm]
  refine Finset.sum_congr rfl fun k _ => ?_
  have hk := contrEquiv1_symm_val dot_S5000x64_S64x16_S5000x16_1_0_0_1_n_n 64 rfl rfl k
  have el : dot_S5000x64_S64x16_S5000x16_1_0_0_1_n_n.lhsIdx (ix2 p q) ((contrEquiv1 dot_S5000x64_S64x16_S5000x16_1_0_0_1_n_n 64 rfl rfl).symm k) = ix2 p k := funext fun a => Fin.ext (by
    match a with
    | ⟨0, _⟩ => exact lhs0_0 _ _
    | ⟨1, _⟩ => exact (lhs0_1 _ _).trans hk)
  have er : dot_S5000x64_S64x16_S5000x16_1_0_0_1_n_n.rhsIdx (ix2 p q) ((contrEquiv1 dot_S5000x64_S64x16_S5000x16_1_0_0_1_n_n 64 rfl rfl).symm k) = ix2 k q := funext fun a => Fin.ext (by
    match a with
    | ⟨0, _⟩ => exact (rhs0_0 _ _).trans hk
    | ⟨1, _⟩ => exact rhs0_1 _ _)
  rw [el, er]

/-- The first stored value at one element: the block's row times the matrix's column. -/
theorem pay2_apply (x0 : Vec Ideal S5000x64 .f32) (x1 : Vec Ideal S64x16 .f32) (j : S5000x16.Idx) :
    k0_pay2 x0 x1 j = ∑ k : Fin 64, x0 (ix2 (j 0) k) * x1 (ix2 k (j 1)) := by
  obtain ⟨p, q, rfl⟩ : ∃ (p : Fin 5000) (q : Fin 16), j = ix2 p q := ⟨j 0, j 1, eq_ix2 j⟩
  unfold k0_pay2 k0_pay1
  exact mm0_apply _ _ p q

/-- The second stored value at one element: the same product plus the bias row's entry. -/
theorem pay3_apply (x0 : Vec Ideal S5000x64 .f32) (x2 : Vec Ideal S64x16 .f32) (x3 : Vec Ideal S1x16 .f32) (j : S5000x16.Idx) :
    k0_pay3 x0 x2 x3 j = (∑ k : Fin 64, x0 (ix2 (j 0) k) * x2 (ix2 k (j 1))) + x3 (ix2 0 (j 1)) := by
  obtain ⟨p, q, rfl⟩ : ∃ (p : Fin 5000) (q : Fin 16), j = ix2 p q := ⟨j 0, j 1, eq_ix2 j⟩
  unfold k0_pay3 k0_pay1
  dsimp only
  rw [addf_apply, mm0_apply, shapeCast_self, broadcastTo_1b_ab_apply]
  rfl

/-! ## The arrays the first kernel call finds -/

/-- The host stretch writes none of the three arguments the call reads. -/
theorem W1_main_arg0 : W1 m ρ c (Proc.devRef .tc main_arg0) = W0 m ρ c (Proc.devRef .tc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_main_arg3 : W1 m ρ c (Proc.devRef .tc main_arg3) = W0 m ρ c (Proc.devRef .tc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_main_arg5 : W1 m ρ c (Proc.devRef .tc main_arg5) = W0 m ρ c (Proc.devRef .tc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The bias as a one-row array. -/
theorem W1_main_v11 : (W1 m ρ c (Proc.devRef .tc main_v11) : S1x16.Idx → EReal)
    = fun q => A1 (W0 m ρ c (Proc.devRef .tc main_arg4) : S16.Idx → EReal) (q 1) := by
  show StableHlo.after hostOps0 (W0 m ρ c) (Proc.devRef .tc main_v11) = _
  after_results
  generalize (W0 m ρ c (Proc.devRef .tc main_arg4) : S16.Idx → EReal) = B
  funext q
  obtain ⟨z, j, rfl⟩ : ∃ (z : Fin 1) (j : Fin 16), q = ix2 z j := ⟨q 0, q 1, eq_ix2 q⟩
  show shapeCast S1x16 B shapeCasts_S16_S1x16 (ix2 z j) = B (ix1 j)
  refine shapeCast_apply _ _ (ix2 z j) (ix1 j) ?_
  rw [Shape.rowMajor_val_two, Shape.rowMajor_val_one]
  show j.val = z.val * 16 + j.val
  omega

/-! ## The blocks of a grid point

Point t of the 20 reads rows 5000 t .. 5000 t + 4999 of the features, both matrices and the bias row whole,
and writes the same rows of the two outputs. -/

theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The features' block at point t is rows 5000 t .. of the features. -/
theorem iblk0_0_apply (t : Fin cfg0.N) (x : S5000x64.Idx) (k : S100000x64.Idx)
    (hk0 : (k 0).val = 5000 * t.val + (x 0).val) (hk1 : (k 1).val = (x 1).val) :
    (iblk0 (V1 m ρ) c 0 t : Vec Ideal S5000x64 .f32) x
      = (W0 m ρ c (Proc.devRef .tc main_arg0) : S100000x64.Idx → EReal) k := by
  obtain ⟨e0, e1, -⟩ := idx_facts0 t
  unfold iblk0
  rw [View.read_apply]
  show W1 m ρ c (Proc.devRef .tc main_arg0) _ = _
  rw [W1_main_arg0]
  refine congrArg (W0 m ρ c (Proc.devRef .tc main_arg0) : S100000x64.Idx → EReal) (funext fun a => Fin.ext ?_)
  match a with
  | ⟨0, _⟩ => show win0_0.index t (0 : Fin 2) * 5000 + 1 * (x 0).val = (k 0).val; rw [e0, hk0]; omega
  | ⟨1, _⟩ => show win0_0.index t (1 : Fin 2) * 64 + 1 * (x 1).val = (k 1).val; rw [e1, hk1]; omega

/-- The first matrix's block is the matrix. -/
theorem iblk0_1_apply (t : Fin cfg0.N) (x : S64x16.Idx) (k : S64x16.Idx)
    (hk0 : (k 0).val = (x 0).val) (hk1 : (k 1).val = (x 1).val) :
    (iblk0 (V1 m ρ) c 1 t : Vec Ideal S64x16 .f32) x
      = (W0 m ρ c (Proc.devRef .tc main_arg3) : S64x16.Idx → EReal) k := by
  obtain ⟨-, -, e2, e3, -⟩ := idx_facts0 t
  unfold iblk0
  rw [View.read_apply]
  show W1 m ρ c (Proc.devRef .tc main_arg3) _ = _
  rw [W1_main_arg3]
  refine congrArg (W0 m ρ c (Proc.devRef .tc main_arg3) : S64x16.Idx → EReal) (funext fun a => Fin.ext ?_)
  match a with
  | ⟨0, _⟩ => show win0_1.index t (0 : Fin 2) * 64 + 1 * (x 0).val = (k 0).val; rw [e2, hk0]; omega
  | ⟨1, _⟩ => show win0_1.index t (1 : Fin 2) * 16 + 1 * (x 1).val = (k 1).val; rw [e3, hk1]; omega

/-- The second matrix's block is the matrix. -/
theorem iblk0_2_apply (t : Fin cfg0.N) (x : S64x16.Idx) (k : S64x16.Idx)
    (hk0 : (k 0).val = (x 0).val) (hk1 : (k 1).val = (x 1).val) :
    (iblk0 (V1 m ρ) c 2 t : Vec Ideal S64x16 .f32) x
      = (W0 m ρ c (Proc.devRef .tc main_arg5) : S64x16.Idx → EReal) k := by
  obtain ⟨-, -, -, -, e4, e5, -⟩ := idx_facts0 t
  unfold iblk0
  rw [View.read_apply]
  show W1 m ρ c (Proc.devRef .tc main_arg5) _ = _
  rw [W1_main_arg5]
  refine congrArg (W0 m ρ c (Proc.devRef .tc main_arg5) : S64x16.Idx → EReal) (funext fun a => Fin.ext ?_)
  match a with
  | ⟨0, _⟩ => show win0_2.index t (0 : Fin 2) * 64 + 1 * (x 0).val = (k 0).val; rw [e4, hk0]; omega
  | ⟨1, _⟩ => show win0_2.index t (1 : Fin 2) * 16 + 1 * (x 1).val = (k 1).val; rw [e5, hk1]; omega

/-- The bias row's block is the bias. -/
theorem iblk0_3_apply (t : Fin cfg0.N) (x : S1x16.Idx) (q : Fin 16) (hq : (x 1).val = q.val) :
    (iblk0 (V1 m ρ) c 3 t : Vec Ideal S1x16 .f32) x
      = (W0 m ρ c (Proc.devRef .tc main_arg4) : S16.Idx → EReal) (ix1 q) := by
  obtain ⟨-, -, -, -, -, -, e6, e7, -⟩ := idx_facts0 t
  unfold iblk0
  rw [View.read_apply]
  show W1 m ρ c (Proc.devRef .tc main_v11) _ = _
  rw [W1_main_v11]
  refine congrArg (W0 m ρ c (Proc.devRef .tc main_arg4) : S16.Idx → EReal) (congrArg ix1 (Fin.ext ?_))
  show win0_3.index t (1 : Fin 2) * 16 + 1 * (x 1).val = q.val
  rw [e7, hq]; omega

/-- Where an element of an output block sits in the output array. -/
theorem emb4_0 (t : Fin cfg0.N) (j : S5000x16.Idx) :
    ((((cfg0.win 4).blk t).view.emb j) 0).val = 5000 * t.val + (j 0).val := by
  obtain ⟨-, -, -, -, -, -, -, -, e8, -⟩ := idx_facts0 t
  show win0_4.index t (0 : Fin 2) * 5000 + 1 * (j 0).val = _
  rw [e8]; omega
theorem emb4_1 (t : Fin cfg0.N) (j : S5000x16.Idx) :
    ((((cfg0.win 4).blk t).view.emb j) 1).val = (j 1).val := by
  obtain ⟨-, -, -, -, -, -, -, -, -, e9, -⟩ := idx_facts0 t
  show win0_4.index t (1 : Fin 2) * 16 + 1 * (j 1).val = _
  rw [e9]; omega
theorem emb5_0 (t : Fin cfg0.N) (j : S5000x16.Idx) :
    ((((cfg0.win 5).blk t).view.emb j) 0).val = 5000 * t.val + (j 0).val := by
  obtain ⟨-, -, -, -, -, -, -, -, -, -, e10, -⟩ := idx_facts0 t
  show win0_5.index t (0 : Fin 2) * 5000 + 1 * (j 0).val = _
  rw [e10]; omega
theorem emb5_1 (t : Fin cfg0.N) (j : S5000x16.Idx) :
    ((((cfg0.win 5).blk t).view.emb j) 1).val = (j 1).val := by
  obtain ⟨-, -, -, -, -, -, -, -, -, -, -, e11⟩ := idx_facts0 t
  show win0_5.index t (1 : Fin 2) * 16 + 1 * (j 1).val = _
  rw [e11]; omega

/-! ## The two outputs -/

/-- What the first output array holds after the call. -/
def Y1 : S100000x16.Idx → EReal := fun q =>
  y1K (A2 (W0 m ρ c (Proc.devRef .tc main_arg0) : S100000x64.Idx → EReal))
    (A2 (W0 m ρ c (Proc.devRef .tc main_arg3) : S64x16.Idx → EReal)) (q 0) (q 1)

/-- What the second output array holds after the call. -/
def XR1 : S100000x16.Idx → EReal := fun q =>
  xr1K (A2 (W0 m ρ c (Proc.devRef .tc main_arg0) : S100000x64.Idx → EReal))
    (A2 (W0 m ρ c (Proc.devRef .tc main_arg5) : S64x16.Idx → EReal))
    (A1 (W0 m ρ c (Proc.devRef .tc main_arg4) : S16.Idx → EReal)) (q 0) (q 1)

/-- What point t writes back to the first output is its block of Y1. -/
theorem flushed4_eq (t : Fin cfg0.N) :
    (dat0 (V1 m ρ) c).flushed 4 t = ((cfg0.win 4).blk t).view.read (Elt Ideal) (Y1 m ρ c) := by
  show (cfg0.win 4).cut (grid0.coords t) ((dat0 (V1 m ρ) c).after 4 t) = _
  rw [after0_4]
  unfold out0_4
  rw [View.canon_unit_zero hz]
  simp only [View.ld_unit_zero (S := S5000x64) hz, View.ld_unit_zero (S := S64x16) hz]
  funext j
  rw [View.read_apply]
  show k0_pay2 (iblk0 (V1 m ρ) c 0 t) (iblk0 (V1 m ρ) c 1 t) j = Y1 m ρ c (((cfg0.win 4).blk t).view.emb j)
  refine (pay2_apply _ _ j).trans ?_
  unfold Y1 y1K mm A2
  refine Finset.sum_congr rfl fun k _ => ?_
  rw [iblk0_0_apply m ρ c t (ix2 (j 0) k) (ix2 ((((cfg0.win 4).blk t).view.emb j) 0) k) (emb4_0 t j) rfl,
    iblk0_1_apply m ρ c t (ix2 k (j 1)) (ix2 k ((((cfg0.win 4).blk t).view.emb j) 1)) rfl (emb4_1 t j)]

/-- What point t writes back to the second output is its block of XR1. -/
theorem flushed5_eq (t : Fin cfg0.N) :
    (dat0 (V1 m ρ) c).flushed 5 t = ((cfg0.win 5).blk t).view.read (Elt Ideal) (XR1 m ρ c) := by
  show (cfg0.win 5).cut (grid0.coords t) ((dat0 (V1 m ρ) c).after 5 t) = _
  rw [after0_5]
  unfold out0_5
  rw [View.canon_unit_zero hz]
  simp only [View.ld_unit_zero (S := S5000x64) hz, View.ld_unit_zero (S := S64x16) hz, View.ld_unit_zero (S := S1x16) hz]
  funext j
  rw [View.read_apply]
  show k0_pay3 (iblk0 (V1 m ρ) c 0 t) (iblk0 (V1 m ρ) c 2 t) (iblk0 (V1 m ρ) c 3 t) j
    = XR1 m ρ c (((cfg0.win 5).blk t).view.emb j)
  refine (pay3_apply _ _ _ j).trans ?_
  unfold XR1 xr1K mm A2 A1
  refine congrArg₂ (· + ·) (Finset.sum_congr rfl fun k _ => ?_) ?_
  · rw [iblk0_0_apply m ρ c t (ix2 (j 0) k) (ix2 ((((cfg0.win 5).blk t).view.emb j) 0) k) (emb5_0 t j) rfl,
      iblk0_2_apply m ρ c t (ix2 k (j 1)) (ix2 k ((((cfg0.win 5).blk t).view.emb j) 1)) rfl (emb5_1 t j)]
  · exact iblk0_3_apply m ρ c t (ix2 0 (j 1)) ((((cfg0.win 5).blk t).view.emb j) 1) (emb5_1 t j).symm

/-- An index of an output array is in point t's block iff each coordinate is in the block's range. -/
theorem mem_blk4 (t : Fin cfg0.N) (i : S100000x16.Idx) :
    i ∈ ((cfg0.win 4).blk t).view.set ↔ ∀ a : Fin 2, win0_4.index t a * S5000x16.size a ≤ (i a).val ∧ (i a).val < win0_4.index t a * S5000x16.size a + S5000x16.size a := by
  show i ∈ ((View.whole main_v12_0).slice (win0_4.rect t)).set ↔ _
  rw [View.set_slice_whole, Rect.mem_set_unit]
  exact Iff.rfl
theorem mem_blk5 (t : Fin cfg0.N) (i : S100000x16.Idx) :
    i ∈ ((cfg0.win 5).blk t).view.set ↔ ∀ a : Fin 2, win0_5.index t a * S5000x16.size a ≤ (i a).val ∧ (i a).val < win0_5.index t a * S5000x16.size a + S5000x16.size a := by
  show i ∈ ((View.whole main_v12_1).slice (win0_5.rect t)).set ↔ _
  rw [View.set_slice_whole, Rect.mem_set_unit]
  exact Iff.rfl

/-- Row r is written by point r / 5000. -/
theorem cover4 (i : S100000x16.Idx) :
    ∃ t : Fin cfg0.N, (cfg0.win 4).flush t = true ∧ i ∈ ((cfg0.win 4).blk t).view.set := by
  have hi0 : (i 0).val < 100000 := (i 0).isLt
  have hi1 : (i 1).val < 16 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, -, -, e8, e9, -⟩ := idx_facts0 t
  refine ⟨t, flush0_4 t, ?_⟩
  rw [mem_blk4]
  intro a
  match a with
  | ⟨0, _⟩ =>
    show win0_4.index t (0 : Fin 2) * 5000 ≤ (i 0).val ∧ (i 0).val < win0_4.index t (0 : Fin 2) * 5000 + 5000
    rw [e8, ht]; omega
  | ⟨1, _⟩ =>
    show win0_4.index t (1 : Fin 2) * 16 ≤ (i 1).val ∧ (i 1).val < win0_4.index t (1 : Fin 2) * 16 + 16
    rw [e9]; omega
theorem cover5 (i : S100000x16.Idx) :
    ∃ t : Fin cfg0.N, (cfg0.win 5).flush t = true ∧ i ∈ ((cfg0.win 5).blk t).view.set := by
  have hi0 : (i 0).val < 100000 := (i 0).isLt
  have hi1 : (i 1).val < 16 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, -, -, -, -, e10, e11⟩ := idx_facts0 t
  refine ⟨t, flush0_5 t, ?_⟩
  rw [mem_blk5]
  intro a
  match a with
  | ⟨0, _⟩ =>
    show win0_5.index t (0 : Fin 2) * 5000 ≤ (i 0).val ∧ (i 0).val < win0_5.index t (0 : Fin 2) * 5000 + 5000
    rw [e10, ht]; omega
  | ⟨1, _⟩ =>
    show win0_5.index t (1 : Fin 2) * 16 ≤ (i 1).val ∧ (i 1).val < win0_5.index t (1 : Fin 2) * 16 + 16
    rw [e11]; omega

end Seg0

open Seg0

/-! ## The six arrays after the call -/

/-- The source words. -/
theorem s0_v1 : (W2 m ρ c (Proc.devRef .tc main_v1) : S1600000.Idx → BitVec 32)
    = fun q => A2 (W0 m ρ c (Proc.devRef .tc main_arg1) : S2x1600000.Idx → BitVec 32) 0 (q 0) := by
  rw [W2_of_ne m ρ c main_v1 (by decide)]
  show StableHlo.after hostOps0 (W0 m ρ c) (Proc.devRef .tc main_v1) = _
  after_results
  generalize (W0 m ρ c (Proc.devRef .tc main_arg1) : S2x1600000.Idx → BitVec 32) = X
  funext q
  obtain ⟨e, rfl⟩ : ∃ e : Fin 1600000, q = ix1 e := ⟨q 0, eq_ix1 q⟩
  show shapeCast S1600000 (extractStridedSlice S1x1600000 ![0, 0] X slices_S2x1600000_S1x1600000_0_0) shapeCasts_S1x1600000_S1600000 (ix1 e) = X (ix2 0 e)
  refine (shapeCast_apply _ _ (ix1 e) (ix2 0 e) ?_).trans ?_
  · rw [Shape.rowMajor_val_two, Shape.rowMajor_val_one]
    show 0 * 1600000 + e.val = e.val
    omega
  · refine extractStridedSlice_apply _ _ _ (ix2 0 e) (ix2 0 e) fun a => ?_
    match a with
    | ⟨0, _⟩ => rfl
    | ⟨1, _⟩ => show e.val = 0 + e.val; omega

/-- The target words. -/
theorem s0_v3 : (W2 m ρ c (Proc.devRef .tc main_v3) : S1600000.Idx → BitVec 32)
    = fun q => A2 (W0 m ρ c (Proc.devRef .tc main_arg1) : S2x1600000.Idx → BitVec 32) 1 (q 0) := by
  rw [W2_of_ne m ρ c main_v3 (by decide)]
  show StableHlo.after hostOps0 (W0 m ρ c) (Proc.devRef .tc main_v3) = _
  after_results
  generalize (W0 m ρ c (Proc.devRef .tc main_arg1) : S2x1600000.Idx → BitVec 32) = X
  funext q
  obtain ⟨e, rfl⟩ : ∃ e : Fin 1600000, q = ix1 e := ⟨q 0, eq_ix1 q⟩
  exact v3_apply X e

/-- The segment words as a column. -/
theorem s0_v4 : (W2 m ρ c (Proc.devRef .tc main_v4) : S100000x1.Idx → BitVec 32)
    = fun q => A1 (W0 m ρ c (Proc.devRef .tc main_arg2) : S100000.Idx → BitVec 32) (q 0) := by
  rw [W2_of_ne m ρ c main_v4 (by decide)]
  show StableHlo.after hostOps0 (W0 m ρ c) (Proc.devRef .tc main_v4) = _
  after_results
  generalize (W0 m ρ c (Proc.devRef .tc main_arg2) : S100000.Idx → BitVec 32) = X
  funext q
  obtain ⟨e, z, rfl⟩ : ∃ (e : Fin 100000) (z : Fin 1), q = ix2 e z := ⟨q 0, q 1, eq_ix2 q⟩
  show shapeCast S100000x1 X shapeCasts_S100000_S100000x1 (ix2 e z) = X (ix1 e)
  refine shapeCast_apply _ _ (ix2 e z) (ix1 e) ?_
  rw [Shape.rowMajor_val_two, Shape.rowMajor_val_one]
  show e.val = e.val * 1 + z.val
  omega

/-- The clamped in-degrees as a column. -/
theorem s0_v10 : (W2 m ρ c (Proc.devRef .tc main_v10) : S100000x1.Idx → EReal)
    = fun q => cnt (A2 (W0 m ρ c (Proc.devRef .tc main_arg1) : S2x1600000.Idx → BitVec 32)) (q 0) := by
  rw [W2_of_ne m ρ c main_v10 (by decide)]
  show StableHlo.after hostOps0 (W0 m ρ c) (Proc.devRef .tc main_v10) = _
  after_results
  generalize (W0 m ρ c (Proc.devRef .tc main_arg1) : S2x1600000.Idx → BitVec 32) = X
  funext q
  obtain ⟨i, z, rfl⟩ : ∃ (i : Fin 100000) (z : Fin 1), q = ix2 i z := ⟨q 0, q 1, eq_ix2 q⟩
  refine (maximumf_apply _ _ (ix2 i z)).trans ?_
  rw [scatterAdd_ideal]
  refine cnt_eq X _ (fun e => ?_) i z
  exact v3_apply X e

/-- The first output: the features times the first matrix. -/
theorem s0_y1 : (W2 m ρ c (Proc.devRef .tc main_v12_0) : S100000x16.Idx → EReal)
    = fun q => y1K (A2 (W0 m ρ c (Proc.devRef .tc main_arg0) : S100000x64.Idx → EReal))
        (A2 (W0 m ρ c (Proc.devRef .tc main_arg3) : S64x16.Idx → EReal)) (q 0) (q 1) :=
  (W2_arr m ρ c 4).trans
    ((dat0 (V1 m ρ) c).arrAt_eq_of_cover 4 (Y1 m ρ c) (fun t _ => flushed4_eq m ρ c t) cover4)

/-- The second output: the features times the second matrix, plus the bias. -/
theorem s0_xr1 : (W2 m ρ c (Proc.devRef .tc main_v12_1) : S100000x16.Idx → EReal)
    = fun q => xr1K (A2 (W0 m ρ c (Proc.devRef .tc main_arg0) : S100000x64.Idx → EReal))
        (A2 (W0 m ρ c (Proc.devRef .tc main_arg5) : S64x16.Idx → EReal))
        (A1 (W0 m ρ c (Proc.devRef .tc main_arg4) : S16.Idx → EReal)) (q 0) (q 1) :=
  (W2_arr m ρ c 5).trans
    ((dat0 (V1 m ρ) c).arrAt_eq_of_cover 5 (XR1 m ρ c) (fun t _ => flushed5_eq m ρ c t) cover5)

end Cert.KernelIdeal.KV

end
-- ==== Proof.KSeg1Host.lean ====
import proofs.«407675_j64304250356442_3_alg».proof.Proof.Gen.KernelIdeal.Frame
import proofs.«407675_j64304250356442_3_alg».proof.Proof.Spec
import proofs.«407675_j64304250356442_3_alg».proof.Proof.LibScatter
import Idealize.ShloMosaic.Lib.Pipeline.Value
import Idealize.ShloMosaic.Lib.IdealHost
import Idealize.ShloMosaic.Lib.Affine

set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (ρ : Dev nD → PrngReg) (c : Dev nD)

/-! # The second host stretch

The rows of the first output gathered along the edges, added up at the edges' targets and divided by the
clamped in-degrees; the node's own branch passes through untouched.

Read one element at a time: an edge's source word (a negative one moved up by the number of nodes, then
clamped) names the row it gathers, the accumulating scatter adds that row into the node its target word
names, and the quotient by the clamped in-degree gives the neighbourhood average. -/

namespace Seg1H

/-! ## The host stretch -/

/-- The source word chain at one word: compare with zero, add the node count, select. -/
theorem select_src (x : BitVec 32) :
    Scalar.select (IntOp.cmpi .slt x 0#32) (IntOp.addi x 100000#32) x
      = if x.toInt < 0 then x + 100000#32 else x := by
  by_cases h : x.toInt < 0
  · rw [if_pos h]
    have : IntOp.cmpi .slt x 0#32 = 1#1 := IntOp.cmpi_slt.mpr (by simpa using h)
    rw [this, select_one]; rfl
  · rw [if_neg h]
    have : IntOp.cmpi .slt x 0#32 = 0#1 := eq_zero_of_ne_one (fun e => h (by simpa using IntOp.cmpi_slt.mp e))
    rw [this, select_zero]

/-- A vector of words broadcast to a column, read at a row. -/
theorem bcol_apply (v : S1600000.Idx → BitVec 32) (e : Fin 1600000) :
    broadcastInDim S1600000x1 ![0] bcast_S1600000_S1600000x1_0 v (ix2 e (0 : Fin 1)) = v (ix1 e) :=
  broadcastInDim_apply _ _ v (ix2 e (0 : Fin 1)) (ix1 e) (fun a => match a with | ⟨0, _⟩ => rfl)

/-- A column broadcast along the columns, read at an element. -/
theorem bcnt_apply (v : S100000x1.Idx → EReal) (i : Fin 100000) (j : Fin 16) :
    broadcastInDim S100000x16 ![0, 1] bcast_S100000x1_S100000x16_0_1 v (ix2 i j) = v (ix2 i (0 : Fin 1)) :=
  broadcastInDim_apply _ _ v (ix2 i j) (ix2 i (0 : Fin 1)) (fun a => match a with | ⟨0, _⟩ => rfl | ⟨1, _⟩ => rfl)

/-- The column of source words at an edge is the edge's source word. -/
theorem srcw_apply (ei : Fin 2 → Fin 1600000 → BitVec 32) (s : S1600000.Idx → BitVec 32) (hs : s = fun q => ei 0 (q 0)) (e : Fin 1600000) :
    broadcastInDim S1600000x1 ![0] bcast_S1600000_S1600000x1_0
      (select (cmpi .slt s (broadcastInDim S1600000 ![] bcast_S_S1600000 (constantI S_ 32 0#32)))
        (addi s (broadcastInDim S1600000 ![] bcast_S_S1600000 (constantI S_ 32 100000#32))) s) (ix2 e (0 : Fin 1))
      = srcWord ei e := by
  rw [bcol_apply]
  subst hs
  show Scalar.select (IntOp.cmpi .slt (ei 0 e) 0#32) (IntOp.addi (ei 0 e) 100000#32) (ei 0 e) = _
  rw [select_src]; rfl

/-- The accumulating scatter of the stretch at an element. -/
theorem scat_apply (x : FVec Ideal S100000x16 .f32) (idx : IVec S1600000x1 32) (upd : FVec Ideal S1600000x16 .f32)
    (i : Fin 100000) (j : Fin 16) :
    Host.scatterAdd (F := Ideal) (φ := .f32) scatter_S100000x16_S1600000x1_S1600000x16_1_0_0_1 x idx upd (ix2 i j)
      = x (ix2 i j) + ∑ e : Fin 1600000, if (idx (ix2 e (0 : Fin 1))).toInt = (i.val : Int) then upd (ix2 e j) else 0 :=
  Cert.LibScatter.hostScatterAdd_rows scatter_S100000x16_S1600000x1_S1600000x16_1_0_0_1 rfl rfl rfl rfl x idx upd i j

/-- The gather of the stretch at an element. -/
theorem gath_apply (y : FVec Ideal S100000x16 .f32) (idx : IVec S1600000x1 32) (e : Fin 1600000) (j : Fin 16) :
    Host.gather gather_S100000x16_S1600000x1_S1600000x16_1_0_n_n_0_1_116 y idx (ix2 e j)
      = y (ix2 (⟨min (idx (ix2 e (0 : Fin 1))).toInt.toNat 99999, by omega⟩ : Fin 100000) j) :=
  Cert.LibScatter.gather_rows gather_S100000x16_S1600000x1_S1600000x16_1_0_n_n_0_1_116 rfl rfl rfl rfl rfl rfl rfl (by decide) y idx e j

/-- What an edge delivers: the row of the table its source word names. -/
theorem edge_term (ei : Fin 2 → Fin 1600000 → BitVec 32) (Y : Fin 100000 → Fin 16 → EReal)
    (y : FVec Ideal S100000x16 .f32) (hy : y = fun q => Y (q 0) (q 1))
    (s : S1600000.Idx → BitVec 32) (hs : s = fun q => ei 0 (q 0)) (e : Fin 1600000) (j : Fin 16) :
    Host.gather gather_S100000x16_S1600000x1_S1600000x16_1_0_n_n_0_1_116 y
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32))) s)) (ix2 e j)
      = Y (srow ei e) j := by
  rw [gath_apply, hy]
  show Y _ j = Y (srow ei e) j
  exact congrArg (fun z => Y z j) (Fin.ext (congrArg (fun w : BitVec 32 => min w.toInt.toNat 99999) (srcw_apply ei s hs e)))

set_option maxHeartbeats 1000000 in
/-- The host stretch leaves the neighbourhood average of the rows it reads. -/
theorem host_avg (V : Valuation τ sig (Elt Ideal)) (ei : Fin 2 → Fin 1600000 → BitVec 32) (Y : Fin 100000 → Fin 16 → EReal)
    (hy : (V (Proc.devRef .tc main_v12_0) : S100000x16.Idx → EReal) = fun q => Y (q 0) (q 1))
    (hs : (V (Proc.devRef .tc main_v1) : S1600000.Idx → BitVec 32) = fun q => ei 0 (q 0))
    (hd : (V (Proc.devRef .tc main_v3) : S1600000.Idx → BitVec 32) = fun q => ei 1 (q 0))
    (hc : (V (Proc.devRef .tc main_v10) : S100000x1.Idx → EReal) = fun q => cnt ei (q 0)) :
    (StableHlo.after hostOps1 V (Proc.devRef .tc main_v24) : S100000x16.Idx → EReal)
      = fun q => agg ei Y (q 0) (q 1) := by
  after_results_simp
  funext q
  obtain ⟨i, j, rfl⟩ : ∃ (i : Fin 100000) (j : Fin 16), q = ix2 i j := ⟨q 0, q 1, eq_ix2 q⟩
  refine (hostDivf_apply _ _ (ix2 i j)).trans ?_
  rw [bcnt_apply, scat_apply, broadcastInDim_scalar_apply, hc]
  show Ideal.div (Ideal.ofBits .f32 0x00000000#32 + _) (cnt ei i) = Ideal.div (aggsum ei Y i j) (cnt ei i)
  rw [Ideal.ofBits_zero_f32, zero_add]
  refine congrArg (fun z => Ideal.div z (cnt ei i)) ?_
  unfold aggsum
  refine Finset.sum_congr rfl fun e _ => ?_
  rw [bcol_apply, hd, edge_term ei Y _ hy _ hs]
  rfl

/-- The node's own branch is written by no operation of the stretch. -/
theorem host_keep_xr (V : Valuation τ sig (Elt Ideal)) :
    StableHlo.after hostOps1 V (Proc.devRef .tc main_v12_1) = V (Proc.devRef .tc main_v12_1) := by
  after_results_simp

end Seg1H

section
variable (ei : Fin 2 → Fin 1600000 → BitVec 32) (Y : Fin 100000 → Fin 16 → EReal)
  (hy : (W2 m ρ c (Proc.devRef .tc main_v12_0) : S100000x16.Idx → EReal) = fun q => Y (q 0) (q 1))
  (hs : (W2 m ρ c (Proc.devRef .tc main_v1) : S1600000.Idx → BitVec 32) = fun q => ei 0 (q 0))
  (hd : (W2 m ρ c (Proc.devRef .tc main_v3) : S1600000.Idx → BitVec 32) = fun q => ei 1 (q 0))
  (hc : (W2 m ρ c (Proc.devRef .tc main_v10) : S100000x1.Idx → EReal) = fun q => cnt ei (q 0))
include hy hs hd hc

/-- The neighbourhood average of the first output. -/
theorem host1_avg : (W3 m ρ c (Proc.devRef .tc main_v24) : S100000x16.Idx → EReal)
    = fun q => agg ei Y (q 0) (q 1) := by
  exact Seg1H.host_avg (W2 m ρ c) ei Y hy hs hd hc
end

/-- The node's own branch passes through the stretch. -/
theorem host1_xr : W3 m ρ c (Proc.devRef .tc main_v12_1) = W2 m ρ c (Proc.devRef .tc main_v12_1) := by
  exact Seg1H.host_keep_xr (W2 m ρ c)

end Cert.KernelIdeal.KV

end
-- ==== Proof.KSeg1.lean ====
import proofs.«407675_j64304250356442_3_alg».proof.Proof.Gen.KernelIdeal.Frame
import proofs.«407675_j64304250356442_3_alg».proof.Proof.Spec
import proofs.«407675_j64304250356442_3_alg».proof.Proof.Consts
import proofs.«407675_j64304250356442_3_alg».proof.Proof.KSeg1Host
import Idealize.ShloMosaic.Lib.Pipeline.Value
import Idealize.ShloMosaic.Lib.IdealHost

set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (ρ : Dev nD → PrngReg) (c : Dev nD)

/-! # The second host stretch and the second kernel call

The host stretch gathers the rows of the first output along the edges, adds them up at the edges'
targets and divides by the clamped in-degrees; the kernel call adds the node's own branch, rectifies,
and writes the result together with each tile's column sums and column sums of squares.

The host stretch's two facts (the neighbourhood average, and the node's own branch passing through) are
taken from the module on that stretch. The kernel call is read one tile at a time: the rectified sum is pointwise, and the two reductions sum
the 5000 rows of the tile column by column. Tile t's block of the first output is rows 5000 t to
5000 t + 4999 of its array and its block of either statistic is slab t of that array, so the twenty
tiles fill the three arrays. -/

namespace Seg1

/-! ## The kernel call's payloads at an index -/

/-- The rectified sum at one element. -/
theorem pay1_apply (x0 x1 : Vec Ideal S5000x16 .f32) (y : S5000x16.Idx) :
    k1_pay1 x0 x1 y = max (x0 y + x1 y) 0 := by
  unfold k1_pay1
  show max (shapeCast S5000x16 x0 shapeCasts_S5000x16_S5000x16 y + shapeCast S5000x16 x1 shapeCasts_S5000x16_S5000x16 y)
    (Ideal.ofBits .f32 0x00000000#32) = _
  rw [shapeCast_self, shapeCast_self, ofBits_zero]

/-- A vector of 16 made a 1 x 1 x 16 block, read at an element. -/
theorem cast2_apply (v : S16.Idx → EReal) (u z : Fin 1) (f : Fin 16) :
    shapeCast S1x1x16 (shapeCast S1x16 v shapeCasts_S16_S1x16) shapeCasts_S1x16_S1x1x16 (ix3 u z f) = v (ix1 f) := by
  refine (shapeCast_addUnit_apply _ _ _ _).trans ?_
  refine (shapeCast_addUnit_apply _ _ _ _).trans ?_
  exact congrArg v (funext fun d => by match d with | ⟨0, _⟩ => rfl)

/-- The column sums of a 5000 x 16 block, read at a column: the sum over the block's rows. -/
theorem colsum_apply (src : FVec Ideal S5000x16 .f32) (hacc : (0x00000000#32 : BitVec 32) = 0x00000000#32) (f : Fin 16) :
    multiReduction (F := Ideal) .add [0] S16 src 0x00000000#32 reduces_S5000x16_S16 (.inl rfl) hacc (ix1 f)
      = ∑ r : Fin 5000, src (ix2 r f) := by
  refine (Ideal.multiReduction_add_single src 0x00000000#32 reduces_S5000x16_S16 (.inl rfl) hacc (ix1 f)).trans ?_
  refine Finset.sum_congr rfl fun r _ => congrArg src (funext fun d => Fin.ext ?_)
  match d with
  | ⟨0, _⟩ => rfl
  | ⟨1, _⟩ => rfl

/-- The tile's column sums of the rectified sum. -/
theorem pay2_apply (x0 x1 : Vec Ideal S5000x16 .f32) (u z : Fin 1) (f : Fin 16) :
    k1_pay2 x0 x1 (ix3 u z f) = ∑ r : Fin 5000, max (x0 (ix2 r f) + x1 (ix2 r f)) 0 := by
  unfold k1_pay2
  refine (cast2_apply _ u z f).trans ?_
  refine (colsum_apply _ rfl f).trans ?_
  exact Finset.sum_congr rfl fun r _ => pay1_apply x0 x1 (ix2 r f)

/-- The tile's column sums of the squares of the rectified sum. -/
theorem pay3_apply (x0 x1 : Vec Ideal S5000x16 .f32) (u z : Fin 1) (f : Fin 16) :
    k1_pay3 x0 x1 (ix3 u z f)
      = ∑ r : Fin 5000, max (x0 (ix2 r f) + x1 (ix2 r f)) 0 * max (x0 (ix2 r f) + x1 (ix2 r f)) 0 := by
  unfold k1_pay3
  refine (cast2_apply _ u z f).trans ?_
  refine (colsum_apply _ rfl f).trans ?_
  refine Finset.sum_congr rfl fun r _ => ?_
  show k1_pay1 x0 x1 (ix2 r f) * k1_pay1 x0 x1 (ix2 r f) = _
  rw [pay1_apply]

/-! ## From the tiles to the arrays -/

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: every window's block number is the point's number on axis 0 and zero elsewhere. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 3) = t.val ∧ win1_3.index t (1 : Fin 3) = 0 ∧ win1_3.index t (2 : Fin 3) = 0
    ∧ win1_4.index t (0 : Fin 3) = t.val ∧ win1_4.index t (1 : Fin 3) = 0 ∧ win1_4.index t (2 : Fin 3) = 0 :=
  (by decide +kernel : ∀ t : Fin grid1.N, _)

theorem lt20 (t : Fin cfg1.N) : t.val < 20 := by
  have h := t.isLt
  have e : cfg1.N = 20 := N_1
  omega

section Blocks
variable (V : (c : Dev nD) → (b : Ref sig .tc) → Buf (Elt Ideal) ((c : Thread nD τ).loc b))

/-- Tile t of the neighbourhood-average window reads the array at the tile's nodes. -/
theorem blk0_apply (A : S100000x16.Idx → EReal) (hA : (V c main_v24 : S100000x16.Idx → EReal) = A)
    (t : Fin cfg1.N) (r : Fin 5000) (f : Fin 16) :
    iblk1 V c 0 t (ix2 r f) = A (ix2 (node ⟨t.val, lt20 t⟩ r) f) := by
  show V c main_v24 (((cfg1.win 0).blk t).view.emb (ix2 r f)) = _
  rw [hA]
  refine congrArg A (funext fun a => Fin.ext ?_)
  obtain ⟨e0, e1, -⟩ := idx_facts1 t
  match a with
  | ⟨0, _⟩ => show win1_0.index t (0 : Fin 2) * 5000 + 1 * r.val = 5000 * t.val + r.val; omega
  | ⟨1, _⟩ => show win1_0.index t (1 : Fin 2) * 16 + 1 * f.val = f.val; omega

/-- Tile t of the own-branch window reads the array at the tile's nodes. -/
theorem blk1_apply (A : S100000x16.Idx → EReal) (hA : (V c main_v12_1 : S100000x16.Idx → EReal) = A)
    (t : Fin cfg1.N) (r : Fin 5000) (f : Fin 16) :
    iblk1 V c 1 t (ix2 r f) = A (ix2 (node ⟨t.val, lt20 t⟩ r) f) := by
  show V c main_v12_1 (((cfg1.win 1).blk t).view.emb (ix2 r f)) = _
  rw [hA]
  refine congrArg A (funext fun a => Fin.ext ?_)
  obtain ⟨-, -, e0, e1, -⟩ := idx_facts1 t
  match a with
  | ⟨0, _⟩ => show win1_1.index t (0 : Fin 2) * 5000 + 1 * r.val = 5000 * t.val + r.val; omega
  | ⟨1, _⟩ => show win1_1.index t (1 : Fin 2) * 16 + 1 * f.val = f.val; omega

end Blocks

theorem fn_congr {α : Type} (H : Fin 100000 → Fin 16 → α)
    (i i' : Fin 100000) (j j' : Fin 16) (hi : i.val = i'.val) (hj : j.val = j'.val) : H i j = H i' j' := by
  obtain rfl := Fin.ext hi; obtain rfl := Fin.ext hj; rfl

theorem tile_congr {α : Type} (T : Fin 20 → Fin 16 → α) (t t' : Fin 20) (f f' : Fin 16)
    (ht : t.val = t'.val) (hf : f.val = f'.val) : T t f = T t' f' := by
  obtain rfl := Fin.ext ht; obtain rfl := Fin.ext hf; rfl

/-! The three write-backs hold for ANY two input arrays A (the first window's) and X (the second's) and
any H with H i j = max (A i j + X i j) 0; the layer's own arrays are one instance. -/

section Flush
variable (V : (c : Dev nD) → (b : Ref sig .tc) → Buf (Elt Ideal) ((c : Thread nD τ).loc b))
  (A X H : Fin 100000 → Fin 16 → EReal) (hH : ∀ i j, H i j = max (A i j + X i j) 0)
  (h0 : (V c main_v24 : S100000x16.Idx → EReal) = fun q => A (q 0) (q 1))
  (h1 : (V c main_v12_1 : S100000x16.Idx → EReal) = fun q => X (q 0) (q 1))
include hH h0 h1

/-- What point t writes back to the layer's output is tile t of the rectified sum. -/
theorem flushed2 (t : Fin cfg1.N) :
    (dat1 V c).flushed 2 t = ((cfg1.win 2).blk t).view.read (Elt Ideal)
      (fun q : S100000x16.Idx => H (q 0) (q 1)) := by
  show (cfg1.win 2).cut (grid1.coords t) ((dat1 V c).after 2 t) = _
  rw [after1_2]
  unfold out1_2
  rw [View.canon_unit_zero hz2]
  simp only [View.ld_unit_zero (S := S5000x16) hz2]
  funext y
  obtain ⟨r, f, rfl⟩ : ∃ (r : Fin 5000) (f : Fin 16), y = ix2 r f := ⟨y 0, y 1, eq_ix2 y⟩
  show k1_pay1 (iblk1 V c 0 t) (iblk1 V c 1 t) (ix2 r f)
    = H (((cfg1.win 2).blk t).view.emb (ix2 r f) 0) (((cfg1.win 2).blk t).view.emb (ix2 r f) 1)
  obtain ⟨-, -, -, -, e0, e1, -⟩ := idx_facts1 t
  refine Eq.trans ?_ (fn_congr H (node ⟨t.val, lt20 t⟩ r) _ f _ ?_ ?_)
  · refine (pay1_apply _ _ (ix2 r f)).trans ?_
    rw [blk0_apply c V _ h0, blk1_apply c V _ h1]
    exact (hH _ _).symm
  · show 5000 * t.val + r.val = win1_2.index t (0 : Fin 2) * 5000 + 1 * r.val; omega
  · show f.val = win1_2.index t (1 : Fin 2) * 16 + 1 * f.val; omega

/-- What point t writes back to the column-sum array is tile t's column sums. -/
theorem flushed3 (T : Fin 20 → Fin 16 → EReal) (hT : ∀ t f, T t f = ∑ r : Fin 5000, H (node t r) f) (t : Fin cfg1.N) :
    (dat1 V c).flushed 3 t = ((cfg1.win 3).blk t).view.read (Elt Ideal)
      (fun q : S20x1x16.Idx => T (q 0) (q 2)) := by
  show (cfg1.win 3).cut (grid1.coords t) ((dat1 V c).after 3 t) = _
  rw [after1_3]
  unfold out1_3
  rw [View.canon_unit_zero hz3]
  simp only [View.ld_unit_zero (S := S5000x16) hz2]
  funext y
  obtain ⟨u, z, f, rfl⟩ : ∃ (u : Fin 1) (z : Fin 1) (f : Fin 16), y = ix3 u z f := ⟨y 0, y 1, y 2, eq_ix3 y⟩
  show k1_pay2 (iblk1 V c 0 t) (iblk1 V c 1 t) (ix3 u z f)
    = T (((cfg1.win 3).blk t).view.emb (ix3 u z f) 0) (((cfg1.win 3).blk t).view.emb (ix3 u z f) 2)
  obtain ⟨-, -, -, -, -, -, e0, e1, e2, -⟩ := idx_facts1 t
  have hu := u.isLt
  refine Eq.trans ?_ (tile_congr T ⟨t.val, lt20 t⟩ _ f _ ?_ ?_)
  · refine (pay2_apply _ _ u z f).trans ?_
    rw [hT]
    refine Finset.sum_congr rfl fun r _ => ?_
    rw [blk0_apply c V _ h0, blk1_apply c V _ h1]
    exact (hH _ _).symm
  · show t.val = win1_3.index t (0 : Fin 3) * 1 + 1 * u.val; omega
  · show f.val = win1_3.index t (2 : Fin 3) * 16 + 1 * f.val; omega

/-- What point t writes back to the array of column sums of squares is tile t's. -/
theorem flushed4 (Q : Fin 20 → Fin 16 → EReal) (hQ : ∀ t f, Q t f = ∑ r : Fin 5000, H (node t r) f * H (node t r) f)
    (t : Fin cfg1.N) :
    (dat1 V c).flushed 4 t = ((cfg1.win 4).blk t).view.read (Elt Ideal)
      (fun q : S20x1x16.Idx => Q (q 0) (q 2)) := by
  show (cfg1.win 4).cut (grid1.coords t) ((dat1 V c).after 4 t) = _
  rw [after1_4]
  unfold out1_4
  rw [View.canon_unit_zero hz3]
  simp only [View.ld_unit_zero (S := S5000x16) hz2]
  funext y
  obtain ⟨u, z, f, rfl⟩ : ∃ (u : Fin 1) (z : Fin 1) (f : Fin 16), y = ix3 u z f := ⟨y 0, y 1, y 2, eq_ix3 y⟩
  show k1_pay3 (iblk1 V c 0 t) (iblk1 V c 1 t) (ix3 u z f)
    = Q (((cfg1.win 4).blk t).view.emb (ix3 u z f) 0) (((cfg1.win 4).blk t).view.emb (ix3 u z f) 2)
  obtain ⟨-, -, -, -, -, -, -, -, -, e0, e1, e2⟩ := idx_facts1 t
  have hu := u.isLt
  refine Eq.trans ?_ (tile_congr Q ⟨t.val, lt20 t⟩ _ f _ ?_ ?_)
  · refine (pay3_apply _ _ u z f).trans ?_
    rw [hQ]
    refine Finset.sum_congr rfl fun r _ => ?_
    rw [blk0_apply c V _ h0, blk1_apply c V _ h1]
    exact congrArg₂ (fun a b : EReal => a * b) (hH (node ⟨t.val, lt20 t⟩ r) f).symm (hH (node ⟨t.val, lt20 t⟩ r) f).symm
  · show t.val = win1_4.index t (0 : Fin 3) * 1 + 1 * u.val; omega
  · show f.val = win1_4.index t (2 : Fin 3) * 16 + 1 * f.val; omega

end Flush

/-- An index of the layer's output is in point t's block iff each coordinate is in the block's range. -/
theorem mem_blk2 (t : Fin cfg1.N) (i : S100000x16.Idx) :
    i ∈ ((cfg1.win 2).blk t).view.set ↔ ∀ a : Fin 2, win1_2.index t a * S5000x16.size a ≤ (i a).val ∧ (i a).val < win1_2.index t a * S5000x16.size a + S5000x16.size a := by
  show i ∈ ((View.whole main_v25_0).slice (win1_2.rect t)).set ↔ _
  rw [View.set_slice_whole, Rect.mem_set_unit]
  exact Iff.rfl

theorem mem_blk3 (t : Fin cfg1.N) (i : S20x1x16.Idx) :
    i ∈ ((cfg1.win 3).blk t).view.set ↔ ∀ a : Fin 3, win1_3.index t a * S1x1x16.size a ≤ (i a).val ∧ (i a).val < win1_3.index t a * S1x1x16.size a + S1x1x16.size a := by
  show i ∈ ((View.whole main_v25_1).slice (win1_3.rect t)).set ↔ _
  rw [View.set_slice_whole, Rect.mem_set_unit]
  exact Iff.rfl

theorem mem_blk4 (t : Fin cfg1.N) (i : S20x1x16.Idx) :
    i ∈ ((cfg1.win 4).blk t).view.set ↔ ∀ a : Fin 3, win1_4.index t a * S1x1x16.size a ≤ (i a).val ∧ (i a).val < win1_4.index t a * S1x1x16.size a + S1x1x16.size a := by
  show i ∈ ((View.whole main_v25_2).slice (win1_4.rect t)).set ↔ _
  rw [View.set_slice_whole, Rect.mem_set_unit]
  exact Iff.rfl

/-- Row i of the layer's output is in the block of point i / 5000. -/
theorem cover2 (i : S100000x16.Idx) : ∃ t : Fin cfg1.N, (cfg1.win 2).flush t = true ∧ i ∈ ((cfg1.win 2).blk t).view.set := by
  have hi0 : (i 0).val < 100000 := (i 0).isLt
  have hi1 : (i 1).val < 16 := (i 1).isLt
  have hN : (i 0).val / 5000 < cfg1.N := by rw [show cfg1.N = 20 from N_1]; omega
  refine ⟨⟨(i 0).val / 5000, hN⟩, flush1_2 _, ?_⟩
  rw [mem_blk2]
  obtain ⟨-, -, -, -, e0, e1, -⟩ := idx_facts1 ⟨(i 0).val / 5000, hN⟩
  have e0' : win1_2.index ⟨(i 0).val / 5000, hN⟩ (0 : Fin 2) = (i 0).val / 5000 := e0
  intro a
  match a with
  | ⟨0, _⟩ => show win1_2.index ⟨(i 0).val / 5000, hN⟩ (0 : Fin 2) * 5000 ≤ (i 0).val ∧ (i 0).val < win1_2.index ⟨(i 0).val / 5000, hN⟩ (0 : Fin 2) * 5000 + 5000; omega
  | ⟨1, _⟩ => show win1_2.index ⟨(i 0).val / 5000, hN⟩ (1 : Fin 2) * 16 ≤ (i 1).val ∧ (i 1).val < win1_2.index ⟨(i 0).val / 5000, hN⟩ (1 : Fin 2) * 16 + 16; omega

/-- Slab t of the column-sum array is point t's block. -/
theorem cover3 (i : S20x1x16.Idx) : ∃ t : Fin cfg1.N, (cfg1.win 3).flush t = true ∧ i ∈ ((cfg1.win 3).blk t).view.set := by
  have hi0 : (i 0).val < 20 := (i 0).isLt
  have hi1 : (i 1).val < 1 := (i 1).isLt
  have hi2 : (i 2).val < 16 := (i 2).isLt
  have hN : (i 0).val < cfg1.N := by rw [show cfg1.N = 20 from N_1]; exact hi0
  refine ⟨⟨(i 0).val, hN⟩, flush1_3 _, ?_⟩
  rw [mem_blk3]
  obtain ⟨-, -, -, -, -, -, e0, e1, e2, -⟩ := idx_facts1 ⟨(i 0).val, hN⟩
  have e0' : win1_3.index ⟨(i 0).val, hN⟩ (0 : Fin 3) = (i 0).val := e0
  intro a
  match a with
  | ⟨0, _⟩ => show win1_3.index ⟨(i 0).val, hN⟩ (0 : Fin 3) * 1 ≤ (i 0).val ∧ (i 0).val < win1_3.index ⟨(i 0).val, hN⟩ (0 : Fin 3) * 1 + 1; omega
  | ⟨1, _⟩ => show win1_3.index ⟨(i 0).val, hN⟩ (1 : Fin 3) * 1 ≤ (i 1).val ∧ (i 1).val < win1_3.index ⟨(i 0).val, hN⟩ (1 : Fin 3) * 1 + 1; omega
  | ⟨2, _⟩ => show win1_3.index ⟨(i 0).val, hN⟩ (2 : Fin 3) * 16 ≤ (i 2).val ∧ (i 2).val < win1_3.index ⟨(i 0).val, hN⟩ (2 : Fin 3) * 16 + 16; omega

/-- Slab t of the array of column sums of squares is point t's block. -/
theorem cover4 (i : S20x1x16.Idx) : ∃ t : Fin cfg1.N, (cfg1.win 4).flush t = true ∧ i ∈ ((cfg1.win 4).blk t).view.set := by
  have hi0 : (i 0).val < 20 := (i 0).isLt
  have hi1 : (i 1).val < 1 := (i 1).isLt
  have hi2 : (i 2).val < 16 := (i 2).isLt
  have hN : (i 0).val < cfg1.N := by rw [show cfg1.N = 20 from N_1]; exact hi0
  refine ⟨⟨(i 0).val, hN⟩, flush1_4 _, ?_⟩
  rw [mem_blk4]
  obtain ⟨-, -, -, -, -, -, -, -, -, e0, e1, e2⟩ := idx_facts1 ⟨(i 0).val, hN⟩
  have e0' : win1_4.index ⟨(i 0).val, hN⟩ (0 : Fin 3) = (i 0).val := e0
  intro a
  match a with
  | ⟨0, _⟩ => show win1_4.index ⟨(i 0).val, hN⟩ (0 : Fin 3) * 1 ≤ (i 0).val ∧ (i 0).val < win1_4.index ⟨(i 0).val, hN⟩ (0 : Fin 3) * 1 + 1; omega
  | ⟨1, _⟩ => show win1_4.index ⟨(i 0).val, hN⟩ (1 : Fin 3) * 1 ≤ (i 1).val ∧ (i 1).val < win1_4.index ⟨(i 0).val, hN⟩ (1 : Fin 3) * 1 + 1; omega
  | ⟨2, _⟩ => show win1_4.index ⟨(i 0).val, hN⟩ (2 : Fin 3) * 16 ≤ (i 2).val ∧ (i 2).val < win1_4.index ⟨(i 0).val, hN⟩ (2 : Fin 3) * 16 + 16; omega

end Seg1

section
variable (ei : Fin 2 → Fin 1600000 → BitVec 32) (Y XR : Fin 100000 → Fin 16 → EReal)
  (hy : (W2 m ρ c (Proc.devRef .tc main_v12_0) : S100000x16.Idx → EReal) = fun q => Y (q 0) (q 1))
  (hx : (W2 m ρ c (Proc.devRef .tc main_v12_1) : S100000x16.Idx → EReal) = fun q => XR (q 0) (q 1))
  (hs : (W2 m ρ c (Proc.devRef .tc main_v1) : S1600000.Idx → BitVec 32) = fun q => ei 0 (q 0))
  (hd : (W2 m ρ c (Proc.devRef .tc main_v3) : S1600000.Idx → BitVec 32) = fun q => ei 1 (q 0))
  (hc : (W2 m ρ c (Proc.devRef .tc main_v10) : S100000x1.Idx → EReal) = fun q => cnt ei (q 0))
include hy hx hs hd hc

/-- The layer's output. -/
theorem s1_h : (W4 m ρ c (Proc.devRef .tc main_v25_0) : S100000x16.Idx → EReal)
    = fun q => hrelu ei Y XR (q 0) (q 1) := by
  have e0 : (V3 m ρ c main_v24 : S100000x16.Idx → EReal) = fun q => agg ei Y (q 0) (q 1) :=
    host1_avg m ρ c ei Y hy hs hd hc
  have e1 : (V3 m ρ c main_v12_1 : S100000x16.Idx → EReal) = fun q => XR (q 0) (q 1) :=
    (host1_xr m ρ c).trans hx
  refine (W4_arr m ρ c 2).trans ?_
  exact (dat1 (V3 m ρ) c).arrAt_eq_of_cover 2 _
    (fun t _ => Seg1.flushed2 c (V3 m ρ) (agg ei Y) XR (hrelu ei Y XR) (fun i j => by unfold hrelu; rfl) e0 e1 t) Seg1.cover2

/-- Each tile's column sums. -/
theorem s1_ps : (W4 m ρ c (Proc.devRef .tc main_v25_1) : S20x1x16.Idx → EReal)
    = fun q => tileSum (hrelu ei Y XR) (q 0) (q 2) := by
  have e0 : (V3 m ρ c main_v24 : S100000x16.Idx → EReal) = fun q => agg ei Y (q 0) (q 1) :=
    host1_avg m ρ c ei Y hy hs hd hc
  have e1 : (V3 m ρ c main_v12_1 : S100000x16.Idx → EReal) = fun q => XR (q 0) (q 1) :=
    (host1_xr m ρ c).trans hx
  refine (W4_arr m ρ c 3).trans ?_
  exact (dat1 (V3 m ρ) c).arrAt_eq_of_cover 3 _
    (fun t _ => Seg1.flushed3 c (V3 m ρ) (agg ei Y) XR (hrelu ei Y XR) (fun i j => by unfold hrelu; rfl) e0 e1
      (tileSum (hrelu ei Y XR)) (fun t f => by unfold tileSum; rfl) t) Seg1.cover3

/-- Each tile's column sums of squares. -/
theorem s1_pq : (W4 m ρ c (Proc.devRef .tc main_v25_2) : S20x1x16.Idx → EReal)
    = fun q => tileSq (hrelu ei Y XR) (q 0) (q 2) := by
  have e0 : (V3 m ρ c main_v24 : S100000x16.Idx → EReal) = fun q => agg ei Y (q 0) (q 1) :=
    host1_avg m ρ c ei Y hy hs hd hc
  have e1 : (V3 m ρ c main_v12_1 : S100000x16.Idx → EReal) = fun q => XR (q 0) (q 1) :=
    (host1_xr m ρ c).trans hx
  refine (W4_arr m ρ c 4).trans ?_
  exact (dat1 (V3 m ρ) c).arrAt_eq_of_cover 4 _
    (fun t _ => Seg1.flushed4 c (V3 m ρ) (agg ei Y) XR (hrelu ei Y XR) (fun i j => by unfold hrelu; rfl) e0 e1
      (tileSq (hrelu ei Y XR)) (fun t f => by unfold tileSq; rfl) t) Seg1.cover4
end

end Cert.KernelIdeal.KV

end
-- ==== Proof.KSeg2.lean ====
import proofs.«407675_j64304250356442_3_alg».proof.Proof.Gen.KernelIdeal.Frame
import proofs.«407675_j64304250356442_3_alg».proof.Proof.Spec
import proofs.«407675_j64304250356442_3_alg».proof.Proof.Consts
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (ρ : Dev nD → PrngReg) (c : Dev nD)

/-! # The third host stretch and the third kernel call

The host stretch adds the tiles' sums, forms the column means and the clamped one-pass variances, and
lays the layer's output and the four parameter rows out 128 wide (eight nodes to a row, each
parameter row repeated eight times); the kernel call normalises in that layout.

Position q1 of a 128-wide row is column q1 % 16 of node 8 * q0 + q1 / 16, because
(8 * q0 + q1 / 16) * 16 + q1 % 16 = q0 * 128 + q1: the wide array and the node array have the same
row-major order, and a parameter row repeated eight times holds entry q1 % 16 at position q1. -/

namespace Seg2

/-! ## The host stretch's rows, read at an index -/

/-- The sum of the twenty tiles' rows. -/
def sumRow (X : FVec Ideal S20x1x16 .f32) : FVec Ideal S1x16 .f32 :=
  Host.reduceAdd (F := Ideal) X (constant (F := Ideal) S_ .f32 0x00000000#32) reducesTo_S20x1x16_S1x16_d0 h_S_

/-- The row that holds the number of nodes in every column. -/
def cRow : FVec Ideal S1x16 .f32 :=
  broadcastInDim S1x16 ![] bcast_S_S1x16 (constant (F := Ideal) S_ .f32 0x47C35000#32)

/-- The row of zeros. -/
def zRow : FVec Ideal S1x16 .f32 :=
  broadcastInDim S1x16 ![] bcast_S_S1x16 (constant (F := Ideal) S_ .f32 0x00000000#32)

/-- The row of column means. -/
def meanRow (X : FVec Ideal S20x1x16 .f32) : FVec Ideal S1x16 .f32 := Host.divf (F := Ideal) (sumRow X) cRow

/-- The row of clamped one-pass column variances. -/
def varRow (X Y : FVec Ideal S20x1x16 .f32) : FVec Ideal S1x16 .f32 :=
  maximumf (F := Ideal) (subf (F := Ideal) (Host.divf (F := Ideal) (sumRow Y) cRow) (mulf (F := Ideal) (meanRow X) (meanRow X))) zRow

/-- A 16-entry row repeated eight times along a 128-entry row. -/
def lay (X : S1x16.Idx → EReal) : S1x128.Idx → EReal :=
  shapeCast S1x128 (broadcastInDim S1x1x8x16 ![0, 1, 2, 3] bcast_S1x1x1x16_S1x1x8x16_0_1_2_3
    (shapeCast S1x1x1x16 X shapeCasts_S1x16_S1x1x1x16)) shapeCasts_S1x1x8x16_S1x128

/-- The column a position of the 128-entry row belongs to. -/
abbrev col (q : Fin 128) : Fin 16 := ⟨q.val % 16, Nat.mod_lt _ (by decide)⟩

theorem lay_apply (X : S1x16.Idx → EReal) (q : Fin 128) : lay X (ix2 0 q) = X (ix2 0 (col q)) := by
  unfold lay
  have hq : q.val < 128 := q.isLt
  refine (shapeCast_apply _ _ (ix2 0 q) (ix4 0 0 ⟨q.val / 16, by omega⟩ (col q)) ?_).trans ?_
  · rw [Shape.rowMajor_val_four, Shape.rowMajor_val_two]
    show ((0 * 1 + 0) * 8 + q.val / 16) * 16 + q.val % 16 = 0 * 128 + q.val
    omega
  refine (broadcastInDim_apply _ _ _ _ (ix4 0 0 0 (col q)) ?_).trans ?_
  · intro a
    match a with
    | ⟨0, _⟩ => show 0 = if (1 : Nat) = 1 then 0 else _; rw [if_pos rfl]
    | ⟨1, _⟩ => show 0 = if (1 : Nat) = 1 then 0 else _; rw [if_pos rfl]
    | ⟨2, _⟩ => show 0 = if (1 : Nat) = 1 then 0 else _; rw [if_pos rfl]
    | ⟨3, _⟩ => show q.val % 16 = if (16 : Nat) = 1 then 0 else q.val % 16; rw [if_neg (by decide)]
  refine shapeCast_apply _ _ _ (ix2 0 (col q)) ?_
  rw [Shape.rowMajor_val_four, Shape.rowMajor_val_two]
  show 0 * 16 + q.val % 16 = ((0 * 1 + 0) * 1 + 0) * 16 + q.val % 16
  omega

theorem sumRow_apply (X : S20x1x16.Idx → EReal) (j : Fin 16) : sumRow X (ix2 0 j) = ∑ t : Fin 20, X (ix3 t 0 j) := by
  unfold sumRow
  simp only [Host.reduceAdd, Ideal.hostReduceAdd_def]
  rw [Ideal.hostReduceAdd_single reducesTo_S20x1x16_S1x16_d0 (by decide)]
  show Ideal.ofBits .f32 0x00000000#32 + _ = _
  rw [ofBits_zero, zero_add]
  refine Finset.sum_congr rfl fun k _ => ?_
  exact congrArg X (funext fun a => Fin.ext (by match a with | ⟨0, _⟩ => rfl | ⟨1, _⟩ => rfl | ⟨2, _⟩ => rfl))

theorem cRow_apply (i : S1x16.Idx) : cRow i = cN := by
  unfold cRow
  refine (broadcastInDim_apply _ _ _ i ix0 (fun a => a.elim0)).trans ?_
  exact ofBits_nodes

theorem zRow_apply (i : S1x16.Idx) : zRow i = 0 := by
  unfold zRow
  refine (broadcastInDim_apply _ _ _ i ix0 (fun a => a.elim0)).trans ?_
  exact ofBits_zero

theorem meanRow_apply (X : S20x1x16.Idx → EReal) (j : Fin 16) :
    meanRow X (ix2 0 j) = Ideal.div (∑ t : Fin 20, X (ix3 t 0 j)) cN := by
  show Ideal.div (sumRow X (ix2 0 j)) (cRow (ix2 0 j)) = _
  rw [sumRow_apply, cRow_apply]

theorem varRow_apply (X Y : S20x1x16.Idx → EReal) (j : Fin 16) :
    varRow X Y (ix2 0 j) = max (Ideal.div (∑ t : Fin 20, Y (ix3 t 0 j)) cN
      - Ideal.div (∑ t : Fin 20, X (ix3 t 0 j)) cN * Ideal.div (∑ t : Fin 20, X (ix3 t 0 j)) cN) 0 := by
  show max (Ideal.div (sumRow Y (ix2 0 j)) (cRow (ix2 0 j)) - meanRow X (ix2 0 j) * meanRow X (ix2 0 j)) (zRow (ix2 0 j)) = _
  rw [sumRow_apply, cRow_apply, meanRow_apply, zRow_apply]

/-- A 16-entry vector as a one-row array. -/
theorem row16_apply (X : S16.Idx → EReal) (j : Fin 16) : shapeCast S1x16 X shapeCasts_S16_S1x16 (ix2 0 j) = X (ix1 j) := by
  refine shapeCast_apply _ _ _ (ix1 j) ?_
  rw [Shape.rowMajor_val_one, Shape.rowMajor_val_two]
  show j.val = 0 * 16 + j.val
  omega

/-- The 12500 by 128 layout of a 100000 by 16 array. -/
theorem wide_apply (X : S100000x16.Idx → EReal) (p : Fin 12500) (q : Fin 128) :
    shapeCast S12500x128 X shapeCasts_S100000x16_S12500x128 (ix2 p q) = X (ix2 (unpack p q).1 (unpack p q).2) := by
  refine shapeCast_apply _ _ _ (ix2 (unpack p q).1 (unpack p q).2) ?_
  rw [Shape.rowMajor_val_two, Shape.rowMajor_val_two]
  have hq : q.val < 128 := q.isLt
  show (8 * p.val + q.val / 16) * 16 + q.val % 16 = p.val * 128 + q.val
  omega

/-! ## The kernel call's arithmetic at an index -/

theorem pay_apply (v0 v5 : FVec Ideal S1x128 .f32) (v7 : FVec Ideal S12500x128 .f32) (v9 v17 : FVec Ideal S1x128 .f32)
    (p : Fin 12500) (q : Fin 128) :
    k2_pay1 (F := Ideal) v0 v5 v7 v9 v17 (ix2 p q)
      = v5 (ix2 0 q) * (v7 (ix2 p q) - v9 (ix2 0 q)) * Ideal.rsqrt (v0 (ix2 0 q) + eps) + v17 (ix2 0 q) := by
  unfold k2_pay1
  simp only [shapeCast_self]
  show broadcastTo S12500x128 v5 broadcasts_S1x128_S12500x128 (ix2 p q)
        * (v7 (ix2 p q) - broadcastTo S12500x128 v9 broadcasts_S1x128_S12500x128 (ix2 p q))
        * broadcastTo S12500x128 (rsqrt (addf v0 (broadcast S1x128 (Scalar.ofBits .f32 0x3727C5AC#32)))) broadcasts_S1x128_S12500x128 (ix2 p q)
      + broadcastTo S12500x128 v17 broadcasts_S1x128_S12500x128 (ix2 p q) = _
  rw [broadcastTo_1b_ab_apply v5, broadcastTo_1b_ab_apply v9, broadcastTo_1b_ab_apply v17,
    broadcastTo_1b_ab_apply (rsqrt (addf v0 (broadcast S1x128 (Scalar.ofBits .f32 0x3727C5AC#32))))]
  rfl

/-! ## What the host stretch leaves in the kernel call's five input arrays -/

section Host

theorem e38 : (W5 m ρ c (Proc.devRef .tc main_v38) : S12500x128.Idx → EReal)
    = shapeCast S12500x128 (W4 m ρ c (Proc.devRef .tc main_v25_0) : S100000x16.Idx → EReal) shapeCasts_S100000x16_S12500x128 := by
  show StableHlo.after hostOps2 (W4 m ρ c) (Proc.devRef .tc main_v38) = _
  after_results
  rfl

theorem e41 : (W5 m ρ c (Proc.devRef .tc main_v41) : S1x128.Idx → EReal)
    = lay (meanRow (W4 m ρ c (Proc.devRef .tc main_v25_1) : S20x1x16.Idx → EReal)) := by
  show StableHlo.after hostOps2 (W4 m ρ c) (Proc.devRef .tc main_v41) = _
  after_results
  rfl

theorem e44 : (W5 m ρ c (Proc.devRef .tc main_v44) : S1x128.Idx → EReal)
    = lay (varRow (W4 m ρ c (Proc.devRef .tc main_v25_1) : S20x1x16.Idx → EReal)
        (W4 m ρ c (Proc.devRef .tc main_v25_2) : S20x1x16.Idx → EReal)) := by
  show StableHlo.after hostOps2 (W4 m ρ c) (Proc.devRef .tc main_v44) = _
  after_results
  rfl

theorem e47 : (W5 m ρ c (Proc.devRef .tc main_v47) : S1x128.Idx → EReal)
    = lay (shapeCast S1x16 (W4 m ρ c (Proc.devRef .tc main_arg6) : S16.Idx → EReal) shapeCasts_S16_S1x16) := by
  show StableHlo.after hostOps2 (W4 m ρ c) (Proc.devRef .tc main_v47) = _
  after_results
  rfl

theorem e50 : (W5 m ρ c (Proc.devRef .tc main_v50) : S1x128.Idx → EReal)
    = lay (shapeCast S1x16 (W4 m ρ c (Proc.devRef .tc main_arg7) : S16.Idx → EReal) shapeCasts_S16_S1x16) := by
  show StableHlo.after hostOps2 (W4 m ρ c) (Proc.devRef .tc main_v50) = _
  after_results
  rfl

end Host

/-! ## The kernel call: one grid point, every block the whole array -/

section Region

theorem hz2 : (![0, 0] : Fin 2 → Nat) = fun _ => 0 :=
  funext fun a => match a with | ⟨0, _⟩ => rfl | ⟨1, _⟩ => rfl

/-- The one point's block of the wide array is the array. -/
theorem blk0 (t : Fin cfg2.N) (p : Fin 12500) (q : Fin 128) :
    iblk2 (V5 m ρ) c 0 t (ix2 p q) = (W5 m ρ c (Proc.devRef .tc main_v38) : S12500x128.Idx → EReal) (ix2 p q) := by
  show (W5 m ρ c (Proc.devRef .tc main_v38) : S12500x128.Idx → EReal) (((cfg2.win 0).blk t).view.emb (ix2 p q)) = _
  refine congrArg _ (funext fun a => Fin.ext ?_)
  match a with
  | ⟨0, _⟩ =>
    show win2_0.index t (0 : Fin 2) * 12500 + 1 * p.val = p.val
    rw [show win2_0.index t (0 : Fin 2) = 0 from rfl]; omega
  | ⟨1, _⟩ =>
    show win2_0.index t (1 : Fin 2) * 128 + 1 * q.val = q.val
    rw [show win2_0.index t (1 : Fin 2) = 0 from rfl]; omega

/-- The one point's block of each parameter row is the row. -/
theorem blk1 (t : Fin cfg2.N) (q : Fin 128) :
    iblk2 (V5 m ρ) c 1 t (ix2 0 q) = (W5 m ρ c (Proc.devRef .tc main_v41) : S1x128.Idx → EReal) (ix2 0 q) := by
  show (W5 m ρ c (Proc.devRef .tc main_v41) : S1x128.Idx → EReal) (((cfg2.win 1).blk t).view.emb (ix2 0 q)) = _
  refine congrArg _ (funext fun a => Fin.ext ?_)
  match a with
  | ⟨0, _⟩ =>
    show win2_1.index t (0 : Fin 2) * 1 + 1 * 0 = 0
    rw [show win2_1.index t (0 : Fin 2) = 0 from rfl]
  | ⟨1, _⟩ =>
    show win2_1.index t (1 : Fin 2) * 128 + 1 * q.val = q.val
    rw [show win2_1.index t (1 : Fin 2) = 0 from rfl]; omega

theorem blk2 (t : Fin cfg2.N) (q : Fin 128) :
    iblk2 (V5 m ρ) c 2 t (ix2 0 q) = (W5 m ρ c (Proc.devRef .tc main_v44) : S1x128.Idx → EReal) (ix2 0 q) := by
  show (W5 m ρ c (Proc.devRef .tc main_v44) : S1x128.Idx → EReal) (((cfg2.win 2).blk t).view.emb (ix2 0 q)) = _
  refine congrArg _ (funext fun a => Fin.ext ?_)
  match a with
  | ⟨0, _⟩ =>
    show win2_2.index t (0 : Fin 2) * 1 + 1 * 0 = 0
    rw [show win2_2.index t (0 : Fin 2) = 0 from rfl]
  | ⟨1, _⟩ =>
    show win2_2.index t (1 : Fin 2) * 128 + 1 * q.val = q.val
    rw [show win2_2.index t (1 : Fin 2) = 0 from rfl]; omega

theorem blk3 (t : Fin cfg2.N) (q : Fin 128) :
    iblk2 (V5 m ρ) c 3 t (ix2 0 q) = (W5 m ρ c (Proc.devRef .tc main_v47) : S1x128.Idx → EReal) (ix2 0 q) := by
  show (W5 m ρ c (Proc.devRef .tc main_v47) : S1x128.Idx → EReal) (((cfg2.win 3).blk t).view.emb (ix2 0 q)) = _
  refine congrArg _ (funext fun a => Fin.ext ?_)
  match a with
  | ⟨0, _⟩ =>
    show win2_3.index t (0 : Fin 2) * 1 + 1 * 0 = 0
    rw [show win2_3.index t (0 : Fin 2) = 0 from rfl]
  | ⟨1, _⟩ =>
    show win2_3.index t (1 : Fin 2) * 128 + 1 * q.val = q.val
    rw [show win2_3.index t (1 : Fin 2) = 0 from rfl]; omega

theorem blk4 (t : Fin cfg2.N) (q : Fin 128) :
    iblk2 (V5 m ρ) c 4 t (ix2 0 q) = (W5 m ρ c (Proc.devRef .tc main_v50) : S1x128.Idx → EReal) (ix2 0 q) := by
  show (W5 m ρ c (Proc.devRef .tc main_v50) : S1x128.Idx → EReal) (((cfg2.win 4).blk t).view.emb (ix2 0 q)) = _
  refine congrArg _ (funext fun a => Fin.ext ?_)
  match a with
  | ⟨0, _⟩ =>
    show win2_4.index t (0 : Fin 2) * 1 + 1 * 0 = 0
    rw [show win2_4.index t (0 : Fin 2) = 0 from rfl]
  | ⟨1, _⟩ =>
    show win2_4.index t (1 : Fin 2) * 128 + 1 * q.val = q.val
    rw [show win2_4.index t (1 : Fin 2) = 0 from rfl]; omega

/-- The output's one block is the whole array too. -/
theorem emb5 (t : Fin cfg2.N) (p : Fin 12500) (q : Fin 128) :
    ((cfg2.win 5).blk t).view.emb (ix2 p q) = ix2 p q := by
  refine funext fun a => Fin.ext ?_
  match a with
  | ⟨0, _⟩ =>
    show win2_5.index t (0 : Fin 2) * 12500 + 1 * p.val = p.val
    rw [show win2_5.index t (0 : Fin 2) = 0 from rfl]; omega
  | ⟨1, _⟩ =>
    show win2_5.index t (1 : Fin 2) * 128 + 1 * q.val = q.val
    rw [show win2_5.index t (1 : Fin 2) = 0 from rfl]; omega

/-- Every index of the output array lies in the one point's block. -/
theorem mem5 (t : Fin cfg2.N) (i : S12500x128.Idx) : i ∈ ((cfg2.win 5).blk t).view.set := by
  show i ∈ ((View.whole main_v51).slice (win2_5.rect t)).set
  rw [View.set_slice_whole, Rect.mem_set_unit]
  intro a
  match a with
  | ⟨0, _⟩ =>
    show win2_5.index t (0 : Fin 2) * 12500 ≤ (i 0).val ∧ (i 0).val < win2_5.index t (0 : Fin 2) * 12500 + 12500
    rw [show win2_5.index t (0 : Fin 2) = 0 from rfl]
    have h0 : (i 0).val < 12500 := (i 0).isLt
    omega
  | ⟨1, _⟩ =>
    show win2_5.index t (1 : Fin 2) * 128 ≤ (i 1).val ∧ (i 1).val < win2_5.index t (1 : Fin 2) * 128 + 128
    rw [show win2_5.index t (1 : Fin 2) = 0 from rfl]
    have h1 : (i 1).val < 128 := (i 1).isLt
    omega

end Region

/-! ## The five input arrays at an index, from the three arrays the stretch reads -/

section Final

variable (H : Fin 100000 → Fin 16 → EReal) (PS PQ : Fin 20 → Fin 16 → EReal)

theorem v38_apply
    (hh : (W4 m ρ c (Proc.devRef .tc main_v25_0) : S100000x16.Idx → EReal) = fun q => H (q 0) (q 1))
    (p : Fin 12500) (q : Fin 128) :
    (W5 m ρ c (Proc.devRef .tc main_v38) : S12500x128.Idx → EReal) (ix2 p q) = H (unpack p q).1 (unpack p q).2 := by
  rw [e38, hh, wide_apply]
  rfl

theorem v41_apply
    (hps : (W4 m ρ c (Proc.devRef .tc main_v25_1) : S20x1x16.Idx → EReal) = fun q => PS (q 0) (q 2))
    (q : Fin 128) :
    (W5 m ρ c (Proc.devRef .tc main_v41) : S1x128.Idx → EReal) (ix2 0 q) = meanOf PS (col q) := by
  rw [e41, lay_apply, meanRow_apply, hps]
  rfl

theorem v44_apply
    (hps : (W4 m ρ c (Proc.devRef .tc main_v25_1) : S20x1x16.Idx → EReal) = fun q => PS (q 0) (q 2))
    (hpq : (W4 m ρ c (Proc.devRef .tc main_v25_2) : S20x1x16.Idx → EReal) = fun q => PQ (q 0) (q 2))
    (q : Fin 128) :
    (W5 m ρ c (Proc.devRef .tc main_v44) : S1x128.Idx → EReal) (ix2 0 q) = varOf PS PQ (col q) := by
  rw [e44, lay_apply, varRow_apply, hps, hpq]
  rfl

theorem v47_apply (q : Fin 128) :
    (W5 m ρ c (Proc.devRef .tc main_v47) : S1x128.Idx → EReal) (ix2 0 q)
      = A1 (W4 m ρ c (Proc.devRef .tc main_arg6) : S16.Idx → EReal) (col q) := by
  rw [e47, lay_apply, row16_apply]
  rfl

theorem v50_apply (q : Fin 128) :
    (W5 m ρ c (Proc.devRef .tc main_v50) : S1x128.Idx → EReal) (ix2 0 q)
      = A1 (W4 m ρ c (Proc.devRef .tc main_arg7) : S16.Idx → EReal) (col q) := by
  rw [e50, lay_apply, row16_apply]
  rfl

/-- The normalised layer in the 128-column layout, as one function of the index. -/
def wideBn (g b : Fin 16 → EReal) : S12500x128.Idx → EReal :=
  fun q => bn g b H (meanOf PS) (varOf PS PQ) (unpack (q 0) (q 1)).1 (unpack (q 0) (q 1)).2

/-- What the one grid point writes back is the normalised layer, read through the output's block. -/
theorem flushed5_eq
    (hh : (W4 m ρ c (Proc.devRef .tc main_v25_0) : S100000x16.Idx → EReal) = fun q => H (q 0) (q 1))
    (hps : (W4 m ρ c (Proc.devRef .tc main_v25_1) : S20x1x16.Idx → EReal) = fun q => PS (q 0) (q 2))
    (hpq : (W4 m ρ c (Proc.devRef .tc main_v25_2) : S20x1x16.Idx → EReal) = fun q => PQ (q 0) (q 2))
    (t : Fin cfg2.N) :
    (dat2 (V5 m ρ) c).flushed 5 t = ((cfg2.win 5).blk t).view.read (Elt Ideal)
      (wideBn H PS PQ (A1 (W4 m ρ c (Proc.devRef .tc main_arg6) : S16.Idx → EReal))
        (A1 (W4 m ρ c (Proc.devRef .tc main_arg7) : S16.Idx → EReal))) := by
  show (cfg2.win 5).cut (grid2.coords t) ((dat2 (V5 m ρ) c).after 5 t) = _
  rw [after2_5]
  unfold out2_5
  rw [View.canon_unit_zero hz2]
  simp only [View.ld_unit_zero (S := S12500x128) hz2, View.ld_unit_zero (S := S1x128) hz2]
  funext j
  obtain ⟨p, q, rfl⟩ : ∃ (p : Fin 12500) (q : Fin 128), j = ix2 p q := ⟨j 0, j 1, eq_ix2 j⟩
  show k2_pay1 (F := Ideal) (iblk2 (V5 m ρ) c 2 t) (iblk2 (V5 m ρ) c 3 t) (iblk2 (V5 m ρ) c 0 t) (iblk2 (V5 m ρ) c 1 t)
      (iblk2 (V5 m ρ) c 4 t) (ix2 p q)
    = wideBn H PS PQ (A1 (W4 m ρ c (Proc.devRef .tc main_arg6) : S16.Idx → EReal))
        (A1 (W4 m ρ c (Proc.devRef .tc main_arg7) : S16.Idx → EReal)) (((cfg2.win 5).blk t).view.emb (ix2 p q))
  rw [emb5]
  refine (pay_apply (iblk2 (V5 m ρ) c 2 t) (iblk2 (V5 m ρ) c 3 t) (iblk2 (V5 m ρ) c 0 t) (iblk2 (V5 m ρ) c 1 t)
    (iblk2 (V5 m ρ) c 4 t) p q).trans ?_
  rw [blk0, blk1, blk2, blk3, blk4, v38_apply m ρ c H hh, v41_apply m ρ c PS hps, v44_apply m ρ c PS PQ hps hpq,
    v47_apply, v50_apply]
  rfl

end Final

end Seg2

section
open Seg2
variable (H : Fin 100000 → Fin 16 → EReal) (PS PQ : Fin 20 → Fin 16 → EReal)
  (hh : (W4 m ρ c (Proc.devRef .tc main_v25_0) : S100000x16.Idx → EReal) = fun q => H (q 0) (q 1))
  (hps : (W4 m ρ c (Proc.devRef .tc main_v25_1) : S20x1x16.Idx → EReal) = fun q => PS (q 0) (q 2))
  (hpq : (W4 m ρ c (Proc.devRef .tc main_v25_2) : S20x1x16.Idx → EReal) = fun q => PQ (q 0) (q 2))
include hh hps hpq

/-- The normalised layer, in the 128-column layout. -/
theorem s2_bn : (W6 m ρ c (Proc.devRef .tc main_v51) : S12500x128.Idx → EReal)
    = fun q => bn (A1 (W4 m ρ c (Proc.devRef .tc main_arg6) : S16.Idx → EReal))
        (A1 (W4 m ρ c (Proc.devRef .tc main_arg7) : S16.Idx → EReal)) H (meanOf PS) (varOf PS PQ)
        (unpack (q 0) (q 1)).1 (unpack (q 0) (q 1)).2 := by
  refine (W6_arr m ρ c 5).trans ?_
  exact (dat2 (V5 m ρ) c).arrAt_eq_of_cover 5
    (wideBn H PS PQ (A1 (W4 m ρ c (Proc.devRef .tc main_arg6) : S16.Idx → EReal))
      (A1 (W4 m ρ c (Proc.devRef .tc main_arg7) : S16.Idx → EReal)))
    (fun t _ => flushed5_eq m ρ c H PS PQ hh hps hpq t)
    (fun i => ⟨t2_0, flush2_5 t2_0, mem5 t2_0 i⟩)
end

end Cert.KernelIdeal.KV

end
-- ==== Proof.KSeg3.lean ====
import proofs.«407675_j64304250356442_3_alg».proof.Proof.Gen.KernelIdeal.Frame
import proofs.«407675_j64304250356442_3_alg».proof.Proof.Spec
import Idealize.ShloMosaic.PureOps.Ideal.Laws
import Idealize.ShloMosaic.Lib.ValueLayout

set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (ρ : Dev nD → PrngReg) (c : Dev nD)

/-! # The fourth host stretch and the fourth kernel call

The host stretch lays the normalised layer out 16 wide again; the kernel call multiplies it by the two
16x16 matrices, 5000 rows at a time. -/

namespace Seg3

/-! ## The matrix unit's pass of a 5000x16 block with a 16x16 matrix, at an index -/

/-- The left operand is read at the output's row ... -/
theorem lhs3_0 (i : S5000x16.Idx) (q : dot_S5000x16_S16x16_S5000x16_1_0_0_1_n_n.contr.Idx) :
    (dot_S5000x16_S16x16_S5000x16_1_0_0_1_n_n.lhsIdx i q 0).val = (i 0).val := by
  unfold DotDims.lhsIdx
  rw [dif_neg (show ¬(0 : Fin S5000x16.rank) ∈ dot_S5000x16_S16x16_S5000x16_1_0_0_1_n_n.lhsBatch by decide), dif_pos (show (0 : Fin S5000x16.rank) ∈ dot_S5000x16_S16x16_S5000x16_1_0_0_1_n_n.lhsNonContracting by decide)]
  rfl
/-- ... and the summation index, -/
theorem lhs3_1 (i : S5000x16.Idx) (q : dot_S5000x16_S16x16_S5000x16_1_0_0_1_n_n.contr.Idx) :
    (dot_S5000x16_S16x16_S5000x16_1_0_0_1_n_n.lhsIdx i q 1).val = (q ⟨0, by decide⟩).val :=
  dot_S5000x16_S16x16_S5000x16_1_0_0_1_n_n.lhsIdx_val_of_single rfl i q
/-- the right operand at the summation index ... -/
theorem rhs3_0 (i : S5000x16.Idx) (q : dot_S5000x16_S16x16_S5000x16_1_0_0_1_n_n.contr.Idx) :
    (dot_S5000x16_S16x16_S5000x16_1_0_0_1_n_n.rhsIdx i q 0).val = (q ⟨0, by decide⟩).val :=
  dot_S5000x16_S16x16_S5000x16_1_0_0_1_n_n.rhsIdx_val_of_single rfl i q
/-- ... and the output's column. -/
theorem rhs3_1 (i : S5000x16.Idx) (q : dot_S5000x16_S16x16_S5000x16_1_0_0_1_n_n.contr.Idx) :
    (dot_S5000x16_S16x16_S5000x16_1_0_0_1_n_n.rhsIdx i q 1).val = (i 1).val := by
  unfold DotDims.rhsIdx
  rw [dif_neg (show ¬(1 : Fin S16x16.rank) ∈ dot_S5000x16_S16x16_S5000x16_1_0_0_1_n_n.rhsBatch by decide), dif_pos (show (1 : Fin S16x16.rank) ∈ dot_S5000x16_S16x16_S5000x16_1_0_0_1_n_n.rhsNonContracting by decide)]
  rfl

/-- The pass onto zeros at (p, q): the sum over k of the block's (p, k) times the matrix's (k, q). -/
theorem mm3_at (l : FVec Ideal S5000x16 .bf16) (r : FVec Ideal S16x16 .bf16) (p : Fin 5000) (q : Fin 16) :
    FloatOps.matmul dot_S5000x16_S16x16_S5000x16_1_0_0_1_n_n none l r (constant S5000x16 .f32 0x00000000#32) (ix2 p q)
      = ∑ k : Fin 16, l (ix2 p k) * r (ix2 k q) := by
  refine (Ideal.matmul_constant_zero_apply dot_S5000x16_S16x16_S5000x16_1_0_0_1_n_n none l r (ix2 p q)).trans ?_
  rw [← Equiv.sum_comp (contrEquiv1 dot_S5000x16_S16x16_S5000x16_1_0_0_1_n_n 16 rfl rfl).symm]
  refine Finset.sum_congr rfl fun k _ => ?_
  have hk := contrEquiv1_symm_val dot_S5000x16_S16x16_S5000x16_1_0_0_1_n_n 16 rfl rfl k
  have el : dot_S5000x16_S16x16_S5000x16_1_0_0_1_n_n.lhsIdx (ix2 p q) ((contrEquiv1 dot_S5000x16_S16x16_S5000x16_1_0_0_1_n_n 16 rfl rfl).symm k) = ix2 p k := funext fun a => Fin.ext (by
    match a with
    | ⟨0, _⟩ => exact lhs3_0 _ _
    | ⟨1, _⟩ => exact (lhs3_1 _ _).trans hk)
  have er : dot_S5000x16_S16x16_S5000x16_1_0_0_1_n_n.rhsIdx (ix2 p q) ((contrEquiv1 dot_S5000x16_S16x16_S5000x16_1_0_0_1_n_n 16 rfl rfl).symm k) = ix2 k q := funext fun a => Fin.ext (by
    match a with
    | ⟨0, _⟩ => exact (rhs3_0 _ _).trans hk
    | ⟨1, _⟩ => exact rhs3_1 _ _)
  rw [el, er]

/-- The first payload at (p, q): the block times the first matrix. -/
theorem pay2_at (x0 : Vec Ideal S5000x16 .f32) (x1 : Vec Ideal S16x16 .f32) (p : Fin 5000) (q : Fin 16) :
    k3_pay2 (F := Ideal) x0 x1 (ix2 p q) = ∑ k : Fin 16, x0 (ix2 p k) * x1 (ix2 k q) := by
  unfold k3_pay2 k3_pay1
  refine (mm3_at _ _ p q).trans ?_
  refine Finset.sum_congr rfl fun k _ => ?_
  rw [shapeCast_self]
  rfl

/-- The second payload at (p, q): the block times the second matrix, plus the bias row's entry q. -/
theorem pay3_at (x0 : Vec Ideal S5000x16 .f32) (x2 : Vec Ideal S16x16 .f32) (x3 : Vec Ideal S1x16 .f32) (p : Fin 5000) (q : Fin 16) :
    k3_pay3 (F := Ideal) x0 x2 x3 (ix2 p q) = (∑ k : Fin 16, x0 (ix2 p k) * x2 (ix2 k q)) + x3 (ix2 0 q) := by
  unfold k3_pay3 k3_pay1
  refine (addf_apply _ _ (ix2 p q)).trans ?_
  congr 1
  · refine (mm3_at _ _ p q).trans ?_
    refine Finset.sum_congr rfl fun k _ => ?_
    rw [shapeCast_self]
    rfl
  · rw [shapeCast_self]
    refine broadcastTo_apply _ _ (ix2 p q) (ix2 0 q) ?_
    intro a
    match a with
    | ⟨0, _⟩ => rfl
    | ⟨1, _⟩ => rfl

/-! ## The host stretch -/

/-- The stretch writes neither matrix. -/
theorem v7_arg8 : (W7 m ρ c (Proc.devRef .tc main_arg8)) = W6 m ρ c (Proc.devRef .tc main_arg8) := by
  refine StableHlo.after_of_forall_not_mem (b := Proc.devRef .tc main_arg8) _ _ (List.forall_iff_forall_mem.mp ?_)
  simp only [hostOps3, List.Forall, StableHlo.reshape_writes, Finset.mem_singleton]
  repeat' apply And.intro
  all_goals exact StableHlo.devRef_ne_of_ne (by decide)

theorem v7_arg10 : (W7 m ρ c (Proc.devRef .tc main_arg10)) = W6 m ρ c (Proc.devRef .tc main_arg10) := by
  refine StableHlo.after_of_forall_not_mem (b := Proc.devRef .tc main_arg10) _ _ (List.forall_iff_forall_mem.mp ?_)
  simp only [hostOps3, List.Forall, StableHlo.reshape_writes, Finset.mem_singleton]
  repeat' apply And.intro
  all_goals exact StableHlo.devRef_ne_of_ne (by decide)

/-- The bias as a row. -/
theorem v7_v53 : (W7 m ρ c (Proc.devRef .tc main_v53) : S1x16.Idx → EReal)
    = fun q => (W6 m ρ c (Proc.devRef .tc main_arg9) : S16.Idx → EReal) (ix1 (q 1)) := by
  show StableHlo.after hostOps3 (W6 m ρ c) (Proc.devRef .tc main_v53) = _
  after_results
  refine funext fun (q : S1x16.Idx) => ?_
  show shapeCast S1x16 (W6 m ρ c (Proc.devRef .tc main_arg9) : S16.Idx → EReal) shapeCasts_S16_S1x16 q = _
  refine shapeCast_apply _ _ q (ix1 (q 1)) ?_
  show (S16.rowMajor (ix1 (q 1))).val = (S1x16.rowMajor q).val
  rw [Shape.rowMajor_val_one, Shape.rowMajor_val_two]
  have h0 : (q 0).val < 1 := (q 0).isLt
  show (q 1).val = (q 0).val * 16 + (q 1).val
  omega

section
variable (HB : Fin 100000 → Fin 16 → EReal)
  (hv : (W6 m ρ c (Proc.devRef .tc main_v51) : S12500x128.Idx → EReal)
      = fun q => HB (unpack (q 0) (q 1)).1 (unpack (q 0) (q 1)).2)
include hv

/-- The normalised layer laid out 16 wide again. -/
theorem v7_v52 : (W7 m ρ c (Proc.devRef .tc main_v52) : S100000x16.Idx → EReal) = fun q => HB (q 0) (q 1) := by
  show StableHlo.after hostOps3 (W6 m ρ c) (Proc.devRef .tc main_v52) = _
  after_results
  funext q
  show shapeCast S100000x16 (W6 m ρ c (Proc.devRef .tc main_v51) : S12500x128.Idx → EReal) shapeCasts_S12500x128_S100000x16 q = _
  rw [hv]
  obtain ⟨i, j, rfl⟩ : ∃ (i : Fin 100000) (j : Fin 16), q = ix2 i j := ⟨q 0, q 1, eq_ix2 q⟩
  have hi := i.isLt
  have hj := j.isLt
  refine (shapeCast_apply _ _ (ix2 i j)
    (ix2 (⟨(16 * i.val + j.val) / 128, by omega⟩ : Fin 12500) (⟨(16 * i.val + j.val) % 128, by omega⟩ : Fin 128)) ?_).trans ?_
  · rw [Shape.rowMajor_val_two, Shape.rowMajor_val_two]
    show (16 * i.val + j.val) / 128 * 128 + (16 * i.val + j.val) % 128 = i.val * 16 + j.val
    omega
  · show HB (⟨8 * ((16 * i.val + j.val) / 128) + (16 * i.val + j.val) % 128 / 16, _⟩ : Fin 100000)
        (⟨(16 * i.val + j.val) % 128 % 16, _⟩ : Fin 16) = HB i j
    congr 1
    · apply Fin.ext
      show 8 * ((16 * i.val + j.val) / 128) + (16 * i.val + j.val) % 128 / 16 = i.val
      omega
    · apply Fin.ext
      show (16 * i.val + j.val) % 128 % 16 = j.val
      omega
end

/-! ## The kernel call: what each grid point writes back -/

theorem hz3 : (![0, 0] : Fin 2 → Nat) = fun _ => 0 := funext fun a => by fin_cases a <;> rfl

/-- The printed index maps, decided over the 20 grid points: the row blocks of the input and of the two outputs move
    together, one block of 5000 rows a point; every other block index is zero. -/
theorem idx_facts3 : ∀ t : Fin cfg3.N,
    win3_0.index t (0 : Fin 2) = win3_4.index t (0 : Fin 2) ∧ win3_0.index t (1 : Fin 2) = 0
    ∧ win3_4.index t (1 : Fin 2) = 0 ∧ win3_4.index t (0 : Fin 2) ≤ 19
    ∧ win3_5.index t (0 : Fin 2) = win3_4.index t (0 : Fin 2) ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- Every row block is some point's. -/
theorem idx_onto3 : ∀ q0 : Fin 20, ∃ t : Fin cfg3.N, win3_4.index t = ![q0.val, 0] ∧ win3_5.index t = ![q0.val, 0] :=
  (by decide +kernel : ∀ q0 : Fin 20, ∃ t : Fin grid3.N, win3_4.index t = ![q0.val, 0] ∧ win3_5.index t = ![q0.val, 0])

/-- An index of the first output is in point t's block iff each coordinate is in the block's range on its axis. -/
theorem mem_blk3_4 (t : Fin cfg3.N) (i : S100000x16.Idx) :
    i ∈ ((cfg3.win 4).blk t).view.set ↔ ∀ a : Fin 2, win3_4.index t a * S5000x16.size a ≤ (i a).val
      ∧ (i a).val < win3_4.index t a * S5000x16.size a + S5000x16.size a := by
  show i ∈ ((View.whole main_v54_0).slice (win3_4.rect t)).set ↔ _
  rw [View.set_slice_whole, Rect.mem_set_unit]
  exact Iff.rfl

/-- The same for the second output. -/
theorem mem_blk3_5 (t : Fin cfg3.N) (i : S100000x16.Idx) :
    i ∈ ((cfg3.win 5).blk t).view.set ↔ ∀ a : Fin 2, win3_5.index t a * S5000x16.size a ≤ (i a).val
      ∧ (i a).val < win3_5.index t a * S5000x16.size a + S5000x16.size a := by
  show i ∈ ((View.whole main_v54_1).slice (win3_5.rect t)).set ↔ _
  rw [View.set_slice_whole, Rect.mem_set_unit]
  exact Iff.rfl

/-- The 20 blocks of 5000 rows tile the first output: row r is in the block of point r / 5000. -/
theorem covered3_4 (i : S100000x16.Idx) :
    ∃ t : Fin cfg3.N, (cfg3.win 4).flush t = true ∧ i ∈ ((cfg3.win 4).blk t).view.set := by
  have hi0 : (i 0).val < 100000 := (i 0).isLt
  have hi1 : (i 1).val < 16 := (i 1).isLt
  obtain ⟨t, ht, -⟩ := idx_onto3 ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_blk3_4]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 16 ≤ (i 1).val ∧ (i 1).val < win3_4.index t (1 : Fin 2) * 16 + 16; omega

/-- And the second. -/
theorem covered3_5 (i : S100000x16.Idx) :
    ∃ t : Fin cfg3.N, (cfg3.win 5).flush t = true ∧ i ∈ ((cfg3.win 5).blk t).view.set := by
  have hi0 : (i 0).val < 100000 := (i 0).isLt
  have hi1 : (i 1).val < 16 := (i 1).isLt
  obtain ⟨t, -, ht⟩ := idx_onto3 ⟨(i 0).val / 5000, by omega⟩
  have q0 : win3_5.index t (0 : Fin 2) = (i 0).val / 5000 := congrFun ht 0
  have q1 : win3_5.index t (1 : Fin 2) = 0 := congrFun ht 1
  refine ⟨t, flush3_5 t, ?_⟩
  rw [mem_blk3_5]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 16 ≤ (i 1).val ∧ (i 1).val < win3_5.index t (1 : Fin 2) * 16 + 16; omega

section
variable (HB : Fin 100000 → Fin 16 → EReal)
  (hv : (W6 m ρ c (Proc.devRef .tc main_v51) : S12500x128.Idx → EReal)
      = fun q => HB (unpack (q 0) (q 1)).1 (unpack (q 0) (q 1)).2)
include hv

/-- The input block of point t at (p, k) is the layer at the row the output block has at p, column k. -/
theorem blk3_0_at (t : Fin cfg3.N) (p : Fin 5000) (k q : Fin 16) :
    (iblk3 (V7 m ρ) c 0 t (ix2 p k) : EReal) = HB ((((cfg3.win 4).blk t).view.emb (ix2 p q)) 0) k := by
  obtain ⟨f0, f1, f2, f3, f4, f5, f6, f7, f8, f9, f10, f11⟩ := idx_facts3 t
  show (W7 m ρ c (Proc.devRef .tc main_v52) : S100000x16.Idx → EReal) (((cfg3.win 0).blk t).view.emb (ix2 p k)) = _
  rw [v7_v52 m ρ c HB hv]
  have e : ((cfg3.win 0).blk t).view.emb (ix2 p k)
      = ix2 (((((cfg3.win 4).blk t).view.emb (ix2 p q)) 0 : Fin 100000)) k := by
    funext a; apply Fin.ext
    match a with
    | ⟨0, _⟩ => show win3_0.index t (0 : Fin 2) * 5000 + 1 * p.val = win3_4.index t (0 : Fin 2) * 5000 + 1 * p.val; omega
    | ⟨1, _⟩ => show win3_0.index t (1 : Fin 2) * 16 + 1 * k.val = k.val; omega
  rw [e]
  rfl

/-- The same against the second output's block. -/
theorem blk3_0_at' (t : Fin cfg3.N) (p : Fin 5000) (k q : Fin 16) :
    (iblk3 (V7 m ρ) c 0 t (ix2 p k) : EReal) = HB ((((cfg3.win 5).blk t).view.emb (ix2 p q)) 0) k := by
  obtain ⟨f0, f1, f2, f3, f4, f5, f6, f7, f8, f9, f10, f11⟩ := idx_facts3 t
  show (W7 m ρ c (Proc.devRef .tc main_v52) : S100000x16.Idx → EReal) (((cfg3.win 0).blk t).view.emb (ix2 p k)) = _
  rw [v7_v52 m ρ c HB hv]
  have e : ((cfg3.win 0).blk t).view.emb (ix2 p k)
      = ix2 (((((cfg3.win 5).blk t).view.emb (ix2 p q)) 0 : Fin 100000)) k := by
    funext a; apply Fin.ext
    match a with
    | ⟨0, _⟩ => show win3_0.index t (0 : Fin 2) * 5000 + 1 * p.val = win3_5.index t (0 : Fin 2) * 5000 + 1 * p.val; omega
    | ⟨1, _⟩ => show win3_0.index t (1 : Fin 2) * 16 + 1 * k.val = k.val; omega
  rw [e]
  rfl
end

/-- The first matrix's block is the whole matrix, at every point. -/
theorem blk3_1_at (t : Fin cfg3.N) (p : Fin 5000) (k q : Fin 16) :
    (iblk3 (V7 m ρ) c 1 t (ix2 k q) : EReal) = A2 (W6 m ρ c (Proc.devRef .tc main_arg8) : S16x16.Idx → EReal) k ((((cfg3.win 4).blk t).view.emb (ix2 p q)) 1) := by
  obtain ⟨f0, f1, f2, f3, f4, f5, f6, f7, f8, f9, f10, f11⟩ := idx_facts3 t
  show (W7 m ρ c (Proc.devRef .tc main_arg8) : S16x16.Idx → EReal) (((cfg3.win 1).blk t).view.emb (ix2 k q))
    = (W6 m ρ c (Proc.devRef .tc main_arg8) : S16x16.Idx → EReal) (ix2 k ((((cfg3.win 4).blk t).view.emb (ix2 p q)) 1))
  rw [v7_arg8]
  have e : ((cfg3.win 1).blk t).view.emb (ix2 k q)
      = ix2 k (((((cfg3.win 4).blk t).view.emb (ix2 p q)) 1 : Fin 16)) := by
    funext a; apply Fin.ext
    match a with
    | ⟨0, _⟩ => show win3_1.index t (0 : Fin 2) * 16 + 1 * k.val = k.val; omega
    | ⟨1, _⟩ => show win3_1.index t (1 : Fin 2) * 16 + 1 * q.val = win3_4.index t (1 : Fin 2) * 16 + 1 * q.val; omega
  rw [e]
  rfl

/-- The second matrix's block is the whole matrix, at every point. -/
theorem blk3_2_at (t : Fin cfg3.N) (p : Fin 5000) (k q : Fin 16) :
    (iblk3 (V7 m ρ) c 2 t (ix2 k q) : EReal) = A2 (W6 m ρ c (Proc.devRef .tc main_arg10) : S16x16.Idx → EReal) k ((((cfg3.win 5).blk t).view.emb (ix2 p q)) 1) := by
  obtain ⟨f0, f1, f2, f3, f4, f5, f6, f7, f8, f9, f10, f11⟩ := idx_facts3 t
  show (W7 m ρ c (Proc.devRef .tc main_arg10) : S16x16.Idx → EReal) (((cfg3.win 2).blk t).view.emb (ix2 k q))
    = (W6 m ρ c (Proc.devRef .tc main_arg10) : S16x16.Idx → EReal) (ix2 k ((((cfg3.win 5).blk t).view.emb (ix2 p q)) 1))
  rw [v7_arg10]
  have e : ((cfg3.win 2).blk t).view.emb (ix2 k q)
      = ix2 k (((((cfg3.win 5).blk t).view.emb (ix2 p q)) 1 : Fin 16)) := by
    funext a; apply Fin.ext
    match a with
    | ⟨0, _⟩ => show win3_2.index t (0 : Fin 2) * 16 + 1 * k.val = k.val; omega
    | ⟨1, _⟩ => show win3_2.index t (1 : Fin 2) * 16 + 1 * q.val = win3_5.index t (1 : Fin 2) * 16 + 1 * q.val; omega
  rw [e]
  rfl

/-- The bias row's block is the whole row, at every point. -/
theorem blk3_3_at (t : Fin cfg3.N) (p : Fin 5000) (q : Fin 16) :
    (iblk3 (V7 m ρ) c 3 t (ix2 0 q) : EReal) = A1 (W6 m ρ c (Proc.devRef .tc main_arg9) : S16.Idx → EReal) ((((cfg3.win 5).blk t).view.emb (ix2 p q)) 1) := by
  obtain ⟨f0, f1, f2, f3, f4, f5, f6, f7, f8, f9, f10, f11⟩ := idx_facts3 t
  show (W7 m ρ c (Proc.devRef .tc main_v53) : S1x16.Idx → EReal) (((cfg3.win 3).blk t).view.emb (ix2 0 q))
    = (W6 m ρ c (Proc.devRef .tc main_arg9) : S16.Idx → EReal) (ix1 ((((cfg3.win 5).blk t).view.emb (ix2 p q)) 1))
  rw [v7_v53]
  have e : (((((cfg3.win 3).blk t).view.emb (ix2 0 q)) 1 : Fin 16))
      = (((((cfg3.win 5).blk t).view.emb (ix2 p q)) 1 : Fin 16)) := by
    apply Fin.ext
    show win3_3.index t (1 : Fin 2) * 16 + 1 * q.val = win3_5.index t (1 : Fin 2) * 16 + 1 * q.val
    omega
  exact congrArg (fun z : Fin 16 => (W6 m ρ c (Proc.devRef .tc main_arg9) : S16.Idx → EReal) (ix1 z)) e

section
variable (HB : Fin 100000 → Fin 16 → EReal)
  (hv : (W6 m ρ c (Proc.devRef .tc main_v51) : S12500x128.Idx → EReal)
      = fun q => HB (unpack (q 0) (q 1)).1 (unpack (q 0) (q 1)).2)
include hv

/-- What point t writes back to the first output is block t of the product with the first matrix. -/
theorem flushed3_4 (t : Fin cfg3.N) :
    (dat3 (V7 m ρ) c).flushed 4 t = ((cfg3.win 4).blk t).view.read (Elt Ideal)
      (fun i : S100000x16.Idx => mm HB (A2 (W6 m ρ c (Proc.devRef .tc main_arg8) : S16x16.Idx → EReal)) (i 0) (i 1)) := by
  show (cfg3.win 4).cut (grid3.coords t) ((dat3 (V7 m ρ) c).after 4 t) = _
  rw [after3_4]
  unfold out3_4
  rw [View.canon_unit_zero hz3]
  simp only [View.ld_unit_zero (S := S5000x16) hz3, View.ld_unit_zero (S := S16x16) hz3]
  have key : ∀ y : S5000x16.Idx, k3_pay2 (F := Ideal) (iblk3 (V7 m ρ) c 0 t) (iblk3 (V7 m ρ) c 1 t) y
      = mm HB (A2 (W6 m ρ c (Proc.devRef .tc main_arg8) : S16x16.Idx → EReal))
          ((((cfg3.win 4).blk t).view.emb y) 0) ((((cfg3.win 4).blk t).view.emb y) 1) := by
    intro y
    obtain ⟨p, q, rfl⟩ : ∃ (p : Fin 5000) (q : Fin 16), y = ix2 p q := ⟨y 0, y 1, eq_ix2 y⟩
    refine (pay2_at _ _ p q).trans ?_
    unfold mm
    refine Finset.sum_congr rfl fun k _ => ?_
    rw [blk3_0_at m ρ c HB hv t p k q, blk3_1_at m ρ c t p k q]
  exact funext key

/-- What point t writes back to the second output is block t of the product with the second matrix plus the bias. -/
theorem flushed3_5 (t : Fin cfg3.N) :
    (dat3 (V7 m ρ) c).flushed 5 t = ((cfg3.win 5).blk t).view.read (Elt Ideal)
      (fun i : S100000x16.Idx => mm HB (A2 (W6 m ρ c (Proc.devRef .tc main_arg10) : S16x16.Idx → EReal)) (i 0) (i 1) + A1 (W6 m ρ c (Proc.devRef .tc main_arg9) : S16.Idx → EReal) (i 1)) := by
  show (cfg3.win 5).cut (grid3.coords t) ((dat3 (V7 m ρ) c).after 5 t) = _
  rw [after3_5]
  unfold out3_5
  rw [View.canon_unit_zero hz3]
  simp only [View.ld_unit_zero (S := S5000x16) hz3, View.ld_unit_zero (S := S16x16) hz3, View.ld_unit_zero (S := S1x16) hz3]
  have key : ∀ y : S5000x16.Idx, k3_pay3 (F := Ideal) (iblk3 (V7 m ρ) c 0 t) (iblk3 (V7 m ρ) c 2 t) (iblk3 (V7 m ρ) c 3 t) y
      = mm HB (A2 (W6 m ρ c (Proc.devRef .tc main_arg10) : S16x16.Idx → EReal))
          ((((cfg3.win 5).blk t).view.emb y) 0) ((((cfg3.win 5).blk t).view.emb y) 1)
        + A1 (W6 m ρ c (Proc.devRef .tc main_arg9) : S16.Idx → EReal) ((((cfg3.win 5).blk t).view.emb y) 1) := by
    intro y
    obtain ⟨p, q, rfl⟩ : ∃ (p : Fin 5000) (q : Fin 16), y = ix2 p q := ⟨y 0, y 1, eq_ix2 y⟩
    refine (pay3_at _ _ _ p q).trans ?_
    unfold mm
    rw [blk3_3_at m ρ c t p q]
    congr 1
    refine Finset.sum_congr rfl fun k _ => ?_
    rw [blk3_0_at' m ρ c HB hv t p k q, blk3_2_at m ρ c t p k q]
  exact funext key
end

end Seg3

open Seg3

section
variable (HB : Fin 100000 → Fin 16 → EReal)
  (hv : (W6 m ρ c (Proc.devRef .tc main_v51) : S12500x128.Idx → EReal)
      = fun q => HB (unpack (q 0) (q 1)).1 (unpack (q 0) (q 1)).2)
include hv

/-- The first output: the normalised layer times the first matrix. -/
theorem s3_y2 : (W8 m ρ c (Proc.devRef .tc main_v54_0) : S100000x16.Idx → EReal)
    = fun q => mm HB (A2 (W6 m ρ c (Proc.devRef .tc main_arg8) : S16x16.Idx → EReal)) (q 0) (q 1) := by
  exact (W8_arr m ρ c 4).trans ((dat3 (V7 m ρ) c).arrAt_eq_of_cover 4 _ (fun t _ => flushed3_4 m ρ c HB hv t) covered3_4)

/-- The second output: the normalised layer times the second matrix, plus the bias. -/
theorem s3_xr2 : (W8 m ρ c (Proc.devRef .tc main_v54_1) : S100000x16.Idx → EReal)
    = fun q => mm HB (A2 (W6 m ρ c (Proc.devRef .tc main_arg10) : S16x16.Idx → EReal)) (q 0) (q 1)
        + A1 (W6 m ρ c (Proc.devRef .tc main_arg9) : S16.Idx → EReal) (q 1) := by
  exact (W8_arr m ρ c 5).trans ((dat3 (V7 m ρ) c).arrAt_eq_of_cover 5 _ (fun t _ => flushed3_5 m ρ c HB hv t) covered3_5)
end

end Cert.KernelIdeal.KV

end
-- ==== Proof.KSeg4.lean ====
import proofs.«407675_j64304250356442_3_alg».proof.Proof.Gen.KernelIdeal.Frame
import proofs.«407675_j64304250356442_3_alg».proof.Proof.Spec
import proofs.«407675_j64304250356442_3_alg».proof.Proof.Consts
import proofs.«407675_j64304250356442_3_alg».proof.Proof.LibScatter
import Idealize.ShloMosaic.Lib.Pipeline.Value
import Idealize.ShloMosaic.Lib.IdealHost
import Idealize.ShloMosaic.Lib.ValueLayout
import Idealize.ShloMosaic.Lib.Affine

set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (ρ : Dev nD → PrngReg) (c : Dev nD)

/-! # The fifth host stretch and the fifth kernel call

The host stretch is the second one again, on the second layer's first output; the kernel call adds the
node's own branch, rectifies, and multiplies each tile's 0/1 segment-membership matrix into the result
and into a column of ones.

The host stretch is read one element at a time: an edge's source word (a negative one moved up by the
number of nodes, then clamped) names the row it gathers, the accumulating scatter adds that row into the
node its target word names, and the quotient by the clamped in-degree gives the neighbourhood average.
The kernel call is read one tile at a time: the membership entry of (row, segment) is 1 exactly when the
row's segment word, read signed, is the segment, and the two products contract the 5000 rows of the tile.
Tile t's block of each output is slab t of its array, so the twenty tiles fill the two arrays. -/

namespace Seg4

/-! ## The host stretch -/

/-- The source word chain at one word: compare with zero, add the node count, select. -/
theorem select_src (x : BitVec 32) :
    Scalar.select (IntOp.cmpi .slt x 0#32) (IntOp.addi x 100000#32) x
      = if x.toInt < 0 then x + 100000#32 else x := by
  by_cases h : x.toInt < 0
  · rw [if_pos h]
    have : IntOp.cmpi .slt x 0#32 = 1#1 := IntOp.cmpi_slt.mpr (by simpa using h)
    rw [this, select_one]; rfl
  · rw [if_neg h]
    have : IntOp.cmpi .slt x 0#32 = 0#1 := eq_zero_of_ne_one (fun e => h (by simpa using IntOp.cmpi_slt.mp e))
    rw [this, select_zero]

/-- A vector of words broadcast to a column, read at a row. -/
theorem bcol_apply (v : S1600000.Idx → BitVec 32) (e : Fin 1600000) :
    broadcastInDim S1600000x1 ![0] bcast_S1600000_S1600000x1_0 v (ix2 e (0 : Fin 1)) = v (ix1 e) :=
  broadcastInDim_apply _ _ v (ix2 e (0 : Fin 1)) (ix1 e) (fun a => match a with | ⟨0, _⟩ => rfl)

/-- A column broadcast along the columns, read at an element. -/
theorem bcnt_apply (v : S100000x1.Idx → EReal) (i : Fin 100000) (j : Fin 16) :
    broadcastInDim S100000x16 ![0, 1] bcast_S100000x1_S100000x16_0_1 v (ix2 i j) = v (ix2 i (0 : Fin 1)) :=
  broadcastInDim_apply _ _ v (ix2 i j) (ix2 i (0 : Fin 1)) (fun a => match a with | ⟨0, _⟩ => rfl | ⟨1, _⟩ => rfl)

/-- The column of source words at an edge is the edge's source word. -/
theorem srcw_apply (ei : Fin 2 → Fin 1600000 → BitVec 32) (s : S1600000.Idx → BitVec 32) (hs : s = fun q => ei 0 (q 0)) (e : Fin 1600000) :
    broadcastInDim S1600000x1 ![0] bcast_S1600000_S1600000x1_0
      (select (cmpi .slt s (broadcastInDim S1600000 ![] bcast_S_S1600000 (constantI S_ 32 0#32)))
        (addi s (broadcastInDim S1600000 ![] bcast_S_S1600000 (constantI S_ 32 100000#32))) s) (ix2 e (0 : Fin 1))
      = srcWord ei e := by
  rw [bcol_apply]
  subst hs
  show Scalar.select (IntOp.cmpi .slt (ei 0 e) 0#32) (IntOp.addi (ei 0 e) 100000#32) (ei 0 e) = _
  rw [select_src]; rfl

/-- The accumulating scatter of the stretch at an element. -/
theorem scat_apply (x : FVec Ideal S100000x16 .f32) (idx : IVec S1600000x1 32) (upd : FVec Ideal S1600000x16 .f32)
    (i : Fin 100000) (j : Fin 16) :
    Host.scatterAdd (F := Ideal) (φ := .f32) scatter_S100000x16_S1600000x1_S1600000x16_1_0_0_1 x idx upd (ix2 i j)
      = x (ix2 i j) + ∑ e : Fin 1600000, if (idx (ix2 e (0 : Fin 1))).toInt = (i.val : Int) then upd (ix2 e j) else 0 :=
  Cert.LibScatter.hostScatterAdd_rows scatter_S100000x16_S1600000x1_S1600000x16_1_0_0_1 rfl rfl rfl rfl x idx upd i j

/-- The gather of the stretch at an element. -/
theorem gath_apply (y : FVec Ideal S100000x16 .f32) (idx : IVec S1600000x1 32) (e : Fin 1600000) (j : Fin 16) :
    Host.gather gather_S100000x16_S1600000x1_S1600000x16_1_0_n_n_0_1_116 y idx (ix2 e j)
      = y (ix2 (⟨min (idx (ix2 e (0 : Fin 1))).toInt.toNat 99999, by omega⟩ : Fin 100000) j) :=
  Cert.LibScatter.gather_rows gather_S100000x16_S1600000x1_S1600000x16_1_0_n_n_0_1_116 rfl rfl rfl rfl rfl rfl rfl (by decide) y idx e j

/-- What an edge delivers: the row of the table its source word names. -/
theorem edge_term (ei : Fin 2 → Fin 1600000 → BitVec 32) (Y : Fin 100000 → Fin 16 → EReal)
    (y : FVec Ideal S100000x16 .f32) (hy : y = fun q => Y (q 0) (q 1))
    (s : S1600000.Idx → BitVec 32) (hs : s = fun q => ei 0 (q 0)) (e : Fin 1600000) (j : Fin 16) :
    Host.gather gather_S100000x16_S1600000x1_S1600000x16_1_0_n_n_0_1_116 y
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32))) s)) (ix2 e j)
      = Y (srow ei e) j := by
  rw [gath_apply, hy]
  show Y _ j = Y (srow ei e) j
  exact congrArg (fun z => Y z j) (Fin.ext (congrArg (fun w : BitVec 32 => min w.toInt.toNat 99999) (srcw_apply ei s hs e)))

set_option maxHeartbeats 1000000 in
/-- The host stretch leaves the neighbourhood average of the rows it reads. -/
theorem host_avg (V : Valuation τ sig (Elt Ideal)) (ei : Fin 2 → Fin 1600000 → BitVec 32) (Y : Fin 100000 → Fin 16 → EReal)
    (hy : (V (Proc.devRef .tc main_v54_0) : S100000x16.Idx → EReal) = fun q => Y (q 0) (q 1))
    (hs : (V (Proc.devRef .tc main_v1) : S1600000.Idx → BitVec 32) = fun q => ei 0 (q 0))
    (hd : (V (Proc.devRef .tc main_v3) : S1600000.Idx → BitVec 32) = fun q => ei 1 (q 0))
    (hc : (V (Proc.devRef .tc main_v10) : S100000x1.Idx → EReal) = fun q => cnt ei (q 0)) :
    (StableHlo.after hostOps4 V (Proc.devRef .tc main_v66) : S100000x16.Idx → EReal)
      = fun q => agg ei Y (q 0) (q 1) := by
  after_results_simp
  funext q
  obtain ⟨i, j, rfl⟩ : ∃ (i : Fin 100000) (j : Fin 16), q = ix2 i j := ⟨q 0, q 1, eq_ix2 q⟩
  refine (hostDivf_apply _ _ (ix2 i j)).trans ?_
  rw [bcnt_apply, scat_apply, broadcastInDim_scalar_apply, hc]
  show Ideal.div (Ideal.ofBits .f32 0x00000000#32 + _) (cnt ei i) = Ideal.div (aggsum ei Y i j) (cnt ei i)
  rw [Ideal.ofBits_zero_f32, zero_add]
  refine congrArg (fun z => Ideal.div z (cnt ei i)) ?_
  unfold aggsum
  refine Finset.sum_congr rfl fun e _ => ?_
  rw [bcol_apply, hd, edge_term ei Y _ hy _ hs]
  rfl

/-! ## The kernel call's payloads at an index -/

/-- A word is the word of a small number exactly when its signed reading is that number. -/
theorem eq_ofNat_iff_toInt (x : BitVec 32) (g : Fin 256) : x = BitVec.ofNat 32 g.val ↔ x.toInt = (g.val : Int) := by
  have hg := g.isLt
  have e1 : (BitVec.ofNat 32 g.val).toNat = g.val := by rw [BitVec.toNat_ofNat]; omega
  have e2 : (BitVec.ofNat 32 g.val).toInt = (g.val : Int) := by
    have := BitVec.toInt_eq_toNat_cond (BitVec.ofNat 32 g.val); rw [e1] at this; omega
  constructor
  · rintro rfl; exact e2
  · intro h; exact BitVec.eq_of_toInt_eq (h.trans e2.symm)

/-- The membership entry: the widened compare bit converted to a float is 1 on a hit and 0 otherwise. -/
theorem member_word (x : BitVec 32) (g : Fin 256) :
    Scalar.sitofp (F := Ideal) .f32 ((IntOp.cmpi .eq x (BitVec.ofNat 32 g.val)).setWidth 32)
      = if x.toInt = (g.val : Int) then (1 : EReal) else 0 := by
  rw [Ideal.scalar_sitofp_def]
  by_cases h : x.toInt = (g.val : Int)
  · rw [if_pos h]
    have : IntOp.cmpi .eq x (BitVec.ofNat 32 g.val) = 1#1 := IntOp.cmpi_eq.mpr ((eq_ofNat_iff_toInt x g).mpr h)
    rw [this]
    have : ((1#1 : BitVec 1).setWidth 32).toInt = 1 := by decide
    rw [this]; simp
  · rw [if_neg h]
    have : IntOp.cmpi .eq x (BitVec.ofNat 32 g.val) = 0#1 :=
      eq_zero_of_ne_one fun e => h ((eq_ofNat_iff_toInt x g).mp (IntOp.cmpi_eq.mp e))
    rw [this]
    have : ((0#1 : BitVec 1).setWidth 32).toInt = 0 := by decide
    rw [this]; simp

/-- The membership matrix at (row, segment): 1 when the row's segment word, read signed, is the segment. -/
theorem pay1_apply (x2 : Vec Ideal S5000x1 .i32) (r : Fin 5000) (g : Fin 256) :
    k4_pay1 (F := Ideal) x2 (ix2 r g) = if (x2 (ix2 r (0 : Fin 1))).toInt = (g.val : Int) then (1 : EReal) else 0 := by
  have h1 : broadcastTo S5000x256 (shapeCast S5000x1 x2 shapeCasts_S5000x1_S5000x1) broadcasts_S5000x1_S5000x256 (ix2 r g) = x2 (ix2 r (0 : Fin 1)) := by
    refine (broadcastTo_apply _ _ (ix2 r g) (ix2 r (0 : Fin 1)) (fun a => match a with | ⟨0, _⟩ => rfl | ⟨1, _⟩ => rfl)).trans ?_
    rw [shapeCast_self]
  have h2 : broadcastTo S5000x256 (iota .tc S1x256 32 [1] iota_S1x256_d1_w32) broadcasts_S1x256_S5000x256 (ix2 r g) = BitVec.ofNat 32 g.val := by
    refine (broadcastTo_1b_ab_apply _ _ r g).trans ?_
    exact iota_single_apply _ _ _ _ _ _
  unfold k4_pay1
  show Scalar.sitofp (F := Ideal) .f32 ((IntOp.cmpi .eq (broadcastTo S5000x256 (shapeCast S5000x1 x2 shapeCasts_S5000x1_S5000x1) broadcasts_S5000x1_S5000x256 (ix2 r g)) (broadcastTo S5000x256 (iota .tc S1x256 32 [1] iota_S1x256_d1_w32) broadcasts_S1x256_S5000x256 (ix2 r g))).setWidth 32) = _
  rw [h1, h2, member_word]

theorem lhs_sp_0 (i : S256x16.Idx) (q : dot_S5000x256_S5000x16_S256x16_0_0_1_1_n_n.contr.Idx) :
    (dot_S5000x256_S5000x16_S256x16_0_0_1_1_n_n.lhsIdx i q 0).val = (q ⟨0, by decide⟩).val :=
  dot_S5000x256_S5000x16_S256x16_0_0_1_1_n_n.lhsIdx_val_of_single rfl i q
theorem lhs_sp_1 (i : S256x16.Idx) (q : dot_S5000x256_S5000x16_S256x16_0_0_1_1_n_n.contr.Idx) :
    (dot_S5000x256_S5000x16_S256x16_0_0_1_1_n_n.lhsIdx i q 1).val = (i 0).val := by
  unfold DotDims.lhsIdx
  rw [dif_neg (show ¬(1 : Fin S5000x256.rank) ∈ dot_S5000x256_S5000x16_S256x16_0_0_1_1_n_n.lhsBatch by decide), dif_pos (show (1 : Fin S5000x256.rank) ∈ dot_S5000x256_S5000x16_S256x16_0_0_1_1_n_n.lhsNonContracting by decide)]
  rfl
theorem rhs_sp_0 (i : S256x16.Idx) (q : dot_S5000x256_S5000x16_S256x16_0_0_1_1_n_n.contr.Idx) :
    (dot_S5000x256_S5000x16_S256x16_0_0_1_1_n_n.rhsIdx i q 0).val = (q ⟨0, by decide⟩).val :=
  dot_S5000x256_S5000x16_S256x16_0_0_1_1_n_n.rhsIdx_val_of_single rfl i q
theorem rhs_sp_1 (i : S256x16.Idx) (q : dot_S5000x256_S5000x16_S256x16_0_0_1_1_n_n.contr.Idx) :
    (dot_S5000x256_S5000x16_S256x16_0_0_1_1_n_n.rhsIdx i q 1).val = (i 1).val := by
  unfold DotDims.rhsIdx
  rw [dif_neg (show ¬(1 : Fin S5000x16.rank) ∈ dot_S5000x256_S5000x16_S256x16_0_0_1_1_n_n.rhsBatch by decide), dif_pos (show (1 : Fin S5000x16.rank) ∈ dot_S5000x256_S5000x16_S256x16_0_0_1_1_n_n.rhsNonContracting by decide)]
  rfl

/-- The tile's segment sums at (segment, feature): the membership column times the rectified sum's column. -/
theorem pay2_apply (x0 x1 : Vec Ideal S5000x16 .f32) (x2 : Vec Ideal S5000x1 .i32) (u : Fin 1) (g : Fin 256) (f : Fin 16) :
    k4_pay2 x0 x1 x2 (ix3 u g f)
      = ∑ r : Fin 5000, (if (x2 (ix2 r (0 : Fin 1))).toInt = (g.val : Int) then (1 : EReal) else 0)
          * max (x0 (ix2 r f) + x1 (ix2 r f)) 0 := by
  unfold k4_pay2
  refine (shapeCast_ab_1ab_apply _ _ u g f).trans ?_
  simp only [matmul]
  refine (Ideal.matmul_constant_zero_apply dot_S5000x256_S5000x16_S256x16_0_0_1_1_n_n none _ _ (ix2 g f)).trans ?_
  rw [← Equiv.sum_comp (contrEquiv1 dot_S5000x256_S5000x16_S256x16_0_0_1_1_n_n 5000 rfl rfl).symm]
  refine Finset.sum_congr rfl fun k _ => ?_
  have hk := contrEquiv1_symm_val dot_S5000x256_S5000x16_S256x16_0_0_1_1_n_n 5000 rfl rfl k
  have el : dot_S5000x256_S5000x16_S256x16_0_0_1_1_n_n.lhsIdx (ix2 g f) ((contrEquiv1 dot_S5000x256_S5000x16_S256x16_0_0_1_1_n_n 5000 rfl rfl).symm k) = ix2 k g := funext fun a => Fin.ext (by
    match a with
    | ⟨0, _⟩ => exact (lhs_sp_0 _ _).trans hk
    | ⟨1, _⟩ => exact lhs_sp_1 _ _)
  have er : dot_S5000x256_S5000x16_S256x16_0_0_1_1_n_n.rhsIdx (ix2 g f) ((contrEquiv1 dot_S5000x256_S5000x16_S256x16_0_0_1_1_n_n 5000 rfl rfl).symm k) = ix2 k f := funext fun a => Fin.ext (by
    match a with
    | ⟨0, _⟩ => exact (rhs_sp_0 _ _).trans hk
    | ⟨1, _⟩ => exact rhs_sp_1 _ _)
  rw [el, er, pay1_apply]
  congr 1
  show max (shapeCast S5000x16 x0 shapeCasts_S5000x16_S5000x16 (ix2 k f) + shapeCast S5000x16 x1 shapeCasts_S5000x16_S5000x16 (ix2 k f)) (Ideal.ofBits .f32 0x00000000#32) = _
  rw [shapeCast_self, shapeCast_self, Ideal.ofBits_zero_f32]

theorem lhs_cp_0 (i : S256x1.Idx) (q : dot_S5000x256_S5000x1_S256x1_0_0_1_1_n_n.contr.Idx) :
    (dot_S5000x256_S5000x1_S256x1_0_0_1_1_n_n.lhsIdx i q 0).val = (q ⟨0, by decide⟩).val :=
  dot_S5000x256_S5000x1_S256x1_0_0_1_1_n_n.lhsIdx_val_of_single rfl i q
theorem lhs_cp_1 (i : S256x1.Idx) (q : dot_S5000x256_S5000x1_S256x1_0_0_1_1_n_n.contr.Idx) :
    (dot_S5000x256_S5000x1_S256x1_0_0_1_1_n_n.lhsIdx i q 1).val = (i 0).val := by
  unfold DotDims.lhsIdx
  rw [dif_neg (show ¬(1 : Fin S5000x256.rank) ∈ dot_S5000x256_S5000x1_S256x1_0_0_1_1_n_n.lhsBatch by decide), dif_pos (show (1 : Fin S5000x256.rank) ∈ dot_S5000x256_S5000x1_S256x1_0_0_1_1_n_n.lhsNonContracting by decide)]
  rfl

/-- The tile's segment sizes at a segment: the membership column times a column of ones. -/
theorem pay3_apply (x2 : Vec Ideal S5000x1 .i32) (u : Fin 1) (g : Fin 256) (z : Fin 1) :
    k4_pay3 (F := Ideal) x2 (ix3 u g z)
      = ∑ r : Fin 5000, (if (x2 (ix2 r (0 : Fin 1))).toInt = (g.val : Int) then (1 : EReal) else 0) := by
  unfold k4_pay3
  refine (shapeCast_ab_1ab_apply _ _ u g z).trans ?_
  simp only [matmul]
  refine (Ideal.matmul_constant_zero_apply dot_S5000x256_S5000x1_S256x1_0_0_1_1_n_n none _ _ (ix2 g z)).trans ?_
  rw [← Equiv.sum_comp (contrEquiv1 dot_S5000x256_S5000x1_S256x1_0_0_1_1_n_n 5000 rfl rfl).symm]
  refine Finset.sum_congr rfl fun k _ => ?_
  have hk := contrEquiv1_symm_val dot_S5000x256_S5000x1_S256x1_0_0_1_1_n_n 5000 rfl rfl k
  have el : dot_S5000x256_S5000x1_S256x1_0_0_1_1_n_n.lhsIdx (ix2 g z) ((contrEquiv1 dot_S5000x256_S5000x1_S256x1_0_0_1_1_n_n 5000 rfl rfl).symm k) = ix2 k g := funext fun a => Fin.ext (by
    match a with
    | ⟨0, _⟩ => exact (lhs_cp_0 _ _).trans hk
    | ⟨1, _⟩ => exact lhs_cp_1 _ _)
  rw [el, pay1_apply]
  show _ * Ideal.ofBits .bf16 0x3F80#16 = _
  rw [ofBits_one_bf16, mul_one]

/-! ## From the tiles to the arrays -/

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: every window's block number is the point's number on axis 0 and zero elsewhere. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 3) = t.val ∧ win4_3.index t (1 : Fin 3) = 0 ∧ win4_3.index t (2 : Fin 3) = 0
    ∧ win4_4.index t (0 : Fin 3) = t.val ∧ win4_4.index t (1 : Fin 3) = 0 ∧ win4_4.index t (2 : Fin 3) = 0 :=
  (by decide +kernel : ∀ t : Fin grid4.N, _)

theorem lt20 (t : Fin cfg4.N) : t.val < 20 := by
  have h := t.isLt
  have e : cfg4.N = 20 := N_4
  omega

section Blocks
variable (V : (c : Dev nD) → (b : Ref sig .tc) → Buf (Elt Ideal) ((c : Thread nD τ).loc b))

/-- Tile t of the neighbourhood-average window reads the array at the tile's nodes. -/
theorem blk0_apply (A : S100000x16.Idx → EReal) (hA : (V c main_v66 : S100000x16.Idx → EReal) = A)
    (t : Fin cfg4.N) (r : Fin 5000) (f : Fin 16) :
    iblk4 V c 0 t (ix2 r f) = A (ix2 (node ⟨t.val, lt20 t⟩ r) f) := by
  show V c main_v66 (((cfg4.win 0).blk t).view.emb (ix2 r f)) = _
  rw [hA]
  refine congrArg A (funext fun a => Fin.ext ?_)
  obtain ⟨e0, e1, -⟩ := idx_facts4 t
  match a with
  | ⟨0, _⟩ => show win4_0.index t (0 : Fin 2) * 5000 + 1 * r.val = 5000 * t.val + r.val; omega
  | ⟨1, _⟩ => show win4_0.index t (1 : Fin 2) * 16 + 1 * f.val = f.val; omega

/-- Tile t of the own-branch window reads the array at the tile's nodes. -/
theorem blk1_apply (A : S100000x16.Idx → EReal) (hA : (V c main_v54_1 : S100000x16.Idx → EReal) = A)
    (t : Fin cfg4.N) (r : Fin 5000) (f : Fin 16) :
    iblk4 V c 1 t (ix2 r f) = A (ix2 (node ⟨t.val, lt20 t⟩ r) f) := by
  show V c main_v54_1 (((cfg4.win 1).blk t).view.emb (ix2 r f)) = _
  rw [hA]
  refine congrArg A (funext fun a => Fin.ext ?_)
  obtain ⟨-, -, e0, e1, -⟩ := idx_facts4 t
  match a with
  | ⟨0, _⟩ => show win4_1.index t (0 : Fin 2) * 5000 + 1 * r.val = 5000 * t.val + r.val; omega
  | ⟨1, _⟩ => show win4_1.index t (1 : Fin 2) * 16 + 1 * f.val = f.val; omega

/-- Tile t of the segment-word window reads the column at the tile's nodes. -/
theorem blk2_apply (A : S100000x1.Idx → BitVec 32) (hA : (V c main_v4 : S100000x1.Idx → BitVec 32) = A)
    (t : Fin cfg4.N) (r : Fin 5000) (z : Fin 1) :
    iblk4 V c 2 t (ix2 r z) = A (ix2 (node ⟨t.val, lt20 t⟩ r) z) := by
  show V c main_v4 (((cfg4.win 2).blk t).view.emb (ix2 r z)) = _
  rw [hA]
  refine congrArg A (funext fun a => Fin.ext ?_)
  obtain ⟨-, -, -, -, e0, e1, -⟩ := idx_facts4 t
  match a with
  | ⟨0, _⟩ => show win4_2.index t (0 : Fin 2) * 5000 + 1 * r.val = 5000 * t.val + r.val; omega
  | ⟨1, _⟩ => show win4_2.index t (1 : Fin 2) * 1 + 1 * z.val = z.val; omega

end Blocks

theorem segPart_congr {k : Nat} (bt : Fin 100000 → BitVec 32) (h : Fin 100000 → Fin k → EReal) (t t' : Fin 20) (g g' : Fin 256) (f f' : Fin k)
    (ht : t.val = t'.val) (hg : g.val = g'.val) (hf : f.val = f'.val) : segPart bt h t g f = segPart bt h t' g' f' := by
  obtain rfl := Fin.ext ht; obtain rfl := Fin.ext hg; obtain rfl := Fin.ext hf; rfl

theorem segCnt_congr (bt : Fin 100000 → BitVec 32) (t t' : Fin 20) (g g' : Fin 256)
    (ht : t.val = t'.val) (hg : g.val = g'.val) : segCnt bt t g = segCnt bt t' g' := by
  obtain rfl := Fin.ext ht; obtain rfl := Fin.ext hg; rfl

section Flush
variable (V : (c : Dev nD) → (b : Ref sig .tc) → Buf (Elt Ideal) ((c : Thread nD τ).loc b))
  (ei : Fin 2 → Fin 1600000 → BitVec 32) (bt : Fin 100000 → BitVec 32) (Y XR : Fin 100000 → Fin 16 → EReal)
  (h0 : (V c main_v66 : S100000x16.Idx → EReal) = fun q => agg ei Y (q 0) (q 1))
  (h1 : (V c main_v54_1 : S100000x16.Idx → EReal) = fun q => XR (q 0) (q 1))
  (h2 : (V c main_v4 : S100000x1.Idx → BitVec 32) = fun q => bt (q 0))
include h0 h1 h2

/-- What point t writes back to the segment-sum array is tile t of the segment sums. -/
theorem flushed3 (t : Fin cfg4.N) :
    (dat4 V c).flushed 3 t = ((cfg4.win 3).blk t).view.read (Elt Ideal)
      (fun q : S20x256x16.Idx => segPart bt (hrelu ei Y XR) (q 0) (q 1) (q 2)) := by
  show (cfg4.win 3).cut (grid4.coords t) ((dat4 V c).after 3 t) = _
  rw [after4_3]
  unfold out4_3
  rw [View.canon_unit_zero hz3]
  simp only [View.ld_unit_zero (S := S5000x16) hz2, View.ld_unit_zero (S := S5000x1) hz2]
  funext y
  obtain ⟨u, g, f, rfl⟩ : ∃ (u : Fin 1) (g : Fin 256) (f : Fin 16), y = ix3 u g f := ⟨y 0, y 1, y 2, eq_ix3 y⟩
  show k4_pay2 (iblk4 V c 0 t) (iblk4 V c 1 t) (iblk4 V c 2 t) (ix3 u g f)
    = segPart bt (hrelu ei Y XR) (((cfg4.win 3).blk t).view.emb (ix3 u g f) 0) (((cfg4.win 3).blk t).view.emb (ix3 u g f) 1) (((cfg4.win 3).blk t).view.emb (ix3 u g f) 2)
  obtain ⟨-, -, -, -, -, -, e0, e1, e2, -⟩ := idx_facts4 t
  have hu := u.isLt
  refine Eq.trans ?_ (segPart_congr bt (hrelu ei Y XR) ⟨t.val, lt20 t⟩ _ g _ f _ ?_ ?_ ?_)
  · refine (pay2_apply _ _ _ u g f).trans ?_
    unfold segPart
    refine Finset.sum_congr rfl fun r _ => ?_
    rw [blk0_apply c V _ h0, blk1_apply c V _ h1, blk2_apply c V _ h2]
    exact congrArg₂ (· * ·) (if_congr Iff.rfl rfl rfl) rfl
  · show t.val = win4_3.index t (0 : Fin 3) * 1 + 1 * u.val; omega
  · show g.val = win4_3.index t (1 : Fin 3) * 256 + 1 * g.val; omega
  · show f.val = win4_3.index t (2 : Fin 3) * 16 + 1 * f.val; omega

/-- What point t writes back to the segment-size array is tile t of the segment sizes. -/
theorem flushed4 (t : Fin cfg4.N) :
    (dat4 V c).flushed 4 t = ((cfg4.win 4).blk t).view.read (Elt Ideal)
      (fun q : S20x256x1.Idx => segCnt bt (q 0) (q 1)) := by
  show (cfg4.win 4).cut (grid4.coords t) ((dat4 V c).after 4 t) = _
  rw [after4_4]
  unfold out4_4
  rw [View.canon_unit_zero hz3]
  simp only [View.ld_unit_zero (S := S5000x1) hz2]
  funext y
  obtain ⟨u, g, z, rfl⟩ : ∃ (u : Fin 1) (g : Fin 256) (z : Fin 1), y = ix3 u g z := ⟨y 0, y 1, y 2, eq_ix3 y⟩
  show k4_pay3 (iblk4 V c 2 t) (ix3 u g z)
    = segCnt bt (((cfg4.win 4).blk t).view.emb (ix3 u g z) 0) (((cfg4.win 4).blk t).view.emb (ix3 u g z) 1)
  obtain ⟨-, -, -, -, -, -, -, -, -, e0, e1, e2⟩ := idx_facts4 t
  have hu := u.isLt
  refine Eq.trans ?_ (segCnt_congr bt ⟨t.val, lt20 t⟩ _ g _ ?_ ?_)
  · refine (pay3_apply _ u g z).trans ?_
    unfold segCnt
    refine Finset.sum_congr rfl fun r _ => ?_
    rw [blk2_apply c V _ h2]
    exact if_congr Iff.rfl rfl rfl
  · show t.val = win4_4.index t (0 : Fin 3) * 1 + 1 * u.val; omega
  · show g.val = win4_4.index t (1 : Fin 3) * 256 + 1 * g.val; omega

end Flush

/-- An index of the segment-sum array is in point t's block iff each coordinate is in the block's range. -/
theorem mem_blk3 (t : Fin cfg4.N) (i : S20x256x16.Idx) :
    i ∈ ((cfg4.win 3).blk t).view.set ↔ ∀ a : Fin 3, win4_3.index t a * S1x256x16.size a ≤ (i a).val ∧ (i a).val < win4_3.index t a * S1x256x16.size a + S1x256x16.size a := by
  show i ∈ ((View.whole main_v67_0).slice (win4_3.rect t)).set ↔ _
  rw [View.set_slice_whole, Rect.mem_set_unit]
  exact Iff.rfl

theorem mem_blk4 (t : Fin cfg4.N) (i : S20x256x1.Idx) :
    i ∈ ((cfg4.win 4).blk t).view.set ↔ ∀ a : Fin 3, win4_4.index t a * S1x256x1.size a ≤ (i a).val ∧ (i a).val < win4_4.index t a * S1x256x1.size a + S1x256x1.size a := by
  show i ∈ ((View.whole main_v67_1).slice (win4_4.rect t)).set ↔ _
  rw [View.set_slice_whole, Rect.mem_set_unit]
  exact Iff.rfl

/-- Slab t of the segment-sum array is point t's block. -/
theorem cover3 (i : S20x256x16.Idx) : ∃ t : Fin cfg4.N, (cfg4.win 3).flush t = true ∧ i ∈ ((cfg4.win 3).blk t).view.set := by
  have hi0 : (i 0).val < 20 := (i 0).isLt
  have hi1 : (i 1).val < 256 := (i 1).isLt
  have hi2 : (i 2).val < 16 := (i 2).isLt
  have hN : (i 0).val < cfg4.N := by rw [show cfg4.N = 20 from N_4]; exact hi0
  refine ⟨⟨(i 0).val, hN⟩, flush4_3 _, ?_⟩
  rw [mem_blk3]
  obtain ⟨-, -, -, -, -, -, e0, e1, e2, -⟩ := idx_facts4 ⟨(i 0).val, hN⟩
  have e0' : win4_3.index ⟨(i 0).val, hN⟩ (0 : Fin 3) = (i 0).val := e0
  intro a
  match a with
  | ⟨0, _⟩ => show win4_3.index ⟨(i 0).val, hN⟩ (0 : Fin 3) * 1 ≤ (i 0).val ∧ (i 0).val < win4_3.index ⟨(i 0).val, hN⟩ (0 : Fin 3) * 1 + 1; omega
  | ⟨1, _⟩ => show win4_3.index ⟨(i 0).val, hN⟩ (1 : Fin 3) * 256 ≤ (i 1).val ∧ (i 1).val < win4_3.index ⟨(i 0).val, hN⟩ (1 : Fin 3) * 256 + 256; omega
  | ⟨2, _⟩ => show win4_3.index ⟨(i 0).val, hN⟩ (2 : Fin 3) * 16 ≤ (i 2).val ∧ (i 2).val < win4_3.index ⟨(i 0).val, hN⟩ (2 : Fin 3) * 16 + 16; omega

/-- Slab t of the segment-size array is point t's block. -/
theorem cover4 (i : S20x256x1.Idx) : ∃ t : Fin cfg4.N, (cfg4.win 4).flush t = true ∧ i ∈ ((cfg4.win 4).blk t).view.set := by
  have hi0 : (i 0).val < 20 := (i 0).isLt
  have hi1 : (i 1).val < 256 := (i 1).isLt
  have hi2 : (i 2).val < 1 := (i 2).isLt
  have hN : (i 0).val < cfg4.N := by rw [show cfg4.N = 20 from N_4]; exact hi0
  refine ⟨⟨(i 0).val, hN⟩, flush4_4 _, ?_⟩
  rw [mem_blk4]
  obtain ⟨-, -, -, -, -, -, -, -, -, e0, e1, e2⟩ := idx_facts4 ⟨(i 0).val, hN⟩
  have e0' : win4_4.index ⟨(i 0).val, hN⟩ (0 : Fin 3) = (i 0).val := e0
  intro a
  match a with
  | ⟨0, _⟩ => show win4_4.index ⟨(i 0).val, hN⟩ (0 : Fin 3) * 1 ≤ (i 0).val ∧ (i 0).val < win4_4.index ⟨(i 0).val, hN⟩ (0 : Fin 3) * 1 + 1; omega
  | ⟨1, _⟩ => show win4_4.index ⟨(i 0).val, hN⟩ (1 : Fin 3) * 256 ≤ (i 1).val ∧ (i 1).val < win4_4.index ⟨(i 0).val, hN⟩ (1 : Fin 3) * 256 + 256; omega
  | ⟨2, _⟩ => show win4_4.index ⟨(i 0).val, hN⟩ (2 : Fin 3) * 1 ≤ (i 2).val ∧ (i 2).val < win4_4.index ⟨(i 0).val, hN⟩ (2 : Fin 3) * 1 + 1; omega

/-! ## The two outputs of the segment -/

/-- The own-branch array passes through the host stretch. -/
theorem host_keep_x (V : Valuation τ sig (Elt Ideal)) :
    StableHlo.after hostOps4 V (Proc.devRef .tc main_v54_1) = V (Proc.devRef .tc main_v54_1) := by
  after_results_simp

/-- The segment words pass through the host stretch. -/
theorem host_keep_b (V : Valuation τ sig (Elt Ideal)) :
    StableHlo.after hostOps4 V (Proc.devRef .tc main_v4) = V (Proc.devRef .tc main_v4) := by
  after_results_simp

end Seg4

section
variable (ei : Fin 2 → Fin 1600000 → BitVec 32) (bt : Fin 100000 → BitVec 32) (Y XR : Fin 100000 → Fin 16 → EReal)
  (hy : (W8 m ρ c (Proc.devRef .tc main_v54_0) : S100000x16.Idx → EReal) = fun q => Y (q 0) (q 1))
  (hx : (W8 m ρ c (Proc.devRef .tc main_v54_1) : S100000x16.Idx → EReal) = fun q => XR (q 0) (q 1))
  (hs : (W8 m ρ c (Proc.devRef .tc main_v1) : S1600000.Idx → BitVec 32) = fun q => ei 0 (q 0))
  (hd : (W8 m ρ c (Proc.devRef .tc main_v3) : S1600000.Idx → BitVec 32) = fun q => ei 1 (q 0))
  (hc : (W8 m ρ c (Proc.devRef .tc main_v10) : S100000x1.Idx → EReal) = fun q => cnt ei (q 0))
  (hb : (W8 m ρ c (Proc.devRef .tc main_v4) : S100000x1.Idx → BitVec 32) = fun q => bt (q 0))
include hy hx hs hd hc hb

/-- Each tile's segment sums. -/
theorem s4_sp : (W10 m ρ c (Proc.devRef .tc main_v67_0) : S20x256x16.Idx → EReal)
    = fun q => segPart bt (hrelu ei Y XR) (q 0) (q 1) (q 2) := by
  have e0 : (V9 m ρ c main_v66 : S100000x16.Idx → EReal) = fun q => agg ei Y (q 0) (q 1) :=
    Seg4.host_avg (W8 m ρ c) ei Y hy hs hd hc
  have e1 : (V9 m ρ c main_v54_1 : S100000x16.Idx → EReal) = fun q => XR (q 0) (q 1) :=
    (Seg4.host_keep_x (W8 m ρ c)).trans hx
  have e2 : (V9 m ρ c main_v4 : S100000x1.Idx → BitVec 32) = fun q => bt (q 0) :=
    (Seg4.host_keep_b (W8 m ρ c)).trans hb
  refine (W10_arr m ρ c 3).trans ?_
  exact (dat4 (V9 m ρ) c).arrAt_eq_of_cover 3 _
    (fun t _ => Seg4.flushed3 c (V9 m ρ) ei bt Y XR e0 e1 e2 t) Seg4.cover3

/-- Each tile's segment sizes. -/
theorem s4_cp : (W10 m ρ c (Proc.devRef .tc main_v67_1) : S20x256x1.Idx → EReal)
    = fun q => segCnt bt (q 0) (q 1) := by
  have e0 : (V9 m ρ c main_v66 : S100000x16.Idx → EReal) = fun q => agg ei Y (q 0) (q 1) :=
    Seg4.host_avg (W8 m ρ c) ei Y hy hs hd hc
  have e1 : (V9 m ρ c main_v54_1 : S100000x16.Idx → EReal) = fun q => XR (q 0) (q 1) :=
    (Seg4.host_keep_x (W8 m ρ c)).trans hx
  have e2 : (V9 m ρ c main_v4 : S100000x1.Idx → BitVec 32) = fun q => bt (q 0) :=
    (Seg4.host_keep_b (W8 m ρ c)).trans hb
  refine (W10_arr m ρ c 4).trans ?_
  exact (dat4 (V9 m ρ) c).arrAt_eq_of_cover 4 _
    (fun t _ => Seg4.flushed4 c (V9 m ρ) ei bt Y XR e0 e1 e2 t) Seg4.cover4
end

end Cert.KernelIdeal.KV

end
-- ==== Proof.KSeg5.lean ====
import proofs.«407675_j64304250356442_3_alg».proof.Proof.Gen.KernelIdeal.Frame
import proofs.«407675_j64304250356442_3_alg».proof.Proof.Spec
import proofs.«407675_j64304250356442_3_alg».proof.Proof.Consts
import Idealize.ShloMosaic.Lib.ValueLayout
import Idealize.ShloMosaic.PureOps.Ideal.Laws

set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (ρ : Dev nD → PrngReg) (c : Dev nD)

/-! # The layout operations and sums of the small network, read as functions -/

/-- A one-row array as a function of its column. -/
def R1 {n : Nat} (v : (⟨2, ![1, n]⟩ : Shape).Idx → EReal) : Fin n → EReal := fun j => v (ix2 (0 : Fin 1) j)

/-- The column sums of a 256 x 16 array, as a row. -/
theorem colsum16 (z : FVec Ideal S256x16 .f32) (hφ : FKind.Formats .f32) (hacc : (0x00000000#32 : BitVec 32) = 0x00000000#32) :
    shapeCast S1x16 (multiReduction .add [0] S16 z 0x00000000#32 reduces_S256x16_S16 hφ hacc) shapeCasts_S16_S1x16
      = fun q => ∑ i : Fin 256, z (ix2 i (q 1)) := by
  funext q
  obtain ⟨u, j, rfl⟩ : ∃ (u : Fin 1) (j : Fin 16), q = ix2 u j := ⟨q 0, q 1, eq_ix2 q⟩
  refine (shapeCast_a_1a_apply _ shapeCasts_S16_S1x16 u j).trans ?_
  refine (Ideal.multiReduction_add_single z _ reduces_S256x16_S16 hφ hacc (ix1 j)).trans ?_
  refine Finset.sum_congr rfl fun k _ => congrArg z ?_
  funext a; apply Fin.ext
  match a with
  | ⟨0, _⟩ => rfl
  | ⟨1, _⟩ => rfl

/-- A row broadcast over the 256 rows. -/
theorem bcast16 (v : FVec Ideal S1x16 .f32) :
    broadcastTo S256x16 v broadcasts_S1x16_S256x16 = fun q => v (ix2 (0 : Fin 1) (q 1)) := by
  funext q
  obtain ⟨r, j, rfl⟩ : ∃ (r : Fin 256) (j : Fin 16), q = ix2 r j := ⟨q 0, q 1, eq_ix2 q⟩
  exact broadcastTo_1b_ab_apply v broadcasts_S1x16_S256x16 r j

/-- The column sums of a 256 x 32 array, as a row. -/
theorem colsum32 (z : FVec Ideal S256x32 .f32) (hφ : FKind.Formats .f32) (hacc : (0x00000000#32 : BitVec 32) = 0x00000000#32) :
    shapeCast S1x32 (multiReduction .add [0] S32 z 0x00000000#32 reduces_S256x32_S32 hφ hacc) shapeCasts_S32_S1x32
      = fun q => ∑ i : Fin 256, z (ix2 i (q 1)) := by
  funext q
  obtain ⟨u, j, rfl⟩ : ∃ (u : Fin 1) (j : Fin 32), q = ix2 u j := ⟨q 0, q 1, eq_ix2 q⟩
  refine (shapeCast_a_1a_apply _ shapeCasts_S32_S1x32 u j).trans ?_
  refine (Ideal.multiReduction_add_single z _ reduces_S256x32_S32 hφ hacc (ix1 j)).trans ?_
  refine Finset.sum_congr rfl fun k _ => congrArg z ?_
  funext a; apply Fin.ext
  match a with
  | ⟨0, _⟩ => rfl
  | ⟨1, _⟩ => rfl

/-- A row broadcast over the 256 rows. -/
theorem bcast32 (v : FVec Ideal S1x32 .f32) :
    broadcastTo S256x32 v broadcasts_S1x32_S256x32 = fun q => v (ix2 (0 : Fin 1) (q 1)) := by
  funext q
  obtain ⟨r, j, rfl⟩ : ∃ (r : Fin 256) (j : Fin 32), q = ix2 r j := ⟨q 0, q 1, eq_ix2 q⟩
  exact broadcastTo_1b_ab_apply v broadcasts_S1x32_S256x32 r j

/-- The one-entry row broadcast over the 256 rows. -/
theorem bcast1 (v : FVec Ideal S1x1 .f32) :
    broadcastTo S256x1 v broadcasts_S1x1_S256x1 = fun q => v (ix2 (0 : Fin 1) (q 1)) := by
  funext q
  obtain ⟨r, j, rfl⟩ : ∃ (r : Fin 256) (j : Fin 1), q = ix2 r j := ⟨q 0, q 1, eq_ix2 q⟩
  exact broadcastTo_1b_ab_apply v broadcasts_S1x1_S256x1 r j

theorem lhsA_0 (i : S256x16.Idx) (q : dot_S256x16_S16x16_S256x16_1_0_0_1_n_n.contr.Idx) :
    (dot_S256x16_S16x16_S256x16_1_0_0_1_n_n.lhsIdx i q 0).val = (i 0).val := by
  unfold DotDims.lhsIdx
  rw [dif_neg (show ¬(0 : Fin S256x16.rank) ∈ dot_S256x16_S16x16_S256x16_1_0_0_1_n_n.lhsBatch by decide), dif_pos (show (0 : Fin S256x16.rank) ∈ dot_S256x16_S16x16_S256x16_1_0_0_1_n_n.lhsNonContracting by decide)]
  rfl
theorem lhsA_1 (i : S256x16.Idx) (q : dot_S256x16_S16x16_S256x16_1_0_0_1_n_n.contr.Idx) :
    (dot_S256x16_S16x16_S256x16_1_0_0_1_n_n.lhsIdx i q 1).val = (q ⟨0, by decide⟩).val :=
  dot_S256x16_S16x16_S256x16_1_0_0_1_n_n.lhsIdx_val_of_single rfl i q
theorem rhsA_0 (i : S256x16.Idx) (q : dot_S256x16_S16x16_S256x16_1_0_0_1_n_n.contr.Idx) :
    (dot_S256x16_S16x16_S256x16_1_0_0_1_n_n.rhsIdx i q 0).val = (q ⟨0, by decide⟩).val :=
  dot_S256x16_S16x16_S256x16_1_0_0_1_n_n.rhsIdx_val_of_single rfl i q
theorem rhsA_1 (i : S256x16.Idx) (q : dot_S256x16_S16x16_S256x16_1_0_0_1_n_n.contr.Idx) :
    (dot_S256x16_S16x16_S256x16_1_0_0_1_n_n.rhsIdx i q 1).val = (i 1).val := by
  unfold DotDims.rhsIdx
  rw [dif_neg (show ¬(1 : Fin S16x16.rank) ∈ dot_S256x16_S16x16_S256x16_1_0_0_1_n_n.rhsBatch by decide), dif_pos (show (1 : Fin S16x16.rank) ∈ dot_S256x16_S16x16_S256x16_1_0_0_1_n_n.rhsNonContracting by decide)]
  rfl
/-- The 256 x 16 by 16 x 16 product onto zeros, entry by entry. -/
theorem mmA (a : FVec Ideal S256x16 .f32) (w : FVec Ideal S16x16 .f32) :
    matmul dot_S256x16_S16x16_S256x16_1_0_0_1_n_n none (truncf .bf16 a bitsLt_bf16_f32) (truncf .bf16 w bitsLt_bf16_f32) (constant S256x16 .f32 0x00000000#32)
      = fun q => ∑ k : Fin 16, a (ix2 (q 0) k) * w (ix2 k (q 1)) := by
  funext i
  simp only [matmul]
  rw [Ideal.matmul_constant_zero_apply, ← Equiv.sum_comp (ValueIdx.contrEquiv1 dot_S256x16_S16x16_S256x16_1_0_0_1_n_n 16 rfl rfl).symm]
  refine Finset.sum_congr rfl fun k _ => ?_
  have hk := ValueIdx.contrEquiv1_symm_val dot_S256x16_S16x16_S256x16_1_0_0_1_n_n 16 rfl rfl k
  have el : dot_S256x16_S16x16_S256x16_1_0_0_1_n_n.lhsIdx i ((ValueIdx.contrEquiv1 dot_S256x16_S16x16_S256x16_1_0_0_1_n_n 16 rfl rfl).symm k) = ix2 (i 0) k := funext fun a => Fin.ext (by
    match a with
    | ⟨0, _⟩ => exact lhsA_0 _ _
    | ⟨1, _⟩ => exact (lhsA_1 _ _).trans hk)
  have er : dot_S256x16_S16x16_S256x16_1_0_0_1_n_n.rhsIdx i ((ValueIdx.contrEquiv1 dot_S256x16_S16x16_S256x16_1_0_0_1_n_n 16 rfl rfl).symm k) = ix2 k (i 1) := funext fun a => Fin.ext (by
    match a with
    | ⟨0, _⟩ => exact (rhsA_0 _ _).trans hk
    | ⟨1, _⟩ => exact rhsA_1 _ _)
  rw [el, er]
  rfl

theorem lhsB_0 (i : S256x16.Idx) (q : dot_S256x32_S32x16_S256x16_1_0_0_1_n_n.contr.Idx) :
    (dot_S256x32_S32x16_S256x16_1_0_0_1_n_n.lhsIdx i q 0).val = (i 0).val := by
  unfold DotDims.lhsIdx
  rw [dif_neg (show ¬(0 : Fin S256x32.rank) ∈ dot_S256x32_S32x16_S256x16_1_0_0_1_n_n.lhsBatch by decide), dif_pos (show (0 : Fin S256x32.rank) ∈ dot_S256x32_S32x16_S256x16_1_0_0_1_n_n.lhsNonContracting by decide)]
  rfl
theorem lhsB_1 (i : S256x16.Idx) (q : dot_S256x32_S32x16_S256x16_1_0_0_1_n_n.contr.Idx) :
    (dot_S256x32_S32x16_S256x16_1_0_0_1_n_n.lhsIdx i q 1).val = (q ⟨0, by decide⟩).val :=
  dot_S256x32_S32x16_S256x16_1_0_0_1_n_n.lhsIdx_val_of_single rfl i q
theorem rhsB_0 (i : S256x16.Idx) (q : dot_S256x32_S32x16_S256x16_1_0_0_1_n_n.contr.Idx) :
    (dot_S256x32_S32x16_S256x16_1_0_0_1_n_n.rhsIdx i q 0).val = (q ⟨0, by decide⟩).val :=
  dot_S256x32_S32x16_S256x16_1_0_0_1_n_n.rhsIdx_val_of_single rfl i q
theorem rhsB_1 (i : S256x16.Idx) (q : dot_S256x32_S32x16_S256x16_1_0_0_1_n_n.contr.Idx) :
    (dot_S256x32_S32x16_S256x16_1_0_0_1_n_n.rhsIdx i q 1).val = (i 1).val := by
  unfold DotDims.rhsIdx
  rw [dif_neg (show ¬(1 : Fin S32x16.rank) ∈ dot_S256x32_S32x16_S256x16_1_0_0_1_n_n.rhsBatch by decide), dif_pos (show (1 : Fin S32x16.rank) ∈ dot_S256x32_S32x16_S256x16_1_0_0_1_n_n.rhsNonContracting by decide)]
  rfl
/-- The 256 x 32 by 32 x 16 product onto zeros, entry by entry. -/
theorem mmB (a : FVec Ideal S256x32 .f32) (w : FVec Ideal S32x16 .f32) :
    matmul dot_S256x32_S32x16_S256x16_1_0_0_1_n_n none (truncf .bf16 a bitsLt_bf16_f32) (truncf .bf16 w bitsLt_bf16_f32) (constant S256x16 .f32 0x00000000#32)
      = fun q => ∑ k : Fin 32, a (ix2 (q 0) k) * w (ix2 k (q 1)) := by
  funext i
  simp only [matmul]
  rw [Ideal.matmul_constant_zero_apply, ← Equiv.sum_comp (ValueIdx.contrEquiv1 dot_S256x32_S32x16_S256x16_1_0_0_1_n_n 32 rfl rfl).symm]
  refine Finset.sum_congr rfl fun k _ => ?_
  have hk := ValueIdx.contrEquiv1_symm_val dot_S256x32_S32x16_S256x16_1_0_0_1_n_n 32 rfl rfl k
  have el : dot_S256x32_S32x16_S256x16_1_0_0_1_n_n.lhsIdx i ((ValueIdx.contrEquiv1 dot_S256x32_S32x16_S256x16_1_0_0_1_n_n 32 rfl rfl).symm k) = ix2 (i 0) k := funext fun a => Fin.ext (by
    match a with
    | ⟨0, _⟩ => exact lhsB_0 _ _
    | ⟨1, _⟩ => exact (lhsB_1 _ _).trans hk)
  have er : dot_S256x32_S32x16_S256x16_1_0_0_1_n_n.rhsIdx i ((ValueIdx.contrEquiv1 dot_S256x32_S32x16_S256x16_1_0_0_1_n_n 32 rfl rfl).symm k) = ix2 k (i 1) := funext fun a => Fin.ext (by
    match a with
    | ⟨0, _⟩ => exact (rhsB_0 _ _).trans hk
    | ⟨1, _⟩ => exact rhsB_1 _ _)
  rw [el, er]
  rfl

theorem lhsC_0 (i : S256x1.Idx) (q : dot_S256x16_S16x1_S256x1_1_0_0_1_n_n.contr.Idx) :
    (dot_S256x16_S16x1_S256x1_1_0_0_1_n_n.lhsIdx i q 0).val = (i 0).val := by
  unfold DotDims.lhsIdx
  rw [dif_neg (show ¬(0 : Fin S256x16.rank) ∈ dot_S256x16_S16x1_S256x1_1_0_0_1_n_n.lhsBatch by decide), dif_pos (show (0 : Fin S256x16.rank) ∈ dot_S256x16_S16x1_S256x1_1_0_0_1_n_n.lhsNonContracting by decide)]
  rfl
theorem lhsC_1 (i : S256x1.Idx) (q : dot_S256x16_S16x1_S256x1_1_0_0_1_n_n.contr.Idx) :
    (dot_S256x16_S16x1_S256x1_1_0_0_1_n_n.lhsIdx i q 1).val = (q ⟨0, by decide⟩).val :=
  dot_S256x16_S16x1_S256x1_1_0_0_1_n_n.lhsIdx_val_of_single rfl i q
theorem rhsC_0 (i : S256x1.Idx) (q : dot_S256x16_S16x1_S256x1_1_0_0_1_n_n.contr.Idx) :
    (dot_S256x16_S16x1_S256x1_1_0_0_1_n_n.rhsIdx i q 0).val = (q ⟨0, by decide⟩).val :=
  dot_S256x16_S16x1_S256x1_1_0_0_1_n_n.rhsIdx_val_of_single rfl i q
theorem rhsC_1 (i : S256x1.Idx) (q : dot_S256x16_S16x1_S256x1_1_0_0_1_n_n.contr.Idx) :
    (dot_S256x16_S16x1_S256x1_1_0_0_1_n_n.rhsIdx i q 1).val = (i 1).val := by
  unfold DotDims.rhsIdx
  rw [dif_neg (show ¬(1 : Fin S16x1.rank) ∈ dot_S256x16_S16x1_S256x1_1_0_0_1_n_n.rhsBatch by decide), dif_pos (show (1 : Fin S16x1.rank) ∈ dot_S256x16_S16x1_S256x1_1_0_0_1_n_n.rhsNonContracting by decide)]
  rfl
/-- The 256 x 16 by 16 x 1 product onto zeros, entry by entry. -/
theorem mmC (a : FVec Ideal S256x16 .f32) (w : FVec Ideal S16x1 .f32) :
    matmul dot_S256x16_S16x1_S256x1_1_0_0_1_n_n none (truncf .bf16 a bitsLt_bf16_f32) (truncf .bf16 w bitsLt_bf16_f32) (constant S256x1 .f32 0x00000000#32)
      = fun q => ∑ k : Fin 16, a (ix2 (q 0) k) * w (ix2 k (q 1)) := by
  funext i
  simp only [matmul]
  rw [Ideal.matmul_constant_zero_apply, ← Equiv.sum_comp (ValueIdx.contrEquiv1 dot_S256x16_S16x1_S256x1_1_0_0_1_n_n 16 rfl rfl).symm]
  refine Finset.sum_congr rfl fun k _ => ?_
  have hk := ValueIdx.contrEquiv1_symm_val dot_S256x16_S16x1_S256x1_1_0_0_1_n_n 16 rfl rfl k
  have el : dot_S256x16_S16x1_S256x1_1_0_0_1_n_n.lhsIdx i ((ValueIdx.contrEquiv1 dot_S256x16_S16x1_S256x1_1_0_0_1_n_n 16 rfl rfl).symm k) = ix2 (i 0) k := funext fun a => Fin.ext (by
    match a with
    | ⟨0, _⟩ => exact lhsC_0 _ _
    | ⟨1, _⟩ => exact (lhsC_1 _ _).trans hk)
  have er : dot_S256x16_S16x1_S256x1_1_0_0_1_n_n.rhsIdx i ((ValueIdx.contrEquiv1 dot_S256x16_S16x1_S256x1_1_0_0_1_n_n 16 rfl rfl).symm k) = ix2 k (i 1) := funext fun a => Fin.ext (by
    match a with
    | ⟨0, _⟩ => exact (rhsC_0 _ _).trans hk
    | ⟨1, _⟩ => exact rhsC_1 _ _)
  rw [el, er]
  rfl

/-- Two 16-column arrays laid side by side. -/
theorem cat_eq (a b : FVec Ideal S256x16 .f32) :
    concatenate S256x32 1 [⟨S256x16, a⟩, ⟨S256x16, b⟩] concatenates_S256x16_S256x16_S256x32_d1
      = fun q => cat (A2 a) (A2 b) (q 0) (q 1) := by
  funext q
  obtain ⟨r, j, rfl⟩ : ∃ (r : Fin 256) (j : Fin 32), q = ix2 r j := ⟨q 0, q 1, eq_ix2 q⟩
  show _ = if h : j.val < 16 then a (ix2 r ⟨j.val, h⟩) else b (ix2 r ⟨j.val - 16, by omega⟩)
  split
  · rename_i h
    exact concatenate_pair_apply_left (1 : Fin S256x32.rank) a b _ (ix2 r j) rfl (ix2 r ⟨j.val, h⟩)
      (fun b => by match b with | ⟨0, _⟩ => rfl | ⟨1, _⟩ => rfl)
  · rename_i h
    exact concatenate_pair_apply_right (1 : Fin S256x32.rank) a b _ (ix2 r j) rfl rfl (ix2 r ⟨j.val - 16, by omega⟩)
      (fun b hb => by match b with | ⟨0, _⟩ => rfl | ⟨1, _⟩ => exact absurd rfl hb)
      (by show (j.val - 16) + 16 = j.val; omega)

/-! # The kernel call's payloads as the small network's stages -/

theorem pay2_eq (v0 : Vec Ideal S256x16 .f32) : k5_pay2 v0 = v0 := by
  unfold k5_pay2; exact shapeCast_self _ _
theorem pay5_eq (v : Vec Ideal S1x32 .f32) : k5_pay5 v = v := by
  unfold k5_pay5; exact shapeCast_self _ _
theorem pay6_eq (v : Vec Ideal S1x32 .f32) : k5_pay6 v = v := by
  unfold k5_pay6; exact shapeCast_self _ _

/-- The first normalised dense layer with the segment means beside it. -/
theorem pay3_eq (v0 : Vec Ideal S256x16 .f32) (v2 v4 : Vec Ideal S1x16 .f32) (v28 : Vec Ideal S16x16 .f32) (v29 : Vec Ideal S1x16 .f32) :
    k5_pay3 v0 v2 v4 v28 v29
      = fun q => cat (lin (bnS (R1 v2) (R1 v4) (A2 v0)) (A2 v28) (R1 v29)) (A2 v0) (q 0) (q 1) := by
  unfold k5_pay3
  simp only [pay2_eq, shapeCast_self, bcast16, mmA, cat_eq]
  rw [colsum16, colsum16]
  funext q
  refine congrArg (fun f => cat f (A2 v0) (q 0) (q 1)) ?_
  funext r j
  show max (_ + _) (Ideal.ofBits .f32 0x00000000#32) = max (_ + _) 0
  rw [ofBits_zero]
  rfl

/-- The second normalised dense layer with the segment means beside it. -/
theorem pay4_eq (v1 : FVec Ideal S256x16 .f32) (v38 : FVec Ideal S256x32 .f32) (v39 v41 : Vec Ideal S1x32 .f32) (v65 : Vec Ideal S32x16 .f32) (v66 : Vec Ideal S1x16 .f32) :
    k5_pay4 v1 v38 v39 v41 v65 v66
      = fun q => cat (lin (bnS (R1 v39) (R1 v41) (A2 v38)) (A2 v65) (R1 v66)) (A2 v1) (q 0) (q 1) := by
  unfold k5_pay4
  simp only [shapeCast_self, bcast32, bcast16, mmB, cat_eq]
  rw [colsum32, colsum32]
  funext q
  refine congrArg (fun f => cat f (A2 v1) (q 0) (q 1)) ?_
  funext r j
  show max (_ + _) (Ideal.ofBits .f32 0x00000000#32) = max (_ + _) 0
  rw [ofBits_zero]
  rfl

/-- The column sums of the second layer's result. -/
theorem pay7_eq (v1 : FVec Ideal S256x16 .f32) (v38 : FVec Ideal S256x32 .f32) (v39 v41 : Vec Ideal S1x32 .f32) (v65 : Vec Ideal S32x16 .f32) (v66 : Vec Ideal S1x16 .f32) :
    k5_pay7 v1 v38 v39 v41 v65 v66 = fun q => ∑ i : Fin 256, k5_pay4 v1 v38 v39 v41 v65 v66 (ix2 i (q 1)) := by
  unfold k5_pay7
  exact colsum32 _ _ _

/-- The third normalised dense layer and the map to one column. -/
theorem pay1_eq (v75 : FVec Ideal S256x32 .f32) (v77 v79 : FVec Ideal S1x32 .f32) (v102 : Vec Ideal S32x16 .f32) (v103 : Vec Ideal S1x16 .f32) (v113 : Vec Ideal S16x1 .f32) (v116 : Vec Ideal S1x1 .f32) :
    k5_pay1 v75 v77 v79 (fun q => ∑ i : Fin 256, v75 (ix2 i (q 1))) v102 v103 v113 v116
      = fun q => mm (lin (bnS (R1 v77) (R1 v79) (A2 v75)) (A2 v102) (R1 v103)) (A2 v113) (q 0) (q 1) + R1 v116 (q 1) := by
  unfold k5_pay1
  simp only [shapeCast_self, bcast32, bcast16, bcast1, mmB, mmC]
  rw [colsum32]
  funext q
  refine congrArg (· + R1 v116 (q 1)) ?_
  refine Finset.sum_congr rfl fun k _ => congrArg (· * A2 v113 k (q 1)) ?_
  show max (_ + _) (Ideal.ofBits .f32 0x00000000#32) = max (_ + _) 0
  rw [ofBits_zero]
  rfl

/-! # The kernel call: what its one grid point leaves in the result array -/

theorem hz : (![0, 0] : Fin 2 → Nat) = fun _ => 0 := funext fun a => by fin_cases a <;> rfl

/-- The body's result from its fifteen loaded blocks: the small network on the first block. -/
theorem out5_eq (x0 : Vec Ideal S256x16 .f32) (x1 : Vec Ideal S1x16 .f32) (x2 : Vec Ideal S1x16 .f32) (x3 : Vec Ideal S16x16 .f32) (x4 : Vec Ideal S1x16 .f32) (x5 : Vec Ideal S1x32 .f32) (x6 : Vec Ideal S1x32 .f32) (x7 : Vec Ideal S32x16 .f32) (x8 : Vec Ideal S1x16 .f32) (x9 : Vec Ideal S1x32 .f32) (x10 : Vec Ideal S1x32 .f32) (x11 : Vec Ideal S32x16 .f32) (x12 : Vec Ideal S1x16 .f32) (x13 : Vec Ideal S16x1 .f32) (x14 : Vec Ideal S1x1 .f32) :
    out5_15 x0 x1 x2 x3 x4 x5 x6 x7 x8 x9 x10 x11 x12 x13 x14
      = fun q => mlp (R1 x1) (R1 x2) (A2 x3) (R1 x4) (R1 x5) (R1 x6) (A2 x7) (R1 x8) (R1 x9) (R1 x10) (A2 x11) (R1 x12) (A2 x13) (R1 x14) (A2 x0) (q 0) (q 1) := by
  unfold out5_15
  rw [View.canon_unit_zero hz]
  simp only [View.ld_unit_zero (S := S256x16) hz, View.ld_unit_zero (S := S1x16) hz, View.ld_unit_zero (S := S16x16) hz,
    View.ld_unit_zero (S := S1x32) hz, View.ld_unit_zero (S := S32x16) hz, View.ld_unit_zero (S := S16x1) hz,
    View.ld_unit_zero (S := S1x1) hz]
  rw [pay7_eq, pay4_eq, pay3_eq, pay2_eq, pay5_eq, pay6_eq]
  exact pay1_eq _ _ _ _ _ _ _

section Region
variable (V : (c : Dev nD) → (b : Ref sig .tc) → Buf (Elt Ideal) ((c : Thread nD τ).loc b))

/-! Each window's block at the one grid point is its whole array. -/

theorem blk5_0 (c : Dev nD) (t : Fin cfg5.N) :
    (iblk5 V c 0 t : S256x16.Idx → EReal) = (V c main_v73 : S256x16.Idx → EReal) := by
  funext y
  show V c main_v73 (((cfg5.win 0).blk t).view.emb y) = V c main_v73 y
  refine congrArg (V c main_v73) (funext fun a => Fin.ext ?_)
  match a with
  | ⟨0, _⟩ =>
    show win5_0.index t (0 : Fin 2) * 256 + 1 * (y 0).val = (y 0).val
    have h0 : win5_0.index t (0 : Fin 2) = 0 := rfl
    omega
  | ⟨1, _⟩ =>
    show win5_0.index t (1 : Fin 2) * 16 + 1 * (y 1).val = (y 1).val
    have h0 : win5_0.index t (1 : Fin 2) = 0 := rfl
    omega

theorem blk5_1 (c : Dev nD) (t : Fin cfg5.N) :
    (iblk5 V c 1 t : S1x16.Idx → EReal) = (V c main_v74 : S1x16.Idx → EReal) := by
  funext y
  show V c main_v74 (((cfg5.win 1).blk t).view.emb y) = V c main_v74 y
  refine congrArg (V c main_v74) (funext fun a => Fin.ext ?_)
  match a with
  | ⟨0, _⟩ =>
    show win5_1.index t (0 : Fin 2) * 1 + 1 * (y 0).val = (y 0).val
    have h0 : win5_1.index t (0 : Fin 2) = 0 := rfl
    omega
  | ⟨1, _⟩ =>
    show win5_1.index t (1 : Fin 2) * 16 + 1 * (y 1).val = (y 1).val
    have h0 : win5_1.index t (1 : Fin 2) = 0 := rfl
    omega

theorem blk5_2 (c : Dev nD) (t : Fin cfg5.N) :
    (iblk5 V c 2 t : S1x16.Idx → EReal) = (V c main_v75 : S1x16.Idx → EReal) := by
  funext y
  show V c main_v75 (((cfg5.win 2).blk t).view.emb y) = V c main_v75 y
  refine congrArg (V c main_v75) (funext fun a => Fin.ext ?_)
  match a with
  | ⟨0, _⟩ =>
    show win5_2.index t (0 : Fin 2) * 1 + 1 * (y 0).val = (y 0).val
    have h0 : win5_2.index t (0 : Fin 2) = 0 := rfl
    omega
  | ⟨1, _⟩ =>
    show win5_2.index t (1 : Fin 2) * 16 + 1 * (y 1).val = (y 1).val
    have h0 : win5_2.index t (1 : Fin 2) = 0 := rfl
    omega

theorem blk5_3 (c : Dev nD) (t : Fin cfg5.N) :
    (iblk5 V c 3 t : S16x16.Idx → EReal) = (V c main_arg13 : S16x16.Idx → EReal) := by
  funext y
  show V c main_arg13 (((cfg5.win 3).blk t).view.emb y) = V c main_arg13 y
  refine congrArg (V c main_arg13) (funext fun a => Fin.ext ?_)
  match a with
  | ⟨0, _⟩ =>
    show win5_3.index t (0 : Fin 2) * 16 + 1 * (y 0).val = (y 0).val
    have h0 : win5_3.index t (0 : Fin 2) = 0 := rfl
    omega
  | ⟨1, _⟩ =>
    show win5_3.index t (1 : Fin 2) * 16 + 1 * (y 1).val = (y 1).val
    have h0 : win5_3.index t (1 : Fin 2) = 0 := rfl
    omega

theorem blk5_4 (c : Dev nD) (t : Fin cfg5.N) :
    (iblk5 V c 4 t : S1x16.Idx → EReal) = (V c main_v80 : S1x16.Idx → EReal) := by
  funext y
  show V c main_v80 (((cfg5.win 4).blk t).view.emb y) = V c main_v80 y
  refine congrArg (V c main_v80) (funext fun a => Fin.ext ?_)
  match a with
  | ⟨0, _⟩ =>
    show win5_4.index t (0 : Fin 2) * 1 + 1 * (y 0).val = (y 0).val
    have h0 : win5_4.index t (0 : Fin 2) = 0 := rfl
    omega
  | ⟨1, _⟩ =>
    show win5_4.index t (1 : Fin 2) * 16 + 1 * (y 1).val = (y 1).val
    have h0 : win5_4.index t (1 : Fin 2) = 0 := rfl
    omega

theorem blk5_5 (c : Dev nD) (t : Fin cfg5.N) :
    (iblk5 V c 5 t : S1x32.Idx → EReal) = (V c main_v76 : S1x32.Idx → EReal) := by
  funext y
  show V c main_v76 (((cfg5.win 5).blk t).view.emb y) = V c main_v76 y
  refine congrArg (V c main_v76) (funext fun a => Fin.ext ?_)
  match a with
  | ⟨0, _⟩ =>
    show win5_5.index t (0 : Fin 2) * 1 + 1 * (y 0).val = (y 0).val
    have h0 : win5_5.index t (0 : Fin 2) = 0 := rfl
    omega
  | ⟨1, _⟩ =>
    show win5_5.index t (1 : Fin 2) * 32 + 1 * (y 1).val = (y 1).val
    have h0 : win5_5.index t (1 : Fin 2) = 0 := rfl
    omega

theorem blk5_6 (c : Dev nD) (t : Fin cfg5.N) :
    (iblk5 V c 6 t : S1x32.Idx → EReal) = (V c main_v77 : S1x32.Idx → EReal) := by
  funext y
  show V c main_v77 (((cfg5.win 6).blk t).view.emb y) = V c main_v77 y
  refine congrArg (V c main_v77) (funext fun a => Fin.ext ?_)
  match a with
  | ⟨0, _⟩ =>
    show win5_6.index t (0 : Fin 2) * 1 + 1 * (y 0).val = (y 0).val
    have h0 : win5_6.index t (0 : Fin 2) = 0 := rfl
    omega
  | ⟨1, _⟩ =>
    show win5_6.index t (1 : Fin 2) * 32 + 1 * (y 1).val = (y 1).val
    have h0 : win5_6.index t (1 : Fin 2) = 0 := rfl
    omega

theorem blk5_7 (c : Dev nD) (t : Fin cfg5.N) :
    (iblk5 V c 7 t : S32x16.Idx → EReal) = (V c main_arg17 : S32x16.Idx → EReal) := by
  funext y
  show V c main_arg17 (((cfg5.win 7).blk t).view.emb y) = V c main_arg17 y
  refine congrArg (V c main_arg17) (funext fun a => Fin.ext ?_)
  match a with
  | ⟨0, _⟩ =>
    show win5_7.index t (0 : Fin 2) * 32 + 1 * (y 0).val = (y 0).val
    have h0 : win5_7.index t (0 : Fin 2) = 0 := rfl
    omega
  | ⟨1, _⟩ =>
    show win5_7.index t (1 : Fin 2) * 16 + 1 * (y 1).val = (y 1).val
    have h0 : win5_7.index t (1 : Fin 2) = 0 := rfl
    omega

theorem blk5_8 (c : Dev nD) (t : Fin cfg5.N) :
    (iblk5 V c 8 t : S1x16.Idx → EReal) = (V c main_v81 : S1x16.Idx → EReal) := by
  funext y
  show V c main_v81 (((cfg5.win 8).blk t).view.emb y) = V c main_v81 y
  refine congrArg (V c main_v81) (funext fun a => Fin.ext ?_)
  match a with
  | ⟨0, _⟩ =>
    show win5_8.index t (0 : Fin 2) * 1 + 1 * (y 0).val = (y 0).val
    have h0 : win5_8.index t (0 : Fin 2) = 0 := rfl
    omega
  | ⟨1, _⟩ =>
    show win5_8.index t (1 : Fin 2) * 16 + 1 * (y 1).val = (y 1).val
    have h0 : win5_8.index t (1 : Fin 2) = 0 := rfl
    omega

theorem blk5_9 (c : Dev nD) (t : Fin cfg5.N) :
    (iblk5 V c 9 t : S1x32.Idx → EReal) = (V c main_v78 : S1x32.Idx → EReal) := by
  funext y
  show V c main_v78 (((cfg5.win 9).blk t).view.emb y) = V c main_v78 y
  refine congrArg (V c main_v78) (funext fun a => Fin.ext ?_)
  match a with
  | ⟨0, _⟩ =>
    show win5_9.index t (0 : Fin 2) * 1 + 1 * (y 0).val = (y 0).val
    have h0 : win5_9.index t (0 : Fin 2) = 0 := rfl
    omega
  | ⟨1, _⟩ =>
    show win5_9.index t (1 : Fin 2) * 32 + 1 * (y 1).val = (y 1).val
    have h0 : win5_9.index t (1 : Fin 2) = 0 := rfl
    omega

theorem blk5_10 (c : Dev nD) (t : Fin cfg5.N) :
    (iblk5 V c 10 t : S1x32.Idx → EReal) = (V c main_v79 : S1x32.Idx → EReal) := by
  funext y
  show V c main_v79 (((cfg5.win 10).blk t).view.emb y) = V c main_v79 y
  refine congrArg (V c main_v79) (funext fun a => Fin.ext ?_)
  match a with
  | ⟨0, _⟩ =>
    show win5_10.index t (0 : Fin 2) * 1 + 1 * (y 0).val = (y 0).val
    have h0 : win5_10.index t (0 : Fin 2) = 0 := rfl
    omega
  | ⟨1, _⟩ =>
    show win5_10.index t (1 : Fin 2) * 32 + 1 * (y 1).val = (y 1).val
    have h0 : win5_10.index t (1 : Fin 2) = 0 := rfl
    omega

theorem blk5_11 (c : Dev nD) (t : Fin cfg5.N) :
    (iblk5 V c 11 t : S32x16.Idx → EReal) = (V c main_arg21 : S32x16.Idx → EReal) := by
  funext y
  show V c main_arg21 (((cfg5.win 11).blk t).view.emb y) = V c main_arg21 y
  refine congrArg (V c main_arg21) (funext fun a => Fin.ext ?_)
  match a with
  | ⟨0, _⟩ =>
    show win5_11.index t (0 : Fin 2) * 32 + 1 * (y 0).val = (y 0).val
    have h0 : win5_11.index t (0 : Fin 2) = 0 := rfl
    omega
  | ⟨1, _⟩ =>
    show win5_11.index t (1 : Fin 2) * 16 + 1 * (y 1).val = (y 1).val
    have h0 : win5_11.index t (1 : Fin 2) = 0 := rfl
    omega

theorem blk5_12 (c : Dev nD) (t : Fin cfg5.N) :
    (iblk5 V c 12 t : S1x16.Idx → EReal) = (V c main_v82 : S1x16.Idx → EReal) := by
  funext y
  show V c main_v82 (((cfg5.win 12).blk t).view.emb y) = V c main_v82 y
  refine congrArg (V c main_v82) (funext fun a => Fin.ext ?_)
  match a with
  | ⟨0, _⟩ =>
    show win5_12.index t (0 : Fin 2) * 1 + 1 * (y 0).val = (y 0).val
    have h0 : win5_12.index t (0 : Fin 2) = 0 := rfl
    omega
  | ⟨1, _⟩ =>
    show win5_12.index t (1 : Fin 2) * 16 + 1 * (y 1).val = (y 1).val
    have h0 : win5_12.index t (1 : Fin 2) = 0 := rfl
    omega

theorem blk5_13 (c : Dev nD) (t : Fin cfg5.N) :
    (iblk5 V c 13 t : S16x1.Idx → EReal) = (V c main_arg23 : S16x1.Idx → EReal) := by
  funext y
  show V c main_arg23 (((cfg5.win 13).blk t).view.emb y) = V c main_arg23 y
  refine congrArg (V c main_arg23) (funext fun a => Fin.ext ?_)
  match a with
  | ⟨0, _⟩ =>
    show win5_13.index t (0 : Fin 2) * 16 + 1 * (y 0).val = (y 0).val
    have h0 : win5_13.index t (0 : Fin 2) = 0 := rfl
    omega
  | ⟨1, _⟩ =>
    show win5_13.index t (1 : Fin 2) * 1 + 1 * (y 1).val = (y 1).val
    have h0 : win5_13.index t (1 : Fin 2) = 0 := rfl
    omega

theorem blk5_14 (c : Dev nD) (t : Fin cfg5.N) :
    (iblk5 V c 14 t : S1x1.Idx → EReal) = (V c main_v83 : S1x1.Idx → EReal) := by
  funext y
  show V c main_v83 (((cfg5.win 14).blk t).view.emb y) = V c main_v83 y
  refine congrArg (V c main_v83) (funext fun a => Fin.ext ?_)
  match a with
  | ⟨0, _⟩ =>
    show win5_14.index t (0 : Fin 2) * 1 + 1 * (y 0).val = (y 0).val
    have h0 : win5_14.index t (0 : Fin 2) = 0 := rfl
    omega
  | ⟨1, _⟩ =>
    show win5_14.index t (1 : Fin 2) * 1 + 1 * (y 1).val = (y 1).val
    have h0 : win5_14.index t (1 : Fin 2) = 0 := rfl
    omega

/-- The small network on the arrays the region finds. -/
def G5 (c : Dev nD) : S256x1.Idx → EReal :=
  fun q => mlp (R1 (V c main_v74 : S1x16.Idx → EReal)) (R1 (V c main_v75 : S1x16.Idx → EReal)) (A2 (V c main_arg13 : S16x16.Idx → EReal)) (R1 (V c main_v80 : S1x16.Idx → EReal)) (R1 (V c main_v76 : S1x32.Idx → EReal)) (R1 (V c main_v77 : S1x32.Idx → EReal)) (A2 (V c main_arg17 : S32x16.Idx → EReal)) (R1 (V c main_v81 : S1x16.Idx → EReal)) (R1 (V c main_v78 : S1x32.Idx → EReal)) (R1 (V c main_v79 : S1x32.Idx → EReal)) (A2 (V c main_arg21 : S32x16.Idx → EReal)) (R1 (V c main_v82 : S1x16.Idx → EReal)) (A2 (V c main_arg23 : S16x1.Idx → EReal)) (R1 (V c main_v83 : S1x1.Idx → EReal)) (A2 (V c main_v73 : S256x16.Idx → EReal)) (q 0) (q 1)

/-- What the grid point writes back is the whole of that function. -/
theorem flushed5 (c : Dev nD) (t : Fin cfg5.N) :
    (dat5 V c).flushed 15 t = ((cfg5.win 15).blk t).view.read (Elt Ideal) (G5 V c) := by
  show (cfg5.win 15).cut (grid5.coords t) ((dat5 V c).after 15 t) = _
  rw [after5_15]
  have e := out5_eq (V c main_v73) (V c main_v74) (V c main_v75) (V c main_arg13) (V c main_v80) (V c main_v76) (V c main_v77) (V c main_arg17) (V c main_v81) (V c main_v78) (V c main_v79) (V c main_arg21) (V c main_v82) (V c main_arg23) (V c main_v83)
  rw [blk5_0 V c t, blk5_1 V c t, blk5_2 V c t, blk5_3 V c t, blk5_4 V c t, blk5_5 V c t, blk5_6 V c t, blk5_7 V c t, blk5_8 V c t, blk5_9 V c t, blk5_10 V c t, blk5_11 V c t, blk5_12 V c t, blk5_13 V c t, blk5_14 V c t]
  rw [e]
  funext y
  show G5 V c y = G5 V c (((cfg5.win 15).blk t).view.emb y)
  refine congrArg (G5 V c) (funext fun a => Fin.ext ?_)
  match a with
  | ⟨0, _⟩ =>
    show (y 0).val = win5_15.index t (0 : Fin 2) * 256 + 1 * (y 0).val
    have h0 : win5_15.index t (0 : Fin 2) = 0 := rfl
    omega
  | ⟨1, _⟩ =>
    show (y 1).val = win5_15.index t (1 : Fin 2) * 1 + 1 * (y 1).val
    have h0 : win5_15.index t (1 : Fin 2) = 0 := rfl
    omega

theorem mem_blk5 (t : Fin cfg5.N) (i : S256x1.Idx) :
    i ∈ ((cfg5.win 15).blk t).view.set ↔ ∀ a : Fin 2, win5_15.index t a * S256x1.size a ≤ (i a).val ∧ (i a).val < win5_15.index t a * S256x1.size a + S256x1.size a := by
  show i ∈ ((View.whole main_v84).slice (win5_15.rect t)).set ↔ _
  rw [View.set_slice_whole, Rect.mem_set_unit]
  exact Iff.rfl

/-- The result array after the kernel call. -/
theorem final5 (c : Dev nD) : (dat5 V c).arrAt 15 cfg5.N = G5 V c :=
  (dat5 V c).arrAt_eq_of_cover 15 _ (fun t _ => flushed5 V c t) (fun i => ⟨t5_0, flush5_15 t5_0, by
    rw [mem_blk5]
    intro a
    match a with
    | ⟨0, _⟩ =>
      show win5_15.index t5_0 (0 : Fin 2) * 256 ≤ (i 0).val ∧ (i 0).val < win5_15.index t5_0 (0 : Fin 2) * 256 + 256
      have h0 : win5_15.index t5_0 (0 : Fin 2) = 0 := rfl
      have h1 : (i 0).val < 256 := (i 0).isLt
      omega
    | ⟨1, _⟩ =>
      show win5_15.index t5_0 (1 : Fin 2) * 1 ≤ (i 1).val ∧ (i 1).val < win5_15.index t5_0 (1 : Fin 2) * 1 + 1
      have h0 : win5_15.index t5_0 (1 : Fin 2) = 0 := rfl
      have h1 : (i 1).val < 1 := (i 1).isLt
      omega⟩)

end Region

/-! # The host stretch before the kernel call -/

/-- The host's sum over the tile axis of a 20 x 256 x 16 array from zero. -/
theorem red16 (x : FVec Ideal S20x256x16 .f32) :
    Host.reduceAdd (F := Ideal) x (constant S_ .f32 0x00000000#32) reducesTo_S20x256x16_S256x16_d0 h_S_
      = fun q => ∑ t : Fin 20, x (ix3 t (q 0) (q 1)) := by
  funext q
  simp only [Host.reduceAdd, Ideal.hostReduceAdd_def]
  rw [Ideal.hostReduceAdd_single reducesTo_S20x256x16_S256x16_d0 (by decide)]
  show Ideal.ofBits .f32 0x00000000#32 + _ = _
  rw [ofBits_zero, zero_add]
  refine Finset.sum_congr rfl fun k _ => congrArg x (funext fun a => Fin.ext (by
    match a with
    | ⟨0, _⟩ => rfl
    | ⟨1, _⟩ => rfl
    | ⟨2, _⟩ => rfl))

/-- The host's sum over the tile axis of a 20 x 256 x 1 array from zero. -/
theorem red1 (x : FVec Ideal S20x256x1 .f32) :
    Host.reduceAdd (F := Ideal) x (constant S_ .f32 0x00000000#32) reducesTo_S20x256x1_S256x1_d0 h_S_
      = fun q => ∑ t : Fin 20, x (ix3 t (q 0) (q 1)) := by
  funext q
  simp only [Host.reduceAdd, Ideal.hostReduceAdd_def]
  rw [Ideal.hostReduceAdd_single reducesTo_S20x256x1_S256x1_d0 (by decide)]
  show Ideal.ofBits .f32 0x00000000#32 + _ = _
  rw [ofBits_zero, zero_add]
  refine Finset.sum_congr rfl fun k _ => congrArg x (funext fun a => Fin.ext (by
    match a with
    | ⟨0, _⟩ => rfl
    | ⟨1, _⟩ => rfl
    | ⟨2, _⟩ => rfl))

/-! Each parameter vector reshaped to a row. -/

theorem host_main_v74 : (V11 m ρ c main_v74 : S1x16.Idx → EReal)
    = fun q => (W10 m ρ c (Proc.devRef .tc main_arg11) : S16.Idx → EReal) (ix1 (q 1)) := by
  show StableHlo.after hostOps5 (W10 m ρ c) (Proc.devRef .tc main_v74) = _
  after_results
  funext q
  obtain ⟨u, j, rfl⟩ : ∃ (u : Fin 1) (j : Fin 16), q = ix2 u j := ⟨q 0, q 1, eq_ix2 q⟩
  exact shapeCast_a_1a_apply _ shapeCasts_S16_S1x16 u j

theorem host_main_v75 : (V11 m ρ c main_v75 : S1x16.Idx → EReal)
    = fun q => (W10 m ρ c (Proc.devRef .tc main_arg12) : S16.Idx → EReal) (ix1 (q 1)) := by
  show StableHlo.after hostOps5 (W10 m ρ c) (Proc.devRef .tc main_v75) = _
  after_results
  funext q
  obtain ⟨u, j, rfl⟩ : ∃ (u : Fin 1) (j : Fin 16), q = ix2 u j := ⟨q 0, q 1, eq_ix2 q⟩
  exact shapeCast_a_1a_apply _ shapeCasts_S16_S1x16 u j

theorem host_main_v76 : (V11 m ρ c main_v76 : S1x32.Idx → EReal)
    = fun q => (W10 m ρ c (Proc.devRef .tc main_arg15) : S32.Idx → EReal) (ix1 (q 1)) := by
  show StableHlo.after hostOps5 (W10 m ρ c) (Proc.devRef .tc main_v76) = _
  after_results
  funext q
  obtain ⟨u, j, rfl⟩ : ∃ (u : Fin 1) (j : Fin 32), q = ix2 u j := ⟨q 0, q 1, eq_ix2 q⟩
  exact shapeCast_a_1a_apply _ shapeCasts_S32_S1x32 u j

theorem host_main_v77 : (V11 m ρ c main_v77 : S1x32.Idx → EReal)
    = fun q => (W10 m ρ c (Proc.devRef .tc main_arg16) : S32.Idx → EReal) (ix1 (q 1)) := by
  show StableHlo.after hostOps5 (W10 m ρ c) (Proc.devRef .tc main_v77) = _
  after_results
  funext q
  obtain ⟨u, j, rfl⟩ : ∃ (u : Fin 1) (j : Fin 32), q = ix2 u j := ⟨q 0, q 1, eq_ix2 q⟩
  exact shapeCast_a_1a_apply _ shapeCasts_S32_S1x32 u j

theorem host_main_v78 : (V11 m ρ c main_v78 : S1x32.Idx → EReal)
    = fun q => (W10 m ρ c (Proc.devRef .tc main_arg19) : S32.Idx → EReal) (ix1 (q 1)) := by
  show StableHlo.after hostOps5 (W10 m ρ c) (Proc.devRef .tc main_v78) = _
  after_results
  funext q
  obtain ⟨u, j, rfl⟩ : ∃ (u : Fin 1) (j : Fin 32), q = ix2 u j := ⟨q 0, q 1, eq_ix2 q⟩
  exact shapeCast_a_1a_apply _ shapeCasts_S32_S1x32 u j

theorem host_main_v79 : (V11 m ρ c main_v79 : S1x32.Idx → EReal)
    = fun q => (W10 m ρ c (Proc.devRef .tc main_arg20) : S32.Idx → EReal) (ix1 (q 1)) := by
  show StableHlo.after hostOps5 (W10 m ρ c) (Proc.devRef .tc main_v79) = _
  after_results
  funext q
  obtain ⟨u, j, rfl⟩ : ∃ (u : Fin 1) (j : Fin 32), q = ix2 u j := ⟨q 0, q 1, eq_ix2 q⟩
  exact shapeCast_a_1a_apply _ shapeCasts_S32_S1x32 u j

theorem host_main_v80 : (V11 m ρ c main_v80 : S1x16.Idx → EReal)
    = fun q => (W10 m ρ c (Proc.devRef .tc main_arg14) : S16.Idx → EReal) (ix1 (q 1)) := by
  show StableHlo.after hostOps5 (W10 m ρ c) (Proc.devRef .tc main_v80) = _
  after_results
  funext q
  obtain ⟨u, j, rfl⟩ : ∃ (u : Fin 1) (j : Fin 16), q = ix2 u j := ⟨q 0, q 1, eq_ix2 q⟩
  exact shapeCast_a_1a_apply _ shapeCasts_S16_S1x16 u j

theorem host_main_v81 : (V11 m ρ c main_v81 : S1x16.Idx → EReal)
    = fun q => (W10 m ρ c (Proc.devRef .tc main_arg18) : S16.Idx → EReal) (ix1 (q 1)) := by
  show StableHlo.after hostOps5 (W10 m ρ c) (Proc.devRef .tc main_v81) = _
  after_results
  funext q
  obtain ⟨u, j, rfl⟩ : ∃ (u : Fin 1) (j : Fin 16), q = ix2 u j := ⟨q 0, q 1, eq_ix2 q⟩
  exact shapeCast_a_1a_apply _ shapeCasts_S16_S1x16 u j

theorem host_main_v82 : (V11 m ρ c main_v82 : S1x16.Idx → EReal)
    = fun q => (W10 m ρ c (Proc.devRef .tc main_arg22) : S16.Idx → EReal) (ix1 (q 1)) := by
  show StableHlo.after hostOps5 (W10 m ρ c) (Proc.devRef .tc main_v82) = _
  after_results
  funext q
  obtain ⟨u, j, rfl⟩ : ∃ (u : Fin 1) (j : Fin 16), q = ix2 u j := ⟨q 0, q 1, eq_ix2 q⟩
  exact shapeCast_a_1a_apply _ shapeCasts_S16_S1x16 u j

theorem host_main_v83 : (V11 m ρ c main_v83 : S1x1.Idx → EReal)
    = fun q => (W10 m ρ c (Proc.devRef .tc main_arg24) : S1.Idx → EReal) (ix1 (q 1)) := by
  show StableHlo.after hostOps5 (W10 m ρ c) (Proc.devRef .tc main_v83) = _
  after_results
  funext q
  obtain ⟨u, j, rfl⟩ : ∃ (u : Fin 1) (j : Fin 1), q = ix2 u j := ⟨q 0, q 1, eq_ix2 q⟩
  exact shapeCast_a_1a_apply _ shapeCasts_S1_S1x1 u j

/-! The parameter matrices are not written by the stretch. -/

theorem host_main_arg13 : V11 m ρ c main_arg13 = W10 m ρ c (Proc.devRef .tc main_arg13) :=
  StableHlo.after_of_forall_not_mem (b := Proc.devRef .tc main_arg13) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem host_main_arg17 : V11 m ρ c main_arg17 = W10 m ρ c (Proc.devRef .tc main_arg17) :=
  StableHlo.after_of_forall_not_mem (b := Proc.devRef .tc main_arg17) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem host_main_arg21 : V11 m ρ c main_arg21 = W10 m ρ c (Proc.devRef .tc main_arg21) :=
  StableHlo.after_of_forall_not_mem (b := Proc.devRef .tc main_arg21) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem host_main_arg23 : V11 m ρ c main_arg23 = W10 m ρ c (Proc.devRef .tc main_arg23) :=
  StableHlo.after_of_forall_not_mem (b := Proc.devRef .tc main_arg23) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! # The last host stretch and the last kernel call

The host stretch adds the tiles' segment sums and sizes and divides; the kernel call is the small dense
network on the 256 segment means. -/

section
variable (SP : Fin 20 → Fin 256 → Fin 16 → EReal) (CP : Fin 20 → Fin 256 → EReal)
  (hsp : (W10 m ρ c (Proc.devRef .tc main_v67_0) : S20x256x16.Idx → EReal) = fun q => SP (q 0) (q 1) (q 2))
  (hcp : (W10 m ρ c (Proc.devRef .tc main_v67_1) : S20x256x1.Idx → EReal) = fun q => CP (q 0) (q 1))
include hsp hcp

/-- The segment means the host stretch leaves. -/
theorem host_main_v73 : (V11 m ρ c main_v73 : S256x16.Idx → EReal) = fun q => segMean SP CP (q 0) (q 1) := by
  show StableHlo.after hostOps5 (W10 m ρ c) (Proc.devRef .tc main_v73) = _
  after_results
  rw [hsp, hcp, red16, red1]
  funext q
  obtain ⟨g, f, rfl⟩ : ∃ (g : Fin 256) (f : Fin 16), q = ix2 g f := ⟨q 0, q 1, eq_ix2 q⟩
  show Ideal.div (∑ t : Fin 20, SP t g f) _ = Ideal.div (∑ t : Fin 20, SP t g f) (max (∑ t : Fin 20, CP t g) 1)
  refine congrArg (Ideal.div _) ?_
  refine (broadcastInDim_apply _ bcast_S256x1_S256x16_0_1 _ (ix2 g f) (ix2 g (0 : Fin 1)) (fun a => match a with
    | ⟨0, _⟩ => by show g.val = if (256 : Nat) = 1 then 0 else g.val; rw [if_neg (by decide)]
    | ⟨1, _⟩ => by show 0 = if (1 : Nat) = 1 then 0 else f.val; rw [if_pos rfl])).trans ?_
  show max (∑ t : Fin 20, CP t g) _ = max (∑ t : Fin 20, CP t g) 1
  refine congrArg (max _) ?_
  refine (broadcastInDim_apply _ bcast_S_S256x1 _ (ix2 g (0 : Fin 1)) ix0 (fun a => a.elim0)).trans ?_
  exact ofBits_one

/-- The program's result. -/
theorem s5_out : (W12 m ρ c (Proc.devRef .tc main_v84) : S256x1.Idx → EReal)
    = fun q => mlp
        (A1 (W10 m ρ c (Proc.devRef .tc main_arg11) : S16.Idx → EReal))
        (A1 (W10 m ρ c (Proc.devRef .tc main_arg12) : S16.Idx → EReal))
        (A2 (W10 m ρ c (Proc.devRef .tc main_arg13) : S16x16.Idx → EReal))
        (A1 (W10 m ρ c (Proc.devRef .tc main_arg14) : S16.Idx → EReal))
        (A1 (W10 m ρ c (Proc.devRef .tc main_arg15) : S32.Idx → EReal))
        (A1 (W10 m ρ c (Proc.devRef .tc main_arg16) : S32.Idx → EReal))
        (A2 (W10 m ρ c (Proc.devRef .tc main_arg17) : S32x16.Idx → EReal))
        (A1 (W10 m ρ c (Proc.devRef .tc main_arg18) : S16.Idx → EReal))
        (A1 (W10 m ρ c (Proc.devRef .tc main_arg19) : S32.Idx → EReal))
        (A1 (W10 m ρ c (Proc.devRef .tc main_arg20) : S32.Idx → EReal))
        (A2 (W10 m ρ c (Proc.devRef .tc main_arg21) : S32x16.Idx → EReal))
        (A1 (W10 m ρ c (Proc.devRef .tc main_arg22) : S16.Idx → EReal))
        (A2 (W10 m ρ c (Proc.devRef .tc main_arg23) : S16x1.Idx → EReal))
        (A1 (W10 m ρ c (Proc.devRef .tc main_arg24) : S1.Idx → EReal))
        (segMean SP CP) (q 0) (q 1) := by
  have h1 : W12 m ρ c (Proc.devRef .tc main_v84) = (dat5 (V11 m ρ) c).arrAt 15 cfg5.N := W12_arr m ρ c 15
  refine h1.trans ((final5 (V11 m ρ) c).trans ?_)
  unfold G5
  rw [host_main_v73 m ρ c SP CP hsp hcp, host_main_v74 m ρ c, host_main_v75 m ρ c, host_main_v76 m ρ c, host_main_v77 m ρ c, host_main_v78 m ρ c, host_main_v79 m ρ c, host_main_v80 m ρ c, host_main_v81 m ρ c, host_main_v82 m ρ c, host_main_v83 m ρ c, host_main_arg13 m ρ c, host_main_arg17 m ρ c, host_main_arg21 m ρ c, host_main_arg23 m ρ c]
  rfl
end

end Cert.KernelIdeal.KV

end
-- ==== Proof.KWalkA.lean ====
import proofs.«407675_j64304250356442_3_alg».proof.Proof.Gen.KernelIdeal.Frame
import proofs.«407675_j64304250356442_3_alg».proof.Proof.Spec

set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (ρ : Dev nD → PrngReg) (c : Dev nD)

/-! # Buffers that pass through a segment untouched

A segment is a host stretch and the kernel call after it. A buffer that no operation of the stretch writes
and that is none of the call's arrays holds after the segment what it held before. -/

/-- The buffers that pass through segment 0 untouched: neither its host stretch nor its kernel call writes them. -/
theorem carry0 (b : Ref sig .tc)
    (hb : b ∈ [main_arg6, main_arg7, main_arg8, main_arg9, main_arg10, main_arg11, main_arg12, main_arg13, main_arg14, main_arg15, main_arg16, main_arg17, main_arg18, main_arg19, main_arg20, main_arg21, main_arg22, main_arg23, main_arg24]) :
    W2 m ρ c (Proc.devRef .tc b) = W0 m ρ c (Proc.devRef .tc b) := by
  simp only [List.mem_cons, List.not_mem_nil, or_false] at hb
  rcases hb with rfl | rfl | rfl | rfl | rfl | rfl | rfl | rfl | rfl | rfl | rfl | rfl | rfl | rfl | rfl | rfl | rfl | rfl | rfl <;>
  · refine (W2_of_ne m ρ c _ (by decide)).trans ?_
    refine StableHlo.after_of_forall_not_mem (b := Proc.devRef .tc _) _ _ (List.forall_iff_forall_mem.mp ?_)
    simp only [hostOps0, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- The buffers that pass through segment 1 untouched: neither its host stretch nor its kernel call writes them. -/
theorem carry1 (b : Ref sig .tc)
    (hb : b ∈ [main_v1, main_v3, main_v10, main_v4, main_arg6, main_arg7, main_arg8, main_arg9, main_arg10, main_arg11, main_arg12, main_arg13, main_arg14, main_arg15, main_arg16, main_arg17, main_arg18, main_arg19, main_arg20, main_arg21, main_arg22, main_arg23, main_arg24]) :
    W4 m ρ c (Proc.devRef .tc b) = W2 m ρ c (Proc.devRef .tc b) := by
  simp only [List.mem_cons, List.not_mem_nil, or_false] at hb
  rcases hb with rfl | rfl | rfl | rfl | rfl | rfl | rfl | rfl | rfl | rfl | rfl | rfl | rfl | rfl | rfl | rfl | rfl | rfl | rfl | rfl | rfl | rfl | rfl <;>
  · refine (W4_of_ne m ρ c _ (by decide)).trans ?_
    refine StableHlo.after_of_forall_not_mem (b := Proc.devRef .tc _) _ _ (List.forall_iff_forall_mem.mp ?_)
    simp only [hostOps1, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

end Cert.KernelIdeal.KV

end
-- ==== Proof.KWalkB.lean ====
import proofs.«407675_j64304250356442_3_alg».proof.Proof.Gen.KernelIdeal.Frame
import proofs.«407675_j64304250356442_3_alg».proof.Proof.Spec

set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (ρ : Dev nD → PrngReg) (c : Dev nD)

/-! # Buffers that pass through a segment untouched

A segment is a host stretch and the kernel call after it. A buffer that no operation of the stretch writes
and that is none of the call's arrays holds after the segment what it held before. -/

/-- The buffers that pass through segment 2 untouched: neither its host stretch nor its kernel call writes them. -/
theorem carry2 (b : Ref sig .tc)
    (hb : b ∈ [main_v1, main_v3, main_v10, main_v4, main_arg8, main_arg9, main_arg10, main_arg11, main_arg12, main_arg13, main_arg14, main_arg15, main_arg16, main_arg17, main_arg18, main_arg19, main_arg20, main_arg21, main_arg22, main_arg23, main_arg24]) :
    W6 m ρ c (Proc.devRef .tc b) = W4 m ρ c (Proc.devRef .tc b) := by
  simp only [List.mem_cons, List.not_mem_nil, or_false] at hb
  rcases hb with rfl | rfl | rfl | rfl | rfl | rfl | rfl | rfl | rfl | rfl | rfl | rfl | rfl | rfl | rfl | rfl | rfl | rfl | rfl | rfl | rfl <;>
  · refine (W6_of_ne m ρ c _ (by decide)).trans ?_
    refine StableHlo.after_of_forall_not_mem (b := Proc.devRef .tc _) _ _ (List.forall_iff_forall_mem.mp ?_)
    simp only [hostOps2, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- The buffers that pass through segment 3 untouched: neither its host stretch nor its kernel call writes them. -/
theorem carry3 (b : Ref sig .tc)
    (hb : b ∈ [main_v1, main_v3, main_v10, main_v4, main_arg11, main_arg12, main_arg13, main_arg14, main_arg15, main_arg16, main_arg17, main_arg18, main_arg19, main_arg20, main_arg21, main_arg22, main_arg23, main_arg24]) :
    W8 m ρ c (Proc.devRef .tc b) = W6 m ρ c (Proc.devRef .tc b) := by
  simp only [List.mem_cons, List.not_mem_nil, or_false] at hb
  rcases hb with rfl | rfl | rfl | rfl | rfl | rfl | rfl | rfl | rfl | rfl | rfl | rfl | rfl | rfl | rfl | rfl | rfl | rfl <;>
  · refine (W8_of_ne m ρ c _ (by decide)).trans ?_
    refine StableHlo.after_of_forall_not_mem (b := Proc.devRef .tc _) _ _ (List.forall_iff_forall_mem.mp ?_)
    simp only [hostOps3, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- The buffers that pass through segment 4 untouched: neither its host stretch nor its kernel call writes them. -/
theorem carry4 (b : Ref sig .tc)
    (hb : b ∈ [main_arg11, main_arg12, main_arg13, main_arg14, main_arg15, main_arg16, main_arg17, main_arg18, main_arg19, main_arg20, main_arg21, main_arg22, main_arg23, main_arg24]) :
    W10 m ρ c (Proc.devRef .tc b) = W8 m ρ c (Proc.devRef .tc b) := by
  simp only [List.mem_cons, List.not_mem_nil, or_false] at hb
  rcases hb with rfl | rfl | rfl | rfl | rfl | rfl | rfl | rfl | rfl | rfl | rfl | rfl | rfl | rfl <;>
  · refine (W10_of_ne m ρ c _ (by decide)).trans ?_
    refine StableHlo.after_of_forall_not_mem (b := Proc.devRef .tc _) _ _ (List.forall_iff_forall_mem.mp ?_)
    simp only [hostOps4, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

end Cert.KernelIdeal.KV

end
-- ==== Proof.KChain.lean ====
import proofs.«407675_j64304250356442_3_alg».proof.Proof.KSeg0
import proofs.«407675_j64304250356442_3_alg».proof.Proof.KSeg1
import proofs.«407675_j64304250356442_3_alg».proof.Proof.KSeg2
import proofs.«407675_j64304250356442_3_alg».proof.Proof.KSeg3
import proofs.«407675_j64304250356442_3_alg».proof.Proof.KSeg4
import proofs.«407675_j64304250356442_3_alg».proof.Proof.KSeg5
import proofs.«407675_j64304250356442_3_alg».proof.Proof.KWalkA
import proofs.«407675_j64304250356442_3_alg».proof.Proof.KWalkB

set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (ρ : Dev nD → PrngReg) (c : Dev nD)

/-! # The kernel program's result

The six segments in a row: each one's outputs are the next one's inputs, the edge words, the in-degrees,
the segment words and the parameters pass through the segments that do not use them. -/

/-- A buffer at the launch is the launch memory. -/
theorem W0_eq (b : Ref sig .tc) : W0 m ρ c (Proc.devRef .tc b) = m ((c.tc : Thread nD τ).loc b) := rfl

/-- The program's result as a function of the launch memory: the small network on the kernel side's
    segment means. -/
theorem kvalue :
    (W12 m ρ c (Proc.devRef .tc main_v84) : S256x1.Idx → EReal)
    = fun q => mlp
        (A1 (m ((c.tc : Thread nD τ).loc main_arg11) : S16.Idx → EReal))
        (A1 (m ((c.tc : Thread nD τ).loc main_arg12) : S16.Idx → EReal))
        (A2 (m ((c.tc : Thread nD τ).loc main_arg13) : S16x16.Idx → EReal))
        (A1 (m ((c.tc : Thread nD τ).loc main_arg14) : S16.Idx → EReal))
        (A1 (m ((c.tc : Thread nD τ).loc main_arg15) : S32.Idx → EReal))
        (A1 (m ((c.tc : Thread nD τ).loc main_arg16) : S32.Idx → EReal))
        (A2 (m ((c.tc : Thread nD τ).loc main_arg17) : S32x16.Idx → EReal))
        (A1 (m ((c.tc : Thread nD τ).loc main_arg18) : S16.Idx → EReal))
        (A1 (m ((c.tc : Thread nD τ).loc main_arg19) : S32.Idx → EReal))
        (A1 (m ((c.tc : Thread nD τ).loc main_arg20) : S32.Idx → EReal))
        (A2 (m ((c.tc : Thread nD τ).loc main_arg21) : S32x16.Idx → EReal))
        (A1 (m ((c.tc : Thread nD τ).loc main_arg22) : S16.Idx → EReal))
        (A2 (m ((c.tc : Thread nD τ).loc main_arg23) : S16x1.Idx → EReal))
        (A1 (m ((c.tc : Thread nD τ).loc main_arg24) : S1.Idx → EReal))
        (xencK
          (A2 (m ((c.tc : Thread nD τ).loc main_arg0) : S100000x64.Idx → EReal))
          (A2 (m ((c.tc : Thread nD τ).loc main_arg1) : S2x1600000.Idx → BitVec 32))
          (A1 (m ((c.tc : Thread nD τ).loc main_arg2) : S100000.Idx → BitVec 32))
          (A2 (m ((c.tc : Thread nD τ).loc main_arg3) : S64x16.Idx → EReal))
          (A2 (m ((c.tc : Thread nD τ).loc main_arg5) : S64x16.Idx → EReal))
          (A1 (m ((c.tc : Thread nD τ).loc main_arg4) : S16.Idx → EReal))
          (A1 (m ((c.tc : Thread nD τ).loc main_arg6) : S16.Idx → EReal))
          (A1 (m ((c.tc : Thread nD τ).loc main_arg7) : S16.Idx → EReal))
          (A2 (m ((c.tc : Thread nD τ).loc main_arg8) : S16x16.Idx → EReal))
          (A2 (m ((c.tc : Thread nD τ).loc main_arg10) : S16x16.Idx → EReal))
          (A1 (m ((c.tc : Thread nD τ).loc main_arg9) : S16.Idx → EReal)))
        (q 0) (q 1) := by
  -- the first segment's outputs
  have hy1 := s0_y1 m ρ c
  have hxr1 := s0_xr1 m ρ c
  have hs2 := s0_v1 m ρ c
  have hd2 := s0_v3 m ρ c
  have hc2 := s0_v10 m ρ c
  have hb2 := s0_v4 m ρ c
  -- the second segment
  have hh := s1_h m ρ c _ _ _ hy1 hxr1 hs2 hd2 hc2
  have hps := s1_ps m ρ c _ _ _ hy1 hxr1 hs2 hd2 hc2
  have hpq := s1_pq m ρ c _ _ _ hy1 hxr1 hs2 hd2 hc2
  -- the third segment, its scale and shift carried from the launch
  have hbn := s2_bn m ρ c _ _ _ hh hps hpq
  rw [(carry1 m ρ c main_arg6 (by simp)).trans (carry0 m ρ c main_arg6 (by simp)),
    (carry1 m ρ c main_arg7 (by simp)).trans (carry0 m ρ c main_arg7 (by simp))] at hbn
  -- the fourth segment, its matrices and bias carried from the launch
  have hy2 := s3_y2 m ρ c _ hbn
  have hxr2 := s3_xr2 m ρ c _ hbn
  rw [((carry2 m ρ c main_arg8 (by simp)).trans (carry1 m ρ c main_arg8 (by simp))).trans (carry0 m ρ c main_arg8 (by simp))] at hy2
  rw [((carry2 m ρ c main_arg10 (by simp)).trans (carry1 m ρ c main_arg10 (by simp))).trans (carry0 m ρ c main_arg10 (by simp)),
    ((carry2 m ρ c main_arg9 (by simp)).trans (carry1 m ρ c main_arg9 (by simp))).trans (carry0 m ρ c main_arg9 (by simp))] at hxr2
  -- the fifth segment: the edge words, in-degrees and segment words carried from the first segment's exit
  have hs8 := (((carry3 m ρ c main_v1 (by simp)).trans (carry2 m ρ c main_v1 (by simp))).trans (carry1 m ρ c main_v1 (by simp))).trans hs2
  have hd8 := (((carry3 m ρ c main_v3 (by simp)).trans (carry2 m ρ c main_v3 (by simp))).trans (carry1 m ρ c main_v3 (by simp))).trans hd2
  have hc8 := (((carry3 m ρ c main_v10 (by simp)).trans (carry2 m ρ c main_v10 (by simp))).trans (carry1 m ρ c main_v10 (by simp))).trans hc2
  have hb8 := (((carry3 m ρ c main_v4 (by simp)).trans (carry2 m ρ c main_v4 (by simp))).trans (carry1 m ρ c main_v4 (by simp))).trans hb2
  have hsp := s4_sp m ρ c _ _ _ (fun i j => mm _ _ i j + A1 _ j) hy2 hxr2 hs8 hd8 hc8 hb8
  have hcp := s4_cp m ρ c _ _ _ (fun i j => mm _ _ i j + A1 _ j) hy2 hxr2 hs8 hd8 hc8 hb8
  -- the last segment, its parameters carried from the launch
  have hout := s5_out m ρ c _ _ hsp hcp
  rw [((((carry4 m ρ c main_arg11 (by simp)).trans (carry3 m ρ c main_arg11 (by simp))).trans (carry2 m ρ c main_arg11 (by simp))).trans (carry1 m ρ c main_arg11 (by simp))).trans (carry0 m ρ c main_arg11 (by simp))] at hout
  rw [((((carry4 m ρ c main_arg12 (by simp)).trans (carry3 m ρ c main_arg12 (by simp))).trans (carry2 m ρ c main_arg12 (by simp))).trans (carry1 m ρ c main_arg12 (by simp))).trans (carry0 m ρ c main_arg12 (by simp))] at hout
  rw [((((carry4 m ρ c main_arg13 (by simp)).trans (carry3 m ρ c main_arg13 (by simp))).trans (carry2 m ρ c main_arg13 (by simp))).trans (carry1 m ρ c main_arg13 (by simp))).trans (carry0 m ρ c main_arg13 (by simp))] at hout
  rw [((((carry4 m ρ c main_arg14 (by simp)).trans (carry3 m ρ c main_arg14 (by simp))).trans (carry2 m ρ c main_arg14 (by simp))).trans (carry1 m ρ c main_arg14 (by simp))).trans (carry0 m ρ c main_arg14 (by simp))] at hout
  rw [((((carry4 m ρ c main_arg15 (by simp)).trans (carry3 m ρ c main_arg15 (by simp))).trans (carry2 m ρ c main_arg15 (by simp))).trans (carry1 m ρ c main_arg15 (by simp))).trans (carry0 m ρ c main_arg15 (by simp))] at hout
  rw [((((carry4 m ρ c main_arg16 (by simp)).trans (carry3 m ρ c main_arg16 (by simp))).trans (carry2 m ρ c main_arg16 (by simp))).trans (carry1 m ρ c main_arg16 (by simp))).trans (carry0 m ρ c main_arg16 (by simp))] at hout
  rw [((((carry4 m ρ c main_arg17 (by simp)).trans (carry3 m ρ c main_arg17 (by simp))).trans (carry2 m ρ c main_arg17 (by simp))).trans (carry1 m ρ c main_arg17 (by simp))).trans (carry0 m ρ c main_arg17 (by simp))] at hout
  rw [((((carry4 m ρ c main_arg18 (by simp)).trans (carry3 m ρ c main_arg18 (by simp))).trans (carry2 m ρ c main_arg18 (by simp))).trans (carry1 m ρ c main_arg18 (by simp))).trans (carry0 m ρ c main_arg18 (by simp))] at hout
  rw [((((carry4 m ρ c main_arg19 (by simp)).trans (carry3 m ρ c main_arg19 (by simp))).trans (carry2 m ρ c main_arg19 (by simp))).trans (carry1 m ρ c main_arg19 (by simp))).trans (carry0 m ρ c main_arg19 (by simp))] at hout
  rw [((((carry4 m ρ c main_arg20 (by simp)).trans (carry3 m ρ c main_arg20 (by simp))).trans (carry2 m ρ c main_arg20 (by simp))).trans (carry1 m ρ c main_arg20 (by simp))).trans (carry0 m ρ c main_arg20 (by simp))] at hout
  rw [((((carry4 m ρ c main_arg21 (by simp)).trans (carry3 m ρ c main_arg21 (by simp))).trans (carry2 m ρ c main_arg21 (by simp))).trans (carry1 m ρ c main_arg21 (by simp))).trans (carry0 m ρ c main_arg21 (by simp))] at hout
  rw [((((carry4 m ρ c main_arg22 (by simp)).trans (carry3 m ρ c main_arg22 (by simp))).trans (carry2 m ρ c main_arg22 (by simp))).trans (carry1 m ρ c main_arg22 (by simp))).trans (carry0 m ρ c main_arg22 (by simp))] at hout
  rw [((((carry4 m ρ c main_arg23 (by simp)).trans (carry3 m ρ c main_arg23 (by simp))).trans (carry2 m ρ c main_arg23 (by simp))).trans (carry1 m ρ c main_arg23 (by simp))).trans (carry0 m ρ c main_arg23 (by simp))] at hout
  rw [((((carry4 m ρ c main_arg24 (by simp)).trans (carry3 m ρ c main_arg24 (by simp))).trans (carry2 m ρ c main_arg24 (by simp))).trans (carry1 m ρ c main_arg24 (by simp))).trans (carry0 m ρ c main_arg24 (by simp))] at hout
  exact hout

end Cert.KernelIdeal.KV

end
-- ==== Proof.RRunA.lean ====
import proofs.«407675_j64304250356442_3_alg».proof.Proof.RRun0
import proofs.«407675_j64304250356442_3_alg».proof.Proof.RRead
import Idealize.ShloMosaic.Lib.Pipeline.Frame

set_option maxRecDepth 16384

noncomputable section

namespace Cert.ReferenceIdeal.RV

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

/-! # The reference's operations, a stretch at a time

From any contents W of the buffers, a stretch of the operations leaves in the buffer it ends on the stage
function of the arguments, given that W holds the arguments and the earlier stages the stretch reads; a
buffer the stretch does not write keeps its contents. -/

/-! ## The same for any float values

Each stretch is first read for an arbitrary family of float values, where the operations' functions are
opaque and the two sides are compared as written; the statements at the extended reals are instances. -/

/-- A buffer none of the listed operations writes keeps its contents: the operations' result buffers are
    told apart from it as references. -/
macro "keep_of_writes" ops:ident : tactic =>
  `(tactic| (
    refine StableHlo.after_of_forall_not_mem (b := Proc.devRef .tc _) _ _ (List.forall_iff_forall_mem.mp ?_)
    simp only [$ops:ident, List.Forall, TRef.nullary, TRef.unary, TRef.binary,
      StableHlo.nullary_writes, StableHlo.unary_writes, StableHlo.binary_writes,
      StableHlo.ternary_writes, StableHlo.quaternary_writes, StableHlo.reshape_writes, Finset.mem_singleton]
    repeat' apply And.intro
    all_goals exact StableHlo.devRef_ne_of_ne (by decide)))

section Generic

variable {F : FTy → Type} [FloatOps F] (W : Valuation τ sig (Elt F))
  (x0 : (⟨S100000x64, .f32⟩ : BufTy).Contents (Elt F))
  (x1 : (⟨S2x1600000, .i32⟩ : BufTy).Contents (Elt F))
  (x2 : (⟨S100000, .i32⟩ : BufTy).Contents (Elt F))
  (x3 : (⟨S64x16, .f32⟩ : BufTy).Contents (Elt F))
  (x4 : (⟨S16, .f32⟩ : BufTy).Contents (Elt F))
  (x5 : (⟨S64x16, .f32⟩ : BufTy).Contents (Elt F))
  (x6 : (⟨S16, .f32⟩ : BufTy).Contents (Elt F))
  (x7 : (⟨S16, .f32⟩ : BufTy).Contents (Elt F))
  (x8 : (⟨S16x16, .f32⟩ : BufTy).Contents (Elt F))
  (x9 : (⟨S16, .f32⟩ : BufTy).Contents (Elt F))
  (x10 : (⟨S16x16, .f32⟩ : BufTy).Contents (Elt F))
  (x11 : (⟨S16, .f32⟩ : BufTy).Contents (Elt F))
  (x12 : (⟨S16, .f32⟩ : BufTy).Contents (Elt F))
  (x13 : (⟨S16x16, .f32⟩ : BufTy).Contents (Elt F))
  (x14 : (⟨S16, .f32⟩ : BufTy).Contents (Elt F))
  (x15 : (⟨S32, .f32⟩ : BufTy).Contents (Elt F))
  (x16 : (⟨S32, .f32⟩ : BufTy).Contents (Elt F))
  (x17 : (⟨S32x16, .f32⟩ : BufTy).Contents (Elt F))
  (x18 : (⟨S16, .f32⟩ : BufTy).Contents (Elt F))
  (x19 : (⟨S32, .f32⟩ : BufTy).Contents (Elt F))
  (x20 : (⟨S32, .f32⟩ : BufTy).Contents (Elt F))
  (x21 : (⟨S32x16, .f32⟩ : BufTy).Contents (Elt F))
  (x22 : (⟨S16, .f32⟩ : BufTy).Contents (Elt F))
  (x23 : (⟨S16x1, .f32⟩ : BufTy).Contents (Elt F))
  (x24 : (⟨S1, .f32⟩ : BufTy).Contents (Elt F))

theorem chunk0F (a0 : W (Proc.devRef .tc main_arg0) = x0)
    (a1 : W (Proc.devRef .tc main_arg1) = x1)
    (a3 : W (Proc.devRef .tc main_arg3) = x3)
    (a4 : W (Proc.devRef .tc main_arg4) = x4)
    (a5 : W (Proc.devRef .tc main_arg5) = x5) :
    after ops0 W (Proc.devRef .tc main_v28) = val_main_v28 (F := F) x0 x1 x3 x4 x5
    ∧ after ops0 W (Proc.devRef .tc main_v1) = val_main_v1 (F := F) x1
    ∧ after ops0 W (Proc.devRef .tc main_v3) = val_main_v3 (F := F) x1 := by
  refine ⟨?_, ?_, ?_⟩
  · after_results_simp
    try simp only [TRef.ofBuf, TRef.toBuf, cast_eq]
    rw [a0, a1, a3, a4, a5]
    rfl
  · after_results_simp
    try simp only [TRef.ofBuf, TRef.toBuf, cast_eq]
    rw [a1]
    rfl
  · after_results_simp
    try simp only [TRef.ofBuf, TRef.toBuf, cast_eq]
    rw [a1]
    rfl

set_option maxHeartbeats 4000000 in
theorem keep0F (b : Ref sig .tc)
    (hb : b ∈ [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24]) :
    after (ops0 (F := F)) W (Proc.devRef .tc b) = W (Proc.devRef .tc b) := by
  simp only [List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl <;>
  · keep_of_writes ops0

theorem chunk1F (h28 : W (Proc.devRef .tc main_v28) = val_main_v28 (F := F) x0 x1 x3 x4 x5)
    (a6 : W (Proc.devRef .tc main_arg6) = x6)
    (a7 : W (Proc.devRef .tc main_arg7) = x7) :
    after ops1 W (Proc.devRef .tc main_v53) = val_main_v53 (F := F) x0 x1 x3 x4 x5 x6 x7 := by
  after_results_simp
  rw [h28, a6, a7]
  rfl

set_option maxHeartbeats 4000000 in
theorem keep1F (b : Ref sig .tc)
    (hb : b ∈ [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_v1, main_v3]) :
    after (ops1 (F := F)) W (Proc.devRef .tc b) = W (Proc.devRef .tc b) := by
  simp only [List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl | rfl <;>
  · keep_of_writes ops1

theorem chunk2F (h53 : W (Proc.devRef .tc main_v53) = val_main_v53 (F := F) x0 x1 x3 x4 x5 x6 x7)
    (h1 : W (Proc.devRef .tc main_v1) = val_main_v1 (F := F) x1)
    (h3 : W (Proc.devRef .tc main_v3) = val_main_v3 (F := F) x1)
    (a8 : W (Proc.devRef .tc main_arg8) = x8)
    (a9 : W (Proc.devRef .tc main_arg9) = x9)
    (a10 : W (Proc.devRef .tc main_arg10) = x10) :
    after ops2 W (Proc.devRef .tc main_v78) = val_main_v78 (F := F) x0 x1 x3 x4 x5 x6 x7 x8 x9 x10 := by
  after_results_simp
  try simp only [TRef.ofBuf, TRef.toBuf, cast_eq]
  rw [h53, h1, h3, a8, a9, a10]
  rfl

set_option maxHeartbeats 4000000 in
theorem keep2F (b : Ref sig .tc)
    (hb : b ∈ [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24]) :
    after (ops2 (F := F)) W (Proc.devRef .tc b) = W (Proc.devRef .tc b) := by
  simp only [List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl <;>
  · keep_of_writes ops2

theorem chunk3F (h78 : W (Proc.devRef .tc main_v78) = val_main_v78 (F := F) x0 x1 x3 x4 x5 x6 x7 x8 x9 x10)
    (a2 : W (Proc.devRef .tc main_arg2) = x2) :
    after ops3 W (Proc.devRef .tc main_v89) = val_main_v89 (F := F) x0 x1 x2 x3 x4 x5 x6 x7 x8 x9 x10 := by
  after_results_simp
  rw [h78, a2]
  rfl

set_option maxHeartbeats 4000000 in
theorem keep3F (b : Ref sig .tc)
    (hb : b ∈ [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24]) :
    after (ops3 (F := F)) W (Proc.devRef .tc b) = W (Proc.devRef .tc b) := by
  simp only [List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl <;>
  · keep_of_writes ops3

end Generic

variable (W : Valuation τ sig (Elt Ideal))
  (x0 : (⟨S100000x64, .f32⟩ : BufTy).Contents (Elt Ideal))
  (x1 : (⟨S2x1600000, .i32⟩ : BufTy).Contents (Elt Ideal))
  (x2 : (⟨S100000, .i32⟩ : BufTy).Contents (Elt Ideal))
  (x3 : (⟨S64x16, .f32⟩ : BufTy).Contents (Elt Ideal))
  (x4 : (⟨S16, .f32⟩ : BufTy).Contents (Elt Ideal))
  (x5 : (⟨S64x16, .f32⟩ : BufTy).Contents (Elt Ideal))
  (x6 : (⟨S16, .f32⟩ : BufTy).Contents (Elt Ideal))
  (x7 : (⟨S16, .f32⟩ : BufTy).Contents (Elt Ideal))
  (x8 : (⟨S16x16, .f32⟩ : BufTy).Contents (Elt Ideal))
  (x9 : (⟨S16, .f32⟩ : BufTy).Contents (Elt Ideal))
  (x10 : (⟨S16x16, .f32⟩ : BufTy).Contents (Elt Ideal))
  (x11 : (⟨S16, .f32⟩ : BufTy).Contents (Elt Ideal))
  (x12 : (⟨S16, .f32⟩ : BufTy).Contents (Elt Ideal))
  (x13 : (⟨S16x16, .f32⟩ : BufTy).Contents (Elt Ideal))
  (x14 : (⟨S16, .f32⟩ : BufTy).Contents (Elt Ideal))
  (x15 : (⟨S32, .f32⟩ : BufTy).Contents (Elt Ideal))
  (x16 : (⟨S32, .f32⟩ : BufTy).Contents (Elt Ideal))
  (x17 : (⟨S32x16, .f32⟩ : BufTy).Contents (Elt Ideal))
  (x18 : (⟨S16, .f32⟩ : BufTy).Contents (Elt Ideal))
  (x19 : (⟨S32, .f32⟩ : BufTy).Contents (Elt Ideal))
  (x20 : (⟨S32, .f32⟩ : BufTy).Contents (Elt Ideal))
  (x21 : (⟨S32x16, .f32⟩ : BufTy).Contents (Elt Ideal))
  (x22 : (⟨S16, .f32⟩ : BufTy).Contents (Elt Ideal))
  (x23 : (⟨S16x1, .f32⟩ : BufTy).Contents (Elt Ideal))
  (x24 : (⟨S1, .f32⟩ : BufTy).Contents (Elt Ideal))

/-- Stretch 0: the first layer. -/
theorem chunk0 (a0 : W (Proc.devRef .tc main_arg0) = x0)
    (a1 : W (Proc.devRef .tc main_arg1) = x1)
    (a3 : W (Proc.devRef .tc main_arg3) = x3)
    (a4 : W (Proc.devRef .tc main_arg4) = x4)
    (a5 : W (Proc.devRef .tc main_arg5) = x5) :
    after ops0 W (Proc.devRef .tc main_v28) = val_main_v28 (F := Ideal) x0 x1 x3 x4 x5
    ∧ after ops0 W (Proc.devRef .tc main_v1) = val_main_v1 (F := Ideal) x1
    ∧ after ops0 W (Proc.devRef .tc main_v3) = val_main_v3 (F := Ideal) x1 :=
  chunk0F W x0 x1 x3 x4 x5 a0 a1 a3 a4 a5

/-- What stretch 0 does not write. -/
theorem keep0 (b : Ref sig .tc)
    (hb : b ∈ [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24]) :
    after (ops0 (F := Ideal)) W (Proc.devRef .tc b) = W (Proc.devRef .tc b) :=
  keep0F W b hb

/-- Stretch 1: the batch normalisation. -/
theorem chunk1 (h28 : W (Proc.devRef .tc main_v28) = val_main_v28 (F := Ideal) x0 x1 x3 x4 x5)
    (a6 : W (Proc.devRef .tc main_arg6) = x6)
    (a7 : W (Proc.devRef .tc main_arg7) = x7) :
    after ops1 W (Proc.devRef .tc main_v53) = val_main_v53 (F := Ideal) x0 x1 x3 x4 x5 x6 x7 :=
  chunk1F W x0 x1 x3 x4 x5 x6 x7 h28 a6 a7

/-- What stretch 1 does not write. -/
theorem keep1 (b : Ref sig .tc)
    (hb : b ∈ [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_v1, main_v3]) :
    after (ops1 (F := Ideal)) W (Proc.devRef .tc b) = W (Proc.devRef .tc b) :=
  keep1F W b hb

/-- Stretch 2: the second layer. -/
theorem chunk2 (h53 : W (Proc.devRef .tc main_v53) = val_main_v53 (F := Ideal) x0 x1 x3 x4 x5 x6 x7)
    (h1 : W (Proc.devRef .tc main_v1) = val_main_v1 (F := Ideal) x1)
    (h3 : W (Proc.devRef .tc main_v3) = val_main_v3 (F := Ideal) x1)
    (a8 : W (Proc.devRef .tc main_arg8) = x8)
    (a9 : W (Proc.devRef .tc main_arg9) = x9)
    (a10 : W (Proc.devRef .tc main_arg10) = x10) :
    after ops2 W (Proc.devRef .tc main_v78) = val_main_v78 (F := Ideal) x0 x1 x3 x4 x5 x6 x7 x8 x9 x10 :=
  chunk2F W x0 x1 x3 x4 x5 x6 x7 x8 x9 x10 h53 h1 h3 a8 a9 a10

/-- What stretch 2 does not write. -/
theorem keep2 (b : Ref sig .tc)
    (hb : b ∈ [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24]) :
    after (ops2 (F := Ideal)) W (Proc.devRef .tc b) = W (Proc.devRef .tc b) :=
  keep2F W b hb

/-- Stretch 3: the segment means. -/
theorem chunk3 (h78 : W (Proc.devRef .tc main_v78) = val_main_v78 (F := Ideal) x0 x1 x3 x4 x5 x6 x7 x8 x9 x10)
    (a2 : W (Proc.devRef .tc main_arg2) = x2) :
    after ops3 W (Proc.devRef .tc main_v89) = val_main_v89 (F := Ideal) x0 x1 x2 x3 x4 x5 x6 x7 x8 x9 x10 :=
  chunk3F W x0 x1 x2 x3 x4 x5 x6 x7 x8 x9 x10 h78 a2

/-- What stretch 3 does not write. -/
theorem keep3 (b : Ref sig .tc)
    (hb : b ∈ [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24]) :
    after (ops3 (F := Ideal)) W (Proc.devRef .tc b) = W (Proc.devRef .tc b) :=
  keep3F W b hb

end Cert.ReferenceIdeal.RV

end
-- ==== Proof.RRunB.lean ====
import proofs.«407675_j64304250356442_3_alg».proof.Proof.RRun0
import proofs.«407675_j64304250356442_3_alg».proof.Proof.RRead
import Idealize.ShloMosaic.Lib.Pipeline.Frame

set_option maxRecDepth 16384

noncomputable section

namespace Cert.ReferenceIdeal.RV

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

/-! # The reference's operations, a stretch at a time

From any contents W of the buffers, a stretch of the operations leaves in the buffer it ends on the stage
function of the arguments, given that W holds the arguments and the earlier stages the stretch reads; a
buffer the stretch does not write keeps its contents. -/

variable (W : Valuation τ sig (Elt Ideal))
  (x0 : (⟨S100000x64, .f32⟩ : BufTy).Contents (Elt Ideal))
  (x1 : (⟨S2x1600000, .i32⟩ : BufTy).Contents (Elt Ideal))
  (x2 : (⟨S100000, .i32⟩ : BufTy).Contents (Elt Ideal))
  (x3 : (⟨S64x16, .f32⟩ : BufTy).Contents (Elt Ideal))
  (x4 : (⟨S16, .f32⟩ : BufTy).Contents (Elt Ideal))
  (x5 : (⟨S64x16, .f32⟩ : BufTy).Contents (Elt Ideal))
  (x6 : (⟨S16, .f32⟩ : BufTy).Contents (Elt Ideal))
  (x7 : (⟨S16, .f32⟩ : BufTy).Contents (Elt Ideal))
  (x8 : (⟨S16x16, .f32⟩ : BufTy).Contents (Elt Ideal))
  (x9 : (⟨S16, .f32⟩ : BufTy).Contents (Elt Ideal))
  (x10 : (⟨S16x16, .f32⟩ : BufTy).Contents (Elt Ideal))
  (x11 : (⟨S16, .f32⟩ : BufTy).Contents (Elt Ideal))
  (x12 : (⟨S16, .f32⟩ : BufTy).Contents (Elt Ideal))
  (x13 : (⟨S16x16, .f32⟩ : BufTy).Contents (Elt Ideal))
  (x14 : (⟨S16, .f32⟩ : BufTy).Contents (Elt Ideal))
  (x15 : (⟨S32, .f32⟩ : BufTy).Contents (Elt Ideal))
  (x16 : (⟨S32, .f32⟩ : BufTy).Contents (Elt Ideal))
  (x17 : (⟨S32x16, .f32⟩ : BufTy).Contents (Elt Ideal))
  (x18 : (⟨S16, .f32⟩ : BufTy).Contents (Elt Ideal))
  (x19 : (⟨S32, .f32⟩ : BufTy).Contents (Elt Ideal))
  (x20 : (⟨S32, .f32⟩ : BufTy).Contents (Elt Ideal))
  (x21 : (⟨S32x16, .f32⟩ : BufTy).Contents (Elt Ideal))
  (x22 : (⟨S16, .f32⟩ : BufTy).Contents (Elt Ideal))
  (x23 : (⟨S16x1, .f32⟩ : BufTy).Contents (Elt Ideal))
  (x24 : (⟨S1, .f32⟩ : BufTy).Contents (Elt Ideal))

/-- Stretch 4: the small network's first layer. -/
theorem chunk4 (h89 : W (Proc.devRef .tc main_v89) = val_main_v89 (F := Ideal) x0 x1 x2 x3 x4 x5 x6 x7 x8 x9 x10)
    (a11 : W (Proc.devRef .tc main_arg11) = x11)
    (a12 : W (Proc.devRef .tc main_arg12) = x12)
    (a13 : W (Proc.devRef .tc main_arg13) = x13)
    (a14 : W (Proc.devRef .tc main_arg14) = x14) :
    after ops4 W (Proc.devRef .tc main_v119) = val_main_v119 (F := Ideal) x0 x1 x2 x3 x4 x5 x6 x7 x8 x9 x10 x11 x12 x13 x14 := by
  show after ops4 W (Proc.devRef .tc main_v119) = _
  after_results_simp
  rw [h89, a11, a12, a13, a14]
  rfl

/-- What stretch 4 does not write. -/
theorem keep4 (b : Ref sig .tc)
    (hb : b ∈ [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_v89]) :
    after (ops4 (F := Ideal)) W (Proc.devRef .tc b) = W (Proc.devRef .tc b) := by
  refine after_of_forall_not_mem (b := Proc.devRef .tc b) _ _ (List.forall_iff_forall_mem.mp ?_)
  simp only [ops4, List.Forall, nullary_writes, unary_writes, binary_writes, Finset.mem_singleton]
  simp only [List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl <;>
  · repeat' apply And.intro
    all_goals exact devRef_ne_of_ne (by decide)

/-- Stretch 5: its second layer. -/
theorem chunk5 (h119 : W (Proc.devRef .tc main_v119) = val_main_v119 (F := Ideal) x0 x1 x2 x3 x4 x5 x6 x7 x8 x9 x10 x11 x12 x13 x14)
    (h89 : W (Proc.devRef .tc main_v89) = val_main_v89 (F := Ideal) x0 x1 x2 x3 x4 x5 x6 x7 x8 x9 x10)
    (a15 : W (Proc.devRef .tc main_arg15) = x15)
    (a16 : W (Proc.devRef .tc main_arg16) = x16)
    (a17 : W (Proc.devRef .tc main_arg17) = x17)
    (a18 : W (Proc.devRef .tc main_arg18) = x18) :
    after ops5 W (Proc.devRef .tc main_v150) = val_main_v150 (F := Ideal) x0 x1 x2 x3 x4 x5 x6 x7 x8 x9 x10 x11 x12 x13 x14 x15 x16 x17 x18 := by
  show after ops5 W (Proc.devRef .tc main_v150) = _
  after_results_simp
  rw [h119, h89, a15, a16, a17, a18]
  rfl

/-- What stretch 5 does not write. -/
theorem keep5 (b : Ref sig .tc)
    (hb : b ∈ [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_v89]) :
    after (ops5 (F := Ideal)) W (Proc.devRef .tc b) = W (Proc.devRef .tc b) := by
  refine after_of_forall_not_mem (b := Proc.devRef .tc b) _ _ (List.forall_iff_forall_mem.mp ?_)
  simp only [ops5, List.Forall, nullary_writes, unary_writes, binary_writes, Finset.mem_singleton]
  simp only [List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl <;>
  · repeat' apply And.intro
    all_goals exact devRef_ne_of_ne (by decide)

/-- Stretch 6: its third layer and the final map. -/
theorem chunk6 (h150 : W (Proc.devRef .tc main_v150) = val_main_v150 (F := Ideal) x0 x1 x2 x3 x4 x5 x6 x7 x8 x9 x10 x11 x12 x13 x14 x15 x16 x17 x18)
    (h89 : W (Proc.devRef .tc main_v89) = val_main_v89 (F := Ideal) x0 x1 x2 x3 x4 x5 x6 x7 x8 x9 x10)
    (a19 : W (Proc.devRef .tc main_arg19) = x19)
    (a20 : W (Proc.devRef .tc main_arg20) = x20)
    (a21 : W (Proc.devRef .tc main_arg21) = x21)
    (a22 : W (Proc.devRef .tc main_arg22) = x22)
    (a23 : W (Proc.devRef .tc main_arg23) = x23)
    (a24 : W (Proc.devRef .tc main_arg24) = x24) :
    after ops6 W (Proc.devRef .tc main_v185) = val_main_v185 (F := Ideal) x0 x1 x2 x3 x4 x5 x6 x7 x8 x9 x10 x11 x12 x13 x14 x15 x16 x17 x18 x19 x20 x21 x22 x23 x24 := by
  show after ops6 W (Proc.devRef .tc main_v185) = _
  after_results_simp
  rw [h150, h89, a19, a20, a21, a22, a23, a24]
  rfl

/-- What stretch 6 does not write. -/
theorem keep6 (b : Ref sig .tc)
    (hb : b ∈ [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24]) :
    after (ops6 (F := Ideal)) W (Proc.devRef .tc b) = W (Proc.devRef .tc b) := by
  refine after_of_forall_not_mem (b := Proc.devRef .tc b) _ _ (List.forall_iff_forall_mem.mp ?_)
  simp only [ops6, List.Forall, nullary_writes, unary_writes, binary_writes, Finset.mem_singleton]
  simp only [List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl <;>
  · repeat' apply And.intro
    all_goals exact devRef_ne_of_ne (by decide)

end Cert.ReferenceIdeal.RV

end
-- ==== Proof.RRun.lean ====
import proofs.«407675_j64304250356442_3_alg».proof.Proof.RRunA
import proofs.«407675_j64304250356442_3_alg».proof.Proof.RRunB

set_option maxRecDepth 16384

noncomputable section

namespace Cert.ReferenceIdeal.RV

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

/-! # The reference's run, over its stages

The fold of the reference's 232 operations over the launch contents, taken a stretch at a time: at the
result buffer it holds the last stage function of the argument arrays, at each argument buffer the argument. -/

variable (m : (ℓ : Loc nD τ sig) → Buf (Elt Ideal) ℓ) (c : Dev nD)

/-- The fold at the result buffer is the last stage of the arguments. -/
theorem after_result :
    after (ops (F := Ideal)) (launchContents m c) (Proc.devRef .tc main_v185)
      = val_main_v185 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) := by
  have c0 := chunk0 (launchContents m c) _ _ _ _ _ (a0 := rfl) (a1 := rfl) (a3 := rfl) (a4 := rfl) (a5 := rfl)
  have c1 := chunk1 (after (ops0 (F := Ideal)) (launchContents m c)) _ _ _ _ _ _ _ c0.1 ((keep0 (launchContents m c) main_arg6 (by simp)).trans rfl) ((keep0 (launchContents m c) main_arg7 (by simp)).trans rfl)
  have c2 := chunk2 (after (ops1 (F := Ideal)) (after (ops0 (F := Ideal)) (launchContents m c))) _ _ _ _ _ _ _ _ _ _ c1 ((keep1 (after (ops0 (F := Ideal)) (launchContents m c)) main_v1 (by simp)).trans c0.2.1) ((keep1 (after (ops0 (F := Ideal)) (launchContents m c)) main_v3 (by simp)).trans c0.2.2) ((keep1 (after (ops0 (F := Ideal)) (launchContents m c)) main_arg8 (by simp)).trans ((keep0 (launchContents m c) main_arg8 (by simp)).trans rfl)) ((keep1 (after (ops0 (F := Ideal)) (launchContents m c)) main_arg9 (by simp)).trans ((keep0 (launchContents m c) main_arg9 (by simp)).trans rfl)) ((keep1 (after (ops0 (F := Ideal)) (launchContents m c)) main_arg10 (by simp)).trans ((keep0 (launchContents m c) main_arg10 (by simp)).trans rfl))
  have c3 := chunk3 (after (ops2 (F := Ideal)) (after (ops1 (F := Ideal)) (after (ops0 (F := Ideal)) (launchContents m c)))) _ _ _ _ _ _ _ _ _ _ _ c2 ((keep2 (after (ops1 (F := Ideal)) (after (ops0 (F := Ideal)) (launchContents m c))) main_arg2 (by simp)).trans ((keep1 (after (ops0 (F := Ideal)) (launchContents m c)) main_arg2 (by simp)).trans ((keep0 (launchContents m c) main_arg2 (by simp)).trans rfl)))
  have c4 := chunk4 (after (ops3 (F := Ideal)) (after (ops2 (F := Ideal)) (after (ops1 (F := Ideal)) (after (ops0 (F := Ideal)) (launchContents m c))))) _ _ _ _ _ _ _ _ _ _ _ _ _ _ _ c3 ((keep3 (after (ops2 (F := Ideal)) (after (ops1 (F := Ideal)) (after (ops0 (F := Ideal)) (launchContents m c)))) main_arg11 (by simp)).trans ((keep2 (after (ops1 (F := Ideal)) (after (ops0 (F := Ideal)) (launchContents m c))) main_arg11 (by simp)).trans ((keep1 (after (ops0 (F := Ideal)) (launchContents m c)) main_arg11 (by simp)).trans ((keep0 (launchContents m c) main_arg11 (by simp)).trans rfl)))) ((keep3 (after (ops2 (F := Ideal)) (after (ops1 (F := Ideal)) (after (ops0 (F := Ideal)) (launchContents m c)))) main_arg12 (by simp)).trans ((keep2 (after (ops1 (F := Ideal)) (after (ops0 (F := Ideal)) (launchContents m c))) main_arg12 (by simp)).trans ((keep1 (after (ops0 (F := Ideal)) (launchContents m c)) main_arg12 (by simp)).trans ((keep0 (launchContents m c) main_arg12 (by simp)).trans rfl)))) ((keep3 (after (ops2 (F := Ideal)) (after (ops1 (F := Ideal)) (after (ops0 (F := Ideal)) (launchContents m c)))) main_arg13 (by simp)).trans ((keep2 (after (ops1 (F := Ideal)) (after (ops0 (F := Ideal)) (launchContents m c))) main_arg13 (by simp)).trans ((keep1 (after (ops0 (F := Ideal)) (launchContents m c)) main_arg13 (by simp)).trans ((keep0 (launchContents m c) main_arg13 (by simp)).trans rfl)))) ((keep3 (after (ops2 (F := Ideal)) (after (ops1 (F := Ideal)) (after (ops0 (F := Ideal)) (launchContents m c)))) main_arg14 (by simp)).trans ((keep2 (after (ops1 (F := Ideal)) (after (ops0 (F := Ideal)) (launchContents m c))) main_arg14 (by simp)).trans ((keep1 (after (ops0 (F := Ideal)) (launchContents m c)) main_arg14 (by simp)).trans ((keep0 (launchContents m c) main_arg14 (by simp)).trans rfl))))
  have c5 := chunk5 (after (ops4 (F := Ideal)) (after (ops3 (F := Ideal)) (after (ops2 (F := Ideal)) (after (ops1 (F := Ideal)) (after (ops0 (F := Ideal)) (launchContents m c)))))) _ _ _ _ _ _ _ _ _ _ _ _ _ _ _ _ _ _ _ c4 ((keep4 (after (ops3 (F := Ideal)) (after (ops2 (F := Ideal)) (after (ops1 (F := Ideal)) (after (ops0 (F := Ideal)) (launchContents m c))))) main_v89 (by simp)).trans c3) ((keep4 (after (ops3 (F := Ideal)) (after (ops2 (F := Ideal)) (after (ops1 (F := Ideal)) (after (ops0 (F := Ideal)) (launchContents m c))))) main_arg15 (by simp)).trans ((keep3 (after (ops2 (F := Ideal)) (after (ops1 (F := Ideal)) (after (ops0 (F := Ideal)) (launchContents m c)))) main_arg15 (by simp)).trans ((keep2 (after (ops1 (F := Ideal)) (after (ops0 (F := Ideal)) (launchContents m c))) main_arg15 (by simp)).trans ((keep1 (after (ops0 (F := Ideal)) (launchContents m c)) main_arg15 (by simp)).trans ((keep0 (launchContents m c) main_arg15 (by simp)).trans rfl))))) ((keep4 (after (ops3 (F := Ideal)) (after (ops2 (F := Ideal)) (after (ops1 (F := Ideal)) (after (ops0 (F := Ideal)) (launchContents m c))))) main_arg16 (by simp)).trans ((keep3 (after (ops2 (F := Ideal)) (after (ops1 (F := Ideal)) (after (ops0 (F := Ideal)) (launchContents m c)))) main_arg16 (by simp)).trans ((keep2 (after (ops1 (F := Ideal)) (after (ops0 (F := Ideal)) (launchContents m c))) main_arg16 (by simp)).trans ((keep1 (after (ops0 (F := Ideal)) (launchContents m c)) main_arg16 (by simp)).trans ((keep0 (launchContents m c) main_arg16 (by simp)).trans rfl))))) ((keep4 (after (ops3 (F := Ideal)) (after (ops2 (F := Ideal)) (after (ops1 (F := Ideal)) (after (ops0 (F := Ideal)) (launchContents m c))))) main_arg17 (by simp)).trans ((keep3 (after (ops2 (F := Ideal)) (after (ops1 (F := Ideal)) (after (ops0 (F := Ideal)) (launchContents m c)))) main_arg17 (by simp)).trans ((keep2 (after (ops1 (F := Ideal)) (after (ops0 (F := Ideal)) (launchContents m c))) main_arg17 (by simp)).trans ((keep1 (after (ops0 (F := Ideal)) (launchContents m c)) main_arg17 (by simp)).trans ((keep0 (launchContents m c) main_arg17 (by simp)).trans rfl))))) ((keep4 (after (ops3 (F := Ideal)) (after (ops2 (F := Ideal)) (after (ops1 (F := Ideal)) (after (ops0 (F := Ideal)) (launchContents m c))))) main_arg18 (by simp)).trans ((keep3 (after (ops2 (F := Ideal)) (after (ops1 (F := Ideal)) (after (ops0 (F := Ideal)) (launchContents m c)))) main_arg18 (by simp)).trans ((keep2 (after (ops1 (F := Ideal)) (after (ops0 (F := Ideal)) (launchContents m c))) main_arg18 (by simp)).trans ((keep1 (after (ops0 (F := Ideal)) (launchContents m c)) main_arg18 (by simp)).trans ((keep0 (launchContents m c) main_arg18 (by simp)).trans rfl)))))
  have c6 := chunk6 (after (ops5 (F := Ideal)) (after (ops4 (F := Ideal)) (after (ops3 (F := Ideal)) (after (ops2 (F := Ideal)) (after (ops1 (F := Ideal)) (after (ops0 (F := Ideal)) (launchContents m c))))))) _ _ _ _ _ _ _ _ _ _ _ _ _ _ _ _ _ _ _ _ _ _ _ _ _ c5 ((keep5 (after (ops4 (F := Ideal)) (after (ops3 (F := Ideal)) (after (ops2 (F := Ideal)) (after (ops1 (F := Ideal)) (after (ops0 (F := Ideal)) (launchContents m c)))))) main_v89 (by simp)).trans ((keep4 (after (ops3 (F := Ideal)) (after (ops2 (F := Ideal)) (after (ops1 (F := Ideal)) (after (ops0 (F := Ideal)) (launchContents m c))))) main_v89 (by simp)).trans c3)) ((keep5 (after (ops4 (F := Ideal)) (after (ops3 (F := Ideal)) (after (ops2 (F := Ideal)) (after (ops1 (F := Ideal)) (after (ops0 (F := Ideal)) (launchContents m c)))))) main_arg19 (by simp)).trans ((keep4 (after (ops3 (F := Ideal)) (after (ops2 (F := Ideal)) (after (ops1 (F := Ideal)) (after (ops0 (F := Ideal)) (launchContents m c))))) main_arg19 (by simp)).trans ((keep3 (after (ops2 (F := Ideal)) (after (ops1 (F := Ideal)) (after (ops0 (F := Ideal)) (launchContents m c)))) main_arg19 (by simp)).trans ((keep2 (after (ops1 (F := Ideal)) (after (ops0 (F := Ideal)) (launchContents m c))) main_arg19 (by simp)).trans ((keep1 (after (ops0 (F := Ideal)) (launchContents m c)) main_arg19 (by simp)).trans ((keep0 (launchContents m c) main_arg19 (by simp)).trans rfl)))))) ((keep5 (after (ops4 (F := Ideal)) (after (ops3 (F := Ideal)) (after (ops2 (F := Ideal)) (after (ops1 (F := Ideal)) (after (ops0 (F := Ideal)) (launchContents m c)))))) main_arg20 (by simp)).trans ((keep4 (after (ops3 (F := Ideal)) (after (ops2 (F := Ideal)) (after (ops1 (F := Ideal)) (after (ops0 (F := Ideal)) (launchContents m c))))) main_arg20 (by simp)).trans ((keep3 (after (ops2 (F := Ideal)) (after (ops1 (F := Ideal)) (after (ops0 (F := Ideal)) (launchContents m c)))) main_arg20 (by simp)).trans ((keep2 (after (ops1 (F := Ideal)) (after (ops0 (F := Ideal)) (launchContents m c))) main_arg20 (by simp)).trans ((keep1 (after (ops0 (F := Ideal)) (launchContents m c)) main_arg20 (by simp)).trans ((keep0 (launchContents m c) main_arg20 (by simp)).trans rfl)))))) ((keep5 (after (ops4 (F := Ideal)) (after (ops3 (F := Ideal)) (after (ops2 (F := Ideal)) (after (ops1 (F := Ideal)) (after (ops0 (F := Ideal)) (launchContents m c)))))) main_arg21 (by simp)).trans ((keep4 (after (ops3 (F := Ideal)) (after (ops2 (F := Ideal)) (after (ops1 (F := Ideal)) (after (ops0 (F := Ideal)) (launchContents m c))))) main_arg21 (by simp)).trans ((keep3 (after (ops2 (F := Ideal)) (after (ops1 (F := Ideal)) (after (ops0 (F := Ideal)) (launchContents m c)))) main_arg21 (by simp)).trans ((keep2 (after (ops1 (F := Ideal)) (after (ops0 (F := Ideal)) (launchContents m c))) main_arg21 (by simp)).trans ((keep1 (after (ops0 (F := Ideal)) (launchContents m c)) main_arg21 (by simp)).trans ((keep0 (launchContents m c) main_arg21 (by simp)).trans rfl)))))) ((keep5 (after (ops4 (F := Ideal)) (after (ops3 (F := Ideal)) (after (ops2 (F := Ideal)) (after (ops1 (F := Ideal)) (after (ops0 (F := Ideal)) (launchContents m c)))))) main_arg22 (by simp)).trans ((keep4 (after (ops3 (F := Ideal)) (after (ops2 (F := Ideal)) (after (ops1 (F := Ideal)) (after (ops0 (F := Ideal)) (launchContents m c))))) main_arg22 (by simp)).trans ((keep3 (after (ops2 (F := Ideal)) (after (ops1 (F := Ideal)) (after (ops0 (F := Ideal)) (launchContents m c)))) main_arg22 (by simp)).trans ((keep2 (after (ops1 (F := Ideal)) (after (ops0 (F := Ideal)) (launchContents m c))) main_arg22 (by simp)).trans ((keep1 (after (ops0 (F := Ideal)) (launchContents m c)) main_arg22 (by simp)).trans ((keep0 (launchContents m c) main_arg22 (by simp)).trans rfl)))))) ((keep5 (after (ops4 (F := Ideal)) (after (ops3 (F := Ideal)) (after (ops2 (F := Ideal)) (after (ops1 (F := Ideal)) (after (ops0 (F := Ideal)) (launchContents m c)))))) main_arg23 (by simp)).trans ((keep4 (after (ops3 (F := Ideal)) (after (ops2 (F := Ideal)) (after (ops1 (F := Ideal)) (after (ops0 (F := Ideal)) (launchContents m c))))) main_arg23 (by simp)).trans ((keep3 (after (ops2 (F := Ideal)) (after (ops1 (F := Ideal)) (after (ops0 (F := Ideal)) (launchContents m c)))) main_arg23 (by simp)).trans ((keep2 (after (ops1 (F := Ideal)) (after (ops0 (F := Ideal)) (launchContents m c))) main_arg23 (by simp)).trans ((keep1 (after (ops0 (F := Ideal)) (launchContents m c)) main_arg23 (by simp)).trans ((keep0 (launchContents m c) main_arg23 (by simp)).trans rfl)))))) ((keep5 (after (ops4 (F := Ideal)) (after (ops3 (F := Ideal)) (after (ops2 (F := Ideal)) (after (ops1 (F := Ideal)) (after (ops0 (F := Ideal)) (launchContents m c)))))) main_arg24 (by simp)).trans ((keep4 (after (ops3 (F := Ideal)) (after (ops2 (F := Ideal)) (after (ops1 (F := Ideal)) (after (ops0 (F := Ideal)) (launchContents m c))))) main_arg24 (by simp)).trans ((keep3 (after (ops2 (F := Ideal)) (after (ops1 (F := Ideal)) (after (ops0 (F := Ideal)) (launchContents m c)))) main_arg24 (by simp)).trans ((keep2 (after (ops1 (F := Ideal)) (after (ops0 (F := Ideal)) (launchContents m c))) main_arg24 (by simp)).trans ((keep1 (after (ops0 (F := Ideal)) (launchContents m c)) main_arg24 (by simp)).trans ((keep0 (launchContents m c) main_arg24 (by simp)).trans rfl))))))
  rw [ops_cut]
  simp only [StableHlo.after_append]
  exact c6

/-- The fold at an argument buffer is the argument: no operation writes one. -/
theorem after_arg (b : Ref sig .tc)
    (hb : b ∈ [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24]) :
    after (ops (F := Ideal)) (launchContents m c) (Proc.devRef .tc b) = m ((c.tc : Thread nD τ).loc b) := by
  rw [ops_cut]
  simp only [StableHlo.after_append]
  rw [keep6 _ b hb, keep5 _ b (show b ∈ [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24] ++ [main_v89] from List.mem_append_left _ hb), keep4 _ b (show b ∈ [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24] ++ [main_v89] from List.mem_append_left _ hb), keep3 _ b hb, keep2 _ b hb,
    keep1 _ b (show b ∈ [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24] ++ [main_v1, main_v3] from List.mem_append_left _ hb), keep0 _ b hb]

end Cert.ReferenceIdeal.RV

end
-- ==== Proof.RVal1Aux.lean ====
/-
  A layer of the graph network read off the host operations that compute it: the source words made
  non-negative, the rows gathered at the sources and added up at the targets, the in-degrees as the
  same sum of ones, the quotient, the two linear maps, the bias and the rectifier.  Everything here is
  stated over abstract arrays, so that both layers use the same lemmas.
-/
import Idealize.ShloMosaic.PureOps.Ideal
import Idealize.ShloMosaic.PureOps.Ideal.Laws
import Idealize.ShloMosaic.Lib.ValueIdx
import proofs.«407675_j64304250356442_3_alg».proof.Proof.Spec
import proofs.«407675_j64304250356442_3_alg».proof.Proof.Consts
import proofs.«407675_j64304250356442_3_alg».proof.Proof.LibScatter

noncomputable section

namespace Cert.Spec.Layer

open Idealize.ShloMosaic Idealize.ShloMosaic.ValueIdx Cert.Spec

/-- The compare, add and select on a source word: a negative word is moved up by the number of nodes. -/
theorem select_src (a : BitVec 32) :
    Scalar.select (IntOp.cmpi .slt a 0#32) (IntOp.addi a 100000#32) a
      = if a.toInt < 0 then a + 100000#32 else a := by
  unfold Scalar.select IntOp.cmpi IntOp.addi
  by_cases h : a.toInt < 0
  · rw [if_pos h, if_pos]; simp [BitVec.slt, h]
  · rw [if_neg h, if_neg]; simp [BitVec.slt, h]

/-- The rows of y gathered at the sources and added up at the targets: the sum over the edges into a node. -/
theorem scatter_gather_rows {k : Nat}
    (g : GatherDims (⟨2, ![100000, k]⟩ : Shape) (⟨2, ![1600000, 1]⟩ : Shape) (⟨2, ![1600000, k]⟩ : Shape))
    (hoff : g.offsetDims = [1]) (hcol : g.collapsedSliceDims = [0]) (hob : g.operandBatchingDims = [])
    (hsb : g.startIndicesBatchingDims = []) (hsim : g.startIndexMap = [0]) (hiv : g.indexVectorDim = 1)
    (hss : g.sliceSizes = ![1, k])
    (d : ScatterDims (⟨2, ![100000, k]⟩ : Shape) (⟨2, ![1600000, 1]⟩ : Shape) (⟨2, ![1600000, k]⟩ : Shape))
    (h1 : d.updateWindowDims = [1]) (h2 : d.insertedWindowDims = [0])
    (h3 : d.scatterDimsToOperandDims = [0]) (h4 : d.indexVectorDim = 1)
    (ei : Fin 2 → Fin 1600000 → BitVec 32)
    (y z : FVec Ideal (⟨2, ![100000, k]⟩ : Shape) .f32) (hz : ∀ q, z q = 0)
    (src tgt : IVec (⟨2, ![1600000, 1]⟩ : Shape) 32)
    (hs : ∀ e, src (ix2 e 0) = srcWord ei e) (ht : ∀ e, tgt (ix2 e 0) = ei 1 e)
    (i : Fin 100000) (c : Fin k) :
    Host.scatterAdd (F := Ideal) d z tgt (Host.gather g y src) (ix2 i c) = aggsum ei (A2 y) i c := by
  unfold Host.scatterAdd
  rw [Ideal.hostScatterAdd_def, Cert.LibScatter.hostScatterAdd_rows d h1 h2 h3 h4, hz, zero_add]
  unfold aggsum
  refine Finset.sum_congr rfl fun e _ => ?_
  rw [ht e, Cert.LibScatter.gather_rows g hoff hcol hob hsb hsim hiv hss (by decide)]
  by_cases hh : (ei 1 e).toInt = (i.val : Int)
  · rw [if_pos hh, if_pos (show hit ei e i from hh)]
    exact congrArg (fun r => y (ix2 r c)) (Fin.ext (by
      show min (src (ix2 e 0)).toInt.toNat (100000 - 1) = min (srcWord ei e).toInt.toNat 99999
      rw [hs e]))
  · rw [if_neg hh, if_neg (show ¬ hit ei e i from hh)]

/-- Ones added up at the targets and clamped below by one: the clamped in-degree. -/
theorem scatter_ones
    (d : ScatterDims (⟨2, ![100000, 1]⟩ : Shape) (⟨2, ![1600000, 1]⟩ : Shape) (⟨2, ![1600000, 1]⟩ : Shape))
    (h1 : d.updateWindowDims = [1]) (h2 : d.insertedWindowDims = [0])
    (h3 : d.scatterDimsToOperandDims = [0]) (h4 : d.indexVectorDim = 1)
    (ei : Fin 2 → Fin 1600000 → BitVec 32)
    (z : FVec Ideal (⟨2, ![100000, 1]⟩ : Shape) .f32) (hz : ∀ q, z q = 0)
    (o : FVec Ideal (⟨2, ![1600000, 1]⟩ : Shape) .f32) (ho : ∀ q, o q = 1)
    (tgt : IVec (⟨2, ![1600000, 1]⟩ : Shape) 32) (ht : ∀ e, tgt (ix2 e 0) = ei 1 e)
    (i : Fin 100000) :
    max (Host.scatterAdd (F := Ideal) d z tgt o (ix2 i 0)) 1 = cnt ei i := by
  unfold Host.scatterAdd
  rw [Ideal.hostScatterAdd_def, Cert.LibScatter.hostScatterAdd_rows d h1 h2 h3 h4, hz, zero_add]
  unfold cnt
  refine congrArg (fun s => max s (1 : EReal)) (Finset.sum_congr rfl fun e _ => ?_)
  rw [ht e, ho]
  by_cases hh : (ei 1 e).toInt = (i.val : Int)
  · rw [if_pos hh, if_pos (show hit ei e i from hh)]
  · rw [if_neg hh, if_neg (show ¬ hit ei e i from hh)]

end Cert.Spec.Layer

end
-- ==== Proof.RVal1.lean ====
import proofs.«407675_j64304250356442_3_alg».proof.Proof.RRead
import proofs.«407675_j64304250356442_3_alg».proof.Proof.Spec
import proofs.«407675_j64304250356442_3_alg».proof.Proof.RVal1Aux

set_option maxRecDepth 16384

noncomputable section

namespace Cert.ReferenceIdeal.RV

open Idealize.ShloMosaic Idealize.ShloMosaic.TcCoe Idealize.ShloMosaic.ValueIdx Idealize.SL.Sem
open Cert.ReferenceIdeal Cert.ReferenceIdeal.Read Cert.Spec

variable (x0 : (⟨S100000x64, .f32⟩ : BufTy).Contents (Elt Ideal)) (x1 : (⟨S2x1600000, .i32⟩ : BufTy).Contents (Elt Ideal))
  (x2 : (⟨S100000, .i32⟩ : BufTy).Contents (Elt Ideal)) (x3 : (⟨S64x16, .f32⟩ : BufTy).Contents (Elt Ideal))
  (x4 : (⟨S16, .f32⟩ : BufTy).Contents (Elt Ideal)) (x5 : (⟨S64x16, .f32⟩ : BufTy).Contents (Elt Ideal))
  (x6 x7 : (⟨S16, .f32⟩ : BufTy).Contents (Elt Ideal)) (x8 : (⟨S16x16, .f32⟩ : BufTy).Contents (Elt Ideal))
  (x9 : (⟨S16, .f32⟩ : BufTy).Contents (Elt Ideal)) (x10 : (⟨S16x16, .f32⟩ : BufTy).Contents (Elt Ideal))

/-! # The reference's first layer, read index by index -/

namespace Layer1

/-- The source word of an edge as the gather reads it. -/
theorem src_at (e : Fin 1600000) : val_main_v9 (F := Ideal) x1 (ix2 e (0 : Fin 1)) = srcWord (A2 x1) e := by
  have e9 : idx_main_v9 (ix2 e (0 : Fin 1)) = ix1 e :=
    funext fun a => Fin.ext (by match a with | ⟨0, _⟩ => rfl)
  have e1 : idx_main_v0 (idx_main_v1 (ix1 e)) = ix2 (0 : Fin 2) e := funext fun a => Fin.ext (by
    match a with
    | ⟨0, _⟩ => rfl
    | ⟨1, _⟩ => exact Nat.mod_eq_of_lt e.isLt)
  have h1 : val_main_v1 (F := Ideal) x1 (ix1 e) = A2 x1 0 e := by
    rw [val_main_v1_apply, val_main_v0_apply, e1]; rfl
  rw [val_main_v9_apply, e9, val_main_v8_apply, val_main_v5_apply, val_main_v7_apply, h1, val_main_v4_apply,
    val_main_c_apply, val_main_v6_apply, val_main_c_0_apply, Layer.select_src]
  rfl

/-- The target word of an edge. -/
theorem tgt_word (e : Fin 1600000) : val_main_v3 (F := Ideal) x1 (ix1 e) = A2 x1 1 e := by
  have e3 : idx_main_v2 (idx_main_v3 (ix1 e)) = ix2 (1 : Fin 2) e := funext fun a => Fin.ext (by
    match a with
    | ⟨0, _⟩ => rfl
    | ⟨1, _⟩ => exact Nat.mod_eq_of_lt e.isLt)
  rw [val_main_v3_apply, val_main_v2_apply, e3]; rfl

/-- The target word of an edge as the first scatter reads it. -/
theorem tgt12_at (e : Fin 1600000) : val_main_v12 (F := Ideal) x1 (ix2 e (0 : Fin 1)) = A2 x1 1 e := by
  have e12 : idx_main_v12 (ix2 e (0 : Fin 1)) = ix1 e :=
    funext fun a => Fin.ext (by match a with | ⟨0, _⟩ => rfl)
  rw [val_main_v12_apply, e12, tgt_word]

/-- The target word of an edge as the scatter of ones reads it. -/
theorem tgt16_at (e : Fin 1600000) : val_main_v16 (F := Ideal) x1 (ix2 e (0 : Fin 1)) = A2 x1 1 e := by
  have e16 : idx_main_v16 (ix2 e (0 : Fin 1)) = ix1 e :=
    funext fun a => Fin.ext (by match a with | ⟨0, _⟩ => rfl)
  rw [val_main_v16_apply, e16, tgt_word]

/-- The neighbourhood average of the features. -/
theorem agg_at (i : Fin 100000) (k : Fin 64) :
    val_main_v21 (F := Ideal) x0 x1 (ix2 i k) = agg (A2 x1) (A2 x0) i k := by
  have e20 : idx_main_v20 (ix2 i k) = ix2 i (0 : Fin 1) :=
    funext fun a => Fin.ext (by match a with | ⟨0, _⟩ => rfl | ⟨1, _⟩ => rfl)
  have hz11 : ∀ q, val_main_v11 (F := Ideal) q = 0 := fun q => by
    rw [val_main_v11_apply, val_main_cst_apply, Ideal.ofBits_def, ofBits_zero]
  have hz15 : ∀ q, val_main_v15 (F := Ideal) q = 0 := fun q => by
    rw [val_main_v15_apply, val_main_cst_2_apply, Ideal.ofBits_def, ofBits_zero]
  have ho14 : ∀ q, val_main_v14 (F := Ideal) q = 1 := fun q => by
    rw [val_main_v14_apply, val_main_cst_1_apply, Ideal.ofBits_def, ofBits_one]
  have hs := Layer.scatter_gather_rows gather_S100000x64_S1600000x1_S1600000x64_1_0_n_n_0_1_164 rfl rfl rfl rfl rfl rfl rfl
    scatter_S100000x64_S1600000x1_S1600000x64_1_0_0_1 rfl rfl rfl rfl (A2 x1) x0 (val_main_v11 (F := Ideal)) hz11
    (val_main_v9 (F := Ideal) x1) (val_main_v12 (F := Ideal) x1) (src_at x1) (tgt12_at x1) i k
  have hc := Layer.scatter_ones scatter_S100000x1_S1600000x1_S1600000x1_1_0_0_1 rfl rfl rfl rfl (A2 x1)
    (val_main_v15 (F := Ideal)) hz15 (val_main_v14 (F := Ideal)) ho14 (val_main_v16 (F := Ideal) x1) (tgt16_at x1) i
  rw [val_main_v21_apply, val_main_v20_apply, e20, val_main_v19_apply, val_main_v18_apply, val_main_cst_3_apply,
    Ideal.hostDivf_def, Ideal.maximumf_def, Ideal.ofBits_def, ofBits_one]
  unfold val_main_v13 val_main_v17 val_main_v10
  rw [hs, hc]
  rfl

end Layer1

open Layer1

/-- The first layer after the rectifier. -/
theorem r1 : (val_main_v28 (F := Ideal) x0 x1 x3 x4 x5 : S100000x16.Idx → EReal)
    = fun q => layerR (A2 x1) (A2 x0) (A2 x3) (A1 x4) (A2 x5) (q 0) (q 1) := by
  funext q
  obtain ⟨i, j, rfl⟩ : ∃ (i : Fin 100000) (j : Fin 16), q = ix2 i j := ⟨q 0, q 1, eq_ix2 q⟩
  show _ = layerR (A2 x1) (A2 x0) (A2 x3) (A1 x4) (A2 x5) i j
  have el22 : ∀ k : Fin 64, lidx_main_v22 (ix2 i j) k = ix2 i k := fun k =>
    funext fun a => Fin.ext (by match a with | ⟨0, _⟩ => rfl | ⟨1, _⟩ => rfl)
  have er22 : ∀ k : Fin 64, ridx_main_v22 (ix2 i j) k = ix2 k j := fun k =>
    funext fun a => Fin.ext (by match a with | ⟨0, _⟩ => rfl | ⟨1, _⟩ => rfl)
  have el26 : ∀ k : Fin 64, lidx_main_v26 (ix2 i j) k = ix2 i k := fun k =>
    funext fun a => Fin.ext (by match a with | ⟨0, _⟩ => rfl | ⟨1, _⟩ => rfl)
  have er26 : ∀ k : Fin 64, ridx_main_v26 (ix2 i j) k = ix2 k j := fun k =>
    funext fun a => Fin.ext (by match a with | ⟨0, _⟩ => rfl | ⟨1, _⟩ => rfl)
  have e24 : idx_main_v23 (idx_main_v24 (ix2 i j)) = ix1 j :=
    funext fun a => Fin.ext (by match a with | ⟨0, _⟩ => rfl)
  rw [val_main_v28_apply, val_main_v27_apply, val_main_v25_apply, val_main_v22_apply, val_main_v24_apply,
    val_main_v23_apply, val_main_v26_apply, val_main_call0_v0_apply, val_main_call0_cst_apply, e24]
  simp only [el22, er22, el26, er26, agg_at, Ideal.addf_def, Ideal.maximumf_def, Ideal.ofBits_def, ofBits_zero]
  rfl

end Cert.ReferenceIdeal.RV

end
-- ==== Proof.RVal2.lean ====
import proofs.«407675_j64304250356442_3_alg».proof.Proof.RRead
import proofs.«407675_j64304250356442_3_alg».proof.Proof.Spec
import proofs.«407675_j64304250356442_3_alg».proof.Proof.Consts

set_option maxRecDepth 16384

noncomputable section

namespace Cert.ReferenceIdeal.RV

open Idealize.ShloMosaic Idealize.ShloMosaic.TcCoe Idealize.ShloMosaic.ValueIdx Idealize.SL.Sem
open Cert.ReferenceIdeal Cert.ReferenceIdeal.Read Cert.Spec

variable (x0 : (⟨S100000x64, .f32⟩ : BufTy).Contents (Elt Ideal)) (x1 : (⟨S2x1600000, .i32⟩ : BufTy).Contents (Elt Ideal))
  (x2 : (⟨S100000, .i32⟩ : BufTy).Contents (Elt Ideal)) (x3 : (⟨S64x16, .f32⟩ : BufTy).Contents (Elt Ideal))
  (x4 : (⟨S16, .f32⟩ : BufTy).Contents (Elt Ideal)) (x5 : (⟨S64x16, .f32⟩ : BufTy).Contents (Elt Ideal))
  (x6 x7 : (⟨S16, .f32⟩ : BufTy).Contents (Elt Ideal)) (x8 : (⟨S16x16, .f32⟩ : BufTy).Contents (Elt Ideal))
  (x9 : (⟨S16, .f32⟩ : BufTy).Contents (Elt Ideal)) (x10 : (⟨S16x16, .f32⟩ : BufTy).Contents (Elt Ideal))

/-! # The reference's batch normalisation, read index by index -/

/-- The column means of the first layer. -/
theorem r2_mean (H : Fin 100000 → Fin 16 → EReal)
    (h : (val_main_v28 (F := Ideal) x0 x1 x3 x4 x5 : S100000x16.Idx → EReal) = fun q => H (q 0) (q 1))
    (j : Fin 16) :
    val_main_v31 (F := Ideal) x0 x1 x3 x4 x5 (ix1 j) = colMean H cN j := by
  rw [val_main_v31_apply, val_main_v29_apply, val_main_v30_apply, val_main_cst_5_apply, val_main_cst_4_apply, h]
  simp only [Ideal.hostDivf_def, Ideal.ofBits_def, ofBits_zero, ofBits_nodes, zero_add]
  rfl

/-- The column variances of the first layer, in two passes. -/
theorem r2_var (H : Fin 100000 → Fin 16 → EReal)
    (h : (val_main_v28 (F := Ideal) x0 x1 x3 x4 x5 : S100000x16.Idx → EReal) = fun q => H (q 0) (q 1))
    (j : Fin 16) :
    val_main_v38 (F := Ideal) x0 x1 x3 x4 x5 (ix1 j) = colVar H cN j := by
  rw [val_main_v38_apply, val_main_v36_apply, val_main_v37_apply, val_main_cst_7_apply, val_main_cst_6_apply]
  simp only [Ideal.hostDivf_def, Ideal.ofBits_def, ofBits_zero, ofBits_nodes, zero_add]
  unfold colVar
  refine congrArg (Ideal.div · cN) (Finset.sum_congr rfl fun k _ => ?_)
  have e : idx_main_v32 (idx_main_v33 (idx_main_v36 (ix1 j) k)) = ix1 j :=
    funext fun a => Fin.ext (by match a with | ⟨0, _⟩ => rfl)
  rw [val_main_v35_apply, val_main_v34_apply, val_main_v33_apply, val_main_v32_apply, e,
    r2_mean x0 x1 x3 x4 x5 H h j, h]
  rfl

/-- The first layer normalised, over whatever the first layer is. -/
theorem r2 (H : Fin 100000 → Fin 16 → EReal)
    (h : (val_main_v28 (F := Ideal) x0 x1 x3 x4 x5 : S100000x16.Idx → EReal) = fun q => H (q 0) (q 1)) :
    (val_main_v53 (F := Ideal) x0 x1 x3 x4 x5 x6 x7 : S100000x16.Idx → EReal)
    = fun q => bn (A1 x6) (A1 x7) H (colMean H cN) (colVar H cN) (q 0) (q 1) := by
  funext q
  obtain ⟨i, j, rfl⟩ : ∃ (i : Fin 100000) (j : Fin 16), q = ix2 i j := ⟨q 0, q 1, eq_ix2 q⟩
  have e1 : idx_main_v48 (idx_main_v49 (ix2 i j)) = ix1 j :=
    funext fun a => Fin.ext (by match a with | ⟨0, _⟩ => rfl)
  have e2 : idx_main_v39 (idx_main_v40 (ix2 i j)) = ix1 j :=
    funext fun a => Fin.ext (by match a with | ⟨0, _⟩ => rfl)
  have e3 : idx_main_v42 (idx_main_v43 (ix2 i j)) = ix1 j :=
    funext fun a => Fin.ext (by match a with | ⟨0, _⟩ => rfl)
  have e4 : idx_main_v51 (idx_main_v52 (ix2 i j)) = ix1 j :=
    funext fun a => Fin.ext (by match a with | ⟨0, _⟩ => rfl)
  rw [val_main_v53_apply, val_main_v50_apply, val_main_v52_apply, val_main_v51_apply, val_main_v44_apply,
    val_main_v49_apply, val_main_v48_apply, val_main_v47_apply, val_main_v46_apply, val_main_v45_apply,
    val_main_cst_8_apply, val_main_v43_apply, val_main_v42_apply, val_main_v41_apply, val_main_v40_apply,
    val_main_v39_apply, e1, e2, e3, e4, r2_var x0 x1 x3 x4 x5 H h j, r2_mean x0 x1 x3 x4 x5 H h j, h]
  simp only [Ideal.addf_def, Ideal.mulf_def, Ideal.subf_def, Ideal.hostUnary_rsqrt_def, Ideal.ofBits_def]
  rfl

end Cert.ReferenceIdeal.RV

end
-- ==== Proof.RVal3.lean ====
import proofs.«407675_j64304250356442_3_alg».proof.Proof.RRead
import proofs.«407675_j64304250356442_3_alg».proof.Proof.Spec
import proofs.«407675_j64304250356442_3_alg».proof.Proof.RVal1Aux

set_option maxRecDepth 16384

noncomputable section

namespace Cert.ReferenceIdeal.RV

open Idealize.ShloMosaic Idealize.ShloMosaic.TcCoe Idealize.ShloMosaic.ValueIdx Idealize.SL.Sem
open Cert.ReferenceIdeal Cert.ReferenceIdeal.Read Cert.Spec

variable (x0 : (⟨S100000x64, .f32⟩ : BufTy).Contents (Elt Ideal)) (x1 : (⟨S2x1600000, .i32⟩ : BufTy).Contents (Elt Ideal))
  (x2 : (⟨S100000, .i32⟩ : BufTy).Contents (Elt Ideal)) (x3 : (⟨S64x16, .f32⟩ : BufTy).Contents (Elt Ideal))
  (x4 : (⟨S16, .f32⟩ : BufTy).Contents (Elt Ideal)) (x5 : (⟨S64x16, .f32⟩ : BufTy).Contents (Elt Ideal))
  (x6 x7 : (⟨S16, .f32⟩ : BufTy).Contents (Elt Ideal)) (x8 : (⟨S16x16, .f32⟩ : BufTy).Contents (Elt Ideal))
  (x9 : (⟨S16, .f32⟩ : BufTy).Contents (Elt Ideal)) (x10 : (⟨S16x16, .f32⟩ : BufTy).Contents (Elt Ideal))

/-! # The reference's second layer, read index by index -/

namespace Layer2

/-- The source word of an edge as the second gather reads it. -/
theorem src2_at (e : Fin 1600000) : val_main_v59 (F := Ideal) x1 (ix2 e (0 : Fin 1)) = srcWord (A2 x1) e := by
  have e59 : idx_main_v59 (ix2 e (0 : Fin 1)) = ix1 e :=
    funext fun a => Fin.ext (by match a with | ⟨0, _⟩ => rfl)
  have e1 : idx_main_v0 (idx_main_v1 (ix1 e)) = ix2 (0 : Fin 2) e := funext fun a => Fin.ext (by
    match a with
    | ⟨0, _⟩ => rfl
    | ⟨1, _⟩ => exact Nat.mod_eq_of_lt e.isLt)
  have h1 : val_main_v1 (F := Ideal) x1 (ix1 e) = A2 x1 0 e := by
    rw [val_main_v1_apply, val_main_v0_apply, e1]; rfl
  rw [val_main_v59_apply, e59, val_main_v58_apply, val_main_v55_apply, val_main_v57_apply, h1, val_main_v54_apply,
    val_main_c_9_apply, val_main_v56_apply, val_main_c_10_apply, Layer.select_src]
  rfl

/-- The target word of an edge. -/
theorem tgt2_word (e : Fin 1600000) : val_main_v3 (F := Ideal) x1 (ix1 e) = A2 x1 1 e := by
  have e3 : idx_main_v2 (idx_main_v3 (ix1 e)) = ix2 (1 : Fin 2) e := funext fun a => Fin.ext (by
    match a with
    | ⟨0, _⟩ => rfl
    | ⟨1, _⟩ => exact Nat.mod_eq_of_lt e.isLt)
  rw [val_main_v3_apply, val_main_v2_apply, e3]; rfl

/-- The target word of an edge as the second scatter reads it. -/
theorem tgt62_at (e : Fin 1600000) : val_main_v62 (F := Ideal) x1 (ix2 e (0 : Fin 1)) = A2 x1 1 e := by
  have e62 : idx_main_v62 (ix2 e (0 : Fin 1)) = ix1 e :=
    funext fun a => Fin.ext (by match a with | ⟨0, _⟩ => rfl)
  rw [val_main_v62_apply, e62, tgt2_word]

/-- The target word of an edge as the second scatter of ones reads it. -/
theorem tgt66_at (e : Fin 1600000) : val_main_v66 (F := Ideal) x1 (ix2 e (0 : Fin 1)) = A2 x1 1 e := by
  have e66 : idx_main_v66 (ix2 e (0 : Fin 1)) = ix1 e :=
    funext fun a => Fin.ext (by match a with | ⟨0, _⟩ => rfl)
  rw [val_main_v66_apply, e66, tgt2_word]

/-- The neighbourhood average of the normalised first layer. -/
theorem agg2_at (HB : Fin 100000 → Fin 16 → EReal)
    (h : (val_main_v53 (F := Ideal) x0 x1 x3 x4 x5 x6 x7 : S100000x16.Idx → EReal) = fun q => HB (q 0) (q 1))
    (i : Fin 100000) (k : Fin 16) :
    val_main_v71 (F := Ideal) x0 x1 x3 x4 x5 x6 x7 (ix2 i k) = agg (A2 x1) HB i k := by
  have e70 : idx_main_v70 (ix2 i k) = ix2 i (0 : Fin 1) :=
    funext fun a => Fin.ext (by match a with | ⟨0, _⟩ => rfl | ⟨1, _⟩ => rfl)
  have hz61 : ∀ q, val_main_v61 (F := Ideal) q = 0 := fun q => by
    rw [val_main_v61_apply, val_main_cst_11_apply, Ideal.ofBits_def, ofBits_zero]
  have hz65 : ∀ q, val_main_v65 (F := Ideal) q = 0 := fun q => by
    rw [val_main_v65_apply, val_main_cst_13_apply, Ideal.ofBits_def, ofBits_zero]
  have ho64 : ∀ q, val_main_v64 (F := Ideal) q = 1 := fun q => by
    rw [val_main_v64_apply, val_main_cst_12_apply, Ideal.ofBits_def, ofBits_one]
  have hA : A2 (fun q : S100000x16.Idx => HB (q 0) (q 1)) = HB := rfl
  have hs := Layer.scatter_gather_rows gather_S100000x16_S1600000x1_S1600000x16_1_0_n_n_0_1_116 rfl rfl rfl rfl rfl rfl rfl
    scatter_S100000x16_S1600000x1_S1600000x16_1_0_0_1 rfl rfl rfl rfl (A2 x1) (fun q : S100000x16.Idx => HB (q 0) (q 1))
    (val_main_v61 (F := Ideal)) hz61
    (val_main_v59 (F := Ideal) x1) (val_main_v62 (F := Ideal) x1) (src2_at x1) (tgt62_at x1) i k
  have hc := Layer.scatter_ones scatter_S100000x1_S1600000x1_S1600000x1_1_0_0_1 rfl rfl rfl rfl (A2 x1)
    (val_main_v65 (F := Ideal)) hz65 (val_main_v64 (F := Ideal)) ho64 (val_main_v66 (F := Ideal) x1) (tgt66_at x1) i
  rw [val_main_v71_apply, val_main_v70_apply, e70, val_main_v69_apply, val_main_v68_apply, val_main_cst_14_apply,
    Ideal.hostDivf_def, Ideal.maximumf_def, Ideal.ofBits_def, ofBits_one]
  unfold val_main_v63 val_main_v67 val_main_v60
  rw [h, hs, hc, hA]
  rfl

end Layer2

open Layer2

/-- The second layer after the rectifier, over whatever the normalised first layer is. -/
theorem r3 (HB : Fin 100000 → Fin 16 → EReal)
    (h : (val_main_v53 (F := Ideal) x0 x1 x3 x4 x5 x6 x7 : S100000x16.Idx → EReal) = fun q => HB (q 0) (q 1)) :
    (val_main_v78 (F := Ideal) x0 x1 x3 x4 x5 x6 x7 x8 x9 x10 : S100000x16.Idx → EReal)
    = fun q => layerR (A2 x1) HB (A2 x8) (A1 x9) (A2 x10) (q 0) (q 1) := by
  funext q
  obtain ⟨i, j, rfl⟩ : ∃ (i : Fin 100000) (j : Fin 16), q = ix2 i j := ⟨q 0, q 1, eq_ix2 q⟩
  show _ = layerR (A2 x1) HB (A2 x8) (A1 x9) (A2 x10) i j
  have el72 : ∀ k : Fin 16, lidx_main_v72 (ix2 i j) k = ix2 i k := fun k =>
    funext fun a => Fin.ext (by match a with | ⟨0, _⟩ => rfl | ⟨1, _⟩ => rfl)
  have er72 : ∀ k : Fin 16, ridx_main_v72 (ix2 i j) k = ix2 k j := fun k =>
    funext fun a => Fin.ext (by match a with | ⟨0, _⟩ => rfl | ⟨1, _⟩ => rfl)
  have el76 : ∀ k : Fin 16, lidx_main_v76 (ix2 i j) k = ix2 i k := fun k =>
    funext fun a => Fin.ext (by match a with | ⟨0, _⟩ => rfl | ⟨1, _⟩ => rfl)
  have er76 : ∀ k : Fin 16, ridx_main_v76 (ix2 i j) k = ix2 k j := fun k =>
    funext fun a => Fin.ext (by match a with | ⟨0, _⟩ => rfl | ⟨1, _⟩ => rfl)
  have e74 : idx_main_v73 (idx_main_v74 (ix2 i j)) = ix1 j :=
    funext fun a => Fin.ext (by match a with | ⟨0, _⟩ => rfl)
  rw [val_main_v78_apply, val_main_v77_apply, val_main_v75_apply, val_main_v72_apply, val_main_v74_apply,
    val_main_v73_apply, val_main_v76_apply, val_main_call1_v0_apply, val_main_call1_cst_apply, e74]
  simp only [el72, er72, el76, er76, agg2_at x0 x1 x3 x4 x5 x6 x7 HB h, Ideal.addf_def, Ideal.maximumf_def,
    Ideal.ofBits_def, ofBits_zero]
  rw [h]
  rfl

end Cert.ReferenceIdeal.RV

end
-- ==== Proof.RVal4.lean ====
import proofs.«407675_j64304250356442_3_alg».proof.Proof.RRead
import proofs.«407675_j64304250356442_3_alg».proof.Proof.Spec
import proofs.«407675_j64304250356442_3_alg».proof.Proof.Consts
import proofs.«407675_j64304250356442_3_alg».proof.Proof.LibScatter

set_option maxRecDepth 16384

noncomputable section

namespace Cert.ReferenceIdeal.RV

open Idealize.ShloMosaic Idealize.ShloMosaic.TcCoe Idealize.ShloMosaic.ValueIdx Idealize.SL.Sem
open Cert.ReferenceIdeal Cert.ReferenceIdeal.Read Cert.Spec

variable (x0 : (⟨S100000x64, .f32⟩ : BufTy).Contents (Elt Ideal)) (x1 : (⟨S2x1600000, .i32⟩ : BufTy).Contents (Elt Ideal))
  (x2 : (⟨S100000, .i32⟩ : BufTy).Contents (Elt Ideal)) (x3 : (⟨S64x16, .f32⟩ : BufTy).Contents (Elt Ideal))
  (x4 : (⟨S16, .f32⟩ : BufTy).Contents (Elt Ideal)) (x5 : (⟨S64x16, .f32⟩ : BufTy).Contents (Elt Ideal))
  (x6 x7 : (⟨S16, .f32⟩ : BufTy).Contents (Elt Ideal)) (x8 : (⟨S16x16, .f32⟩ : BufTy).Contents (Elt Ideal))
  (x9 : (⟨S16, .f32⟩ : BufTy).Contents (Elt Ideal)) (x10 : (⟨S16x16, .f32⟩ : BufTy).Contents (Elt Ideal))

/-! # The reference's segment means, read index by index -/

/-- The column of segment words reads the segment word of its row. -/
theorem r4_idx80 (n : Fin 100000) : idx_main_v80 (ix2 n (0 : Fin 1)) = ix1 n :=
  funext fun a => Fin.ext (by match a with | ⟨0, _⟩ => rfl)

/-- The same for the second column of segment words. -/
theorem r4_idx84 (n : Fin 100000) : idx_main_v84 (ix2 n (0 : Fin 1)) = ix1 n :=
  funext fun a => Fin.ext (by match a with | ⟨0, _⟩ => rfl)

/-! The dimension numbers of the two scatters: whole rows, the row number in the one index column. -/

theorem r4_d16_upd : scatter_S256x16_S100000x1_S100000x16_1_0_0_1.updateWindowDims = [1] := rfl
theorem r4_d16_ins : scatter_S256x16_S100000x1_S100000x16_1_0_0_1.insertedWindowDims = [0] := rfl
theorem r4_d16_sdo : scatter_S256x16_S100000x1_S100000x16_1_0_0_1.scatterDimsToOperandDims = [0] := rfl
theorem r4_d16_ivd : scatter_S256x16_S100000x1_S100000x16_1_0_0_1.indexVectorDim = 1 := rfl
theorem r4_d1_upd : scatter_S256x1_S100000x1_S100000x1_1_0_0_1.updateWindowDims = [1] := rfl
theorem r4_d1_ins : scatter_S256x1_S100000x1_S100000x1_1_0_0_1.insertedWindowDims = [0] := rfl
theorem r4_d1_sdo : scatter_S256x1_S100000x1_S100000x1_1_0_0_1.scatterDimsToOperandDims = [0] := rfl
theorem r4_d1_ivd : scatter_S256x1_S100000x1_S100000x1_1_0_0_1.indexVectorDim = 1 := rfl

/-- The scatter into 256 rows of 16 columns, at one element, over any operands. -/
theorem r4_scat16 (z : FVec Ideal S256x16 .f32) (idx : IVec S100000x1 32) (upd : FVec Ideal S100000x16 .f32)
    (g : Fin 256) (f : Fin 16) :
    Host.scatterAdd (F := Ideal) scatter_S256x16_S100000x1_S100000x16_1_0_0_1 z idx upd (ix2 g f)
      = z (ix2 g f)
        + ∑ e : Fin 100000, if (idx (ix2 e (0 : Fin 1))).toInt = (g.val : Int) then upd (ix2 e f) else 0 := by
  simp only [Host.scatterAdd, Ideal.hostScatterAdd_def]
  exact Cert.LibScatter.hostScatterAdd_rows scatter_S256x16_S100000x1_S100000x16_1_0_0_1
    r4_d16_upd r4_d16_ins r4_d16_sdo r4_d16_ivd z idx upd g f

/-- The scatter into 256 rows of one column, at one element, over any operands. -/
theorem r4_scat1 (z : FVec Ideal S256x1 .f32) (idx : IVec S100000x1 32) (upd : FVec Ideal S100000x1 .f32)
    (g : Fin 256) :
    Host.scatterAdd (F := Ideal) scatter_S256x1_S100000x1_S100000x1_1_0_0_1 z idx upd (ix2 g (0 : Fin 1))
      = z (ix2 g (0 : Fin 1))
        + ∑ e : Fin 100000, if (idx (ix2 e (0 : Fin 1))).toInt = (g.val : Int) then upd (ix2 e (0 : Fin 1)) else 0 := by
  simp only [Host.scatterAdd, Ideal.hostScatterAdd_def]
  exact Cert.LibScatter.hostScatterAdd_rows scatter_S256x1_S100000x1_S100000x1_1_0_0_1
    r4_d1_upd r4_d1_ins r4_d1_sdo r4_d1_ivd z idx upd g (0 : Fin 1)

/-- The scatter's signed row test on the segment words is the membership test of the specification. -/
theorem r4_if (a : EReal) (n : Fin 100000) (g : Fin 256) :
    (if (x2 (ix1 n)).toInt = (g.val : Int) then a else 0) = if segHit (A1 x2) n g then a else 0 := by
  by_cases hc : segHit (A1 x2) n g
  · have hc' : (x2 (ix1 n)).toInt = (g.val : Int) := hc
    rw [if_pos hc, if_pos hc']
  · have hc' : ¬ (x2 (ix1 n)).toInt = (g.val : Int) := hc
    rw [if_neg hc, if_neg hc']

/-- The segment sums: the rows of the second layer added into the row their segment word names. -/
theorem r4_sum (H2 : Fin 100000 → Fin 16 → EReal)
    (h : (val_main_v78 (F := Ideal) x0 x1 x3 x4 x5 x6 x7 x8 x9 x10 : S100000x16.Idx → EReal) = fun q => H2 (q 0) (q 1))
    (g : Fin 256) (f : Fin 16) :
    val_main_v81 (F := Ideal) x0 x1 x2 x3 x4 x5 x6 x7 x8 x9 x10 (ix2 g f)
      = ∑ n : Fin 100000, if segHit (A1 x2) n g then H2 n f else 0 := by
  unfold val_main_v81
  rw [h]
  refine (r4_scat16 _ _ _ g f).trans ?_
  rw [val_main_v79_apply, val_main_cst_15_apply]
  simp only [Ideal.ofBits_def, ofBits_zero, zero_add]
  refine Finset.sum_congr rfl fun n _ => ?_
  rw [val_main_v80_apply, r4_idx80]
  exact r4_if x2 (H2 n f) n g

/-- The segment sizes: a one added into the row each node's segment word names. -/
theorem r4_cnt (g : Fin 256) :
    val_main_v85 (F := Ideal) x2 (ix2 g (0 : Fin 1))
      = ∑ n : Fin 100000, if segHit (A1 x2) n g then (1 : EReal) else 0 := by
  unfold val_main_v85
  refine (r4_scat1 _ _ _ g).trans ?_
  rw [val_main_v83_apply, val_main_cst_17_apply]
  simp only [Ideal.ofBits_def, ofBits_zero, zero_add]
  refine Finset.sum_congr rfl fun n _ => ?_
  rw [val_main_v84_apply, r4_idx84, val_main_v82_apply, val_main_cst_16_apply]
  simp only [Ideal.ofBits_def, ofBits_one]
  exact r4_if x2 1 n g

/-- The segment means, over whatever the second layer is. -/
theorem r4 (H2 : Fin 100000 → Fin 16 → EReal)
    (h : (val_main_v78 (F := Ideal) x0 x1 x3 x4 x5 x6 x7 x8 x9 x10 : S100000x16.Idx → EReal) = fun q => H2 (q 0) (q 1)) :
    (val_main_v89 (F := Ideal) x0 x1 x2 x3 x4 x5 x6 x7 x8 x9 x10 : S256x16.Idx → EReal)
    = fun q => segMeanR (A1 x2) H2 (q 0) (q 1) := by
  funext q
  obtain ⟨g, f, rfl⟩ : ∃ (g : Fin 256) (f : Fin 16), q = ix2 g f := ⟨q 0, q 1, eq_ix2 q⟩
  have e : idx_main_v88 (ix2 g f) = ix2 g (0 : Fin 1) :=
    funext fun a => Fin.ext (by match a with | ⟨0, _⟩ => rfl | ⟨1, _⟩ => rfl)
  rw [val_main_v89_apply, val_main_v88_apply, val_main_v87_apply, val_main_v86_apply, val_main_cst_18_apply, e,
    r4_sum x0 x1 x2 x3 x4 x5 x6 x7 x8 x9 x10 H2 h g f, r4_cnt x2 g]
  simp only [Ideal.hostDivf_def, Ideal.maximumf_def, Ideal.ofBits_def, ofBits_one]
  rfl

end Cert.ReferenceIdeal.RV

end
-- ==== Proof.RVal5.lean ====
import proofs.«407675_j64304250356442_3_alg».proof.Proof.RRead
import proofs.«407675_j64304250356442_3_alg».proof.Proof.Spec
import proofs.«407675_j64304250356442_3_alg».proof.Proof.Consts

set_option maxRecDepth 16384

noncomputable section

namespace Cert.ReferenceIdeal.RV

open Idealize.ShloMosaic Idealize.ShloMosaic.TcCoe Idealize.ShloMosaic.ValueIdx Idealize.SL.Sem
open Cert.ReferenceIdeal Cert.ReferenceIdeal.Read Cert.Spec

variable (x0 : (⟨S100000x64, .f32⟩ : BufTy).Contents (Elt Ideal)) (x1 : (⟨S2x1600000, .i32⟩ : BufTy).Contents (Elt Ideal))
  (x2 : (⟨S100000, .i32⟩ : BufTy).Contents (Elt Ideal)) (x3 : (⟨S64x16, .f32⟩ : BufTy).Contents (Elt Ideal))
  (x4 : (⟨S16, .f32⟩ : BufTy).Contents (Elt Ideal)) (x5 : (⟨S64x16, .f32⟩ : BufTy).Contents (Elt Ideal))
  (x6 x7 : (⟨S16, .f32⟩ : BufTy).Contents (Elt Ideal)) (x8 : (⟨S16x16, .f32⟩ : BufTy).Contents (Elt Ideal))
  (x9 : (⟨S16, .f32⟩ : BufTy).Contents (Elt Ideal)) (x10 : (⟨S16x16, .f32⟩ : BufTy).Contents (Elt Ideal))

variable (x11 x12 : (⟨S16, .f32⟩ : BufTy).Contents (Elt Ideal)) (x13 : (⟨S16x16, .f32⟩ : BufTy).Contents (Elt Ideal))
  (x14 : (⟨S16, .f32⟩ : BufTy).Contents (Elt Ideal)) (x15 x16 : (⟨S32, .f32⟩ : BufTy).Contents (Elt Ideal))
  (x17 : (⟨S32x16, .f32⟩ : BufTy).Contents (Elt Ideal)) (x18 : (⟨S16, .f32⟩ : BufTy).Contents (Elt Ideal))
  (x19 x20 : (⟨S32, .f32⟩ : BufTy).Contents (Elt Ideal)) (x21 : (⟨S32x16, .f32⟩ : BufTy).Contents (Elt Ideal))
  (x22 : (⟨S16, .f32⟩ : BufTy).Contents (Elt Ideal)) (x23 : (⟨S16x1, .f32⟩ : BufTy).Contents (Elt Ideal))
  (x24 : (⟨S1, .f32⟩ : BufTy).Contents (Elt Ideal))

/-! # The reference's small dense network, read index by index -/

/-- A rank-1 array at an index is the array as a function of its coordinate. -/
theorem a1_16 (x : S16.Idx → EReal) (j : S16.Idx) : x j = A1 x (j 0) := by
  exact congrArg x (eq_ix1 j)
theorem a1_32 (x : S32.Idx → EReal) (j : S32.Idx) : x j = A1 x (j 0) := by
  exact congrArg x (eq_ix1 j)
theorem a1_1 (x : S1.Idx → EReal) (j : S1.Idx) : x j = A1 x (j 0) := by
  exact congrArg x (eq_ix1 j)
/-- A rank-2 array at an index is the array as a function of its two coordinates. -/
theorem a2_16x16 (x : S16x16.Idx → EReal) (j : S16x16.Idx) : x j = A2 x (j 0) (j 1) := by
  exact congrArg x (eq_ix2 j)
theorem a2_32x16 (x : S32x16.Idx → EReal) (j : S32x16.Idx) : x j = A2 x (j 0) (j 1) := by
  exact congrArg x (eq_ix2 j)
theorem a2_16x1 (x : S16x1.Idx → EReal) (j : S16x1.Idx) : x j = A2 x (j 0) (j 1) := by
  exact congrArg x (eq_ix2 j)

/-- Two 16-column arrays concatenated along the columns, at an index. -/
theorem cat_apply (a b : S256x16.Idx → EReal) (q : S256x32.Idx) :
    concatenate S256x32 1 [⟨S256x16, a⟩, ⟨S256x16, b⟩] Gen.concatenates_S256x16_S256x16_S256x32_d1 q
      = cat (A2 a) (A2 b) (q 0) (q 1) := by
  by_cases hq : (q 1).val < 16
  · refine (concatenate_pair_apply_left _ a b Gen.concatenates_S256x16_S256x16_S256x32_d1 q rfl
      (ix2 (q 0) ⟨(q 1).val, hq⟩) ?_).trans ?_
    · intro c; match c with | ⟨0, _⟩ => rfl | ⟨1, _⟩ => rfl
    · unfold cat; rw [dif_pos hq]; rfl
  · have hlt : (q 1).val < 32 := (q 1).isLt
    refine (concatenate_pair_apply_right _ a b Gen.concatenates_S256x16_S256x16_S256x32_d1 q rfl rfl
      (ix2 (q 0) ⟨(q 1).val - 16, by omega⟩) ?_ ?_).trans ?_
    · intro c hc; match c, hc with
      | ⟨0, _⟩, _ => rfl
      | ⟨1, _⟩, hc => exact absurd rfl hc
    · show (q 1).val - 16 + 16 = (q 1).val; omega
    · unfold cat; rw [dif_neg hq]; rfl

/-! ## The first layer -/

theorem m92 (XE : Fin 256 → Fin 16 → EReal)
    (h : (val_main_v89 (F := Ideal) x0 x1 x2 x3 x4 x5 x6 x7 x8 x9 x10 : S256x16.Idx → EReal) = fun q => XE (q 0) (q 1)) :
    (val_main_v92 (F := Ideal) x0 x1 x2 x3 x4 x5 x6 x7 x8 x9 x10 : S16.Idx → EReal) = fun i => mu XE (i 0) := by
  funext i
  rw [val_main_v92_apply, val_main_v90_apply, val_main_v91_apply, val_main_cst_20_apply, val_main_cst_19_apply, h]
  simp only [Ideal.hostDivf_def, Ideal.ofBits_def, ofBits_zero, zero_add]
  rfl

theorem v99 (XE : Fin 256 → Fin 16 → EReal)
    (h : (val_main_v89 (F := Ideal) x0 x1 x2 x3 x4 x5 x6 x7 x8 x9 x10 : S256x16.Idx → EReal) = fun q => XE (q 0) (q 1)) :
    (val_main_v99 (F := Ideal) x0 x1 x2 x3 x4 x5 x6 x7 x8 x9 x10 : S16.Idx → EReal) = fun i => va XE (i 0) := by
  funext i
  rw [val_main_v99_apply, val_main_v97_apply, val_main_v98_apply, val_main_cst_22_apply, val_main_cst_21_apply]
  simp only [val_main_v96_apply, val_main_v95_apply, val_main_v94_apply, val_main_v93_apply, m92 x0 x1 x2 x3 x4 x5 x6 x7 x8 x9 x10 XE h, h]
  simp only [Ideal.hostDivf_def, Ideal.ofBits_def, Ideal.mulf_def, Ideal.subf_def, ofBits_zero, zero_add]
  rfl

theorem n114 (XE : Fin 256 → Fin 16 → EReal)
    (h : (val_main_v89 (F := Ideal) x0 x1 x2 x3 x4 x5 x6 x7 x8 x9 x10 : S256x16.Idx → EReal) = fun q => XE (q 0) (q 1)) :
    (val_main_v114 (F := Ideal) x0 x1 x2 x3 x4 x5 x6 x7 x8 x9 x10 x11 x12 : S256x16.Idx → EReal) = fun q => bnS (A1 x11) (A1 x12) XE (q 0) (q 1) := by
  funext q
  rw [val_main_v114_apply, val_main_v111_apply, val_main_v105_apply, val_main_v104_apply, val_main_v103_apply,
    val_main_v102_apply, val_main_v101_apply, val_main_v100_apply, val_main_v110_apply, val_main_v109_apply,
    val_main_v108_apply, val_main_v107_apply, val_main_v106_apply, val_main_cst_23_apply, val_main_v113_apply,
    val_main_v112_apply, m92 x0 x1 x2 x3 x4 x5 x6 x7 x8 x9 x10 XE h, v99 x0 x1 x2 x3 x4 x5 x6 x7 x8 x9 x10 XE h, h, a1_16 x11, a1_16 x12]
  simp only [Ideal.addf_def, Ideal.mulf_def, Ideal.subf_def, Ideal.hostUnary_rsqrt_def, Ideal.ofBits_def]
  rfl

theorem l119 (XE : Fin 256 → Fin 16 → EReal)
    (h : (val_main_v89 (F := Ideal) x0 x1 x2 x3 x4 x5 x6 x7 x8 x9 x10 : S256x16.Idx → EReal) = fun q => XE (q 0) (q 1)) :
    (val_main_v119 (F := Ideal) x0 x1 x2 x3 x4 x5 x6 x7 x8 x9 x10 x11 x12 x13 x14 : S256x16.Idx → EReal)
      = fun q => lin (bnS (A1 x11) (A1 x12) XE) (A2 x13) (A1 x14) (q 0) (q 1) := by
  funext q
  rw [val_main_v119_apply, val_main_v118_apply, val_main_v115_apply, val_main_v117_apply, val_main_v116_apply,
    val_main_call2_v0_apply, val_main_call2_cst_apply, n114 x0 x1 x2 x3 x4 x5 x6 x7 x8 x9 x10 x11 x12 XE h, a1_16 x14]
  simp only [Ideal.maximumf_def, Ideal.addf_def, Ideal.ofBits_def, ofBits_zero, a2_16x16 x13]
  rfl

theorem c120 (XE : Fin 256 → Fin 16 → EReal)
    (h : (val_main_v89 (F := Ideal) x0 x1 x2 x3 x4 x5 x6 x7 x8 x9 x10 : S256x16.Idx → EReal) = fun q => XE (q 0) (q 1)) :
    (val_main_v120 (F := Ideal) x0 x1 x2 x3 x4 x5 x6 x7 x8 x9 x10 x11 x12 x13 x14 : S256x32.Idx → EReal)
      = fun q => cat (lin (bnS (A1 x11) (A1 x12) XE) (A2 x13) (A1 x14)) XE (q 0) (q 1) := by
  funext q
  unfold val_main_v120
  refine (cat_apply _ _ q).trans ?_
  rw [l119 x0 x1 x2 x3 x4 x5 x6 x7 x8 x9 x10 x11 x12 x13 x14 XE h, h]
  rfl

/-! ## The second layer -/

theorem m123 (Z : Fin 256 → Fin 32 → EReal)
    (hz : (val_main_v120 (F := Ideal) x0 x1 x2 x3 x4 x5 x6 x7 x8 x9 x10 x11 x12 x13 x14 : S256x32.Idx → EReal) = fun q => Z (q 0) (q 1)) :
    (val_main_v123 (F := Ideal) x0 x1 x2 x3 x4 x5 x6 x7 x8 x9 x10 x11 x12 x13 x14 : S32.Idx → EReal) = fun i => mu Z (i 0) := by
  funext i
  rw [val_main_v123_apply, val_main_v121_apply, val_main_v122_apply, val_main_cst_25_apply, val_main_cst_24_apply, hz]
  simp only [Ideal.hostDivf_def, Ideal.ofBits_def, ofBits_zero, zero_add]
  rfl

theorem v130 (Z : Fin 256 → Fin 32 → EReal)
    (hz : (val_main_v120 (F := Ideal) x0 x1 x2 x3 x4 x5 x6 x7 x8 x9 x10 x11 x12 x13 x14 : S256x32.Idx → EReal) = fun q => Z (q 0) (q 1)) :
    (val_main_v130 (F := Ideal) x0 x1 x2 x3 x4 x5 x6 x7 x8 x9 x10 x11 x12 x13 x14 : S32.Idx → EReal) = fun i => va Z (i 0) := by
  funext i
  rw [val_main_v130_apply, val_main_v128_apply, val_main_v129_apply, val_main_cst_27_apply, val_main_cst_26_apply]
  simp only [val_main_v127_apply, val_main_v126_apply, val_main_v125_apply, val_main_v124_apply, m123 x0 x1 x2 x3 x4 x5 x6 x7 x8 x9 x10 x11 x12 x13 x14 Z hz, hz]
  simp only [Ideal.hostDivf_def, Ideal.ofBits_def, Ideal.mulf_def, Ideal.subf_def, ofBits_zero, zero_add]
  rfl

theorem n145 (Z : Fin 256 → Fin 32 → EReal)
    (hz : (val_main_v120 (F := Ideal) x0 x1 x2 x3 x4 x5 x6 x7 x8 x9 x10 x11 x12 x13 x14 : S256x32.Idx → EReal) = fun q => Z (q 0) (q 1)) :
    (val_main_v145 (F := Ideal) x0 x1 x2 x3 x4 x5 x6 x7 x8 x9 x10 x11 x12 x13 x14 x15 x16 : S256x32.Idx → EReal) = fun q => bnS (A1 x15) (A1 x16) Z (q 0) (q 1) := by
  funext q
  rw [val_main_v145_apply, val_main_v142_apply, val_main_v136_apply, val_main_v135_apply, val_main_v134_apply,
    val_main_v133_apply, val_main_v132_apply, val_main_v131_apply, val_main_v141_apply, val_main_v140_apply,
    val_main_v139_apply, val_main_v138_apply, val_main_v137_apply, val_main_cst_28_apply, val_main_v144_apply,
    val_main_v143_apply, m123 x0 x1 x2 x3 x4 x5 x6 x7 x8 x9 x10 x11 x12 x13 x14 Z hz, v130 x0 x1 x2 x3 x4 x5 x6 x7 x8 x9 x10 x11 x12 x13 x14 Z hz, hz, a1_32 x15, a1_32 x16]
  simp only [Ideal.addf_def, Ideal.mulf_def, Ideal.subf_def, Ideal.hostUnary_rsqrt_def, Ideal.ofBits_def]
  rfl

theorem l150 (Z : Fin 256 → Fin 32 → EReal)
    (hz : (val_main_v120 (F := Ideal) x0 x1 x2 x3 x4 x5 x6 x7 x8 x9 x10 x11 x12 x13 x14 : S256x32.Idx → EReal) = fun q => Z (q 0) (q 1)) :
    (val_main_v150 (F := Ideal) x0 x1 x2 x3 x4 x5 x6 x7 x8 x9 x10 x11 x12 x13 x14 x15 x16 x17 x18 : S256x16.Idx → EReal)
      = fun q => lin (bnS (A1 x15) (A1 x16) Z) (A2 x17) (A1 x18) (q 0) (q 1) := by
  funext q
  rw [val_main_v150_apply, val_main_v149_apply, val_main_v146_apply, val_main_v148_apply, val_main_v147_apply,
    val_main_call3_v0_apply, val_main_call3_cst_apply, n145 x0 x1 x2 x3 x4 x5 x6 x7 x8 x9 x10 x11 x12 x13 x14 x15 x16 Z hz, a1_16 x18]
  simp only [Ideal.maximumf_def, Ideal.addf_def, Ideal.ofBits_def, ofBits_zero, a2_32x16 x17]
  rfl

theorem c151 (Z : Fin 256 → Fin 32 → EReal)
    (hz : (val_main_v120 (F := Ideal) x0 x1 x2 x3 x4 x5 x6 x7 x8 x9 x10 x11 x12 x13 x14 : S256x32.Idx → EReal) = fun q => Z (q 0) (q 1))
    (XE : Fin 256 → Fin 16 → EReal)
    (h : (val_main_v89 (F := Ideal) x0 x1 x2 x3 x4 x5 x6 x7 x8 x9 x10 : S256x16.Idx → EReal) = fun q => XE (q 0) (q 1)) :
    (val_main_v151 (F := Ideal) x0 x1 x2 x3 x4 x5 x6 x7 x8 x9 x10 x11 x12 x13 x14 x15 x16 x17 x18 : S256x32.Idx → EReal)
      = fun q => cat (lin (bnS (A1 x15) (A1 x16) Z) (A2 x17) (A1 x18)) XE (q 0) (q 1) := by
  funext q
  unfold val_main_v151
  refine (cat_apply _ _ q).trans ?_
  rw [l150 x0 x1 x2 x3 x4 x5 x6 x7 x8 x9 x10 x11 x12 x13 x14 x15 x16 x17 x18 Z hz, h]
  rfl

/-! ## The third layer -/

theorem m154 (Z : Fin 256 → Fin 32 → EReal)
    (hz : (val_main_v151 (F := Ideal) x0 x1 x2 x3 x4 x5 x6 x7 x8 x9 x10 x11 x12 x13 x14 x15 x16 x17 x18 : S256x32.Idx → EReal) = fun q => Z (q 0) (q 1)) :
    (val_main_v154 (F := Ideal) x0 x1 x2 x3 x4 x5 x6 x7 x8 x9 x10 x11 x12 x13 x14 x15 x16 x17 x18 : S32.Idx → EReal) = fun i => mu Z (i 0) := by
  funext i
  rw [val_main_v154_apply, val_main_v152_apply, val_main_v153_apply, val_main_cst_30_apply, val_main_cst_29_apply, hz]
  simp only [Ideal.hostDivf_def, Ideal.ofBits_def, ofBits_zero, zero_add]
  rfl

theorem v161 (Z : Fin 256 → Fin 32 → EReal)
    (hz : (val_main_v151 (F := Ideal) x0 x1 x2 x3 x4 x5 x6 x7 x8 x9 x10 x11 x12 x13 x14 x15 x16 x17 x18 : S256x32.Idx → EReal) = fun q => Z (q 0) (q 1)) :
    (val_main_v161 (F := Ideal) x0 x1 x2 x3 x4 x5 x6 x7 x8 x9 x10 x11 x12 x13 x14 x15 x16 x17 x18 : S32.Idx → EReal) = fun i => va Z (i 0) := by
  funext i
  rw [val_main_v161_apply, val_main_v159_apply, val_main_v160_apply, val_main_cst_32_apply, val_main_cst_31_apply]
  simp only [val_main_v158_apply, val_main_v157_apply, val_main_v156_apply, val_main_v155_apply, m154 x0 x1 x2 x3 x4 x5 x6 x7 x8 x9 x10 x11 x12 x13 x14 x15 x16 x17 x18 Z hz, hz]
  simp only [Ideal.hostDivf_def, Ideal.ofBits_def, Ideal.mulf_def, Ideal.subf_def, ofBits_zero, zero_add]
  rfl

theorem n176 (Z : Fin 256 → Fin 32 → EReal)
    (hz : (val_main_v151 (F := Ideal) x0 x1 x2 x3 x4 x5 x6 x7 x8 x9 x10 x11 x12 x13 x14 x15 x16 x17 x18 : S256x32.Idx → EReal) = fun q => Z (q 0) (q 1)) :
    (val_main_v176 (F := Ideal) x0 x1 x2 x3 x4 x5 x6 x7 x8 x9 x10 x11 x12 x13 x14 x15 x16 x17 x18 x19 x20 : S256x32.Idx → EReal) = fun q => bnS (A1 x19) (A1 x20) Z (q 0) (q 1) := by
  funext q
  rw [val_main_v176_apply, val_main_v173_apply, val_main_v167_apply, val_main_v166_apply, val_main_v165_apply,
    val_main_v164_apply, val_main_v163_apply, val_main_v162_apply, val_main_v172_apply, val_main_v171_apply,
    val_main_v170_apply, val_main_v169_apply, val_main_v168_apply, val_main_cst_33_apply, val_main_v175_apply,
    val_main_v174_apply, m154 x0 x1 x2 x3 x4 x5 x6 x7 x8 x9 x10 x11 x12 x13 x14 x15 x16 x17 x18 Z hz, v161 x0 x1 x2 x3 x4 x5 x6 x7 x8 x9 x10 x11 x12 x13 x14 x15 x16 x17 x18 Z hz, hz, a1_32 x19, a1_32 x20]
  simp only [Ideal.addf_def, Ideal.mulf_def, Ideal.subf_def, Ideal.hostUnary_rsqrt_def, Ideal.ofBits_def]
  rfl

theorem l181 (Z : Fin 256 → Fin 32 → EReal)
    (hz : (val_main_v151 (F := Ideal) x0 x1 x2 x3 x4 x5 x6 x7 x8 x9 x10 x11 x12 x13 x14 x15 x16 x17 x18 : S256x32.Idx → EReal) = fun q => Z (q 0) (q 1)) :
    (val_main_v181 (F := Ideal) x0 x1 x2 x3 x4 x5 x6 x7 x8 x9 x10 x11 x12 x13 x14 x15 x16 x17 x18 x19 x20 x21 x22 : S256x16.Idx → EReal)
      = fun q => lin (bnS (A1 x19) (A1 x20) Z) (A2 x21) (A1 x22) (q 0) (q 1) := by
  funext q
  rw [val_main_v181_apply, val_main_v180_apply, val_main_v177_apply, val_main_v179_apply, val_main_v178_apply,
    val_main_call4_v0_apply, val_main_call4_cst_apply, n176 x0 x1 x2 x3 x4 x5 x6 x7 x8 x9 x10 x11 x12 x13 x14 x15 x16 x17 x18 x19 x20 Z hz, a1_16 x22]
  simp only [Ideal.maximumf_def, Ideal.addf_def, Ideal.ofBits_def, ofBits_zero, a2_32x16 x21]
  rfl

/-! ## The last map to one column -/

theorem f185 (Y : Fin 256 → Fin 16 → EReal)
    (hy : (val_main_v181 (F := Ideal) x0 x1 x2 x3 x4 x5 x6 x7 x8 x9 x10 x11 x12 x13 x14 x15 x16 x17 x18 x19 x20 x21 x22 : S256x16.Idx → EReal) = fun q => Y (q 0) (q 1)) :
    (val_main_v185 (F := Ideal) x0 x1 x2 x3 x4 x5 x6 x7 x8 x9 x10 x11 x12 x13 x14 x15 x16 x17 x18 x19 x20 x21 x22 x23 x24 : S256x1.Idx → EReal)
      = fun q => mm Y (A2 x23) (q 0) (q 1) + A1 x24 (q 1) := by
  funext q
  have hq1 : (q 1).val < 1 := idx2_lt1 q
  rw [val_main_v185_apply, val_main_v182_apply, val_main_v184_apply, val_main_v183_apply, hy, a1_1 x24]
  simp only [Ideal.addf_def, a2_16x1 x23]
  exact congrArg₂ (· + ·) rfl (congrArg (A1 x24) (Fin.ext (show 0 = (q 1).val by omega)))

/-! ## The whole network -/

/-- The result, over whatever the segment means are. -/
theorem r5 (XE : Fin 256 → Fin 16 → EReal)
    (h : (val_main_v89 (F := Ideal) x0 x1 x2 x3 x4 x5 x6 x7 x8 x9 x10 : S256x16.Idx → EReal) = fun q => XE (q 0) (q 1)) :
    (val_main_v185 (F := Ideal) x0 x1 x2 x3 x4 x5 x6 x7 x8 x9 x10 x11 x12 x13 x14 x15 x16 x17 x18 x19 x20 x21 x22 x23 x24
      : S256x1.Idx → EReal)
    = fun q => mlp (A1 x11) (A1 x12) (A2 x13) (A1 x14) (A1 x15) (A1 x16) (A2 x17) (A1 x18) (A1 x19) (A1 x20) (A2 x21)
        (A1 x22) (A2 x23) (A1 x24) XE (q 0) (q 1) := by
  have e1 := c120 x0 x1 x2 x3 x4 x5 x6 x7 x8 x9 x10 x11 x12 x13 x14 XE h
  have e2 := c151 x0 x1 x2 x3 x4 x5 x6 x7 x8 x9 x10 x11 x12 x13 x14 x15 x16 x17 x18 (cat (lin (bnS (A1 x11) (A1 x12) XE) (A2 x13) (A1 x14)) XE) e1 XE h
  have e3 := l181 x0 x1 x2 x3 x4 x5 x6 x7 x8 x9 x10 x11 x12 x13 x14 x15 x16 x17 x18 x19 x20 x21 x22 (cat (lin (bnS (A1 x15) (A1 x16) (cat (lin (bnS (A1 x11) (A1 x12) XE) (A2 x13) (A1 x14)) XE)) (A2 x17) (A1 x18)) XE) e2
  rw [f185 x0 x1 x2 x3 x4 x5 x6 x7 x8 x9 x10 x11 x12 x13 x14 x15 x16 x17 x18 x19 x20 x21 x22 x23 x24 _ e3]
  rfl

end Cert.ReferenceIdeal.RV

end
-- ==== Proof.RValue.lean ====
import proofs.«407675_j64304250356442_3_alg».proof.Proof.RVal1
import proofs.«407675_j64304250356442_3_alg».proof.Proof.RVal2
import proofs.«407675_j64304250356442_3_alg».proof.Proof.RVal3
import proofs.«407675_j64304250356442_3_alg».proof.Proof.RVal4
import proofs.«407675_j64304250356442_3_alg».proof.Proof.RVal5

set_option maxRecDepth 16384

noncomputable section

namespace Cert.ReferenceIdeal.RV

open Idealize.ShloMosaic Idealize.ShloMosaic.TcCoe Idealize.ShloMosaic.ValueIdx Idealize.SL.Sem
open Cert.ReferenceIdeal Cert.ReferenceIdeal.Read Cert.Spec

/-! # The reference's last stage is the small network on the reference side's segment means -/

variable (x0 : (⟨S100000x64, .f32⟩ : BufTy).Contents (Elt Ideal))
  (x1 : (⟨S2x1600000, .i32⟩ : BufTy).Contents (Elt Ideal))
  (x2 : (⟨S100000, .i32⟩ : BufTy).Contents (Elt Ideal))
  (x3 : (⟨S64x16, .f32⟩ : BufTy).Contents (Elt Ideal))
  (x4 : (⟨S16, .f32⟩ : BufTy).Contents (Elt Ideal))
  (x5 : (⟨S64x16, .f32⟩ : BufTy).Contents (Elt Ideal))
  (x6 : (⟨S16, .f32⟩ : BufTy).Contents (Elt Ideal))
  (x7 : (⟨S16, .f32⟩ : BufTy).Contents (Elt Ideal))
  (x8 : (⟨S16x16, .f32⟩ : BufTy).Contents (Elt Ideal))
  (x9 : (⟨S16, .f32⟩ : BufTy).Contents (Elt Ideal))
  (x10 : (⟨S16x16, .f32⟩ : BufTy).Contents (Elt Ideal))
  (x11 : (⟨S16, .f32⟩ : BufTy).Contents (Elt Ideal))
  (x12 : (⟨S16, .f32⟩ : BufTy).Contents (Elt Ideal))
  (x13 : (⟨S16x16, .f32⟩ : BufTy).Contents (Elt Ideal))
  (x14 : (⟨S16, .f32⟩ : BufTy).Contents (Elt Ideal))
  (x15 : (⟨S32, .f32⟩ : BufTy).Contents (Elt Ideal))
  (x16 : (⟨S32, .f32⟩ : BufTy).Contents (Elt Ideal))
  (x17 : (⟨S32x16, .f32⟩ : BufTy).Contents (Elt Ideal))
  (x18 : (⟨S16, .f32⟩ : BufTy).Contents (Elt Ideal))
  (x19 : (⟨S32, .f32⟩ : BufTy).Contents (Elt Ideal))
  (x20 : (⟨S32, .f32⟩ : BufTy).Contents (Elt Ideal))
  (x21 : (⟨S32x16, .f32⟩ : BufTy).Contents (Elt Ideal))
  (x22 : (⟨S16, .f32⟩ : BufTy).Contents (Elt Ideal))
  (x23 : (⟨S16x1, .f32⟩ : BufTy).Contents (Elt Ideal))
  (x24 : (⟨S1, .f32⟩ : BufTy).Contents (Elt Ideal))

/-- The five readings in a row: first layer, normalisation, second layer, segment means, the small network. -/
theorem rvalue :
    (val_main_v185 (F := Ideal) x0 x1 x2 x3 x4 x5 x6 x7 x8 x9 x10 x11 x12 x13 x14 x15 x16 x17 x18 x19 x20 x21 x22 x23 x24 : S256x1.Idx → EReal)
    = fun q => mlp (A1 x11) (A1 x12) (A2 x13) (A1 x14) (A1 x15) (A1 x16) (A2 x17) (A1 x18) (A1 x19) (A1 x20) (A2 x21)
        (A1 x22) (A2 x23) (A1 x24)
        (xencR (A2 x0) (A2 x1) (A1 x2) (A2 x3) (A2 x5) (A1 x4) (A1 x6) (A1 x7) (A2 x8) (A2 x10) (A1 x9)) (q 0) (q 1) :=
  r5 x0 x1 x2 x3 x4 x5 x6 x7 x8 x9 x10 x11 x12 x13 x14 x15 x16 x17 x18 x19 x20 x21 x22 x23 x24 (xencR (A2 x0) (A2 x1) (A1 x2) (A2 x3) (A2 x5) (A1 x4) (A1 x6) (A1 x7) (A2 x8) (A2 x10) (A1 x9))
    (r4 x0 x1 x2 x3 x4 x5 x6 x7 x8 x9 x10 (h2R (A2 x0) (A2 x1) (A2 x3) (A2 x5) (A1 x4) (A1 x6) (A1 x7) (A2 x8) (A2 x10) (A1 x9))
      (r3 x0 x1 x3 x4 x5 x6 x7 x8 x9 x10 (h1bnR (A2 x0) (A2 x1) (A2 x3) (A2 x5) (A1 x4) (A1 x6) (A1 x7))
        (r2 x0 x1 x3 x4 x5 x6 x7 (h1R (A2 x0) (A2 x1) (A2 x3) (A2 x5) (A1 x4))
          (r1 x0 x1 x3 x4 x5))))

end Cert.ReferenceIdeal.RV

end
-- ==== Proof.SpecEq.lean ====
/-
  The kernel's segment means are the reference's, when the float inputs are real numbers.

  Three facts of real arithmetic carry it: a linear map commutes with the neighbourhood average; the
  mean of the squared deviations is the mean of the squares less the squared mean, and is not
  negative; a sum over all nodes is the sum over the tiles of the sums within each tile.
-/
import proofs.«407675_j64304250356442_3_alg».proof.Proof.Spec
import proofs.«407675_j64304250356442_3_alg».proof.Proof.Consts
import Mathlib.Data.EReal.Operations
import Mathlib.Data.EReal.Inv
import Mathlib.Algebra.BigOperators.Fin
import Mathlib.Algebra.BigOperators.Field
import Mathlib.Algebra.Order.BigOperators.Ring.Finset
import Mathlib.Analysis.SpecialFunctions.Pow.Real
import Mathlib.Tactic.Ring
import Mathlib.Tactic.FieldSimp
import Mathlib.Tactic.Linarith

noncomputable section

namespace Cert.Spec

open Idealize.ShloMosaic

/-! ## Real numbers inside the extended reals -/

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of a maximum of reals is the maximum of the coercions. -/
theorem coe_max (a b : ℝ) : ((max a b : ℝ) : EReal) = max (a : EReal) (b : EReal) :=
  EReal.coe_strictMono.monotone.map_max

/-- A quotient of reals, the divisor not zero. -/
theorem div_coe_coe (a b : ℝ) (hb : b ≠ 0) : Ideal.div (a : EReal) (b : EReal) = ((a / b : ℝ) : EReal) := by
  rw [Ideal.div_coe hb, ← EReal.coe_mul, mul_one_div]

theorem isFin_coe (r : ℝ) : IsFin (r : EReal) := ⟨r, rfl⟩
theorem isFin_zero : IsFin 0 := ⟨0, rfl⟩
theorem isFin_one : IsFin 1 := ⟨1, rfl⟩

theorem IsFin.add {a b : EReal} (ha : IsFin a) (hb : IsFin b) : IsFin (a + b) := by
  obtain ⟨r, rfl⟩ := ha; obtain ⟨s, rfl⟩ := hb; exact ⟨r + s, (EReal.coe_add r s).symm⟩
theorem IsFin.sub {a b : EReal} (ha : IsFin a) (hb : IsFin b) : IsFin (a - b) := by
  obtain ⟨r, rfl⟩ := ha; obtain ⟨s, rfl⟩ := hb; exact ⟨r - s, (EReal.coe_sub r s).symm⟩
theorem IsFin.mul {a b : EReal} (ha : IsFin a) (hb : IsFin b) : IsFin (a * b) := by
  obtain ⟨r, rfl⟩ := ha; obtain ⟨s, rfl⟩ := hb; exact ⟨r * s, (EReal.coe_mul r s).symm⟩
theorem IsFin.max {a b : EReal} (ha : IsFin a) (hb : IsFin b) : IsFin (max a b) := by
  obtain ⟨r, rfl⟩ := ha; obtain ⟨s, rfl⟩ := hb; exact ⟨Max.max r s, (coe_max r s).symm⟩

theorem isFin_sum {ι : Type} (s : Finset ι) (f : ι → EReal) (hf : ∀ i, IsFin (f i)) :
    IsFin (∑ i ∈ s, f i) := by
  choose f' hf' using hf
  have : f = fun i => ((f' i : ℝ) : EReal) := funext hf'
  subst this
  exact ⟨∑ i ∈ s, f' i, (coe_sum s f').symm⟩

/-- A positive real. -/
def IsPos (v : EReal) : Prop := ∃ r : ℝ, 0 < r ∧ v = (r : EReal)

theorem IsFin.div {a b : EReal} (ha : IsFin a) (hb : IsPos b) : IsFin (Ideal.div a b) := by
  obtain ⟨r, rfl⟩ := ha; obtain ⟨s, hs, rfl⟩ := hb
  exact ⟨r / s, div_coe_coe r s hs.ne'⟩

theorem isFin_rsqrt {b : EReal} (hb : IsPos b) : IsFin (Ideal.rsqrt b) := by
  obtain ⟨s, hs, rfl⟩ := hb
  rw [Ideal.rsqrt_coe, if_neg (not_lt.mpr hs.le), if_neg hs.ne']
  exact isFin_coe _

/-- A family of reals read off a family of extended reals that are real. -/
theorem exists_real2 {α β : Type} (h : α → β → EReal) (hh : ∀ i j, IsFin (h i j)) :
    ∃ h' : α → β → ℝ, h = fun i j => ((h' i j : ℝ) : EReal) := by
  choose h' hh' using hh
  exact ⟨h', funext fun i => funext fun j => hh' i j⟩

/-! ## Tiles -/

/-- A tile and a place in it, against the node. -/
def nodeEquiv : Fin 20 × Fin 5000 ≃ Fin 100000 where
  toFun p := node p.1 p.2
  invFun i := (⟨i.val / 5000, by omega⟩, ⟨i.val % 5000, Nat.mod_lt _ (by norm_num)⟩)
  left_inv := by
    rintro ⟨t, r⟩
    apply Prod.ext <;> apply Fin.ext <;> simp only [node] <;> omega
  right_inv := by
    intro i
    apply Fin.ext; simp only [node]; omega

/-- A sum over the nodes is the sum over the tiles of the sums within each tile. -/
theorem sum_tiles {M : Type} [AddCommMonoid M] (f : Fin 100000 → M) :
    ∑ t : Fin 20, ∑ r : Fin 5000, f (node t r) = ∑ i : Fin 100000, f i := by
  rw [← nodeEquiv.sum_comp f, Fintype.sum_prod_type]
  rfl

/-! ## The neighbourhood average over the reals -/

section Edges

variable (ei : Fin 2 → Fin 1600000 → BitVec 32)

/-- The clamped in-degree, a real. -/
def cntR (i : Fin 100000) : ℝ := max (∑ e : Fin 1600000, if hit ei e i then (1 : ℝ) else 0) 1

/-- The neighbourhood average of a real array. -/
def aggR {k : Nat} (y : Fin 100000 → Fin k → ℝ) (i : Fin 100000) (j : Fin k) : ℝ :=
  (∑ e : Fin 1600000, if hit ei e i then y (srow ei e) j else 0) / cntR ei i

/-- A product of real matrices. -/
def mmR {a k b : Nat} (l : Fin a → Fin k → ℝ) (r : Fin k → Fin b → ℝ) (i : Fin a) (j : Fin b) : ℝ :=
  ∑ q : Fin k, l i q * r q j

theorem cntR_pos (i : Fin 100000) : 0 < cntR ei i := lt_of_lt_of_le one_pos (le_max_right _ _)

theorem cnt_coe (i : Fin 100000) : cnt ei i = ((cntR ei i : ℝ) : EReal) := by
  unfold cnt cntR
  have e : ∑ e : Fin 1600000, (if hit ei e i then (1 : EReal) else 0)
      = ∑ e : Fin 1600000, (((if hit ei e i then (1 : ℝ) else 0 : ℝ)) : EReal) :=
    Finset.sum_congr rfl fun e _ => by split_ifs <;> simp
  rw [coe_max, coe_sum, EReal.coe_one, e]

theorem cnt_pos (i : Fin 100000) : IsPos (cnt ei i) := ⟨cntR ei i, cntR_pos ei i, cnt_coe ei i⟩

theorem aggsum_coe {k : Nat} (y : Fin 100000 → Fin k → ℝ) (i : Fin 100000) (j : Fin k) :
    aggsum ei (fun i j => ((y i j : ℝ) : EReal)) i j
      = ((∑ e : Fin 1600000, if hit ei e i then y (srow ei e) j else 0 : ℝ) : EReal) := by
  unfold aggsum
  rw [coe_sum]
  refine Finset.sum_congr rfl fun e _ => ?_
  split_ifs <;> simp

theorem agg_coe {k : Nat} (y : Fin 100000 → Fin k → ℝ) :
    agg ei (fun i j => ((y i j : ℝ) : EReal)) = fun i j => ((aggR ei y i j : ℝ) : EReal) := by
  funext i j
  unfold agg aggR
  rw [aggsum_coe, cnt_coe, div_coe_coe _ _ (cntR_pos ei i).ne']

theorem mm_coe {a k b : Nat} (l : Fin a → Fin k → ℝ) (r : Fin k → Fin b → ℝ) :
    mm (fun i q => ((l i q : ℝ) : EReal)) (fun q j => ((r q j : ℝ) : EReal))
      = fun i j => ((mmR l r i j : ℝ) : EReal) := by
  funext i j
  unfold mm mmR
  rw [coe_sum]
  refine Finset.sum_congr rfl fun q _ => ?_
  rw [EReal.coe_mul]

/-- Over the reals a linear map commutes with the neighbourhood average. -/
theorem lin_real {k : Nat} (h : Fin 100000 → Fin k → ℝ) (w : Fin k → Fin 16 → ℝ) (i : Fin 100000) (j : Fin 16) :
    mmR (aggR ei h) w i j = aggR ei (mmR h w) i j := by
  simp only [mmR, aggR]
  simp only [div_mul_eq_mul_div]
  rw [← Finset.sum_div, div_left_inj' (cntR_pos ei i).ne']
  simp only [Finset.sum_mul, ite_mul, zero_mul]
  rw [Finset.sum_comm]
  refine Finset.sum_congr rfl fun e _ => ?_
  split_ifs
  · rfl
  · exact Finset.sum_const_zero

/-- A linear map commutes with the neighbourhood average of a real array. -/
theorem agg_mm {k : Nat} (h : Fin 100000 → Fin k → EReal) (w : Fin k → Fin 16 → EReal)
    (hh : ∀ i q, IsFin (h i q)) (hw : ∀ q j, IsFin (w q j)) : agg ei (mm h w) = mm (agg ei h) w := by
  obtain ⟨h', rfl⟩ := exists_real2 h hh
  obtain ⟨w', rfl⟩ := exists_real2 w hw
  rw [mm_coe, agg_coe, agg_coe, mm_coe]
  funext i j
  rw [lin_real]

/-- The kernel's layer is the reference's. -/
theorem hrelu_eq_layerR {k : Nat} (h : Fin 100000 → Fin k → EReal) (wl wr : Fin k → Fin 16 → EReal)
    (bl : Fin 16 → EReal) (hh : ∀ i q, IsFin (h i q)) (hwl : ∀ q j, IsFin (wl q j)) :
    hrelu ei (mm h wl) (fun i j => mm h wr i j + bl j) = layerR ei h wl bl wr := by
  funext i j
  unfold hrelu layerR
  rw [agg_mm ei h wl hh hwl]
  congr 1
  rw [add_assoc, add_comm (bl j)]

theorem isFin_mm {a k b : Nat} (l : Fin a → Fin k → EReal) (r : Fin k → Fin b → EReal)
    (hl : ∀ i q, IsFin (l i q)) (hr : ∀ q j, IsFin (r q j)) (i : Fin a) (j : Fin b) : IsFin (mm l r i j) :=
  isFin_sum _ _ fun q => (hl i q).mul (hr q j)

theorem isFin_agg {k : Nat} (y : Fin 100000 → Fin k → EReal) (hy : ∀ i j, IsFin (y i j))
    (i : Fin 100000) (j : Fin k) : IsFin (agg ei y i j) := by
  unfold agg aggsum
  refine IsFin.div (isFin_sum _ _ fun e => ?_) (cnt_pos ei i)
  split_ifs
  · exact hy _ _
  · exact isFin_zero

theorem isFin_hrelu {k : Nat} (y xr : Fin 100000 → Fin k → EReal) (hy : ∀ i j, IsFin (y i j))
    (hxr : ∀ i j, IsFin (xr i j)) (i : Fin 100000) (j : Fin k) : IsFin (hrelu ei y xr i j) :=
  ((isFin_agg ei y hy i j).add (hxr i j)).max isFin_zero

end Edges

/-! ## The statistics -/

/-- The column means from the tiles' sums are the column means. -/
theorem mean_eq {k : Nat} (h : Fin 100000 → Fin k → EReal) : meanOf (tileSum h) = colMean h cN := by
  funext j
  unfold meanOf colMean tileSum
  rw [sum_tiles (fun i => h i j)]

/-- Over the reals, the mean of the squared deviations is the mean of the squares less the squared mean. -/
theorem var_real {ι : Type} [Fintype ι] (N : ℝ) (hN : (Fintype.card ι : ℝ) = N) (hN0 : N ≠ 0) (f : ι → ℝ) :
    (∑ i, (f i - (∑ i, f i) / N) * (f i - (∑ i, f i) / N)) / N
      = (∑ i, f i * f i) / N - ((∑ i, f i) / N) * ((∑ i, f i) / N) := by
  have e : ∀ μ : ℝ, ∑ i, (f i - μ) * (f i - μ) = (∑ i, f i * f i) - 2 * μ * (∑ i, f i) + N * (μ * μ) := by
    intro μ
    have : ∀ i, (f i - μ) * (f i - μ) = f i * f i - 2 * μ * f i + μ * μ := fun i => by ring
    simp only [this]
    rw [Finset.sum_add_distrib, Finset.sum_sub_distrib, ← Finset.mul_sum, Finset.sum_const,
      Finset.card_univ, nsmul_eq_mul, hN]
  rw [e]
  field_simp
  ring

theorem card_nodes : (Fintype.card (Fin 100000) : ℝ) = 100000 := by
  rw [Fintype.card_fin]; norm_num

/-- The one-pass variances from the tiles' sums are the two-pass variances, for a real array. -/
theorem var_eq {k : Nat} (h : Fin 100000 → Fin k → EReal) (hh : ∀ i j, IsFin (h i j)) :
    varOf (tileSum h) (tileSq h) = colVar h cN := by
  obtain ⟨h', rfl⟩ := exists_real2 h hh
  funext j
  unfold varOf colVar
  rw [mean_eq]
  have hm : colMean (fun i j => ((h' i j : ℝ) : EReal)) cN j = (((∑ i, h' i j) / 100000 : ℝ) : EReal) := by
    unfold colMean
    rw [← coe_sum, div_coe_coe _ _ (by norm_num)]
  have hq : Ideal.div (∑ t : Fin 20, tileSq (fun i j => ((h' i j : ℝ) : EReal)) t j) cN
      = (((∑ i, h' i j * h' i j) / 100000 : ℝ) : EReal) := by
    unfold tileSq
    have e1 : ∑ t : Fin 20, ∑ r : Fin 5000, ((h' (node t r) j : ℝ) : EReal) * ((h' (node t r) j : ℝ) : EReal)
        = ∑ i : Fin 100000, ((h' i j : ℝ) : EReal) * ((h' i j : ℝ) : EReal) :=
      sum_tiles (fun i => ((h' i j : ℝ) : EReal) * ((h' i j : ℝ) : EReal))
    rw [e1]
    simp only [← EReal.coe_mul]
    rw [← coe_sum, div_coe_coe _ _ (by norm_num)]
  rw [hm, hq]
  simp only [← EReal.coe_mul, ← EReal.coe_sub]
  rw [← coe_sum, div_coe_coe _ _ (by norm_num), ← EReal.coe_zero, ← coe_max]
  congr 1
  rw [var_real 100000 card_nodes (by norm_num)]
  apply max_eq_left
  rw [← var_real 100000 card_nodes (by norm_num)]
  exact div_nonneg (Finset.sum_nonneg fun i _ => mul_self_nonneg _) (by norm_num)

/-- A clamped real is a real that is not negative. -/
theorem max_zero_nonneg {a : EReal} (ha : IsFin a) : ∃ r : ℝ, 0 ≤ r ∧ max a 0 = (r : EReal) := by
  obtain ⟨r, rfl⟩ := ha
  exact ⟨max r 0, le_max_right _ _, by rw [coe_max, EReal.coe_zero]⟩

/-- The normalisation of a real array by real statistics, the variance not negative, is real. -/
theorem isFin_bn {n k : Nat} (g b : Fin k → EReal) (h : Fin n → Fin k → EReal) (mean var : Fin k → EReal)
    (hg : ∀ j, IsFin (g j)) (hb : ∀ j, IsFin (b j)) (hh : ∀ i j, IsFin (h i j))
    (hmean : ∀ j, IsFin (mean j)) (hvar : ∀ j, ∃ r : ℝ, 0 ≤ r ∧ var j = (r : EReal))
    (i : Fin n) (j : Fin k) : IsFin (bn g b h mean var i j) := by
  unfold bn
  refine (((hg j).mul ((hh i j).sub (hmean j))).mul (isFin_rsqrt ?_)).add (hb j)
  obtain ⟨r, hr, hv⟩ := hvar j
  obtain ⟨e, he, hE⟩ := ofBits_eps_pos
  refine ⟨r + e, by linarith, ?_⟩
  rw [hv, EReal.coe_add]
  congr 1

/-! ## The segments -/

/-- The segment means from the tiles' sums are the segment means, for any array. -/
theorem seg_eq {k : Nat} (bt : Fin 100000 → BitVec 32) (h : Fin 100000 → Fin k → EReal) :
    segMean (segPart bt h) (segCnt bt) = segMeanR bt h := by
  funext g f
  unfold segMean segMeanR segPart segCnt
  have e1 : ∑ t : Fin 20, ∑ r : Fin 5000, (if segHit bt (node t r) g then (1 : EReal) else 0) * h (node t r) f
      = ∑ n : Fin 100000, (if segHit bt n g then (1 : EReal) else 0) * h n f :=
    sum_tiles (fun n => (if segHit bt n g then (1 : EReal) else 0) * h n f)
  have e2 : ∑ t : Fin 20, ∑ r : Fin 5000, (if segHit bt (node t r) g then (1 : EReal) else 0)
      = ∑ n : Fin 100000, (if segHit bt n g then (1 : EReal) else 0) :=
    sum_tiles (fun n => (if segHit bt n g then (1 : EReal) else 0))
  have e3 : ∑ n : Fin 100000, (if segHit bt n g then (1 : EReal) else 0) * h n f
      = ∑ n : Fin 100000, if segHit bt n g then h n f else 0 :=
    Finset.sum_congr rfl fun n _ => by
      split_ifs
      · rw [one_mul]
      · rw [zero_mul]
  rw [e1, e2, e3]

/-! ## The two sides -/

variable (x : Fin 100000 → Fin 64 → EReal) (ei : Fin 2 → Fin 1600000 → BitVec 32) (bt : Fin 100000 → BitVec 32)
  (w1l w1r : Fin 64 → Fin 16 → EReal) (b1l g1 be1 : Fin 16 → EReal)
  (w2l w2r : Fin 16 → Fin 16 → EReal) (b2l : Fin 16 → EReal)

/-- The two sides' segment means agree. -/
theorem xenc_eq (hx : ∀ i k, IsFin (x i k)) (hw1l : ∀ k j, IsFin (w1l k j)) (hw1r : ∀ k j, IsFin (w1r k j))
    (hb1l : ∀ j, IsFin (b1l j)) (hg1 : ∀ j, IsFin (g1 j)) (hbe1 : ∀ j, IsFin (be1 j))
    (hw2l : ∀ k j, IsFin (w2l k j)) :
    xencK x ei bt w1l w1r b1l g1 be1 w2l w2r b2l = xencR x ei bt w1l w1r b1l g1 be1 w2l w2r b2l := by
  -- layer 1
  have h1 : h1K x ei w1l w1r b1l = h1R x ei w1l w1r b1l :=
    hrelu_eq_layerR ei x w1l w1r b1l hx hw1l
  have h1fin : ∀ i j, IsFin (h1K x ei w1l w1r b1l i j) :=
    isFin_hrelu ei _ _ (isFin_mm x w1l hx hw1l)
      (fun i j => (isFin_mm x w1r hx hw1r i j).add (hb1l j))
  -- the statistics
  have hmean : meanK x ei w1l w1r b1l = meanR x ei w1l w1r b1l := by
    unfold meanK meanR psumK
    rw [mean_eq, h1]
  have hvar : varK x ei w1l w1r b1l = varR x ei w1l w1r b1l := by
    unfold varK varR psumK psqK
    rw [var_eq _ h1fin, h1]
  have hbn : h1bnK x ei w1l w1r b1l g1 be1 = h1bnR x ei w1l w1r b1l g1 be1 := by
    unfold h1bnK h1bnR
    rw [hmean, hvar, h1]
  have hbnfin : ∀ i j, IsFin (h1bnK x ei w1l w1r b1l g1 be1 i j) := by
    refine isFin_bn g1 be1 _ _ _ hg1 hbe1 h1fin ?_ ?_
    · intro j
      unfold meanK meanOf psumK tileSum
      exact IsFin.div (isFin_sum _ _ fun t => isFin_sum _ _ fun r => h1fin _ _) ⟨100000, by norm_num, rfl⟩
    · intro j
      unfold varK varOf
      refine max_zero_nonneg (IsFin.sub ?_ ?_)
      · unfold psqK tileSq
        exact IsFin.div (isFin_sum _ _ fun t => isFin_sum _ _ fun r => (h1fin _ _).mul (h1fin _ _))
          ⟨100000, by norm_num, rfl⟩
      · have hm : IsFin (meanOf (psumK x ei w1l w1r b1l) j) := by
          unfold meanOf psumK tileSum
          exact IsFin.div (isFin_sum _ _ fun t => isFin_sum _ _ fun r => h1fin _ _) ⟨100000, by norm_num, rfl⟩
        exact hm.mul hm
  -- layer 2
  have h2 : h2K x ei w1l w1r b1l g1 be1 w2l w2r b2l = h2R x ei w1l w1r b1l g1 be1 w2l w2r b2l := by
    unfold h2R
    rw [← hbn]
    exact hrelu_eq_layerR ei (h1bnK x ei w1l w1r b1l g1 be1) w2l w2r b2l hbnfin hw2l
  -- the segments
  unfold xencK xencR sumPartK cntPartK
  rw [seg_eq, h2]

end Cert.Spec

end
-- ==== Proof.Pre.lean ====
/-
  Under the precondition every float input of the first layers is a real number.
-/
import proofs.«407675_j64304250356442_3_alg».proof.Defs
import proofs.«407675_j64304250356442_3_alg».proof.Proof.Gen.KernelIdeal
import proofs.«407675_j64304250356442_3_alg».proof.Proof.Gen.Pre_finite_inputs
import proofs.«407675_j64304250356442_3_alg».proof.Proof.Consts
import Idealize.ShloMosaic.Lib.ReduceAll
import Idealize.ShloMosaic.Lib.ValueIdx

noncomputable section

namespace Cert.Proof.Finite

open Idealize.ShloMosaic Idealize.ShloMosaic.TcCoe Idealize.SL.Sem Cert.Spec
open Cert.KernelIdeal

/-- A rank-0 array has one index. -/
instance : Subsingleton Cert.Pre_finite_inputs.S_.Idx := ⟨fun a b => funext fun d => d.elim0⟩

/-- The word the test compares against denotes plus infinity. -/
theorem ofBits_inf : Ideal.ofBits .f32 0x7F800000#32 = ⊤ := by simp [Ideal.ofBits, Ideal.ieee]

/-- An extended real whose absolute value is below plus infinity is a real number. -/
theorem isFin_of_abs_lt (x : EReal) (h : Ideal.cmp .olt (max x (-x)) (Ideal.ofBits .f32 0x7F800000#32) = 1#1) :
    IsFin x := by
  rw [ofBits_inf] at h
  induction x using EReal.rec with
  | bot => simp [Ideal.cmp] at h
  | coe r => exact ⟨r, rfl⟩
  | top => simp [Ideal.cmp] at h

/-- A float array that passes the test "every |x| is below plus infinity" is real entry by entry. -/
theorem fin_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_)
    (hu : 0 < Cert.Pre_finite_inputs.S_.numel) (init : IVec Cert.Pre_finite_inputs.S_ 1)
    (j : Cert.Pre_finite_inputs.S_.Idx)
    (e : Host.reduce IntOp.andi (cmpf .olt (Host.absf x)
      (broadcastInDim s ![] hb (constant (F := Ideal) Cert.Pre_finite_inputs.S_ .f32 0x7F800000#32))) init hr hu j = 1#1)
    (q : s.Idx) : IsFin (x q) :=
  isFin_of_abs_lt (x q) (Host.reduce_andi_all _ init hr hu j e q)

/-- The conjunction of two arrays of truth values, at an index. -/
theorem andi_apply {s : Shape} {w : Nat} (a b : IVec s w) (j : s.Idx) : andi a b j = IntOp.andi (a j) (b j) := rfl

/-- If the conjunction of the tests of all float arguments holds, the first seven of them are real
    entry by entry. -/
theorem fn_fin [Cert.Pre_finite_inputs.Facts]
    (a0 : FVec Ideal Cert.Pre_finite_inputs.S100000x64 .f32)
    (a1 : IVec Cert.Pre_finite_inputs.S2x1600000 32)
    (a2 : IVec Cert.Pre_finite_inputs.S100000 32)
    (a3 : FVec Ideal Cert.Pre_finite_inputs.S64x16 .f32)
    (a4 : FVec Ideal Cert.Pre_finite_inputs.S16 .f32)
    (a5 : FVec Ideal Cert.Pre_finite_inputs.S64x16 .f32)
    (a6 : FVec Ideal Cert.Pre_finite_inputs.S16 .f32)
    (a7 : FVec Ideal Cert.Pre_finite_inputs.S16 .f32)
    (a8 : FVec Ideal Cert.Pre_finite_inputs.S16x16 .f32)
    (a9 : FVec Ideal Cert.Pre_finite_inputs.S16 .f32)
    (a10 : FVec Ideal Cert.Pre_finite_inputs.S16x16 .f32)
    (a11 : FVec Ideal Cert.Pre_finite_inputs.S16 .f32)
    (a12 : FVec Ideal Cert.Pre_finite_inputs.S16 .f32)
    (a13 : FVec Ideal Cert.Pre_finite_inputs.S16x16 .f32)
    (a14 : FVec Ideal Cert.Pre_finite_inputs.S16 .f32)
    (a15 : FVec Ideal Cert.Pre_finite_inputs.S32 .f32)
    (a16 : FVec Ideal Cert.Pre_finite_inputs.S32 .f32)
    (a17 : FVec Ideal Cert.Pre_finite_inputs.S32x16 .f32)
    (a18 : FVec Ideal Cert.Pre_finite_inputs.S16 .f32)
    (a19 : FVec Ideal Cert.Pre_finite_inputs.S32 .f32)
    (a20 : FVec Ideal Cert.Pre_finite_inputs.S32 .f32)
    (a21 : FVec Ideal Cert.Pre_finite_inputs.S32x16 .f32)
    (a22 : FVec Ideal Cert.Pre_finite_inputs.S16 .f32)
    (a23 : FVec Ideal Cert.Pre_finite_inputs.S16x1 .f32)
    (a24 : FVec Ideal Cert.Pre_finite_inputs.S1 .f32)
    (h : Cert.Pre_finite_inputs.fn (F := Ideal) a0 a1 a2 a3 a4 a5 a6 a7 a8 a9 a10 a11 a12 a13 a14 a15 a16 a17 a18 a19 a20 a21 a22 a23 a24 = fun _ => 1#1) :
    (∀ q, IsFin (a0 q)) ∧ (∀ q, IsFin (a3 q)) ∧ (∀ q, IsFin (a4 q)) ∧ (∀ q, IsFin (a5 q)) ∧ (∀ q, IsFin (a6 q))
      ∧ (∀ q, IsFin (a7 q)) ∧ (∀ q, IsFin (a8 q)) := by
  have h0 := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6] at h0
  simp only [andi_apply, IntOp.andi_eq_one] at h0
  obtain ⟨⟨⟨⟨⟨⟨⟨⟨⟨⟨⟨⟨⟨⟨⟨⟨⟨⟨⟨⟨⟨⟨e0, e3⟩, e4⟩, e5⟩, e6⟩, e7⟩, e8⟩, _⟩, _⟩, _⟩, _⟩, _⟩, _⟩, _⟩, _⟩, _⟩, _⟩, _⟩, _⟩, _⟩, _⟩, _⟩, _⟩ := h0
  exact ⟨fin_of_all a0 _ _ _ _ _ e0, fin_of_all a3 _ _ _ _ _ e3, fin_of_all a4 _ _ _ _ _ e4, fin_of_all a5 _ _ _ _ _ e5,
    fin_of_all a6 _ _ _ _ _ e6, fin_of_all a7 _ _ _ _ _ e7, fin_of_all a8 _ _ _ _ _ e8⟩

/-- The precondition makes the features, the first layer's matrices, bias, scale and shift, and the
    second layer's first matrix real numbers, entry by entry. -/
theorem fin_of_pre [Cert.Pre_finite_inputs.Facts] (m : (ℓ : Loc nD τ sig) → Buf (Elt Ideal) ℓ) (h : Cert.Pre_KernelIdeal m)
    (c : Dev nD) :
    (∀ q, IsFin ((m ((c.tc : Thread nD τ).loc main_arg0) : S100000x64.Idx → EReal) q))
    ∧ (∀ q, IsFin ((m ((c.tc : Thread nD τ).loc main_arg3) : S64x16.Idx → EReal) q))
    ∧ (∀ q, IsFin ((m ((c.tc : Thread nD τ).loc main_arg4) : S16.Idx → EReal) q))
    ∧ (∀ q, IsFin ((m ((c.tc : Thread nD τ).loc main_arg5) : S64x16.Idx → EReal) q))
    ∧ (∀ q, IsFin ((m ((c.tc : Thread nD τ).loc main_arg6) : S16.Idx → EReal) q))
    ∧ (∀ q, IsFin ((m ((c.tc : Thread nD τ).loc main_arg7) : S16.Idx → EReal) q))
    ∧ (∀ q, IsFin ((m ((c.tc : Thread nD τ).loc main_arg8) : S16x16.Idx → EReal) q)) := by
  exact fn_fin _ _ _ _ _ _ _ _ _ _ _ _ _ _ _ _ _ _ _ _ _ _ _ _ _ (h c)

end Cert.Proof.Finite

end
-- ==== Proof.lean ====
/-
  The certificate: the kernel program and its idealization end with their arguments unchanged (the generated
  frames); so does the reference (its operations' fold writes no argument); the idealization rewrote nothing;
  and at the ideal instance the two idealized programs end with equal results.

  The kernel program's result is the small dense network applied to the kernel side's segment means
  (Proof/KChain.lean over the six segments Proof/KSeg0.lean .. KSeg5.lean); the reference's result is the same
  network applied to the reference side's segment means (Proof/RValue.lean over Proof/RVal1.lean .. RVal5.lean
  and the run Proof/RRun.lean); the two segment means agree when the float inputs are real numbers
  (Proof/SpecEq.lean), which the precondition says (Proof/Pre.lean).
-/
import proofs.«407675_j64304250356442_3_alg».proof.Defs
import proofs.«407675_j64304250356442_3_alg».proof.Proof.Gen.Kernel
import proofs.«407675_j64304250356442_3_alg».proof.Proof.Gen.Kernel.Frame
import proofs.«407675_j64304250356442_3_alg».proof.Proof.Gen.KernelIdeal
import proofs.«407675_j64304250356442_3_alg».proof.Proof.Gen.KernelIdeal.Frame
import proofs.«407675_j64304250356442_3_alg».proof.Proof.Gen.ReferenceIdeal
import proofs.«407675_j64304250356442_3_alg».proof.Proof.Gen.Pre_finite_inputs
import proofs.«407675_j64304250356442_3_alg».proof.Proof.KRun
import proofs.«407675_j64304250356442_3_alg».proof.Proof.KChain
import proofs.«407675_j64304250356442_3_alg».proof.Proof.RRun
import proofs.«407675_j64304250356442_3_alg».proof.Proof.RValue
import proofs.«407675_j64304250356442_3_alg».proof.Proof.SpecEq
import proofs.«407675_j64304250356442_3_alg».proof.Proof.Pre
import Idealize.ShloMosaic.Adequacy
import Idealize.ShloMosaic.Init

set_option maxRecDepth 16384

noncomputable section

namespace Cert.Proof

open Idealize.ShloMosaic Idealize.ShloMosaic.TcCoe Idealize.SL.Sem

/-- The reference ends with its arguments as launched: the fold of its operations writes none of them. -/
theorem frame_ri : Cert.frame_ReferenceIdeal := fun m ρ _ =>
  (θ_run Cert.ReferenceIdeal.defs _ _).mono (fun r h c =>
    ⟨(h c Cert.ReferenceIdeal.main_arg0).trans (Cert.ReferenceIdeal.RV.after_arg m c Cert.ReferenceIdeal.main_arg0 (by simp)),
     (h c Cert.ReferenceIdeal.main_arg1).trans (Cert.ReferenceIdeal.RV.after_arg m c Cert.ReferenceIdeal.main_arg1 (by simp)),
     (h c Cert.ReferenceIdeal.main_arg2).trans (Cert.ReferenceIdeal.RV.after_arg m c Cert.ReferenceIdeal.main_arg2 (by simp)),
     (h c Cert.ReferenceIdeal.main_arg3).trans (Cert.ReferenceIdeal.RV.after_arg m c Cert.ReferenceIdeal.main_arg3 (by simp)),
     (h c Cert.ReferenceIdeal.main_arg4).trans (Cert.ReferenceIdeal.RV.after_arg m c Cert.ReferenceIdeal.main_arg4 (by simp)),
     (h c Cert.ReferenceIdeal.main_arg5).trans (Cert.ReferenceIdeal.RV.after_arg m c Cert.ReferenceIdeal.main_arg5 (by simp)),
     (h c Cert.ReferenceIdeal.main_arg6).trans (Cert.ReferenceIdeal.RV.after_arg m c Cert.ReferenceIdeal.main_arg6 (by simp)),
     (h c Cert.ReferenceIdeal.main_arg7).trans (Cert.ReferenceIdeal.RV.after_arg m c Cert.ReferenceIdeal.main_arg7 (by simp)),
     (h c Cert.ReferenceIdeal.main_arg8).trans (Cert.ReferenceIdeal.RV.after_arg m c Cert.ReferenceIdeal.main_arg8 (by simp)),
     (h c Cert.ReferenceIdeal.main_arg9).trans (Cert.ReferenceIdeal.RV.after_arg m c Cert.ReferenceIdeal.main_arg9 (by simp)),
     (h c Cert.ReferenceIdeal.main_arg10).trans (Cert.ReferenceIdeal.RV.after_arg m c Cert.ReferenceIdeal.main_arg10 (by simp)),
     (h c Cert.ReferenceIdeal.main_arg11).trans (Cert.ReferenceIdeal.RV.after_arg m c Cert.ReferenceIdeal.main_arg11 (by simp)),
     (h c Cert.ReferenceIdeal.main_arg12).trans (Cert.ReferenceIdeal.RV.after_arg m c Cert.ReferenceIdeal.main_arg12 (by simp)),
     (h c Cert.ReferenceIdeal.main_arg13).trans (Cert.ReferenceIdeal.RV.after_arg m c Cert.ReferenceIdeal.main_arg13 (by simp)),
     (h c Cert.ReferenceIdeal.main_arg14).trans (Cert.ReferenceIdeal.RV.after_arg m c Cert.ReferenceIdeal.main_arg14 (by simp)),
     (h c Cert.ReferenceIdeal.main_arg15).trans (Cert.ReferenceIdeal.RV.after_arg m c Cert.ReferenceIdeal.main_arg15 (by simp)),
     (h c Cert.ReferenceIdeal.main_arg16).trans (Cert.ReferenceIdeal.RV.after_arg m c Cert.ReferenceIdeal.main_arg16 (by simp)),
     (h c Cert.ReferenceIdeal.main_arg17).trans (Cert.ReferenceIdeal.RV.after_arg m c Cert.ReferenceIdeal.main_arg17 (by simp)),
     (h c Cert.ReferenceIdeal.main_arg18).trans (Cert.ReferenceIdeal.RV.after_arg m c Cert.ReferenceIdeal.main_arg18 (by simp)),
     (h c Cert.ReferenceIdeal.main_arg19).trans (Cert.ReferenceIdeal.RV.after_arg m c Cert.ReferenceIdeal.main_arg19 (by simp)),
     (h c Cert.ReferenceIdeal.main_arg20).trans (Cert.ReferenceIdeal.RV.after_arg m c Cert.ReferenceIdeal.main_arg20 (by simp)),
     (h c Cert.ReferenceIdeal.main_arg21).trans (Cert.ReferenceIdeal.RV.after_arg m c Cert.ReferenceIdeal.main_arg21 (by simp)),
     (h c Cert.ReferenceIdeal.main_arg22).trans (Cert.ReferenceIdeal.RV.after_arg m c Cert.ReferenceIdeal.main_arg22 (by simp)),
     (h c Cert.ReferenceIdeal.main_arg23).trans (Cert.ReferenceIdeal.RV.after_arg m c Cert.ReferenceIdeal.main_arg23 (by simp)),
     (h c Cert.ReferenceIdeal.main_arg24).trans (Cert.ReferenceIdeal.RV.after_arg m c Cert.ReferenceIdeal.main_arg24 (by simp))⟩)
    (Cert.ReferenceIdeal.Value.run_fold (F := Ideal) m ρ)

/-- At the ideal instance the two programs end with equal results: both are the small dense network on the
    segment means, and the two sides' segment means agree on real inputs. -/
theorem algebraic : Cert.algebraic_KernelIdeal_ReferenceIdeal := by
  intro m g m' g' hpre hagree
  refine ⟨fun c => Cert.KernelIdeal.Gen.W12 m g c (Proc.devRef .tc Cert.KernelIdeal.main_v84), Cert.KernelIdeal.Gen.run_result m g, ?_⟩
  refine (θ_run Cert.ReferenceIdeal.defs _ _).mono (fun r h c => ⟨?_,
     (h c Cert.ReferenceIdeal.main_arg0).trans (Cert.ReferenceIdeal.RV.after_arg m' c Cert.ReferenceIdeal.main_arg0 (by simp)),
     (h c Cert.ReferenceIdeal.main_arg1).trans (Cert.ReferenceIdeal.RV.after_arg m' c Cert.ReferenceIdeal.main_arg1 (by simp)),
     (h c Cert.ReferenceIdeal.main_arg2).trans (Cert.ReferenceIdeal.RV.after_arg m' c Cert.ReferenceIdeal.main_arg2 (by simp)),
     (h c Cert.ReferenceIdeal.main_arg3).trans (Cert.ReferenceIdeal.RV.after_arg m' c Cert.ReferenceIdeal.main_arg3 (by simp)),
     (h c Cert.ReferenceIdeal.main_arg4).trans (Cert.ReferenceIdeal.RV.after_arg m' c Cert.ReferenceIdeal.main_arg4 (by simp)),
     (h c Cert.ReferenceIdeal.main_arg5).trans (Cert.ReferenceIdeal.RV.after_arg m' c Cert.ReferenceIdeal.main_arg5 (by simp)),
     (h c Cert.ReferenceIdeal.main_arg6).trans (Cert.ReferenceIdeal.RV.after_arg m' c Cert.ReferenceIdeal.main_arg6 (by simp)),
     (h c Cert.ReferenceIdeal.main_arg7).trans (Cert.ReferenceIdeal.RV.after_arg m' c Cert.ReferenceIdeal.main_arg7 (by simp)),
     (h c Cert.ReferenceIdeal.main_arg8).trans (Cert.ReferenceIdeal.RV.after_arg m' c Cert.ReferenceIdeal.main_arg8 (by simp)),
     (h c Cert.ReferenceIdeal.main_arg9).trans (Cert.ReferenceIdeal.RV.after_arg m' c Cert.ReferenceIdeal.main_arg9 (by simp)),
     (h c Cert.ReferenceIdeal.main_arg10).trans (Cert.ReferenceIdeal.RV.after_arg m' c Cert.ReferenceIdeal.main_arg10 (by simp)),
     (h c Cert.ReferenceIdeal.main_arg11).trans (Cert.ReferenceIdeal.RV.after_arg m' c Cert.ReferenceIdeal.main_arg11 (by simp)),
     (h c Cert.ReferenceIdeal.main_arg12).trans (Cert.ReferenceIdeal.RV.after_arg m' c Cert.ReferenceIdeal.main_arg12 (by simp)),
     (h c Cert.ReferenceIdeal.main_arg13).trans (Cert.ReferenceIdeal.RV.after_arg m' c Cert.ReferenceIdeal.main_arg13 (by simp)),
     (h c Cert.ReferenceIdeal.main_arg14).trans (Cert.ReferenceIdeal.RV.after_arg m' c Cert.ReferenceIdeal.main_arg14 (by simp)),
     (h c Cert.ReferenceIdeal.main_arg15).trans (Cert.ReferenceIdeal.RV.after_arg m' c Cert.ReferenceIdeal.main_arg15 (by simp)),
     (h c Cert.ReferenceIdeal.main_arg16).trans (Cert.ReferenceIdeal.RV.after_arg m' c Cert.ReferenceIdeal.main_arg16 (by simp)),
     (h c Cert.ReferenceIdeal.main_arg17).trans (Cert.ReferenceIdeal.RV.after_arg m' c Cert.ReferenceIdeal.main_arg17 (by simp)),
     (h c Cert.ReferenceIdeal.main_arg18).trans (Cert.ReferenceIdeal.RV.after_arg m' c Cert.ReferenceIdeal.main_arg18 (by simp)),
     (h c Cert.ReferenceIdeal.main_arg19).trans (Cert.ReferenceIdeal.RV.after_arg m' c Cert.ReferenceIdeal.main_arg19 (by simp)),
     (h c Cert.ReferenceIdeal.main_arg20).trans (Cert.ReferenceIdeal.RV.after_arg m' c Cert.ReferenceIdeal.main_arg20 (by simp)),
     (h c Cert.ReferenceIdeal.main_arg21).trans (Cert.ReferenceIdeal.RV.after_arg m' c Cert.ReferenceIdeal.main_arg21 (by simp)),
     (h c Cert.ReferenceIdeal.main_arg22).trans (Cert.ReferenceIdeal.RV.after_arg m' c Cert.ReferenceIdeal.main_arg22 (by simp)),
     (h c Cert.ReferenceIdeal.main_arg23).trans (Cert.ReferenceIdeal.RV.after_arg m' c Cert.ReferenceIdeal.main_arg23 (by simp)),
     (h c Cert.ReferenceIdeal.main_arg24).trans (Cert.ReferenceIdeal.RV.after_arg m' c Cert.ReferenceIdeal.main_arg24 (by simp))⟩)
    (Cert.ReferenceIdeal.Value.run_fold (F := Ideal) m' g')
  obtain ⟨e0, e1, e2, e3, e4, e5, e6, e7, e8, e9, e10, e11, e12, e13, e14, e15, e16, e17, e18, e19, e20, e21, e22, e23, e24⟩ := hagree c
  obtain ⟨f0, f3, f4, f5, f6, f7, f8⟩ := Cert.Proof.Finite.fin_of_pre m hpre c
  refine (h c Cert.ReferenceIdeal.main_v185).trans ?_
  rw [Cert.ReferenceIdeal.RV.after_result m' c, e0, e1, e2, e3, e4, e5, e6, e7, e8, e9, e10, e11, e12, e13, e14, e15, e16, e17, e18, e19, e20, e21, e22, e23, e24]
  refine (Cert.ReferenceIdeal.RV.rvalue _ _ _ _ _ _ _ _ _ _ _ _ _ _ _ _ _ _ _ _ _ _ _ _ _).trans ?_
  refine Eq.trans ?_ (Cert.KernelIdeal.KV.kvalue m g c).symm
  have hx := Cert.Spec.xenc_eq
    (Cert.Spec.A2 (m ((c.tc : Thread Cert.KernelIdeal.nD Cert.KernelIdeal.τ).loc Cert.KernelIdeal.main_arg0)))
    (Cert.Spec.A2 (m ((c.tc : Thread Cert.KernelIdeal.nD Cert.KernelIdeal.τ).loc Cert.KernelIdeal.main_arg1)))
    (Cert.Spec.A1 (m ((c.tc : Thread Cert.KernelIdeal.nD Cert.KernelIdeal.τ).loc Cert.KernelIdeal.main_arg2)))
    (Cert.Spec.A2 (m ((c.tc : Thread Cert.KernelIdeal.nD Cert.KernelIdeal.τ).loc Cert.KernelIdeal.main_arg3)))
    (Cert.Spec.A2 (m ((c.tc : Thread Cert.KernelIdeal.nD Cert.KernelIdeal.τ).loc Cert.KernelIdeal.main_arg5)))
    (Cert.Spec.A1 (m ((c.tc : Thread Cert.KernelIdeal.nD Cert.KernelIdeal.τ).loc Cert.KernelIdeal.main_arg4)))
    (Cert.Spec.A1 (m ((c.tc : Thread Cert.KernelIdeal.nD Cert.KernelIdeal.τ).loc Cert.KernelIdeal.main_arg6)))
    (Cert.Spec.A1 (m ((c.tc : Thread Cert.KernelIdeal.nD Cert.KernelIdeal.τ).loc Cert.KernelIdeal.main_arg7)))
    (Cert.Spec.A2 (m ((c.tc : Thread Cert.KernelIdeal.nD Cert.KernelIdeal.τ).loc Cert.KernelIdeal.main_arg8)))
    (Cert.Spec.A2 (m ((c.tc : Thread Cert.KernelIdeal.nD Cert.KernelIdeal.τ).loc Cert.KernelIdeal.main_arg10)))
    (Cert.Spec.A1 (m ((c.tc : Thread Cert.KernelIdeal.nD Cert.KernelIdeal.τ).loc Cert.KernelIdeal.main_arg9)))
    (fun i k => f0 _) (fun k j => f3 _) (fun k j => f5 _) (fun j => f4 _) (fun j => f6 _) (fun j => f7 _) (fun k j => f8 _)
  funext q
  exact congrFun (congrFun (congrArg (Cert.Spec.mlp _ _ _ _ _ _ _ _ _ _ _ _ _ _) hx.symm) _) _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ri, trivial, algebraic⟩

end Cert.Proof

end
